-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x20x5 : Shape := ⟨3, ![150000, 20, 5]⟩
abbrev S150000 : Shape := ⟨1, ![150000]⟩
abbrev S150000x4 : Shape := ⟨2, ![150000, 4]⟩
abbrev S64x9 : Shape := ⟨2, ![64, 9]⟩
abbrev S64 : Shape := ⟨1, ![64]⟩
abbrev S_ : Shape := ⟨0, ![]⟩

class Facts : Prop where
  bcast_S_S150000x20x5 : S_.BroadcastsInDim S150000x20x5 (![] : Fin 0 → Fin S150000x20x5.rank)
  reducesTo_S150000x20x5_S_d0_1_2 : S150000x20x5.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_
  bcast_S_S150000 : S_.BroadcastsInDim S150000 (![] : Fin 0 → Fin S150000.rank)
  reducesTo_S150000_S_d0 : S150000.ReducesTo [0] S_

variable [Facts]

def fn_part1 {F : FTy → Type} [FloatOps F] (main_arg1 : IVec S150000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S150000 32 := broadcastInDim S150000 ![] bcast_S_S150000 main_c_6
  let main_v20 : IVec S150000 1 := cmpi .ne main_arg1 main_v19
  let main_c_7 : IVec S_ 1 := constantI S_ 1 1#1
  let main_v21 : IVec S_ 1 := (fun x v => Host.reduce IntOp.andi x v reducesTo_S150000_S_d0 h_S_) main_v20 main_c_7
  let main_v22 : IVec S_ 1 := andi main_v18 main_v21
  main_v22

def fn {F : FTy → Type} [FloatOps F] (main_arg0 : FVec F S150000x20x5 .f32) (main_arg1 : IVec S150000 32) (main_arg2 : IVec S150000x4 32) (main_arg3 : FVec F S64x9 .f32) (main_arg4 : FVec F S64 .f32) (main_arg5 : FVec F S64 .f32) : IVec S_ 1 :=
  let main_v0 : FVec F S150000x20x5 .f32 := Host.absf main_arg0
  let main_cst : FVec F S_ .f32 := constant S_ .f32 0x7F800000#32
  let main_v1 : FVec F S150000x20x5 .f32 := broadcastInDim S150000x20x5 ![] bcast_S_S150000x20x5 main_cst
  let main_v2 : IVec S150000x20x5 1 := cmpf .olt main_v0 main_v1
  let main_c : IVec S_ 1 := constantI S_ 1 1#1
  let main_v3 : IVec S_ 1 := (fun x v => Host.reduce IntOp.andi x v reducesTo_S150000x20x5_S_d0_1_2 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S150000x20x5 : Shape := ⟨3, ![150000, 20, 5]⟩
abbrev S150000 : Shape := ⟨1, ![150000]⟩
abbrev S150000x4 : Shape := ⟨2, ![150000, 4]⟩
abbrev S64x9 : Shape := ⟨2, ![64, 9]⟩
abbrev S64 : Shape := ⟨1, ![64]⟩
abbrev S3 : Shape := ⟨1, ![3]⟩
abbrev S6 : Shape := ⟨1, ![6]⟩
abbrev S2 : Shape := ⟨1, ![2]⟩
abbrev S_ : Shape := ⟨0, ![]⟩
abbrev S151552x20x5 : Shape := ⟨3, ![151552, 20, 5]⟩
abbrev S151552 : Shape := ⟨1, ![151552]⟩
abbrev S151552x1 : Shape := ⟨2, ![151552, 1]⟩
abbrev S151552x4 : Shape := ⟨2, ![151552, 4]⟩
abbrev S9x64 : Shape := ⟨2, ![9, 64]⟩
abbrev S1x64 : Shape := ⟨2, ![1, 64]⟩
abbrev S2048x20x5 : Shape := ⟨3, ![2048, 20, 5]⟩
abbrev S2048x1 : Shape := ⟨2, ![2048, 1]⟩
abbrev S2048x4 : Shape := ⟨2, ![2048, 4]⟩
abbrev S2048x20x3 : Shape := ⟨3, ![2048, 20, 3]⟩
abbrev S2048x3 : Shape := ⟨2, ![2048, 3]⟩
abbrev S2048x1x3 : Shape := ⟨3, ![2048, 1, 3]⟩
abbrev S2048 : Shape := ⟨1, ![2048]⟩
abbrev S2048x20x1 : Shape := ⟨3, ![2048, 20, 1]⟩
abbrev S2048x20 : Shape := ⟨2, ![2048, 20]⟩
abbrev S2048x20x9 : Shape := ⟨3, ![2048, 20, 9]⟩
abbrev S40960x9 : Shape := ⟨2, ![40960, 9]⟩
abbrev S40960x64 : Shape := ⟨2, ![40960, 64]⟩
abbrev S2048x20x64 : Shape := ⟨3, ![2048, 20, 64]⟩
abbrev S151552x64 : Shape := ⟨2, ![151552, 64]⟩
abbrev S2048x64 : Shape := ⟨2, ![2048, 64]⟩
abbrev S1x1x64 : Shape := ⟨3, ![1, 1, 64]⟩
abbrev S150000x64 : Shape := ⟨2, ![150000, 64]⟩
abbrev S3x1 : Shape := ⟨2, ![3, 1]⟩
abbrev S150000x3 : Shape := ⟨2, ![150000, 3]⟩
abbrev S2x1 : Shape := ⟨2, ![2, 1]⟩

abbrev nBuf : Space → Nat
  | .hbm => 50
  | .vmem => 24
  | .smem => 0
  | _ => 0

abbrev bufTy : (tb : Table) → Fin (tcTables nBuf tb) → BufTy
  | .hbm, ⟨0, _⟩ => ⟨S150000x20x5, .f32⟩
  | .hbm, ⟨1, _⟩ => ⟨S150000, .i32⟩
  | .hbm, ⟨2, _⟩ => ⟨S150000x4, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S3, .i32⟩
  | .hbm, ⟨7, _⟩ => ⟨S6, .f32⟩
  | .hbm, ⟨8, _⟩ => ⟨S3, .f32⟩
  | .hbm, ⟨9, _⟩ => ⟨S2, .i32⟩
  | .hbm, ⟨10, _⟩ => ⟨S_, .f32⟩
  | .hbm, ⟨11, _⟩ => ⟨S_, .f32⟩
  | .hbm, ⟨12, _⟩ => ⟨S151552x20x5, .f32⟩
  | .hbm, ⟨13, _⟩ => ⟨S_, .i32⟩
  | .hbm, ⟨14, _⟩ => ⟨S_, .i32⟩
  | .hbm, ⟨15, _⟩ => ⟨S151552, .i32⟩
  | .hbm, ⟨16, _⟩ => ⟨S151552x1, .i32⟩
  | .hbm, ⟨17, _⟩ => ⟨S_, .i32⟩
  | .hbm, ⟨18, _⟩ => ⟨S_, .i32⟩
  | .hbm, ⟨19, _⟩ => ⟨S151552x4, .i32⟩
  | .hbm, ⟨20, _⟩ => ⟨S9x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S151552x64, .f32⟩
  | .hbm, ⟨26, _⟩ => ⟨S150000x64, .f32⟩
  | .hbm, ⟨27, _⟩ => ⟨S_, .i32⟩
  | .hbm, ⟨28, _⟩ => ⟨S3, .i32⟩
  | .hbm, ⟨29, _⟩ => ⟨S3, .i1⟩
  | .hbm, ⟨30, _⟩ => ⟨S_, .i32⟩
  | .hbm, ⟨31, _⟩ => ⟨S3, .i32⟩
  | .hbm, ⟨32, _⟩ => ⟨S3, .i32⟩
  | .hbm, ⟨33, _⟩ => ⟨S3, .i32⟩
  | .hbm, ⟨34, _⟩ => ⟨S3x1, .i32⟩
  | .hbm, ⟨35, _⟩ => ⟨S150000x3, .i32⟩
  | .hbm, ⟨36, _⟩ => ⟨S3, .f32⟩
  | .hbm, ⟨37, _⟩ => ⟨S3, .f32⟩
  | .hbm, ⟨38, _⟩ => ⟨S3, .f32⟩
  | .hbm, ⟨39, _⟩ => ⟨S3, .f32⟩
  | .hbm, ⟨40, _⟩ => ⟨S3, .f32⟩
  | .hbm, ⟨41, _⟩ => ⟨S_, .i32⟩
  | .hbm, ⟨42, _⟩ => ⟨S2, .i32⟩
  | .hbm, ⟨43, _⟩ => ⟨S2, .i1⟩
  | .hbm, ⟨44, _⟩ => ⟨S_, .i32⟩
  | .hbm, ⟨45, _⟩ => ⟨S2, .i32⟩
  | .hbm, ⟨46, _⟩ => ⟨S2, .i32⟩
  | .hbm, ⟨47, _⟩ => ⟨S2, .i32⟩
  | .hbm, ⟨48, _⟩ => ⟨S2x1, .i32⟩
  | .hbm, ⟨49, _⟩ => ⟨S2, .f32⟩
  | .local _ .vmem, ⟨0, _⟩ => ⟨S2048x20x5, .f32⟩
  | .local _ .vmem, ⟨1, _⟩ => ⟨S2048x20x5, .f32⟩
  | .local _ .vmem, ⟨2, _⟩ => ⟨S2048x1, .i32⟩
  | .local _ .vmem, ⟨3, _⟩ => ⟨S2048x1, .i32⟩
  | .local _ .vmem, ⟨4, _⟩ => ⟨S2048x4, .i32⟩
  | .local _ .vmem, ⟨5, _⟩ => ⟨S2048x4, .i32⟩
  | .local _ .vmem, ⟨6, _⟩ => ⟨S9x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S2048x20x5, .f32⟩
  | .local _ .vmem, ⟨12, _⟩ => ⟨S2048x20x5, .f32⟩
  | .local _ .vmem, ⟨13, _⟩ => ⟨S2048x1, .i32⟩
  | .local _ .vmem, ⟨14, _⟩ => ⟨S2048x1, .i32⟩
  | .local _ .vmem, ⟨15, _⟩ => ⟨S2048x4, .i32⟩
  | .local _ .vmem, ⟨16, _⟩ => ⟨S2048x4, .i32⟩
  | .local _ .vmem, ⟨17, _⟩ => ⟨S9x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S2048x64, .f32⟩
  | .local _ .vmem, ⟨23, _⟩ => ⟨S2048x64, .f32⟩
  | _, _ => ⟨S150000x20x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_cst_0 : Ref sig .tc := ⟨.hbm, 8, rfl⟩
abbrev main_c_1 : Ref sig .tc := ⟨.hbm, 9, rfl⟩
abbrev main_cst_2 : Ref sig .tc := ⟨.hbm, 10, rfl⟩
abbrev main_call0_v0 : Ref sig .tc := ⟨.hbm, 11, rfl⟩
abbrev main_v0 : Ref sig .tc := ⟨.hbm, 12, rfl⟩
abbrev main_c_3 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_c_4 : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev main_c_5 : Ref sig .tc := ⟨.hbm, 27, rfl⟩
abbrev main_v10 : Ref sig .tc := ⟨.hbm, 28, rfl⟩
abbrev main_v11 : Ref sig .tc := ⟨.hbm, 29, rfl⟩
abbrev main_c_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![74], ![false]⟩

def k0_cond2 (i : grid0.Coords) : BitVec 1 :=
  let arg0 : BitVec 32 := BitVec.ofNat 32 (i 0).val
  let c73_i32 : BitVec 32 := 73#32
  let v81 : BitVec 1 := Scalar.cmpi .eq arg0 c73_i32
  let v82 : BitVec 32 := Scalar.extui v81
  let c0_i32_28 : BitVec 32 := 0#32
  let v83 : BitVec 1 := Scalar.cmpi .ne v82 c0_i32_28
  v83

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x20x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![74], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x20x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  pads_S150000x20x5_S151552x20x5_015520_000_000 : S150000x20x5.Pads (![0, 0, 0] : Fin 3 → Nat) ![1552, 0, 0] ![0, 0, 0] S151552x20x5
  h_S_ : 0 < S_.numel
  pads_S150000_S151552_015520 : S150000.Pads (![0] : Fin 1 → Nat) ![1552] ![0] S151552
  shapeCasts_S151552_S151552x1 : S151552.ShapeCasts S151552x1
  pads_S150000x4_S151552x4_015520_000 : S150000x4.Pads (![0, 0] : Fin 2 → Nat) ![1552, 0] ![0, 0] S151552x4
  transposes_S64x9_S9x64_1_0 : S64x9.Transposes [1, 0] S9x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2048x20x5_S2048x20x5_0_0_0 : ∀ a, (![0, 0, 0] : Fin 3 → Nat) a + S2048x20x5.size a ≤ S2048x20x5.size a
  h_S2048x20x5 : 0 < S2048x20x5.numel
  shapeCasts_S2048x20x5_S2048x20x5 : S2048x20x5.ShapeCasts S2048x20x5
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  slices_S2048x20x5_o0_0_0_S2048x20x3 : S2048x20x5.Slices ![0, 0, 0] S2048x20x3
  reduces_S2048x20x3_S2048x3 : S2048x20x3.Reduces [1] S2048x3
  broadcasts_S2048x1_S2048x3 : S2048x1.Broadcasts S2048x3
  shapeCasts_S2048x3_S2048x1x3 : S2048x3.ShapeCasts S2048x1x3
  broadcasts_S2048x1x3_S2048x20x3 : S2048x1x3.Broadcasts S2048x20x3
  slices_S2048x4_o0_3_S2048x1 : S2048x4.Slices ![0, 3] S2048x1
  shapeCasts_S2048x1_S2048 : S2048x1.ShapeCasts S2048
  slices_S2048x4_o0_2_S2048x1 : S2048x4.Slices ![0, 2] S2048x1
  slices_S2048x20x3_o0_0_0_S2048x20x1 : S2048x20x3.Slices ![0, 0, 0] S2048x20x1
  shapeCasts_S2048x20x1_S2048x20 : S2048x20x1.ShapeCasts S2048x20
  shapeCasts_S2048_S2048x1 : S2048.ShapeCasts S2048x1
  broadcasts_S2048x1_S2048x20 : S2048x1.Broadcasts S2048x20
  slices_S2048x20x3_o0_0_1_S2048x20x1 : S2048x20x3.Slices ![0, 0, 1] S2048x20x1
  slices_S2048x20x3_o0_0_2_S2048x20x1 : S2048x20x3.Slices ![0, 0, 2] S2048x20x1
  shapeCasts_S2048x20_S2048x20x1 : S2048x20.ShapeCasts S2048x20x1
  concatenates_S2048x20x1_S2048x20x1_S2048x20x1_S2048x20x3_d2 : Shape.Concatenates [S2048x20x1, S2048x20x1, S2048x20x1] S2048x20x3 2
  natLt_1_32 : 1 < 32
  concatenates_S2048x20x3_S2048x20x3_S2048x20x3_S2048x20x9_d2 : Shape.Concatenates [S2048x20x3, S2048x20x3, S2048x20x3] S2048x20x9 2
  inb_S9x64_S9x64_0_0 : ∀ a, (![0, 0] : Fin 2 → Nat) a + S9x64.size a ≤ S9x64.size a
  h_S9x64 : 0 < S9x64.numel
  shapeCasts_S9x64_S9x64 : S9x64.ShapeCasts S9x64
  shapeCasts_S2048x20x9_S40960x9 : S2048x20x9.ShapeCasts S40960x9
  shapeCasts_S40960x64_S2048x20x64 : S40960x64.ShapeCasts S2048x20x64
  shapeCasts_S2048x20x64_S40960x64 : S2048x20x64.ShapeCasts S40960x64
  reduces_S40960x64_S64 : S40960x64.Reduces [0] S64
  shapeCasts_S1x64_S1x1x64 : S1x64.ShapeCasts S1x1x64
  broadcasts_S1x1x64_S2048x20x64 : S1x1x64.Broadcasts S2048x20x64
  reduces_S2048x20x64_S2048x64 : S2048x20x64.Reduces [1] S2048x64
  inb_S2048x64_S2048x64_0_0 : ∀ a, (![0, 0] : Fin 2 → Nat) a + S2048x64.size a ≤ S2048x64.size a
  h_S2048x64 : 0 < S2048x64.numel
  slices_S151552x64_S150000x64_0_0 : S151552x64.Slices ![0, 0] S150000x64
  bcast_S_S3 : S_.BroadcastsInDim S3 (![] : Fin 0 → Fin S3.rank)
  bcast_S3_S3x1_0 : S3.BroadcastsInDim S3x1 (![0] : Fin 1 → Fin S3x1.rank)
  slices_S6_S3_3 : S6.Slices ![3] S3
  slices_S6_S3_0 : S6.Slices ![0] S3
  bcast_S_S2 : S_.BroadcastsInDim S2 (![] : Fin 0 → Fin S2.rank)
  bcast_S2_S2x1_0 : S2.BroadcastsInDim S2x1 (![0] : Fin 1 → Fin S2x1.rank)
  dot_S40960x9_S9x64_S40960x64_1_0_0_1_n_n_wf : DotDims.WF S40960x9 S9x64 S40960x64 [1] [0] [0] [1] [] []
  gather_S150000x4_S3x1_S150000x3_0_1_n_n_1_1_1500001_wf : GatherDims.WF S150000x4 S3x1 S150000x3 [0] [1] [] [1] [] 1 ![150000, 1]
  gather_S3_S2x1_S2_n_0_n_n_0_1_1_wf : GatherDims.WF S3 S2x1 S2 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x20x5.size a ≤ S151552x20x5.size a
  hwx0_0 : ∀ i : grid0.Coords, EltTy.bits .f32 = 32 ∨ (Rect.block (s := S151552x20x5) S2048x20x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S151552x1.size a
  hwx0_1 : ∀ i : grid0.Coords, EltTy.bits .i32 = 32 ∨ (Rect.block (s := S151552x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S151552x4.size a
  hwx0_2 : ∀ i : grid0.Coords, EltTy.bits .i32 = 32 ∨ (Rect.block (s := S151552x4) S2048x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x20x5.size a ≤ S151552x20x5.size a
  hwx1_0 : ∀ i : grid1.Coords, EltTy.bits .f32 = 32 ∨ (Rect.block (s := S151552x20x5) S2048x20x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S151552x1.size a
  hwx1_1 : ∀ i : grid1.Coords, EltTy.bits .i32 = 32 ∨ (Rect.block (s := S151552x1) S2048x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x4.size a ≤ S151552x4.size a
  hwx1_2 : ∀ i : grid1.Coords, EltTy.bits .i32 = 32 ∨ (Rect.block (s := S151552x4) S2048x4.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64.size a ≤ S9x64.size a
  hwx1_3 : ∀ i : grid1.Coords, EltTy.bits .f32 = 32 ∨ (Rect.block (s := S9x64) S9x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x64.size a ≤ S151552x64.size a
  hwx1_8 : ∀ i : grid1.Coords, EltTy.bits .f32 = 32 ∨ (Rect.block (s := S151552x64) S2048x64.size (cc1_transform_8 i) (hinb1_8 i)).WholeWords (EltTy.packing .f32)

variable [Facts₀]

def dot_S40960x9_S9x64_S40960x64_1_0_0_1_n_n : DotDims S40960x9 S9x64 S40960x64 where
  lhsContracting := [1]
  rhsContracting := [0]
  lhsNonContracting := [0]
  rhsNonContracting := [1]
  lhsBatch := []
  rhsBatch := []
  wf := dot_S40960x9_S9x64_S40960x64_1_0_0_1_n_n_wf
def gather_S150000x4_S3x1_S150000x3_0_1_n_n_1_1_1500001 : GatherDims S150000x4 S3x1 S150000x3 where
  offsetDims := [0]
  collapsedSliceDims := [1]
  operandBatchingDims := []
  startIndicesBatchingDims := []
  startIndexMap := [1]
  indexVectorDim := 1
  sliceSizes := ![150000, 1]
  wf := gather_S150000x4_S3x1_S150000x3_0_1_n_n_1_1_1500001_wf
def gather_S3_S2x1_S2_n_0_n_n_0_1_1 : GatherDims S3 S2x1 S2 where
  offsetDims := []
  collapsedSliceDims := [0]
  operandBatchingDims := []
  startIndicesBatchingDims := []
  startIndexMap := [0]
  indexVectorDim := 1
  sliceSizes := ![1]
  wf := gather_S3_S2x1_S2_n_0_n_n_0_1_1_wf

abbrev win0_0 : Pipeline.Window sig grid0 :=
  Pipeline.Window.ofSpec (Memref.whole main_v0) S2048x20x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S2048x20x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S9x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S2048x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S150000x20x5 : Shape := ⟨3, ![150000, 20, 5]⟩
abbrev S150000 : Shape := ⟨1, ![150000]⟩
abbrev S150000x4 : Shape := ⟨2, ![150000, 4]⟩
abbrev S64x9 : Shape := ⟨2, ![64, 9]⟩
abbrev S64 : Shape := ⟨1, ![64]⟩
abbrev S3 : Shape := ⟨1, ![3]⟩
abbrev S6 : Shape := ⟨1, ![6]⟩
abbrev S2 : Shape := ⟨1, ![2]⟩
abbrev S150000x20x3 : Shape := ⟨3, ![150000, 20, 3]⟩
abbrev S_ : Shape := ⟨0, ![]⟩
abbrev S150000x3 : Shape := ⟨2, ![150000, 3]⟩
abbrev S150000x1 : Shape := ⟨2, ![150000, 1]⟩
abbrev S150000x1x3 : Shape := ⟨3, ![150000, 1, 3]⟩
abbrev S150000x2 : Shape := ⟨2, ![150000, 2]⟩
abbrev S150000x20x2 : Shape := ⟨3, ![150000, 20, 2]⟩
abbrev S1x2 : Shape := ⟨2, ![1, 2]⟩
abbrev S150000x1x2 : Shape := ⟨3, ![150000, 1, 2]⟩
abbrev S150000x20x1 : Shape := ⟨3, ![150000, 20, 1]⟩
abbrev S150000x20 : Shape := ⟨2, ![150000, 20]⟩
abbrev S1 : Shape := ⟨1, ![1]⟩
abbrev S150000x20x9 : Shape := ⟨3, ![150000, 20, 9]⟩
abbrev S150000x20x64 : Shape := ⟨3, ![150000, 20, 64]⟩
abbrev S1x1x64 : Shape := ⟨3, ![1, 1, 64]⟩
abbrev S150000x64 : Shape := ⟨2, ![150000, 64]⟩
abbrev S3x1 : Shape := ⟨2, ![3, 1]⟩
abbrev S2x1 : Shape := ⟨2, ![2, 1]⟩

abbrev nBuf : Space → Nat
  | .hbm => 131
  | .vmem => 0
  | .smem => 0
  | _ => 0

abbrev hbmTy0_0 (i : Nat) : BufTy := match i % 128 with
  | 0 => ⟨S150000x20x5, .f32⟩
  | 1 => ⟨S150000, .i32⟩
  | 2 => ⟨S150000x4, .i32⟩
  | 3 => ⟨S64x9, .f32⟩
  | 4 => ⟨S64, .f32⟩
  | 5 => ⟨S64, .f32⟩
  | 6 => ⟨S3, .f32⟩
  | 7 => ⟨S6, .f32⟩
  | 8 => ⟨S3, .i32⟩
  | 9 => ⟨S2, .i32⟩
  | 10 => ⟨S150000x20x3, .f32⟩
  | 11 => ⟨S150000, .f32⟩
  | 12 => ⟨S_, .f32⟩
  | 13 => ⟨S150000x3, .f32⟩
  | 14 => ⟨S150000x1, .f32⟩
  | 15 => ⟨S150000x3, .f32⟩
  | 16 => ⟨S150000x3, .f32⟩
  | 17 => ⟨S150000x1x3, .f32⟩
  | 18 => ⟨S150000x20x3, .f32⟩
  | 19 => ⟨S150000x20x3, .f32⟩
  | 20 => ⟨S150000x2, .i32⟩
  | 21 => ⟨S150000x2, .f32⟩
  | 22 => ⟨S150000x2, .f32⟩
  | 23 => ⟨S150000x20x2, .f32⟩
  | 24 => ⟨S_, .f32⟩
  | 25 => ⟨S150000x2, .f32⟩
  | 26 => ⟨S150000x2, .f32⟩
  | 27 => ⟨S2, .f32⟩
  | 28 => ⟨S1x2, .f32⟩
  | 29 => ⟨S150000x2, .f32⟩
  | 30 => ⟨S150000x2, .f32⟩
  | 31 => ⟨S2, .f32⟩
  | 32 => ⟨S1x2, .f32⟩
  | 33 => ⟨S150000x2, .f32⟩
  | 34 => ⟨S150000x2, .f32⟩
  | 35 => ⟨S150000x1x2, .f32⟩
  | 36 => ⟨S150000x20x2, .f32⟩
  | 37 => ⟨S150000x20x2, .f32⟩
  | 38 => ⟨S150000x20x1, .f32⟩
  | 39 => ⟨S150000x20, .f32⟩
  | 40 => ⟨S1, .f32⟩
  | 41 => ⟨S_, .f32⟩
  | 42 => ⟨S_, .f32⟩
  | 43 => ⟨S_, .f32⟩
  | 44 => ⟨S1, .f32⟩
  | 45 => ⟨S_, .f32⟩
  | 46 => ⟨S_, .f32⟩
  | 47 => ⟨S150000x20, .f32⟩
  | 48 => ⟨S150000x20, .f32⟩
  | 49 => ⟨S150000x20x1, .f32⟩
  | 50 => ⟨S150000x20x3, .f32⟩
  | 51 => ⟨S_, .f32⟩
  | 52 => ⟨S150000x20x3, .f32⟩
  | 53 => ⟨S150000x20x3, .i1⟩
  | 54 => ⟨S150000x20x3, .f32⟩
  | 55 => ⟨S150000x20x3, .f32⟩
  | 56 => ⟨S150000x20x3, .f32⟩
  | 57 => ⟨S150000x20x9, .f32⟩
  | 58 => ⟨S150000x20x64, .f32⟩
  | 59 => ⟨S_, .f32⟩
  | 60 => ⟨S64, .f32⟩
  | 61 => ⟨S_, .f32⟩
  | 62 => ⟨S64, .f32⟩
  | 63 => ⟨S64, .f32⟩
  | 64 => ⟨S_, .i32⟩
  | 65 => ⟨S_, .f32⟩
  | 66 => ⟨S64, .f32⟩
  | 67 => ⟨S1x1x64, .f32⟩
  | 68 => ⟨S_, .f32⟩
  | 69 => ⟨S1x1x64, .f32⟩
  | 70 => ⟨S1x1x64, .f32⟩
  | 71 => ⟨S150000x20x64, .f32⟩
  | 72 => ⟨S150000x20x64, .f32⟩
  | 73 => ⟨S150000x20x64, .f32⟩
  | 74 => ⟨S_, .f32⟩
  | 75 => ⟨S_, .f32⟩
  | 76 => ⟨S_, .f32⟩
  | 77 => ⟨S_, .f32⟩
  | 78 => ⟨S64, .f32⟩
  | 79 => ⟨S64, .f32⟩
  | 80 => ⟨S64, .f32⟩
  | 81 => ⟨S_, .f32⟩
  | 82 => ⟨S_, .i1⟩
  | 83 => ⟨S_, .f32⟩
  | 84 => ⟨S_, .f32⟩
  | 85 => ⟨S64, .f32⟩
  | 86 => ⟨S64, .f32⟩
  | 87 => ⟨S1x1x64, .f32⟩
  | 88 => ⟨S150000x20x64, .f32⟩
  | 89 => ⟨S150000x20x64, .f32⟩
  | 90 => ⟨S_, .f32⟩
  | 91 => ⟨S64, .f32⟩
  | 92 => ⟨S64, .f32⟩
  | 93 => ⟨S64, .f32⟩
  | 94 => ⟨S1x1x64, .f32⟩
  | 95 => ⟨S150000x20x64, .f32⟩
  | 96 => ⟨S150000x20x64, .f32⟩
  | 97 => ⟨S1x1x64, .f32⟩
  | 98 => ⟨S150000x20x64, .f32⟩
  | 99 => ⟨S150000x20x64, .f32⟩
  | 100 => ⟨S1x1x64, .f32⟩
  | 101 => ⟨S150000x20x64, .f32⟩
  | 102 => ⟨S150000x20x64, .f32⟩
  | 103 => ⟨S_, .f32⟩
  | 104 => ⟨S150000x20x64, .f32⟩
  | 105 => ⟨S150000x20x64, .f32⟩
  | 106 => ⟨S_, .f32⟩
  | 107 => ⟨S150000x64, .f32⟩
  | 108 => ⟨S_, .i32⟩
  | 109 => ⟨S3, .i32⟩
  | 110 => ⟨S3, .i1⟩
  | 111 => ⟨S_, .i32⟩
  | 112 => ⟨S3, .i32⟩
  | 113 => ⟨S3, .i32⟩
  | 114 => ⟨S3, .i32⟩
  | 115 => ⟨S3x1, .i32⟩
  | 116 => ⟨S150000x3, .i32⟩
  | 117 => ⟨S3, .f32⟩
  | 118 => ⟨S3, .f32⟩
  | 119 => ⟨S3, .f32⟩
  | 120 => ⟨S3, .f32⟩
  | 121 => ⟨S3, .f32⟩
  | 122 => ⟨S_, .i32⟩
  | 123 => ⟨S2, .i32⟩
  | 124 => ⟨S2, .i1⟩
  | 125 => ⟨S_, .i32⟩
  | 126 => ⟨S2, .i32⟩
  | 127 => ⟨S2, .i32⟩
  | _ => ⟨S150000x20x5, .f32⟩

abbrev hbmTy0_1 (i : Nat) : BufTy := match i % 128 with
  | 0 => ⟨S2, .i32⟩
  | 1 => ⟨S2x1, .i32⟩
  | 2 => ⟨S2, .f32⟩
  | _ => ⟨S150000x20x5, .f32⟩

abbrev hbmTy (i : Nat) : BufTy := match i / 128 with
  | 0 => hbmTy0_0 i
  | 1 => hbmTy0_1 i
  | _ => ⟨S150000x20x5, .f32⟩

abbrev bufTy : (tb : Table) → Fin (tcTables nBuf tb) → BufTy
  | .hbm, ⟨i, _⟩ => hbmTy i
  | _, _ => ⟨S150000x20x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_c : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_cst_3 : Ref sig .tc := ⟨.hbm, 81, rfl⟩
abbrev main_call0_v12 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_9 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call1_cst : Ref sig .tc := ⟨.hbm, 103, rfl⟩
abbrev main_call1_v0 : Ref sig .tc := ⟨.hbm, 104, rfl⟩
abbrev main_v64 : Ref sig .tc := ⟨.hbm, 105, rfl⟩
abbrev main_cst_10 : Ref sig .tc := ⟨.hbm, 106, rfl⟩
abbrev main_v65 : Ref sig .tc := ⟨.hbm, 107, rfl⟩
abbrev main_c_11 : Ref sig .tc := ⟨.hbm, 108, rfl⟩
abbrev main_v66 : Ref sig .tc := ⟨.hbm, 109, rfl⟩
abbrev main_v67 : Ref sig .tc := ⟨.hbm, 110, rfl⟩
abbrev main_c_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_13 : Ref sig .tc := ⟨.hbm, 122, rfl⟩
abbrev main_v78 : Ref sig .tc := ⟨.hbm, 123, rfl⟩
abbrev main_v79 : Ref sig .tc := ⟨.hbm, 124, rfl⟩
abbrev main_c_14 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S150000x20x5_S150000x20x3_0_0_0 : S150000x20x5.Slices ![0, 0, 0] S150000x20x3
  reducesTo_S150000x20x3_S150000x3_d1 : S150000x20x3.ReducesTo [1] S150000x3
  h_S_ : 0 < S_.numel
  bcast_S150000_S150000x1_0 : S150000.BroadcastsInDim S150000x1 (![0] : Fin 1 → Fin S150000x1.rank)
  bcast_S150000x1_S150000x3_0_1 : S150000x1.BroadcastsInDim S150000x3 (![0, 1] : Fin 2 → Fin S150000x3.rank)
  bcast_S150000x3_S150000x1x3_0_2 : S150000x3.BroadcastsInDim S150000x1x3 (![0, 2] : Fin 2 → Fin S150000x1x3.rank)
  bcast_S150000x1x3_S150000x20x3_0_1_2 : S150000x1x3.BroadcastsInDim S150000x20x3 (![0, 1, 2] : Fin 3 → Fin S150000x20x3.rank)
  slices_S150000x4_S150000x2_0_2 : S150000x4.Slices ![0, 2] S150000x2
  slices_S150000x20x3_S150000x20x2_0_0_0 : S150000x20x3.Slices ![0, 0, 0] S150000x20x2
  bcast_S_S150000x2 : S_.BroadcastsInDim S150000x2 (![] : Fin 0 → Fin S150000x2.rank)
  slices_S3_S2_0 : S3.Slices ![0] S2
  bcast_S2_S1x2_1 : S2.BroadcastsInDim S1x2 (![1] : Fin 1 → Fin S1x2.rank)
  bcast_S1x2_S150000x2_0_1 : S1x2.BroadcastsInDim S150000x2 (![0, 1] : Fin 2 → Fin S150000x2.rank)
  slices_S6_S2_0 : S6.Slices ![0] S2
  bcast_S150000x2_S150000x1x2_0_2 : S150000x2.BroadcastsInDim S150000x1x2 (![0, 2] : Fin 2 → Fin S150000x1x2.rank)
  bcast_S150000x1x2_S150000x20x2_0_1_2 : S150000x1x2.BroadcastsInDim S150000x20x2 (![0, 1, 2] : Fin 3 → Fin S150000x20x2.rank)
  slices_S150000x20x3_S150000x20x1_0_0_2 : S150000x20x3.Slices ![0, 0, 2] S150000x20x1
  shapeCasts_S150000x20x1_S150000x20 : S150000x20x1.ShapeCasts S150000x20
  slices_S3_S1_2 : S3.Slices ![2] S1
  shapeCasts_S1_S_ : S1.ShapeCasts S_
  slices_S6_S1_2 : S6.Slices ![2] S1
  bcast_S_S150000x20 : S_.BroadcastsInDim S150000x20 (![] : Fin 0 → Fin S150000x20.rank)
  bcast_S150000x20_S150000x20x1_0_1 : S150000x20.BroadcastsInDim S150000x20x1 (![0, 1] : Fin 2 → Fin S150000x20x1.rank)
  concatenates_S150000x20x2_S150000x20x1_S150000x20x3_d2 : Shape.Concatenates [S150000x20x2, S150000x20x1] S150000x20x3 2
  bcast_S_S150000x20x3 : S_.BroadcastsInDim S150000x20x3 (![] : Fin 0 → Fin S150000x20x3.rank)
  concatenates_S150000x20x3_S150000x20x3_S150000x20x3_S150000x20x9_d2 : Shape.Concatenates [S150000x20x3, S150000x20x3, S150000x20x3] S150000x20x9 2
  reducesTo_S150000x20x64_S64_d0_1 : S150000x20x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S150000x20x64_0_1_2 : S1x1x64.BroadcastsInDim S150000x20x64 (![0, 1, 2] : Fin 3 → Fin S150000x20x64.rank)
  bcast_S_S150000x20x64 : S_.BroadcastsInDim S150000x20x64 (![] : Fin 0 → Fin S150000x20x64.rank)
  reducesTo_S150000x20x64_S150000x64_d1 : S150000x20x64.ReducesTo [1] S150000x64
  bcast_S_S3 : S_.BroadcastsInDim S3 (![] : Fin 0 → Fin S3.rank)
  bcast_S3_S3x1_0 : S3.BroadcastsInDim S3x1 (![0] : Fin 1 → Fin S3x1.rank)
  slices_S6_S3_3 : S6.Slices ![3] S3
  slices_S6_S3_0 : S6.Slices ![0] S3
  bcast_S_S2 : S_.BroadcastsInDim S2 (![] : Fin 0 → Fin S2.rank)
  bcast_S2_S2x1_0 : S2.BroadcastsInDim S2x1 (![0] : Fin 1 → Fin S2x1.rank)
  dot_S150000x20x9_S64x9_S150000x20x64_2_1_01_0_n_n_wf : DotDims.WF S150000x20x9 S64x9 S150000x20x64 [2] [1] [0, 1] [0] [] []
  gather_S150000x4_S3x1_S150000x3_0_1_n_n_1_1_1500001_wf : GatherDims.WF S150000x4 S3x1 S150000x3 [0] [1] [] [1] [] 1 ![150000, 1]
  gather_S3_S2x1_S2_n_0_n_n_0_1_1_wf : GatherDims.WF S3 S2x1 S2 [] [0] [] [0] [] 1 ![1]

variable [Facts₀]

def dot_S150000x20x9_S64x9_S150000x20x64_2_1_01_0_n_n : DotDims S150000x20x9 S64x9 S150000x20x64 where
  lhsContracting := [2]
  rhsContracting := [1]
  lhsNonContracting := [0, 1]
  rhsNonContracting := [0]
  lhsBatch := []
  rhsBatch := []
  wf := dot_S150000x20x9_S64x9_S150000x20x64_2_1_01_0_n_n_wf
def gather_S150000x4_S3x1_S150000x3_0_1_n_n_1_1_1500001 : GatherDims S150000x4 S3x1 S150000x3 where
  offsetDims := [0]
  collapsedSliceDims := [1]
  operandBatchingDims := []
  startIndicesBatchingDims := []
  startIndexMap := [1]
  indexVectorDim := 1
  sliceSizes := ![150000, 1]
  wf := gather_S150000x4_S3x1_S150000x3_0_1_n_n_1_1_1500001_wf
def gather_S3_S2x1_S2_n_0_n_n_0_1_1 : GatherDims S3 S2x1 S2 where
  offsetDims := []
  collapsedSliceDims := [0]
  operandBatchingDims := []
  startIndicesBatchingDims := []
  startIndexMap := [0]
  indexVectorDim := 1
  sliceSizes := ![1]
  wf := gather_S3_S2x1_S2_n_0_n_n_0_1_1_wf

class Facts : Prop extends Facts₀ where

variable [Facts]
-- ==== Proof.K.Run.lean ====
/-
  The two kernel regions of @main as segment records, and @main's run from the launch to the return.

  Between @main's items every unscoped buffer of a core is held whole at a known valuation: the launch contents, then each
  host stretch folded over them, then — after a kernel region — the region's window arrays at what its write-backs leave
  (an input array as entered, an output array at the fold of the blocks the grid points wrote back) and every other buffer as
  entered. Each region's record splits its window arrays out of the held buffers at entry and puts them back at exit; the
  core's generator register rides through the class invariant; no core owes another anything. The run ends with every
  unscoped buffer at the last valuation, from which the frame claim reads the arguments and the value claim the results.
  What a region needs of its kernel (its proof data, the body obligation at every grid point, the invariant at the first and
  last point) is taken here as a hypothesis record, so that this module does not depend on the kernels' bodies.
-/
import proofs.«124926_j66013647339880_1_alg».proof.Proof.K.RunCond
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffer contents when a region is entered. -/
abbrev Entry (F : FTy → Type) [FloatOps F] : Type := (c : Dev nD) → (b : Ref sig .tc) → Buf (Elt F) ((c : Thread nD τ).loc b)

/-- What the run needs of region 0's kernel: proof data at any entry contents whose arrays are those contents, full
    shares, nothing owed, the body obligation, and the class invariant at the two ends. -/
structure Half0 (dat0 : Entry F → (c : Dev nD) → Dat τ (Elt F) Unit ℕ (UR sig nD τ) ℕ cfg0 c) : Prop where
  A_eq : ∀ V c w, (dat0 V c).A w = V c (Pipeline.arrRef spec0 w)
  q_eq : ∀ V c w, (dat0 V c).q w = fullShare
  owed_eq : ∀ V c t, (dat0 V c).owed t = 0
  rec_eq : ∀ V c t, (dat0 V c).recorded t = Set.univ
  body : ∀ V c, BodyObligation (dat0 V c) (defs₀ (F := F)) Variants.none () Set.univ
  phi_first : ∀ V c, (Pipeline.ΦA spec0 c : sProp 𝕄) ⊢ (dat0 V c).Φ 0
  phi_last : ∀ V c, (dat0 V c).Φ (Fin.last cfg0.N) ⊢ (Pipeline.ΦA spec0 c : sProp 𝕄)

/-- The same of region 1's kernel. -/
structure Half1 (dat1 : Entry F → (c : Dev nD) → Dat τ (Elt F) Unit ℕ (UR sig nD τ) ℕ cfg1 c) : Prop where
  A_eq : ∀ V c w, (dat1 V c).A w = V c (Pipeline.arrRef spec1 w)
  q_eq : ∀ V c w, (dat1 V c).q w = fullShare
  owed_eq : ∀ V c t, (dat1 V c).owed t = 0
  rec_eq : ∀ V c t, (dat1 V c).recorded t = Set.univ
  body : ∀ V c, BodyObligation (dat1 V c) (defs₀ (F := F)) Variants.none () Set.univ
  phi_first : ∀ V c, (Pipeline.ΦA spec1 c : sProp 𝕄) ⊢ (dat1 V c).Φ 0
  phi_last : ∀ V c, (dat1 V c).Φ (Fin.last cfg1.N) ⊢ (Pipeline.ΦA spec1 c : sProp 𝕄)

variable (m : (ℓ : Loc nD τ sig) → Buf (Elt F) ℓ)
variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)

/-! ## The contents at the regions' boundaries -/

/-- Region 0's entry contents: the seven host stretches before it folded over the launch memory. -/
abbrev E7 : Entry F := fun c b => V7 m c b

/-- At region 0's exit: its window arrays at what the pipeline leaves, every other buffer as entered. -/
def W8 (c : Dev nD) : Valuation τ sig (Elt F) :=
  Pipeline.withArrays spec0 c (V7 m c) fun w => (dat0 (E7 m) c).arrAt w cfg0.N

/-- What region 0 leaves in the buffers it may change. -/
def outs8 : Outs (F := F) := fun _ r c => W8 m dat0 c r

/-- Region 1's entry contents. -/
abbrev E8 : Entry F := fun c b => V8 m (outs8 m dat0) c b

/-- At region 1's exit. -/
def W9 (c : Dev nD) : Valuation τ sig (Elt F) :=
  Pipeline.withArrays spec1 c (V8 m (outs8 m dat0) c) fun w => (dat1 (E8 m dat0) c).arrAt w cfg1.N

/-- What both regions leave: region 0's at item 8, region 1's at item 9. -/
def outs : Outs (F := F) := fun j r c => if j = 9 then W9 m dat0 dat1 c r else W8 m dat0 c r

theorem V8_outs (c : Dev nD) : V8 m (outs m dat0 dat1) c = V8 m (outs8 m dat0) c := rfl

variable {dat0 dat1}

/-- After region 0 a buffer holds what the pipeline's account says: the two outputs the folded write-backs, an input
    array and every other buffer what it held at entry. -/
theorem V8_eq (h0 : Half0 dat0) (c : Dev nD) (b : Ref sig .tc) : V8 m (outs8 m dat0) c b = W8 m dat0 c b := by
  by_cases h1 : b = main_v7_1
  · subst h1
    simp only [V8, Function.update_self]
    rfl
  by_cases h2 : b = main_v7_0
  · subst h2
    rw [V8, Function.update_of_ne (StableHlo.devRef_ne_of_ne (by decide) : (Proc.devRef .tc main_v7_0 : DevRef τ sig) ≠ Proc.devRef .tc main_v7_1), Function.update_self]
    rfl
  rw [V8_of m _ c b (by simp only [List.mem_cons, List.not_mem_nil, or_false, not_or]; exact ⟨h2, h1⟩)]
  by_cases hw : ∃ w, Pipeline.arrRef spec0 w = b
  · obtain ⟨w, rfl⟩ := hw
    unfold W8
    rw [Pipeline.withArrays_arr spec0 launch0.win.arr_inj]
    have hin : (cfg0.win w).isOut = false := by
      fin_cases w
      · rfl
      · rfl
      · rfl
      · rfl
      · exact absurd rfl h2
      · exact absurd rfl h1
    rw [(dat0 (E7 m) c).arrAt_in w hin, h0.A_eq]
  · unfold W8
    rw [Pipeline.withArrays_of_ne spec0 c _ _ b (fun w e => hw ⟨w, e⟩)]

/-- After region 1 likewise: its output array the folded write-backs, every other buffer what it held at entry. -/
theorem V9_eq (h1 : Half1 dat1) (c : Dev nD) (b : Ref sig .tc) :
    V9 m (outs m dat0 dat1) c b = W9 m dat0 dat1 c b := by
  by_cases h8 : b = main_v8
  · subst h8
    simp only [V9, Function.update_self]
    rfl
  rw [V9_of m _ c b (by simp only [List.mem_cons, List.not_mem_nil, or_false]; exact h8), V8_outs]
  by_cases hw : ∃ w, Pipeline.arrRef spec1 w = b
  · obtain ⟨w, rfl⟩ := hw
    unfold W9
    rw [Pipeline.withArrays_arr spec1 launch1.win.arr_inj]
    have hin : (cfg1.win w).isOut = false := by
      fin_cases w
      · rfl
      · rfl
      · rfl
      · rfl
      · rfl
      · rfl
      · rfl
      · rfl
      · exact absurd rfl h8
    rw [(dat1 (E8 m dat0) c).arrAt_in w hin, h1.A_eq]
  · unfold W9
    rw [Pipeline.withArrays_of_ne spec1 c _ _ b (fun w e => hw ⟨w, e⟩)]

/-- Region 1's exit contents, read at the TensorCore's references. -/
abbrev E9 : Entry F := fun c b => V9 m (outs m dat0 dat1) c b

theorem hF0 (h0 : Half0 dat0) (c : Dev nD) (w : Fin cfg0.W) :
    (dat0 (E7 m) c).arrAt w cfg0.N = E8 m dat0 c (Pipeline.arrRef spec0 w) :=
  ((V8_eq m h0 c _).trans (by unfold W8; exact Pipeline.withArrays_arr spec0 launch0.win.arr_inj c _ _ w)).symm

theorem hrest0 (h0 : Half0 dat0) (c : Dev nD) :
    ∀ b, b ∉ Finset.univ.image (Pipeline.arrRef spec0) → E8 m dat0 c b = E7 m c b := fun b hb =>
  (V8_eq m h0 c b).trans (by
    unfold W8; exact Pipeline.withArrays_of_ne spec0 c _ _ b fun w e => hb (Finset.mem_image.mpr ⟨w, Finset.mem_univ _, e⟩))

theorem hF1 (h1 : Half1 dat1) (c : Dev nD) (w : Fin cfg1.W) :
    (dat1 (E8 m dat0) c).arrAt w cfg1.N = E9 m (dat0 := dat0) (dat1 := dat1) c (Pipeline.arrRef spec1 w) :=
  ((V9_eq m h1 c _).trans (by unfold W9; exact Pipeline.withArrays_arr spec1 launch1.win.arr_inj c _ _ w)).symm

theorem hrest1 (h1 : Half1 dat1) (c : Dev nD) :
    ∀ b, b ∉ Finset.univ.image (Pipeline.arrRef spec1) → E9 m (dat0 := dat0) (dat1 := dat1) c b = E8 m dat0 c b := fun b hb =>
  (V9_eq m h1 c b).trans (by
    unfold W9; exact Pipeline.withArrays_of_ne spec1 c _ _ b fun w e => hb (Finset.mem_image.mpr ⟨w, Finset.mem_univ _, e⟩))

/-! ## The proof data family and the thread state -/

variable (dat0 dat1) in
/-- Every pipeline's proof data, each at its region's entry contents. -/
def pdats : (p : Fin 2) → (c : Dev nD) → Dat τ (Elt F) Unit ℕ (UR sig nD τ) ℕ (cfgs p) c
  | ⟨0, _⟩ => fun c => dat0 (E7 m) c
  | ⟨1, _⟩ => fun c => dat1 (E8 m dat0) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the contents after the seven host stretches,
    left with its two output arrays at the folded write-backs. Its arrays are split out of the held buffers and put back;
    the generator register goes into the class invariant and comes back; nothing is owed; the kernel has no semaphore. -/
def reg0 (h0 : Half0 dat0) : Pipeline.RegionSeg (pcfgs (F := F)) adm (pdats m dat0 dat1) () defs₀ 𝒱₀ L lv 0 where
  win := launch0.win.to₀
  block_pos := launch0.block_pos
  stage_whole := launch0.stage_whole
  K := PEmpty
  osem k := k.elim
  ho := Pipeline.OwnSemFacts.none _
  hbody c := (h0.body (E7 m) c).loose
  hwaits := Pipeline.hwaits_of_owed_zero _ _ _ _ L lv 0 fun c t => h0.owed_eq (E7 m) c t
  pre c := iprop(StableHlo.held (c : Thread nD τ) (Pipeline.ucRefs τ sig) (V7 m c) ∗ R c)
  post c := iprop(StableHlo.held (c : Thread nD τ) (Pipeline.ucRefs τ sig) (V8 m (outs m dat0 dat1) c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m dat0 dat1) launch0.win launch0.arr_whole c
      ((pdats m dat0 dat1 0 c).share_full fun w => h0.q_eq (E7 m) c w) (E7 m c) fun w => h0.A_eq (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 0 c).owed 0 = 0 from h0.owed_eq (E7 m) c 0]
      icases HO with ⟨%W, HO⟩; iexists W; isplitr; · ipureintro; exact fun x _ => Or.inl ((Set.ext_iff.mp (h0.rec_eq (E7 m) c 0) x).mpr trivial)
      iexact HO
    isplitl [Hp]; · iexact Hp
    iexact Hrest
  hin c := by
    refine BIBase.Entails.trans ?_ (h0.phi_first (E7 m) c)
    unfold Pipeline.ΦA
    iintro ⟨Hp, -, Hr⟩
    isplitl [Hr]; · iexact Hr
    iexact Hp
  hout c := by
    rw [Pipeline.ownSems0_none]
    refine BIBase.Entails.trans (h0.phi_last (E7 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m dat0 dat1) ((pdats m dat0 dat1 0 c).share_full fun w => h0.q_eq (E7 m) c w)
      (E7 m c) (E8 m dat0 c) ((pdats m dat0 dat1 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 0 c).owed (Fin.last _) = 0 from h0.owed_eq (E7 m) c _]
    icases HO with ⟨%W, -, HO⟩; iexists W; iexact HO

set_option backward.isDefEq.respectTransparency.types false in
/-- REGION 1 over the thread state: entered from what region 0 left, left with its output array at the folded write-backs. -/
def reg1 (h0 : Half0 dat0) (h1 : Half1 dat1) : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := (h1.body (E8 m dat0) c).loose
  hwaits := Pipeline.hwaits_of_owed_zero _ _ _ _ L lv 1 fun c t => h1.owed_eq (E8 m dat0) c t
  pre c := iprop(StableHlo.held (c : Thread nD τ) (Pipeline.ucRefs τ sig) (V8 m (outs8 m dat0) c) ∗ R c)
  post c := iprop(StableHlo.held (c : Thread nD τ) (Pipeline.ucRefs τ sig) (V9 m (outs m dat0 dat1) c) ∗ R c)
  X c := iprop(∃ r, prngReg c r)
  Y c := iprop(∃ r, prngReg c r)
  Z c := Pipeline.unscopedRest (Ix := Unit) (Name := ℕ) (U := UR sig nD τ) (Lvl := ℕ) spec1 c (E8 m dat0 c)
  hentry c := by
    rw [Pipeline.ownSems0_none]
    have hsplit := Pipeline.arrays_of_unscopedBufs (p := 1) (pcfgs (F := F)) adm (pdats m dat0 dat1) launch1.win launch1.arr_whole c
      ((pdats m dat0 dat1 1 c).share_full fun w => h1.q_eq (E8 m dat0) c w) (E8 m dat0 c) fun w => h1.A_eq (E8 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 1 c).owed 0 = 0 from h1.owed_eq (E8 m dat0) c 0]
      icases HO with ⟨%W, HO⟩; iexists W; isplitr; · ipureintro; exact fun x _ => Or.inl ((Set.ext_iff.mp (h1.rec_eq (E8 m dat0) c 0) x).mpr trivial)
      iexact HO
    isplitl [Hp]; · iexact Hp
    iexact Hrest
  hin c := by
    refine BIBase.Entails.trans ?_ (h1.phi_first (E8 m dat0) c)
    unfold Pipeline.ΦA
    iintro ⟨Hp, -, Hr⟩
    isplitl [Hr]; · iexact Hr
    iexact Hp
  hout c := by
    rw [Pipeline.ownSems0_none]
    refine BIBase.Entails.trans (h1.phi_last (E8 m dat0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m dat0 dat1) ((pdats m dat0 dat1 1 c).share_full fun w => h1.q_eq (E8 m dat0) c w)
      (E8 m dat0 c) (E9 m (dat0 := dat0) (dat1 := dat1) c) ((pdats m dat0 dat1 1 c).arrAt · cfg1.N) (hF1 m h1 c) (hrest1 m h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 1 c).owed (Fin.last _) = 0 from h1.owed_eq (E8 m dat0) c _]
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final memory holds each unscoped buffer at the last valuation's contents. -/
theorem run (h0 : Half0 dat0) (h1 : Half1 dat1) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs m dat0 dat1) c b) :=
  Cert.Kernel.GenP.run_cond m (Ix := Unit) (U := UR sig nD τ) (Lvl := ℕ) emb₁ () 𝒱₀ L lv (fun _ _ => rfl) ρ (outs m dat0 dat1) (pdats m dat0 dat1)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m h0) (hpre0 := fun c => .rfl) (hpost0 := fun c => .rfl)
    (R1 := reg1 m h0 h1) (hpre1 := fun c => .rfl) (hpost1 := fun c => .rfl)

/-- THE FRAME: the six argument arrays end as launched (no host stretch writes one, no region may change one). -/
theorem frame (h0 : Half0 dat0) (h1 : Half1 dat1) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V10_main_arg0 m _ c),
     (h c _ (mem_uc main_arg1 (by decide))).trans (V10_main_arg1 m _ c),
     (h c _ (mem_uc main_arg2 (by decide))).trans (V10_main_arg2 m _ c),
     (h c _ (mem_uc main_arg3 (by decide))).trans (V10_main_arg3 m _ c),
     (h c _ (mem_uc main_arg4 (by decide))).trans (V10_main_arg4 m _ c),
     (h c _ (mem_uc main_arg5 (by decide))).trans (V10_main_arg5 m _ c)⟩) (run m h0 h1 ρ)

/-! ## What the regions' output buffers hold after them -/

/-- After region 1 its output array holds the fold of the blocks the grid points wrote back. -/
theorem V9_v8 (h1 : Half1 dat1) (c : Dev nD) :
    V9 m (outs m dat0 dat1) c main_v8 = (dat1 (E8 m dat0) c).arrAt 8 cfg1.N :=
  (V9_eq m h1 c main_v8).trans (by unfold W9; exact Pipeline.withArrays_arr spec1 launch1.win.arr_inj c _ _ 8)

/-- After region 0 its two output arrays hold the folds of the blocks written back. -/
theorem V8_v7_0 (h0 : Half0 dat0) (c : Dev nD) :
    V8 m (outs8 m dat0) c main_v7_0 = (dat0 (E7 m) c).arrAt 4 cfg0.N :=
  (V8_eq m h0 c main_v7_0).trans (by unfold W8; exact Pipeline.withArrays_arr spec0 launch0.win.arr_inj c _ _ 4)

theorem V8_v7_1 (h0 : Half0 dat0) (c : Dev nD) :
    V8 m (outs8 m dat0) c main_v7_1 = (dat0 (E7 m) c).arrAt 5 cfg0.N :=
  (V8_eq m h0 c main_v7_1).trans (by unfold W8; exact Pipeline.withArrays_arr spec0 launch0.win.arr_inj c _ _ 5)

/-- Region 0 leaves every buffer but its two outputs as it found it. -/
theorem V8_keep (c : Dev nD) (r : Ref sig .tc) (h : r ∉ ([main_v7_0, main_v7_1] : List (Ref sig .tc))) :
    V8 m (outs8 m dat0) c r = V7 m c r := V8_of m _ c r h

end Cert.Kernel.Hand

end
-- ==== Proof.K.R0.lean ====
/-
  The frame half of the first kernel call (the statistics pass): a kernel that carries two accumulator rows (the
  per-channel sum and sum of squares of the linear layer's output) in scratch memory across the 74 grid points, zeroes
  them at the first point and, at the last, divides by the number of rows and stores the mean and the variance.

  Everything is stated at a PARAMETER V, the buffer contents when the region is entered. Per control case (first /
  middle / last point) the body's triple is stated as a subtype whose witness is the list of pieces each buffer ends with; from these: what the outputs and
  the accumulator rows hold after each point (outsAt0), the pipeline's proof data (dat0), the body obligation, and the
  invariant's two ends.
-/
import proofs.«124926_j66013647339880_1_alg».proof.Proof.Gen.Kernel.Launch
import proofs.«124926_j66013647339880_1_alg».proof.Proof.Gen.Kernel.Skeleton
import proofs.«124926_j66013647339880_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the first conditional of the body (zero the two accumulator rows), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the last conditional of the body (divide and store the two outputs), from the grid coordinates. -/
abbrev cond0_1 (i : grid0.Coords) : Prop := k0_cond2 i = 1#1
/-- It holds at the last point only. -/
theorem hcond0_1 : ∀ t : Fin cfg0.N, cond0_1 (grid0.coords t) ↔ t.val = 73 :=
  (by decide +kernel : ∀ t : Fin grid0.N, cond0_1 (grid0.coords t) ↔ t.val = 73)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the last conditional is not taken the two outputs are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is taken they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging and scratch memrefs -/

/-- One staging buffer of each output window, through which its contents are stated (the choice does not matter). -/
abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view
/-- Each window's current staging memref at point `t`, spelt as the pipeline passes it, and its wholeness. -/
abbrev ms0_0 (t : Fin cfg0.N) : Memref sig .tc .vmem S2048x20x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two accumulator rows: whole scoped buffers of the kernel's own, passed beside the windows and carried
    between grid points. -/
abbrev scM0_0 : Memref sig .tc .vmem S1x64 .f32 := Memref.whole cc0_scratch0
abbrev scM0_1 : Memref sig .tc .vmem S1x64 .f32 := Memref.whole cc0_scratch1
/-- The same as views: what they hold is stated through these. -/
abbrev VS0_0 : View sig .tc .vmem S1x64 .f32 := scM0_0.view
abbrev VS0_1 : View sig .tc .vmem S1x64 .f32 := scM0_1.view

/-- The core's scoped buffers that are neither a staging buffer of this call nor one of its two accumulator rows,
    each whole at some contents: they ride along untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class's region invariant with the two accumulator rows split out as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

/-! ## The kernel body on any staging memrefs, case by case, as a subtype

Three cases occur over the grid: the FIRST point (the two accumulator rows are zeroed, then accumulated into; no
output is stored), a MIDDLE point (accumulate only) and the LAST point (accumulate, then divide and store both
outputs). -/

set_option maxHeartbeats 1000000 in
/-- The body at the FIRST point (first conditional taken, last not): on whole staging memrefs, the inputs' at their
    contents, the two outputs' (idle there) at contents handed back untouched, the two accumulator rows at anything,
    the body runs to the continuation holding the inputs' and the outputs' as they were and each accumulator row
    with its pieces written. The pieces are the witness. -/
noncomputable def kernelRun0_A (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) :
    Σ' (LS0 : List (View.Piece (Elt F) S1x64 .f32)), { LS1 : List (View.Piece (Elt F) S1x64 .f32) //
      ∀ (xi4 : Vec F S1x64 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, fun xi4 xi5 E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- The body at a MIDDLE point (neither conditional taken): as at the first point, but the two accumulator rows are
    handed in at what the point before left (`xs0`, `xs1`). -/
noncomputable def kernelRun0_B (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    Σ' (LS0 : List (View.Piece (Elt F) S1x64 .f32)), { LS1 : List (View.Piece (Elt F) S1x64 .f32) //
      ∀ (xi4 : Vec F S1x64 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, fun xi4 xi5 E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- The body at the LAST point (first conditional not taken, last taken): the inputs' memrefs at their contents, the
    two outputs' at anything, the two accumulator rows at what the point before left; the body runs to the
    continuation holding the inputs' as they were and each output's and each accumulator row's buffer with its
    pieces written. -/
noncomputable def kernelRun0_C (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    Σ' (L4 : List (View.Piece (Elt F) S1x64 .f32)) (L5 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

/-! ## What each case leaves in the accumulator rows and in the outputs -/

/-- The first point's pieces for the row of sums cover it. -/
theorem scover0_A_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x64.size (by sl_kernel_rfl) y

/-- What the first point leaves in the row of sums: its pieces read back. -/
def sout0_A_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)

/-- The first point's pieces for the row of sums of squares cover it. -/
theorem scover0_A_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x64.size (by sl_kernel_rfl) y

/-- What the first point leaves in the row of sums of squares. -/
def sout0_A_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)

/-- A middle point's pieces for the row of sums cover it. -/
theorem scover0_B_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x64.size (by sl_kernel_rfl) y

/-- What a middle point leaves in the row of sums. -/
def sout0_B_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)

/-- A middle point's pieces for the row of sums of squares cover it. -/
theorem scover0_B_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x64.size (by sl_kernel_rfl) y

/-- What a middle point leaves in the row of sums of squares. -/
def sout0_B_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)

/-- The last point's pieces for the mean's buffer cover it. -/
theorem cover0_C_4 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x64.size (by sl_kernel_rfl) y

/-- What the last point leaves in the mean's staging buffer. -/
def out0_C_4 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)

/-- The last point's pieces for the variance's buffer cover it. -/
theorem cover0_C_5 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x64.size (by sl_kernel_rfl) y

/-- What the last point leaves in the variance's staging buffer. -/
def out0_C_5 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)

/-- The last point's pieces for the row of sums cover it. -/
theorem scover0_C_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x64.size (by sl_kernel_rfl) y

/-- What the last point leaves in the row of sums. -/
def sout0_C_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)

/-- The last point's pieces for the row of sums of squares cover it. -/
theorem scover0_C_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x64.size (by sl_kernel_rfl) y

/-- What the last point leaves in the row of sums of squares. -/
def sout0_C_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

/-- The contents named for an output's buffer at a point that stores nothing into it: nothing consults them (there the
    window is neither written back nor read at the next point). -/
def idleOut0_4 : Vec F S1x64 .f32 := VO0_4.read (Elt F) VO0_4.junk
def idleOut0_5 : Vec F S1x64 .f32 := VO0_5.read (Elt F) VO0_5.junk

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not, for ANY proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the two accumulator rows hold after each point -/

/-- THE ACCUMULATION. What the two outputs' staging buffers and the two accumulator rows hold after the body at position
    `n` (a tuple: the mean's buffer, the variance's buffer, the row of sums, the row of sums of squares): the case the
    closed forms select at `n`, run at the point's memrefs and input blocks, the accumulator rows handed in at what this
    leaves at `n - 1`. -/
def outsAt0 (c : Dev nD) : (n : ℕ) → n < cfg0.N → Vec F S1x64 .f32 × Vec F S1x64 .f32 × Vec F S1x64 .f32 × Vec F S1x64 .f32
  | 0, hn => (idleOut0_4, idleOut0_5,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 73 by decide)) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 73 by decide)) (iblk0 V c 0 ⟨0, hn⟩) (iblk0 V c 1 ⟨0, hn⟩) (iblk0 V c 2 ⟨0, hn⟩) (iblk0 V c 3 ⟨0, hn⟩))
  | n + 1, hn =>
    if h1 : n + 1 = 73 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (idleOut0_4, idleOut0_5,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) (h1 : ¬t.val = 73) :
    outsAt0 V c t.val t.isLt = (idleOut0_4, idleOut0_5,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- `outsAt0` at a middle point: over what the point before left in the accumulator rows. -/
theorem outsAt0_B (c : Dev nD) (t : Fin cfg0.N) (h0 : ¬t.val = 0) (h1 : ¬t.val = 73) :
    outsAt0 V c t.val t.isLt = (idleOut0_4, idleOut0_5,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt0` at the last point: over what the point before left in the accumulator rows. -/
theorem outsAt0_C (c : Dev nD) (t : Fin cfg0.N) (h0 : ¬t.val = 0) (h1 : t.val = 73) :
    outsAt0 V c t.val t.isLt = (
      out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: before the first point the class's (every scoped buffer that is no staging
    buffer at anything, the generator register at some state); afterwards the same with the two accumulator rows at what
    the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator rows at that point's contents. -/
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

/-- Before a point that is not the first: the accumulator rows at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem rec_eq0 (c : Dev nD) (t : Fin (cfg0.N + 1)) : (dat0 V c).recorded t = Set.univ := rfl

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body the two accumulator rows at what the point before left (at anything at the first point) and
    takes them back at this point's contents; an output idle at the point is handed back as found; the core owes nothing
    throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 74 := lt_of_lt_of_eq t.isLt (show cfg0.N = 74 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val = 73
  · have h0 : ¬t.val = 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold out0_C_4 out0_C_5 sout0_C_0 sout0_C_1; (try dsimp only)
    rw [PhiS0_castSucc V c t, PhiS0_pos V c _ _ h0]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val = 0
    · rw [outsAt0_A V c t h0 h1]
      unfold sout0_A_0 sout0_A_1; (try dsimp only)
      rw [PhiS0_castSucc V c t, PhiS0_zero V c _ _ h0, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [outsAt0_B V c t h0 h1]
      unfold sout0_B_0 sout0_B_1; (try dsimp only)
      rw [PhiS0_castSucc V c t, PhiS0_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_first (c : Dev nD) : (dat0 V c).Φ 0 = (Pipeline.ΦA spec0 c : sProp 𝕄) := rfl

theorem phi_first0 (c : Dev nD) : (Pipeline.ΦA spec0 c : sProp 𝕄) ⊢ (dat0 V c).Φ 0 := by
  rw [Phi0_first]; try exact Idealize.SL.BI.Entails.refl _

/-- After any point but the first the invariant gives the class's back: the accumulator rows' named contents are forgotten. -/
theorem Phi0_out (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem Phi0_last (c : Dev nD) : (dat0 V c).Φ (Fin.last cfg0.N) ⊢ (Pipeline.ΦA spec0 c : sProp 𝕄) :=
  Phi0_out V c _ (by rw [Fin.val_last]; have : cfg0.N = 74 := N_0; omega)

end Region

end Cert.Kernel.Hand

end
-- ==== Proof.K.R1.lean ====
/-
  Pallas call 1 (the normalise-and-pool pass), the frame half: its windows' blocks, what its body leaves in the output
  window's buffer as a function of the eight input blocks, the body's triple, the pipeline's proof data at the contents
  `V` the region is entered with, and the body obligation at every grid point. The body is straight-line: eight whole-block
  loads, one whole-block store.
-/
import proofs.«124926_j66013647339880_1_alg».proof.Proof.Gen.Kernel.Launch
import proofs.«124926_j66013647339880_1_alg».proof.Proof.Gen.Kernel.Skeleton
import proofs.«124926_j66013647339880_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2048x20x5 := Rect.unit (s := S2048x20x5) ![0, 0, 0] S2048x20x5.size inb_S2048x20x5_S2048x20x5_0_0_0
abbrev r1_1 : Rect S2048x1 := Rect.unit (s := S2048x1) ![0, 0] S2048x1.size inb_S2048x1_S2048x1_0_0
abbrev r1_2 : Rect S2048x4 := Rect.unit (s := S2048x4) ![0, 0] S2048x4.size inb_S2048x4_S2048x4_0_0
abbrev r1_3 : Rect S9x64 := Rect.unit (s := S9x64) ![0, 0] S9x64.size inb_S9x64_S9x64_0_0
abbrev r1_4 : Rect S1x64 := Rect.unit (s := S1x64) ![0, 0] S1x64.size inb_S1x64_S1x64_0_0
abbrev r1_5 : Rect S2048x64 := Rect.unit (s := S2048x64) ![0, 0] S2048x64.size inb_S2048x64_S2048x64_0_0

/-! ## What the body leaves in the output window's buffer -/

/-- The value the body stores, from the eight input blocks: the straight-line computation over what the eight loads read. -/
def pay1_8 (x0 : Vec F S2048x20x5 .f32) (x1 : Vec F S2048x1 .i32) (x2 : Vec F S2048x4 .i32) (x3 : Vec F S9x64 .f32)
    (x4 x5 x6 x7 : Vec F S1x64 .f32) : Vec F S2048x64 .f32 :=
  k1_pay7 (k1_pay2 (View.ld x0 r1_0)) (k1_pay3 (View.ld x0 r1_0) (View.ld x1 r1_1)) (k1_pay4 (View.ld x0 r1_0) (View.ld x2 r1_2))
    (k1_pay5 (View.ld x0 r1_0) (View.ld x2 r1_2)) (k1_pay6 (View.ld x0 r1_0)) (Scalar.ofBits .f32 0xBF800000#32)
    (View.ld x3 r1_3) (View.ld x4 r1_4) (View.ld x5 r1_4) (View.ld x6 r1_4) (View.ld x7 r1_4)

/-- Window 8's staging buffer after the body, from the input windows' blocks: its one store as a piece. -/
def out1_8 (x0 : Vec F S2048x20x5 .f32) (x1 : Vec F S2048x1 .i32) (x2 : Vec F S2048x4 .i32) (x3 : Vec F S9x64 .f32)
    (x4 x5 x6 x7 : Vec F S1x64 .f32) : Vec F S2048x64 .f32 :=
  View.canon [⟨r1_5, pay1_8 x0 x1 x2 x3 x4 x5 x6 x7⟩]

/-- The store tiles the buffer, so it covers it. -/
theorem cover1_8 (p0 : Vec F S2048x64 .f32) (y : S2048x64.Idx) :
    ∃ pc ∈ ([⟨r1_5, p0⟩] : List (View.Piece (Elt F) S2048x64 .f32)), y ∈ pc.1.set :=
  View.cover_of_tiled [⟨r1_5, p0⟩] S2048x64.size (by rfl) y

/-! ## The body's triple -/

set_option maxHeartbeats 4000000 in
/-- The kernel body on whole staging memrefs, the inputs' at read contents `xW` and the output's at anything, runs to
    the continuation holding the inputs' as they were and the output's at `out1_8` of the inputs'. -/
theorem sound_kernel1 (c : Dev nD) (E : Set ℕ) (i : grid1.Coords)
    (arg1 : Memref sig .tc .vmem S2048x20x5 .f32) (harg1 : arg1.IsWhole) (arg2 : Memref sig .tc .vmem S2048x1 .i32) (harg2 : arg2.IsWhole)
    (arg3 : Memref sig .tc .vmem S2048x4 .i32) (harg3 : arg3.IsWhole) (arg4 : Memref sig .tc .vmem S9x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S2048x64 .f32) (harg9 : arg9.IsWhole)
    (x0 : Vec F S2048x20x5 .f32) (x1 : Vec F S2048x1 .i32) (x2 : Vec F S2048x4 .i32) (x3 : Vec F S9x64 .f32)
    (x4 x5 x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9) K := by
  simp only [cc1__main_kernel_eq_skeleton]; unfold cc1__main_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at point `t` each
    input's buffer at its block and the output's at `out1_8` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Frame.lean ====
/-
  The frame of @main from the two kernels' halves: each region's proof data meets what the run asks of it (its arrays are
  the entry contents, full shares, nothing owed, the body obligation at every grid point, the class invariant at both ends),
  so every weakly fair execution terminates with the six argument arrays as launched.
-/
import proofs.«124926_j66013647339880_1_alg».proof.Proof.K.Run
import proofs.«124926_j66013647339880_1_alg».proof.Proof.K.R0
import proofs.«124926_j66013647339880_1_alg».proof.Proof.K.R1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The statistics kernel's half: its invariant carries the two accumulator rows from point to point, starts as the class
    invariant and ends inside it. -/
theorem half0 : Half0 (F := F) (fun V c => dat0 V c) :=
  ⟨fun V c w => A_eq0 V c w, fun V c w => q_eq0 V c w, fun V c t => owed_eq0 V c t, fun V c t => rec_eq0 V c t,
    fun V c => body_obligation0 V c, fun V c => phi_first0 V c, fun V c => Phi0_last V c⟩

/-- The normalising kernel's half: a straight-line body under the class invariant. -/
theorem half1 : Half1 (F := F) (fun V c => dat1 V c) :=
  ⟨fun V c w => A_eq1 V c w, fun _ _ _ => rfl, fun _ _ _ => rfl, fun _ _ _ => rfl, fun V c => body_obligation1 V c,
    fun _ _ => BIBase.Entails.rfl, fun _ _ => BIBase.Entails.rfl⟩

/-- @main's run with both halves in place. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs m (fun V c => dat0 V c) (fun V c => dat1 V c)) c b) :=
  run m (half0 (F := F)) (half1 (F := F)) ρ

/-- @main's frame with both halves in place. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m (half0 (F := F)) (half1 (F := F)) ρ

end Cert.Kernel.Hand

end
-- ==== Proof.KI.Run.lean ====
/-
  The two kernel regions of @main as segment records, and @main's run from the launch to the return.

  Between @main's items every unscoped buffer of a core is held whole at a known valuation: the launch contents, then each
  host stretch folded over them, then — after a kernel region — the region's window arrays at what its write-backs leave
  (an input array as entered, an output array at the fold of the blocks the grid points wrote back) and every other buffer as
  entered. Each region's record splits its window arrays out of the held buffers at entry and puts them back at exit; the
  core's generator register rides through the class invariant; no core owes another anything. The run ends with every
  unscoped buffer at the last valuation, from which the frame claim reads the arguments and the value claim the results.
  What a region needs of its kernel (its proof data, the body obligation at every grid point, the invariant at the first and
  last point) is taken here as a hypothesis record, so that this module does not depend on the kernels' bodies.
-/
import proofs.«124926_j66013647339880_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffer contents when a region is entered. -/
abbrev Entry (F : FTy → Type) [FloatOps F] : Type := (c : Dev nD) → (b : Ref sig .tc) → Buf (Elt F) ((c : Thread nD τ).loc b)

/-- What the run needs of region 0's kernel: proof data at any entry contents whose arrays are those contents, full
    shares, nothing owed, the body obligation, and the class invariant at the two ends. -/
structure Half0 (dat0 : Entry F → (c : Dev nD) → Dat τ (Elt F) Unit ℕ (UR sig nD τ) ℕ cfg0 c) : Prop where
  A_eq : ∀ V c w, (dat0 V c).A w = V c (Pipeline.arrRef spec0 w)
  q_eq : ∀ V c w, (dat0 V c).q w = fullShare
  owed_eq : ∀ V c t, (dat0 V c).owed t = 0
  rec_eq : ∀ V c t, (dat0 V c).recorded t = Set.univ
  body : ∀ V c, BodyObligation (dat0 V c) (defs₀ (F := F)) Variants.none () Set.univ
  phi_first : ∀ V c, (Pipeline.ΦA spec0 c : sProp 𝕄) ⊢ (dat0 V c).Φ 0
  phi_last : ∀ V c, (dat0 V c).Φ (Fin.last cfg0.N) ⊢ (Pipeline.ΦA spec0 c : sProp 𝕄)

/-- The same of region 1's kernel. -/
structure Half1 (dat1 : Entry F → (c : Dev nD) → Dat τ (Elt F) Unit ℕ (UR sig nD τ) ℕ cfg1 c) : Prop where
  A_eq : ∀ V c w, (dat1 V c).A w = V c (Pipeline.arrRef spec1 w)
  q_eq : ∀ V c w, (dat1 V c).q w = fullShare
  owed_eq : ∀ V c t, (dat1 V c).owed t = 0
  rec_eq : ∀ V c t, (dat1 V c).recorded t = Set.univ
  body : ∀ V c, BodyObligation (dat1 V c) (defs₀ (F := F)) Variants.none () Set.univ
  phi_first : ∀ V c, (Pipeline.ΦA spec1 c : sProp 𝕄) ⊢ (dat1 V c).Φ 0
  phi_last : ∀ V c, (dat1 V c).Φ (Fin.last cfg1.N) ⊢ (Pipeline.ΦA spec1 c : sProp 𝕄)

variable (m : (ℓ : Loc nD τ sig) → Buf (Elt F) ℓ)
variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)

/-! ## The contents at the regions' boundaries -/

/-- Region 0's entry contents: the seven host stretches before it folded over the launch memory. -/
abbrev E7 : Entry F := fun c b => V7 m c b

/-- At region 0's exit: its window arrays at what the pipeline leaves, every other buffer as entered. -/
def W8 (c : Dev nD) : Valuation τ sig (Elt F) :=
  Pipeline.withArrays spec0 c (V7 m c) fun w => (dat0 (E7 m) c).arrAt w cfg0.N

/-- What region 0 leaves in the buffers it may change. -/
def outs8 : Outs (F := F) := fun _ r c => W8 m dat0 c r

/-- Region 1's entry contents. -/
abbrev E8 : Entry F := fun c b => V8 m (outs8 m dat0) c b

/-- At region 1's exit. -/
def W9 (c : Dev nD) : Valuation τ sig (Elt F) :=
  Pipeline.withArrays spec1 c (V8 m (outs8 m dat0) c) fun w => (dat1 (E8 m dat0) c).arrAt w cfg1.N

/-- What both regions leave: region 0's at item 8, region 1's at item 9. -/
def outs : Outs (F := F) := fun j r c => if j = 9 then W9 m dat0 dat1 c r else W8 m dat0 c r

theorem V8_outs (c : Dev nD) : V8 m (outs m dat0 dat1) c = V8 m (outs8 m dat0) c := rfl

variable {dat0 dat1}

/-- After region 0 a buffer holds what the pipeline's account says: the two outputs the folded write-backs, an input
    array and every other buffer what it held at entry. -/
theorem V8_eq (h0 : Half0 dat0) (c : Dev nD) (b : Ref sig .tc) : V8 m (outs8 m dat0) c b = W8 m dat0 c b := by
  by_cases h1 : b = main_v7_1
  · subst h1
    simp only [V8, Function.update_self]
    rfl
  by_cases h2 : b = main_v7_0
  · subst h2
    rw [V8, Function.update_of_ne (StableHlo.devRef_ne_of_ne (by decide) : (Proc.devRef .tc main_v7_0 : DevRef τ sig) ≠ Proc.devRef .tc main_v7_1), Function.update_self]
    rfl
  rw [V8_of m _ c b (by simp only [List.mem_cons, List.not_mem_nil, or_false, not_or]; exact ⟨h2, h1⟩)]
  by_cases hw : ∃ w, Pipeline.arrRef spec0 w = b
  · obtain ⟨w, rfl⟩ := hw
    unfold W8
    rw [Pipeline.withArrays_arr spec0 launch0.win.arr_inj]
    have hin : (cfg0.win w).isOut = false := by
      fin_cases w
      · rfl
      · rfl
      · rfl
      · rfl
      · exact absurd rfl h2
      · exact absurd rfl h1
    rw [(dat0 (E7 m) c).arrAt_in w hin, h0.A_eq]
  · unfold W8
    rw [Pipeline.withArrays_of_ne spec0 c _ _ b (fun w e => hw ⟨w, e⟩)]

/-- After region 1 likewise: its output array the folded write-backs, every other buffer what it held at entry. -/
theorem V9_eq (h1 : Half1 dat1) (c : Dev nD) (b : Ref sig .tc) :
    V9 m (outs m dat0 dat1) c b = W9 m dat0 dat1 c b := by
  by_cases h8 : b = main_v8
  · subst h8
    simp only [V9, Function.update_self]
    rfl
  rw [V9_of m _ c b (by simp only [List.mem_cons, List.not_mem_nil, or_false]; exact h8), V8_outs]
  by_cases hw : ∃ w, Pipeline.arrRef spec1 w = b
  · obtain ⟨w, rfl⟩ := hw
    unfold W9
    rw [Pipeline.withArrays_arr spec1 launch1.win.arr_inj]
    have hin : (cfg1.win w).isOut = false := by
      fin_cases w
      · rfl
      · rfl
      · rfl
      · rfl
      · rfl
      · rfl
      · rfl
      · rfl
      · exact absurd rfl h8
    rw [(dat1 (E8 m dat0) c).arrAt_in w hin, h1.A_eq]
  · unfold W9
    rw [Pipeline.withArrays_of_ne spec1 c _ _ b (fun w e => hw ⟨w, e⟩)]

/-- Region 1's exit contents, read at the TensorCore's references. -/
abbrev E9 : Entry F := fun c b => V9 m (outs m dat0 dat1) c b

theorem hF0 (h0 : Half0 dat0) (c : Dev nD) (w : Fin cfg0.W) :
    (dat0 (E7 m) c).arrAt w cfg0.N = E8 m dat0 c (Pipeline.arrRef spec0 w) :=
  ((V8_eq m h0 c _).trans (by unfold W8; exact Pipeline.withArrays_arr spec0 launch0.win.arr_inj c _ _ w)).symm

theorem hrest0 (h0 : Half0 dat0) (c : Dev nD) :
    ∀ b, b ∉ Finset.univ.image (Pipeline.arrRef spec0) → E8 m dat0 c b = E7 m c b := fun b hb =>
  (V8_eq m h0 c b).trans (by
    unfold W8; exact Pipeline.withArrays_of_ne spec0 c _ _ b fun w e => hb (Finset.mem_image.mpr ⟨w, Finset.mem_univ _, e⟩))

theorem hF1 (h1 : Half1 dat1) (c : Dev nD) (w : Fin cfg1.W) :
    (dat1 (E8 m dat0) c).arrAt w cfg1.N = E9 m (dat0 := dat0) (dat1 := dat1) c (Pipeline.arrRef spec1 w) :=
  ((V9_eq m h1 c _).trans (by unfold W9; exact Pipeline.withArrays_arr spec1 launch1.win.arr_inj c _ _ w)).symm

theorem hrest1 (h1 : Half1 dat1) (c : Dev nD) :
    ∀ b, b ∉ Finset.univ.image (Pipeline.arrRef spec1) → E9 m (dat0 := dat0) (dat1 := dat1) c b = E8 m dat0 c b := fun b hb =>
  (V9_eq m h1 c b).trans (by
    unfold W9; exact Pipeline.withArrays_of_ne spec1 c _ _ b fun w e => hb (Finset.mem_image.mpr ⟨w, Finset.mem_univ _, e⟩))

/-! ## The proof data family and the thread state -/

variable (dat0 dat1) in
/-- Every pipeline's proof data, each at its region's entry contents. -/
def pdats : (p : Fin 2) → (c : Dev nD) → Dat τ (Elt F) Unit ℕ (UR sig nD τ) ℕ (cfgs p) c
  | ⟨0, _⟩ => fun c => dat0 (E7 m) c
  | ⟨1, _⟩ => fun c => dat1 (E8 m dat0) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the contents after the seven host stretches,
    left with its two output arrays at the folded write-backs. Its arrays are split out of the held buffers and put back;
    the generator register goes into the class invariant and comes back; nothing is owed; the kernel has no semaphore. -/
def reg0 (h0 : Half0 dat0) : Pipeline.RegionSeg (pcfgs (F := F)) adm (pdats m dat0 dat1) () defs₀ 𝒱₀ L lv 0 where
  win := launch0.win.to₀
  block_pos := launch0.block_pos
  stage_whole := launch0.stage_whole
  K := PEmpty
  osem k := k.elim
  ho := Pipeline.OwnSemFacts.none _
  hbody c := (h0.body (E7 m) c).loose
  hwaits := Pipeline.hwaits_of_owed_zero _ _ _ _ L lv 0 fun c t => h0.owed_eq (E7 m) c t
  pre c := iprop(StableHlo.held (c : Thread nD τ) (Pipeline.ucRefs τ sig) (V7 m c) ∗ R c)
  post c := iprop(StableHlo.held (c : Thread nD τ) (Pipeline.ucRefs τ sig) (V8 m (outs m dat0 dat1) c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m dat0 dat1) launch0.win launch0.arr_whole c
      ((pdats m dat0 dat1 0 c).share_full fun w => h0.q_eq (E7 m) c w) (E7 m c) fun w => h0.A_eq (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 0 c).owed 0 = 0 from h0.owed_eq (E7 m) c 0]
      icases HO with ⟨%W, HO⟩; iexists W; isplitr; · ipureintro; exact fun x _ => Or.inl ((Set.ext_iff.mp (h0.rec_eq (E7 m) c 0) x).mpr trivial)
      iexact HO
    isplitl [Hp]; · iexact Hp
    iexact Hrest
  hin c := by
    refine BIBase.Entails.trans ?_ (h0.phi_first (E7 m) c)
    unfold Pipeline.ΦA
    iintro ⟨Hp, -, Hr⟩
    isplitl [Hr]; · iexact Hr
    iexact Hp
  hout c := by
    rw [Pipeline.ownSems0_none]
    refine BIBase.Entails.trans (h0.phi_last (E7 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m dat0 dat1) ((pdats m dat0 dat1 0 c).share_full fun w => h0.q_eq (E7 m) c w)
      (E7 m c) (E8 m dat0 c) ((pdats m dat0 dat1 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 0 c).owed (Fin.last _) = 0 from h0.owed_eq (E7 m) c _]
    icases HO with ⟨%W, -, HO⟩; iexists W; iexact HO

set_option backward.isDefEq.respectTransparency.types false in
/-- REGION 1 over the thread state: entered from what region 0 left, left with its output array at the folded write-backs. -/
def reg1 (h0 : Half0 dat0) (h1 : Half1 dat1) : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := (h1.body (E8 m dat0) c).loose
  hwaits := Pipeline.hwaits_of_owed_zero _ _ _ _ L lv 1 fun c t => h1.owed_eq (E8 m dat0) c t
  pre c := iprop(StableHlo.held (c : Thread nD τ) (Pipeline.ucRefs τ sig) (V8 m (outs8 m dat0) c) ∗ R c)
  post c := iprop(StableHlo.held (c : Thread nD τ) (Pipeline.ucRefs τ sig) (V9 m (outs m dat0 dat1) c) ∗ R c)
  X c := iprop(∃ r, prngReg c r)
  Y c := iprop(∃ r, prngReg c r)
  Z c := Pipeline.unscopedRest (Ix := Unit) (Name := ℕ) (U := UR sig nD τ) (Lvl := ℕ) spec1 c (E8 m dat0 c)
  hentry c := by
    rw [Pipeline.ownSems0_none]
    have hsplit := Pipeline.arrays_of_unscopedBufs (p := 1) (pcfgs (F := F)) adm (pdats m dat0 dat1) launch1.win launch1.arr_whole c
      ((pdats m dat0 dat1 1 c).share_full fun w => h1.q_eq (E8 m dat0) c w) (E8 m dat0 c) fun w => h1.A_eq (E8 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 1 c).owed 0 = 0 from h1.owed_eq (E8 m dat0) c 0]
      icases HO with ⟨%W, HO⟩; iexists W; isplitr; · ipureintro; exact fun x _ => Or.inl ((Set.ext_iff.mp (h1.rec_eq (E8 m dat0) c 0) x).mpr trivial)
      iexact HO
    isplitl [Hp]; · iexact Hp
    iexact Hrest
  hin c := by
    refine BIBase.Entails.trans ?_ (h1.phi_first (E8 m dat0) c)
    unfold Pipeline.ΦA
    iintro ⟨Hp, -, Hr⟩
    isplitl [Hr]; · iexact Hr
    iexact Hp
  hout c := by
    rw [Pipeline.ownSems0_none]
    refine BIBase.Entails.trans (h1.phi_last (E8 m dat0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m dat0 dat1) ((pdats m dat0 dat1 1 c).share_full fun w => h1.q_eq (E8 m dat0) c w)
      (E8 m dat0 c) (E9 m (dat0 := dat0) (dat1 := dat1) c) ((pdats m dat0 dat1 1 c).arrAt · cfg1.N) (hF1 m h1 c) (hrest1 m h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 1 c).owed (Fin.last _) = 0 from h1.owed_eq (E8 m dat0) c _]
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final memory holds each unscoped buffer at the last valuation's contents. -/
theorem run (h0 : Half0 dat0) (h1 : Half1 dat1) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs m dat0 dat1) c b) :=
  Cert.KernelIdeal.GenP.run_cond m (Ix := Unit) (U := UR sig nD τ) (Lvl := ℕ) emb₁ () 𝒱₀ L lv (fun _ _ => rfl) ρ (outs m dat0 dat1) (pdats m dat0 dat1)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m h0) (hpre0 := fun c => .rfl) (hpost0 := fun c => .rfl)
    (R1 := reg1 m h0 h1) (hpre1 := fun c => .rfl) (hpost1 := fun c => .rfl)

/-- THE FRAME: the six argument arrays end as launched (no host stretch writes one, no region may change one). -/
theorem frame (h0 : Half0 dat0) (h1 : Half1 dat1) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V10_main_arg0 m _ c),
     (h c _ (mem_uc main_arg1 (by decide))).trans (V10_main_arg1 m _ c),
     (h c _ (mem_uc main_arg2 (by decide))).trans (V10_main_arg2 m _ c),
     (h c _ (mem_uc main_arg3 (by decide))).trans (V10_main_arg3 m _ c),
     (h c _ (mem_uc main_arg4 (by decide))).trans (V10_main_arg4 m _ c),
     (h c _ (mem_uc main_arg5 (by decide))).trans (V10_main_arg5 m _ c)⟩) (run m h0 h1 ρ)

/-! ## What the regions' output buffers hold after them -/

/-- After region 1 its output array holds the fold of the blocks the grid points wrote back. -/
theorem V9_v8 (h1 : Half1 dat1) (c : Dev nD) :
    V9 m (outs m dat0 dat1) c main_v8 = (dat1 (E8 m dat0) c).arrAt 8 cfg1.N :=
  (V9_eq m h1 c main_v8).trans (by unfold W9; exact Pipeline.withArrays_arr spec1 launch1.win.arr_inj c _ _ 8)

/-- After region 0 its two output arrays hold the folds of the blocks written back. -/
theorem V8_v7_0 (h0 : Half0 dat0) (c : Dev nD) :
    V8 m (outs8 m dat0) c main_v7_0 = (dat0 (E7 m) c).arrAt 4 cfg0.N :=
  (V8_eq m h0 c main_v7_0).trans (by unfold W8; exact Pipeline.withArrays_arr spec0 launch0.win.arr_inj c _ _ 4)

theorem V8_v7_1 (h0 : Half0 dat0) (c : Dev nD) :
    V8 m (outs8 m dat0) c main_v7_1 = (dat0 (E7 m) c).arrAt 5 cfg0.N :=
  (V8_eq m h0 c main_v7_1).trans (by unfold W8; exact Pipeline.withArrays_arr spec0 launch0.win.arr_inj c _ _ 5)

/-- Region 0 leaves every buffer but its two outputs as it found it. -/
theorem V8_keep (c : Dev nD) (r : Ref sig .tc) (h : r ∉ ([main_v7_0, main_v7_1] : List (Ref sig .tc))) :
    V8 m (outs8 m dat0) c r = V7 m c r := V8_of m _ c r h

end Cert.KernelIdeal.Hand

end
-- ==== Proof.KI.R0.lean ====
/-
  The frame half of the first kernel call (the statistics pass): a kernel that carries two accumulator rows (the
  per-channel sum and sum of squares of the linear layer's output) in scratch memory across the 74 grid points, zeroes
  them at the first point and, at the last, divides by the number of rows and stores the mean and the variance.

  Everything is stated at a PARAMETER V, the buffer contents when the region is entered. Per control case (first /
  middle / last point) the body's triple is stated as a subtype whose witness is the list of pieces each buffer ends with; from these: what the outputs and
  the accumulator rows hold after each point (outsAt0), the pipeline's proof data (dat0), the body obligation, and the
  invariant's two ends.
-/
import proofs.«124926_j66013647339880_1_alg».proof.Proof.Gen.KernelIdeal.Launch
import proofs.«124926_j66013647339880_1_alg».proof.Proof.Gen.KernelIdeal.Skeleton
import proofs.«124926_j66013647339880_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the first conditional of the body (zero the two accumulator rows), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the last conditional of the body (divide and store the two outputs), from the grid coordinates. -/
abbrev cond0_1 (i : grid0.Coords) : Prop := k0_cond2 i = 1#1
/-- It holds at the last point only. -/
theorem hcond0_1 : ∀ t : Fin cfg0.N, cond0_1 (grid0.coords t) ↔ t.val = 73 :=
  (by decide +kernel : ∀ t : Fin grid0.N, cond0_1 (grid0.coords t) ↔ t.val = 73)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the last conditional is not taken the two outputs are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is taken they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging and scratch memrefs -/

/-- One staging buffer of each output window, through which its contents are stated (the choice does not matter). -/
abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view
/-- Each window's current staging memref at point `t`, spelt as the pipeline passes it, and its wholeness. -/
abbrev ms0_0 (t : Fin cfg0.N) : Memref sig .tc .vmem S2048x20x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two accumulator rows: whole scoped buffers of the kernel's own, passed beside the windows and carried
    between grid points. -/
abbrev scM0_0 : Memref sig .tc .vmem S1x64 .f32 := Memref.whole cc0_scratch0
abbrev scM0_1 : Memref sig .tc .vmem S1x64 .f32 := Memref.whole cc0_scratch1
/-- The same as views: what they hold is stated through these. -/
abbrev VS0_0 : View sig .tc .vmem S1x64 .f32 := scM0_0.view
abbrev VS0_1 : View sig .tc .vmem S1x64 .f32 := scM0_1.view

/-- The core's scoped buffers that are neither a staging buffer of this call nor one of its two accumulator rows,
    each whole at some contents: they ride along untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class's region invariant with the two accumulator rows split out as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

/-! ## The kernel body on any staging memrefs, case by case, as a subtype

Three cases occur over the grid: the FIRST point (the two accumulator rows are zeroed, then accumulated into; no
output is stored), a MIDDLE point (accumulate only) and the LAST point (accumulate, then divide and store both
outputs). -/

set_option maxHeartbeats 1000000 in
/-- The body at the FIRST point (first conditional taken, last not): on whole staging memrefs, the inputs' at their
    contents, the two outputs' (idle there) at contents handed back untouched, the two accumulator rows at anything,
    the body runs to the continuation holding the inputs' and the outputs' as they were and each accumulator row
    with its pieces written. The pieces are the witness. -/
noncomputable def kernelRun0_A (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) :
    Σ' (LS0 : List (View.Piece (Elt F) S1x64 .f32)), { LS1 : List (View.Piece (Elt F) S1x64 .f32) //
      ∀ (xi4 : Vec F S1x64 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, fun xi4 xi5 E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- The body at a MIDDLE point (neither conditional taken): as at the first point, but the two accumulator rows are
    handed in at what the point before left (`xs0`, `xs1`). -/
noncomputable def kernelRun0_B (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    Σ' (LS0 : List (View.Piece (Elt F) S1x64 .f32)), { LS1 : List (View.Piece (Elt F) S1x64 .f32) //
      ∀ (xi4 : Vec F S1x64 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, fun xi4 xi5 E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- The body at the LAST point (first conditional not taken, last taken): the inputs' memrefs at their contents, the
    two outputs' at anything, the two accumulator rows at what the point before left; the body runs to the
    continuation holding the inputs' as they were and each output's and each accumulator row's buffer with its
    pieces written. -/
noncomputable def kernelRun0_C (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    Σ' (L4 : List (View.Piece (Elt F) S1x64 .f32)) (L5 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

/-! ## What each case leaves in the accumulator rows and in the outputs -/

/-- The first point's pieces for the row of sums cover it. -/
theorem scover0_A_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x64.size (by sl_kernel_rfl) y

/-- What the first point leaves in the row of sums: its pieces read back. -/
def sout0_A_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)

/-- The first point's pieces for the row of sums of squares cover it. -/
theorem scover0_A_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x64.size (by sl_kernel_rfl) y

/-- What the first point leaves in the row of sums of squares. -/
def sout0_A_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)

/-- A middle point's pieces for the row of sums cover it. -/
theorem scover0_B_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x64.size (by sl_kernel_rfl) y

/-- What a middle point leaves in the row of sums. -/
def sout0_B_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)

/-- A middle point's pieces for the row of sums of squares cover it. -/
theorem scover0_B_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x64.size (by sl_kernel_rfl) y

/-- What a middle point leaves in the row of sums of squares. -/
def sout0_B_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)

/-- The last point's pieces for the mean's buffer cover it. -/
theorem cover0_C_4 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x64.size (by sl_kernel_rfl) y

/-- What the last point leaves in the mean's staging buffer. -/
def out0_C_4 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)

/-- The last point's pieces for the variance's buffer cover it. -/
theorem cover0_C_5 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x64.size (by sl_kernel_rfl) y

/-- What the last point leaves in the variance's staging buffer. -/
def out0_C_5 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)

/-- The last point's pieces for the row of sums cover it. -/
theorem scover0_C_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x64.size (by sl_kernel_rfl) y

/-- What the last point leaves in the row of sums. -/
def sout0_C_0 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)

/-- The last point's pieces for the row of sums of squares cover it. -/
theorem scover0_C_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x64.size (by sl_kernel_rfl) y

/-- What the last point leaves in the row of sums of squares. -/
def sout0_C_1 (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

/-- The contents named for an output's buffer at a point that stores nothing into it: nothing consults them (there the
    window is neither written back nor read at the next point). -/
def idleOut0_4 : Vec F S1x64 .f32 := VO0_4.read (Elt F) VO0_4.junk
def idleOut0_5 : Vec F S1x64 .f32 := VO0_5.read (Elt F) VO0_5.junk

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not, for ANY proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the two accumulator rows hold after each point -/

/-- THE ACCUMULATION. What the two outputs' staging buffers and the two accumulator rows hold after the body at position
    `n` (a tuple: the mean's buffer, the variance's buffer, the row of sums, the row of sums of squares): the case the
    closed forms select at `n`, run at the point's memrefs and input blocks, the accumulator rows handed in at what this
    leaves at `n - 1`. -/
def outsAt0 (c : Dev nD) : (n : ℕ) → n < cfg0.N → Vec F S1x64 .f32 × Vec F S1x64 .f32 × Vec F S1x64 .f32 × Vec F S1x64 .f32
  | 0, hn => (idleOut0_4, idleOut0_5,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 73 by decide)) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 73 by decide)) (iblk0 V c 0 ⟨0, hn⟩) (iblk0 V c 1 ⟨0, hn⟩) (iblk0 V c 2 ⟨0, hn⟩) (iblk0 V c 3 ⟨0, hn⟩))
  | n + 1, hn =>
    if h1 : n + 1 = 73 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (idleOut0_4, idleOut0_5,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) (h1 : ¬t.val = 73) :
    outsAt0 V c t.val t.isLt = (idleOut0_4, idleOut0_5,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- `outsAt0` at a middle point: over what the point before left in the accumulator rows. -/
theorem outsAt0_B (c : Dev nD) (t : Fin cfg0.N) (h0 : ¬t.val = 0) (h1 : ¬t.val = 73) :
    outsAt0 V c t.val t.isLt = (idleOut0_4, idleOut0_5,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt0` at the last point: over what the point before left in the accumulator rows. -/
theorem outsAt0_C (c : Dev nD) (t : Fin cfg0.N) (h0 : ¬t.val = 0) (h1 : t.val = 73) :
    outsAt0 V c t.val t.isLt = (
      out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: before the first point the class's (every scoped buffer that is no staging
    buffer at anything, the generator register at some state); afterwards the same with the two accumulator rows at what
    the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator rows at that point's contents. -/
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

/-- Before a point that is not the first: the accumulator rows at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem rec_eq0 (c : Dev nD) (t : Fin (cfg0.N + 1)) : (dat0 V c).recorded t = Set.univ := rfl

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body the two accumulator rows at what the point before left (at anything at the first point) and
    takes them back at this point's contents; an output idle at the point is handed back as found; the core owes nothing
    throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 74 := lt_of_lt_of_eq t.isLt (show cfg0.N = 74 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val = 73
  · have h0 : ¬t.val = 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold out0_C_4 out0_C_5 sout0_C_0 sout0_C_1; (try dsimp only)
    rw [PhiS0_castSucc V c t, PhiS0_pos V c _ _ h0]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val = 0
    · rw [outsAt0_A V c t h0 h1]
      unfold sout0_A_0 sout0_A_1; (try dsimp only)
      rw [PhiS0_castSucc V c t, PhiS0_zero V c _ _ h0, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [outsAt0_B V c t h0 h1]
      unfold sout0_B_0 sout0_B_1; (try dsimp only)
      rw [PhiS0_castSucc V c t, PhiS0_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_first (c : Dev nD) : (dat0 V c).Φ 0 = (Pipeline.ΦA spec0 c : sProp 𝕄) := rfl

theorem phi_first0 (c : Dev nD) : (Pipeline.ΦA spec0 c : sProp 𝕄) ⊢ (dat0 V c).Φ 0 := by
  rw [Phi0_first]; try exact Idealize.SL.BI.Entails.refl _

/-- After any point but the first the invariant gives the class's back: the accumulator rows' named contents are forgotten. -/
theorem Phi0_out (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem Phi0_last (c : Dev nD) : (dat0 V c).Φ (Fin.last cfg0.N) ⊢ (Pipeline.ΦA spec0 c : sProp 𝕄) :=
  Phi0_out V c _ (by rw [Fin.val_last]; have : cfg0.N = 74 := N_0; omega)

end Region

end Cert.KernelIdeal.Hand

end
-- ==== Proof.KI.R1.lean ====
/-
  Pallas call 1 (the normalise-and-pool pass), the frame half: its windows' blocks, what its body leaves in the output
  window's buffer as a function of the eight input blocks, the body's triple, the pipeline's proof data at the contents
  `V` the region is entered with, and the body obligation at every grid point. The body is straight-line: eight whole-block
  loads, one whole-block store.
-/
import proofs.«124926_j66013647339880_1_alg».proof.Proof.Gen.KernelIdeal.Launch
import proofs.«124926_j66013647339880_1_alg».proof.Proof.Gen.KernelIdeal.Skeleton
import proofs.«124926_j66013647339880_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2048x20x5 := Rect.unit (s := S2048x20x5) ![0, 0, 0] S2048x20x5.size inb_S2048x20x5_S2048x20x5_0_0_0
abbrev r1_1 : Rect S2048x1 := Rect.unit (s := S2048x1) ![0, 0] S2048x1.size inb_S2048x1_S2048x1_0_0
abbrev r1_2 : Rect S2048x4 := Rect.unit (s := S2048x4) ![0, 0] S2048x4.size inb_S2048x4_S2048x4_0_0
abbrev r1_3 : Rect S9x64 := Rect.unit (s := S9x64) ![0, 0] S9x64.size inb_S9x64_S9x64_0_0
abbrev r1_4 : Rect S1x64 := Rect.unit (s := S1x64) ![0, 0] S1x64.size inb_S1x64_S1x64_0_0
abbrev r1_5 : Rect S2048x64 := Rect.unit (s := S2048x64) ![0, 0] S2048x64.size inb_S2048x64_S2048x64_0_0

/-! ## What the body leaves in the output window's buffer -/

/-- The value the body stores, from the eight input blocks: the straight-line computation over what the eight loads read. -/
def pay1_8 (x0 : Vec F S2048x20x5 .f32) (x1 : Vec F S2048x1 .i32) (x2 : Vec F S2048x4 .i32) (x3 : Vec F S9x64 .f32)
    (x4 x5 x6 x7 : Vec F S1x64 .f32) : Vec F S2048x64 .f32 :=
  k1_pay7 (k1_pay2 (View.ld x0 r1_0)) (k1_pay3 (View.ld x0 r1_0) (View.ld x1 r1_1)) (k1_pay4 (View.ld x0 r1_0) (View.ld x2 r1_2))
    (k1_pay5 (View.ld x0 r1_0) (View.ld x2 r1_2)) (k1_pay6 (View.ld x0 r1_0)) (Scalar.ofBits .f32 0xBF800000#32)
    (View.ld x3 r1_3) (View.ld x4 r1_4) (View.ld x5 r1_4) (View.ld x6 r1_4) (View.ld x7 r1_4)

/-- Window 8's staging buffer after the body, from the input windows' blocks: its one store as a piece. -/
def out1_8 (x0 : Vec F S2048x20x5 .f32) (x1 : Vec F S2048x1 .i32) (x2 : Vec F S2048x4 .i32) (x3 : Vec F S9x64 .f32)
    (x4 x5 x6 x7 : Vec F S1x64 .f32) : Vec F S2048x64 .f32 :=
  View.canon [⟨r1_5, pay1_8 x0 x1 x2 x3 x4 x5 x6 x7⟩]

/-- The store tiles the buffer, so it covers it. -/
theorem cover1_8 (p0 : Vec F S2048x64 .f32) (y : S2048x64.Idx) :
    ∃ pc ∈ ([⟨r1_5, p0⟩] : List (View.Piece (Elt F) S2048x64 .f32)), y ∈ pc.1.set :=
  View.cover_of_tiled [⟨r1_5, p0⟩] S2048x64.size (by rfl) y

/-! ## The body's triple -/

set_option maxHeartbeats 4000000 in
/-- The kernel body on whole staging memrefs, the inputs' at read contents `xW` and the output's at anything, runs to
    the continuation holding the inputs' as they were and the output's at `out1_8` of the inputs'. -/
theorem sound_kernel1 (c : Dev nD) (E : Set ℕ) (i : grid1.Coords)
    (arg1 : Memref sig .tc .vmem S2048x20x5 .f32) (harg1 : arg1.IsWhole) (arg2 : Memref sig .tc .vmem S2048x1 .i32) (harg2 : arg2.IsWhole)
    (arg3 : Memref sig .tc .vmem S2048x4 .i32) (harg3 : arg3.IsWhole) (arg4 : Memref sig .tc .vmem S9x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S2048x64 .f32) (harg9 : arg9.IsWhole)
    (x0 : Vec F S2048x20x5 .f32) (x1 : Vec F S2048x1 .i32) (x2 : Vec F S2048x4 .i32) (x3 : Vec F S9x64 .f32)
    (x4 x5 x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9) K := by
  simp only [cc1__main_kernel_eq_skeleton]; unfold cc1__main_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at point `t` each
    input's buffer at its block and the output's at `out1_8` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Frame.lean ====
/-
  The frame of @main from the two kernels' halves: each region's proof data meets what the run asks of it (its arrays are
  the entry contents, full shares, nothing owed, the body obligation at every grid point, the class invariant at both ends),
  so every weakly fair execution terminates with the six argument arrays as launched.
-/
import proofs.«124926_j66013647339880_1_alg».proof.Proof.KI.Run
import proofs.«124926_j66013647339880_1_alg».proof.Proof.KI.R0
import proofs.«124926_j66013647339880_1_alg».proof.Proof.KI.R1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The statistics kernel's half: its invariant carries the two accumulator rows from point to point, starts as the class
    invariant and ends inside it. -/
theorem half0 : Half0 (F := F) (fun V c => dat0 V c) :=
  ⟨fun V c w => A_eq0 V c w, fun V c w => q_eq0 V c w, fun V c t => owed_eq0 V c t, fun V c t => rec_eq0 V c t,
    fun V c => body_obligation0 V c, fun V c => phi_first0 V c, fun V c => Phi0_last V c⟩

/-- The normalising kernel's half: a straight-line body under the class invariant. -/
theorem half1 : Half1 (F := F) (fun V c => dat1 V c) :=
  ⟨fun V c w => A_eq1 V c w, fun _ _ _ => rfl, fun _ _ _ => rfl, fun _ _ _ => rfl, fun V c => body_obligation1 V c,
    fun _ _ => BIBase.Entails.rfl, fun _ _ => BIBase.Entails.rfl⟩

/-- @main's run with both halves in place. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs m (fun V c => dat0 V c) (fun V c => dat1 V c)) c b) :=
  run m (half0 (F := F)) (half1 (F := F)) ρ

/-- @main's frame with both halves in place. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m (half0 (F := F)) (half1 (F := F)) ρ

end Cert.KernelIdeal.Hand

end
-- ==== Proof.Ref.Terms.lean ====
/-
  The reference program's three results as pure functions of its arguments.

  Each definition below is a chain of `let`s, one per operation of the reference's @main, in the program's order and
  over the very functions the program's lines carry, so that the contents the run leaves in a result buffer are the
  corresponding term here by unfolding. The three module-local functions (the variance, the select and the clamp at
  zero) are written out at their call sites. The chain of the first result is cut into stages (`t0` … `t65`, named
  after the value each one ends in); `out65` composes them.
-/
import proofs.«124926_j66013647339880_1_alg».proof.ReferenceIdeal

noncomputable section

namespace Cert.ReferenceIdeal.Terms

open Idealize.ShloMosaic Idealize.SL.Sem
open Cert.ReferenceIdeal

variable {F : FTy → Type} [FloatOps F] [Facts]
open Facts₀ Facts

/-! ## The first result: the pooled features -/

/-- `%0`: the first three features (x, y, z) of every point. -/
def t0 (a0 : FVec F S150000x20x5 .f32) : FVec F S150000x20x3 .f32 :=
  extractStridedSlice S150000x20x3 ![0, 0, 0] a0 slices_S150000x20x5_S150000x20x3_0_0_0

/-- `%1` … `%5`: the pillar's mean point — the sum over its 20 points, over the point count. -/
def t5 (v0 : FVec F S150000x20x3 .f32) (a1 : IVec S150000 32) : FVec F S150000x3 .f32 :=
  let v1 : FVec F S150000 .f32 := sitofp .f32 a1
  let cst_2 : FVec F S_ .f32 := constant S_ .f32 0x00000000#32
  let v2 : FVec F S150000x3 .f32 := Host.reduceAdd v0 cst_2 reducesTo_S150000x20x3_S150000x3_d1 h_S_
  let v3 : FVec F S150000x1 .f32 := broadcastInDim S150000x1 ![0] bcast_S150000_S150000x1_0 v1
  let v4 : FVec F S150000x3 .f32 := broadcastInDim S150000x3 ![0, 1] bcast_S150000x1_S150000x3_0_1 v3
  Host.divf v2 v4

/-- `%6` … `%8`: the offsets from the mean point. -/
def t8 (v0 : FVec F S150000x20x3 .f32) (v5 : FVec F S150000x3 .f32) : FVec F S150000x20x3 .f32 :=
  let v6 : FVec F S150000x1x3 .f32 := broadcastInDim S150000x1x3 ![0, 2] bcast_S150000x3_S150000x1x3_0_2 v5
  let v7 : FVec F S150000x20x3 .f32 := broadcastInDim S150000x20x3 ![0, 1, 2] bcast_S150000x1x3_S150000x20x3_0_1_2 v6
  subf v0 v7

/-- `%9` … `%22`: the voxel centre's x and y — the integer columns 3 and 2, plus a half, times the voxel size,
    plus the range's origin. -/
def t22 (a2 : IVec S150000x4 32) : FVec F S150000x2 .f32 :=
  let cst : FVec F S3 .f32 := fun i => FloatOps.ofBits .f32 (lit0 (S3.rowMajor i))
  let cst_0 : FVec F S6 .f32 := fun i => FloatOps.ofBits .f32 (lit1 (S6.rowMajor i))
  let v9 : IVec S150000x2 32 := extractStridedSlice S150000x2 ![0, 2] a2 slices_S150000x4_S150000x2_0_2
  let v10 : FVec F S150000x2 .f32 := sitofp .f32 v9
  let v11 : FVec F S150000x2 .f32 := Host.reverse [1] v10
  let cst_3 : FVec F S_ .f32 := constant S_ .f32 0x3F000000#32
  let v13 : FVec F S150000x2 .f32 := broadcastInDim S150000x2 ![] bcast_S_S150000x2 cst_3
  let v14 : FVec F S150000x2 .f32 := addf v11 v13
  let v15 : FVec F S2 .f32 := extractStridedSlice S2 ![0] cst slices_S3_S2_0
  let v16 : FVec F S1x2 .f32 := broadcastInDim S1x2 ![1] bcast_S2_S1x2_1 v15
  let v17 : FVec F S150000x2 .f32 := broadcastInDim S150000x2 ![0, 1] bcast_S1x2_S150000x2_0_1 v16
  let v18 : FVec F S150000x2 .f32 := mulf v14 v17
  let v19 : FVec F S2 .f32 := extractStridedSlice S2 ![0] cst_0 slices_S6_S2_0
  let v20 : FVec F S1x2 .f32 := broadcastInDim S1x2 ![1] bcast_S2_S1x2_1 v19
  let v21 : FVec F S150000x2 .f32 := broadcastInDim S150000x2 ![0, 1] bcast_S1x2_S150000x2_0_1 v20
  addf v18 v21

/-- `%28` … `%33`: the voxel centre's z, a constant — a half times the voxel height, plus the range's origin. -/
def t33 : FVec F S_ .f32 :=
  let cst : FVec F S3 .f32 := fun i => FloatOps.ofBits .f32 (lit0 (S3.rowMajor i))
  let cst_0 : FVec F S6 .f32 := fun i => FloatOps.ofBits .f32 (lit1 (S6.rowMajor i))
  let v28 : FVec F S1 .f32 := extractStridedSlice S1 ![2] cst slices_S3_S1_2
  let v29 : FVec F S_ .f32 := shapeCast S_ v28 shapeCasts_S1_S_
  let cst_4 : FVec F S_ .f32 := constant S_ .f32 0x3F000000#32
  let v30 : FVec F S_ .f32 := mulf cst_4 v29
  let v31 : FVec F S1 .f32 := extractStridedSlice S1 ![2] cst_0 slices_S6_S1_2
  let v32 : FVec F S_ .f32 := shapeCast S_ v31 shapeCasts_S1_S_
  addf v30 v32

/-- `%12`, `%23` … `%27`, `%34` … `%37`: the offsets from the voxel centre. -/
def t37 (v0 : FVec F S150000x20x3 .f32) (v22 : FVec F S150000x2 .f32) (v33 : FVec F S_ .f32) :
    FVec F S150000x20x3 .f32 :=
  let v12 : FVec F S150000x20x2 .f32 := extractStridedSlice S150000x20x2 ![0, 0, 0] v0 slices_S150000x20x3_S150000x20x2_0_0_0
  let v23 : FVec F S150000x1x2 .f32 := broadcastInDim S150000x1x2 ![0, 2] bcast_S150000x2_S150000x1x2_0_2 v22
  let v24 : FVec F S150000x20x2 .f32 := broadcastInDim S150000x20x2 ![0, 1, 2] bcast_S150000x1x2_S150000x20x2_0_1_2 v23
  let v25 : FVec F S150000x20x2 .f32 := subf v12 v24
  let v26 : FVec F S150000x20x1 .f32 := extractStridedSlice S150000x20x1 ![0, 0, 2] v0 slices_S150000x20x3_S150000x20x1_0_0_2
  let v27 : FVec F S150000x20 .f32 := shapeCast S150000x20 v26 shapeCasts_S150000x20x1_S150000x20
  let v34 : FVec F S150000x20 .f32 := broadcastInDim S150000x20 ![] bcast_S_S150000x20 v33
  let v35 : FVec F S150000x20 .f32 := subf v27 v34
  let v36 : FVec F S150000x20x1 .f32 := broadcastInDim S150000x20x1 ![0, 1] bcast_S150000x20_S150000x20x1_0_1 v35
  concatenate S150000x20x3 2 [⟨S150000x20x2, v25⟩, ⟨S150000x20x1, v36⟩] concatenates_S150000x20x2_S150000x20x1_S150000x20x3_d2

/-- `%38` … `%40`: the mask — one where the coordinate is not zero, else zero. -/
def t40 (v0 : FVec F S150000x20x3 .f32) : FVec F S150000x20x3 .f32 :=
  let cst_5 : FVec F S_ .f32 := constant S_ .f32 0x00000000#32
  let v38 : FVec F S150000x20x3 .f32 := broadcastInDim S150000x20x3 ![] bcast_S_S150000x20x3 cst_5
  let v39 : IVec S150000x20x3 1 := cmpf .une v0 v38
  uitofp .f32 v39

/-- `%41` … `%43`: the nine features of a point — coordinates, masked centre offsets, masked mean offsets. -/
def t43 (v0 v37 v40 v8 : FVec F S150000x20x3 .f32) : FVec F S150000x20x9 .f32 :=
  let v41 : FVec F S150000x20x3 .f32 := mulf v37 v40
  let v42 : FVec F S150000x20x3 .f32 := mulf v8 v40
  concatenate S150000x20x9 2 [⟨S150000x20x3, v0⟩, ⟨S150000x20x3, v41⟩, ⟨S150000x20x3, v42⟩]
    concatenates_S150000x20x3_S150000x20x3_S150000x20x3_S150000x20x9_d2

/-- `%44`: the linear layer, nine features to 64 channels. -/
def t44 (v43 : FVec F S150000x20x9 .f32) (a3 : FVec F S64x9 .f32) : FVec F S150000x20x64 .f32 :=
  Host.dotGeneral dot_S150000x20x9_S64x9_S150000x20x64_2_1_01_0_n_n none v43 a3

/-- `%45` … `%47`: the batch mean of every channel. -/
def t47 (v44 : FVec F S150000x20x64 .f32) : FVec F S64 .f32 :=
  let cst_6 : FVec F S_ .f32 := constant S_ .f32 0x00000000#32
  let v45 : FVec F S64 .f32 := Host.reduceAdd v44 cst_6 reducesTo_S150000x20x64_S64_d0_1 h_S_
  let cst_7 : FVec F S_ .f32 := constant S_ .f32 0x4A371B00#32
  let v46 : FVec F S64 .f32 := broadcastInDim S64 ![] bcast_S_S64 cst_7
  Host.divf v45 v46

/-- `%48`: the batch variance of every channel, the variance function and the select it calls written out —
    the mean, the deviations, their squares, the sum, the division by the row count less the integer `%c_8`, and the
    choice between that quotient and a not-a-number constant on whether the divisor is positive. -/
def t48 (v44 : FVec F S150000x20x64 .f32) : FVec F S64 .f32 :=
  let c_8 : IVec S_ 32 := constantI S_ 32 0#32
  let call0_cst : FVec F S_ .f32 := constant S_ .f32 0x00000000#32
  let call0_v0 : FVec F S64 .f32 := Host.reduceAdd v44 call0_cst reducesTo_S150000x20x64_S64_d0_1 h_S_
  let call0_v1 : FVec F S1x1x64 .f32 := broadcastInDim S1x1x64 ![2] bcast_S64_S1x1x64_2 call0_v0
  let call0_cst_0 : FVec F S_ .f32 := constant S_ .f32 0x4A371B00#32
  let call0_v2 : FVec F S1x1x64 .f32 := broadcastInDim S1x1x64 ![] bcast_S_S1x1x64 call0_cst_0
  let call0_v3 : FVec F S1x1x64 .f32 := Host.divf call0_v1 call0_v2
  let call0_v4 : FVec F S150000x20x64 .f32 := broadcastInDim S150000x20x64 ![0, 1, 2] bcast_S1x1x64_S150000x20x64_0_1_2 call0_v3
  let call0_v5 : FVec F S150000x20x64 .f32 := subf v44 call0_v4
  let call0_v6 : FVec F S150000x20x64 .f32 := mulf call0_v5 call0_v5
  let call0_v7 : FVec F S_ .f32 := sitofp .f32 c_8
  let call0_cst_1 : FVec F S_ .f32 := constant S_ .f32 0x4A371B00#32
  let call0_v8 : FVec F S_ .f32 := subf call0_cst_1 call0_v7
  let call0_cst_2 : FVec F S_ .f32 := constant S_ .f32 0x00000000#32
  let call0_v9 : FVec F S64 .f32 := Host.reduceAdd call0_v6 call0_cst_2 reducesTo_S150000x20x64_S64_d0_1 h_S_
  let call0_v10 : FVec F S64 .f32 := broadcastInDim S64 ![] bcast_S_S64 call0_v8
  let call0_v11 : FVec F S64 .f32 := Host.divf call0_v9 call0_v10
  let call0_cst_3 : FVec F S_ .f32 := constant S_ .f32 0x00000000#32
  let call0_v12 : IVec S_ 1 := cmpf .ogt call0_v8 call0_cst_3
  let call0_cst_4 : FVec F S_ .f32 := constant S_ .f32 0x7FC00000#32
  let call0_call0_v0 : FVec F S_ .f32 := id call0_cst_4
  let call0_call0_v1 : FVec F S64 .f32 := broadcastInDim S64 ![] bcast_S_S64 call0_call0_v0
  select (broadcastInDim S64 ![] bcast_S_S64 call0_v12) call0_v11 call0_call0_v1

/-- `%49` … `%63`: the normalised value, scaled and shifted. -/
def t63 (v44 : FVec F S150000x20x64 .f32) (v47 v48 a4 a5 : FVec F S64 .f32) : FVec F S150000x20x64 .f32 :=
  let v49 : FVec F S1x1x64 .f32 := broadcastInDim S1x1x64 ![2] bcast_S64_S1x1x64_2 v47
  let v50 : FVec F S150000x20x64 .f32 := broadcastInDim S150000x20x64 ![0, 1, 2] bcast_S1x1x64_S150000x20x64_0_1_2 v49
  let v51 : FVec F S150000x20x64 .f32 := subf v44 v50
  let cst_9 : FVec F S_ .f32 := constant S_ .f32 0x3A83126F#32
  let v52 : FVec F S64 .f32 := broadcastInDim S64 ![] bcast_S_S64 cst_9
  let v53 : FVec F S64 .f32 := addf v48 v52
  let v54 : FVec F S64 .f32 := Host.rsqrt v53
  let v55 : FVec F S1x1x64 .f32 := broadcastInDim S1x1x64 ![2] bcast_S64_S1x1x64_2 v54
  let v56 : FVec F S150000x20x64 .f32 := broadcastInDim S150000x20x64 ![0, 1, 2] bcast_S1x1x64_S150000x20x64_0_1_2 v55
  let v57 : FVec F S150000x20x64 .f32 := mulf v51 v56
  let v58 : FVec F S1x1x64 .f32 := broadcastInDim S1x1x64 ![2] bcast_S64_S1x1x64_2 a4
  let v59 : FVec F S150000x20x64 .f32 := broadcastInDim S150000x20x64 ![0, 1, 2] bcast_S1x1x64_S150000x20x64_0_1_2 v58
  let v60 : FVec F S150000x20x64 .f32 := mulf v57 v59
  let v61 : FVec F S1x1x64 .f32 := broadcastInDim S1x1x64 ![2] bcast_S64_S1x1x64_2 a5
  let v62 : FVec F S150000x20x64 .f32 := broadcastInDim S150000x20x64 ![0, 1, 2] bcast_S1x1x64_S150000x20x64_0_1_2 v61
  addf v60 v62

/-- `%64`, `%65`: the clamp at zero (the clamp function written out) and the maximum over the 20 points, from
    minus infinity. -/
def t65 (v63 : FVec F S150000x20x64 .f32) : FVec F S150000x64 .f32 :=
  let call1_cst : FVec F S_ .f32 := constant S_ .f32 0x00000000#32
  let call1_v0 : FVec F S150000x20x64 .f32 := broadcastInDim S150000x20x64 ![] bcast_S_S150000x20x64 call1_cst
  let v64 : FVec F S150000x20x64 .f32 := maximumf v63 call1_v0
  let cst_10 : FVec F S_ .f32 := constant S_ .f32 0xFF800000#32
  Host.reduce FloatOps.maximumf v64 cst_10 reducesTo_S150000x20x64_S150000x64_d1 h_S_

/-- The buffer of `%65`, the program's first result, as a function of the six arguments. -/
def out65 (a0 : FVec F S150000x20x5 .f32) (a1 : IVec S150000 32) (a2 : IVec S150000x4 32) (a3 : FVec F S64x9 .f32)
    (a4 a5 : FVec F S64 .f32) : FVec F S150000x64 .f32 :=
  let v0 : FVec F S150000x20x3 .f32 := t0 a0
  let v5 : FVec F S150000x3 .f32 := t5 v0 a1
  let v8 : FVec F S150000x20x3 .f32 := t8 v0 v5
  let v22 : FVec F S150000x2 .f32 := t22 a2
  let v33 : FVec F S_ .f32 := t33
  let v37 : FVec F S150000x20x3 .f32 := t37 v0 v22 v33
  let v40 : FVec F S150000x20x3 .f32 := t40 v0
  let v43 : FVec F S150000x20x9 .f32 := t43 v0 v37 v40 v8
  let v44 : FVec F S150000x20x64 .f32 := t44 v43 a3
  let v47 : FVec F S64 .f32 := t47 v44
  let v48 : FVec F S64 .f32 := t48 v44
  let v63 : FVec F S150000x20x64 .f32 := t63 v44 v47 v48 a4 a5
  t65 v63

/-! ## The second result: the gathered coordinate columns -/

/-- The buffer of `%72`: columns 0, 2 and 3 of the integer coordinates, gathered through the index vector the program
    builds (each index below zero moved up by four, then read as a column). -/
def out72 (a2 : IVec S150000x4 32) : IVec S150000x3 32 :=
  let c : IVec S3 32 := fun i => lit2 (S3.rowMajor i)
  let c_11 : IVec S_ 32 := constantI S_ 32 0#32
  let v66 : IVec S3 32 := broadcastInDim S3 ![] bcast_S_S3 c_11
  let v67 : IVec S3 1 := cmpi .slt c v66
  let c_12 : IVec S_ 32 := constantI S_ 32 4#32
  let v68 : IVec S3 32 := broadcastInDim S3 ![] bcast_S_S3 c_12
  let v69 : IVec S3 32 := addi c v68
  let v70 : IVec S3 32 := select v67 v69 c
  let v71 : IVec S3x1 32 := broadcastInDim S3x1 ![0] bcast_S3_S3x1_0 v70
  Host.gather gather_S150000x4_S3x1_S150000x3_0_1_n_n_1_1_1500001 a2 v71

/-! ## The third result: the grid size -/

/-- The buffer of `%84`: the rounded-up quotient of the range's extent by the voxel size, its entries 1 and 0. -/
def out84 : FVec F S2 .f32 :=
  let cst : FVec F S3 .f32 := fun i => FloatOps.ofBits .f32 (lit0 (S3.rowMajor i))
  let cst_0 : FVec F S6 .f32 := fun i => FloatOps.ofBits .f32 (lit1 (S6.rowMajor i))
  let c_1 : IVec S2 32 := fun i => lit3 (S2.rowMajor i)
  let v73 : FVec F S3 .f32 := extractStridedSlice S3 ![3] cst_0 slices_S6_S3_3
  let v74 : FVec F S3 .f32 := extractStridedSlice S3 ![0] cst_0 slices_S6_S3_0
  let v75 : FVec F S3 .f32 := subf v73 v74
  let v76 : FVec F S3 .f32 := Host.divf v75 cst
  let v77 : FVec F S3 .f32 := Host.ceil v76
  let c_13 : IVec S_ 32 := constantI S_ 32 0#32
  let v78 : IVec S2 32 := broadcastInDim S2 ![] bcast_S_S2 c_13
  let v79 : IVec S2 1 := cmpi .slt c_1 v78
  let c_14 : IVec S_ 32 := constantI S_ 32 3#32
  let v80 : IVec S2 32 := broadcastInDim S2 ![] bcast_S_S2 c_14
  let v81 : IVec S2 32 := addi c_1 v80
  let v82 : IVec S2 32 := select v79 v81 c_1
  let v83 : IVec S2x1 32 := broadcastInDim S2x1 ![0] bcast_S2_S2x1_0 v82
  Host.gather gather_S3_S2x1_S2_n_0_n_n_0_1_1 v77 v83

end Cert.ReferenceIdeal.Terms

end
-- ==== Proof.KI.Host.lean ====
/-
  The host side of @main: what the host operations before the two kernel regions leave in the buffers the regions read,
  and what the host operations after them leave in the three result buffers.

  Before the regions: the features, the point counts and the coordinates padded from 150000 to 151552 pillars (with 0.0,
  with the word 1, with the word 0), the counts then reshaped to a column; the weight matrix transposed; the scale and the
  shift reshaped to rows. Each is stated as a pure function of the launch contents of the arguments, then read at an index:
  a padded array is the argument at a pillar below 150000 and the padding value from there on.
  After the regions: the first result is the leading 150000 rows of the pooled features; the second and the third are the
  same chains of operations as the reference program's second and third results, on the same argument and constants.
-/
import proofs.«124926_j66013647339880_1_alg».proof.Proof.Gen.KernelIdeal.Regions
import proofs.«124926_j66013647339880_1_alg».proof.Proof.Ref.Terms
import Idealize.ShloMosaic.Lib.KernelVsHost
import Idealize.ShloMosaic.Lib.ValueIdx
import Idealize.ShloMosaic.Lib.ValueLayout
import Idealize.ShloMosaic.Lib.Pipeline.Value

noncomputable section

namespace Cert.KernelIdeal.HandHost

open Cert.KernelIdeal Cert.KernelIdeal.Gen Idealize.ShloMosaic Idealize.ShloMosaic.TcCoe
open Idealize.ShloMosaic.ValueIdx
open Idealize.SL.Sem

/-! ## Padding along the leading axis, and a trailing unit axis, read at an index -/

section Reading
variable {α : Type}

/-- An array of rank 3 padded after its end along the leading axis reads, below the operand's extent, the operand. -/
theorem pad3_lt {n0 n1 n2 N hi : Nat} (x : (⟨3, ![n0, n1, n2]⟩ : Shape).Idx → α) {u : Shape} (v : u.Idx → α)
    (h : (⟨3, ![n0, n1, n2]⟩ : Shape).Pads (![0, 0, 0] : Fin 3 → Nat) ![hi, 0, 0] ![0, 0, 0] ⟨3, ![N, n1, n2]⟩) (hu : 0 < u.numel)
    (p : Fin N) (a : Fin n1) (b : Fin n2) (hp : p.val < n0) :
    pad ⟨3, ![N, n1, n2]⟩ ![0, 0, 0] ![hi, 0, 0] ![0, 0, 0] x v h hu (ix3 p a b) = x (ix3 ⟨p.val, hp⟩ a b) :=
  pad_apply_of_inside _ _ _ x v h hu _ _ (fun ax => by
    match ax with
    | ⟨0, _⟩ => show p.val = 0 + p.val * (0 + 1); omega
    | ⟨1, _⟩ => show a.val = 0 + a.val * (0 + 1); omega
    | ⟨2, _⟩ => show b.val = 0 + b.val * (0 + 1); omega)

/-- … and from the operand's extent on, the padding value. -/
theorem pad3_ge {n0 n1 n2 N hi : Nat} (x : (⟨3, ![n0, n1, n2]⟩ : Shape).Idx → α) {u : Shape} (v : u.Idx → α)
    (h : (⟨3, ![n0, n1, n2]⟩ : Shape).Pads (![0, 0, 0] : Fin 3 → Nat) ![hi, 0, 0] ![0, 0, 0] ⟨3, ![N, n1, n2]⟩) (hu : 0 < u.numel)
    (p : Fin N) (a : Fin n1) (b : Fin n2) (hp : n0 ≤ p.val) :
    pad ⟨3, ![N, n1, n2]⟩ ![0, 0, 0] ![hi, 0, 0] ![0, 0, 0] x v h hu (ix3 p a b) = v (Shape.Idx.first hu) :=
  pad_apply_of_not_inside _ _ _ x v h hu _ (0 : Fin 3) (by
    show ¬(0 ≤ p.val ∧ (p.val - 0) % (0 + 1) = 0 ∧ (p.val - 0) / (0 + 1) < n0)
    intro hh
    have h3 := hh.2.2
    rw [Nat.sub_zero, Nat.zero_add, Nat.div_one] at h3
    omega)

/-- A matrix padded after its end along the leading axis reads, below the operand's extent, the operand. -/
theorem pad2_lt {n0 n1 N hi : Nat} (x : (⟨2, ![n0, n1]⟩ : Shape).Idx → α) {u : Shape} (v : u.Idx → α)
    (h : (⟨2, ![n0, n1]⟩ : Shape).Pads (![0, 0] : Fin 2 → Nat) ![hi, 0] ![0, 0] ⟨2, ![N, n1]⟩) (hu : 0 < u.numel)
    (p : Fin N) (a : Fin n1) (hp : p.val < n0) :
    pad ⟨2, ![N, n1]⟩ ![0, 0] ![hi, 0] ![0, 0] x v h hu (ix2 p a) = x (ix2 ⟨p.val, hp⟩ a) :=
  pad_apply_of_inside _ _ _ x v h hu _ _ (fun ax => by
    match ax with
    | ⟨0, _⟩ => show p.val = 0 + p.val * (0 + 1); omega
    | ⟨1, _⟩ => show a.val = 0 + a.val * (0 + 1); omega)

/-- … and from the operand's extent on, the padding value. -/
theorem pad2_ge {n0 n1 N hi : Nat} (x : (⟨2, ![n0, n1]⟩ : Shape).Idx → α) {u : Shape} (v : u.Idx → α)
    (h : (⟨2, ![n0, n1]⟩ : Shape).Pads (![0, 0] : Fin 2 → Nat) ![hi, 0] ![0, 0] ⟨2, ![N, n1]⟩) (hu : 0 < u.numel)
    (p : Fin N) (a : Fin n1) (hp : n0 ≤ p.val) :
    pad ⟨2, ![N, n1]⟩ ![0, 0] ![hi, 0] ![0, 0] x v h hu (ix2 p a) = v (Shape.Idx.first hu) :=
  pad_apply_of_not_inside _ _ _ x v h hu _ (0 : Fin 2) (by
    show ¬(0 ≤ p.val ∧ (p.val - 0) % (0 + 1) = 0 ∧ (p.val - 0) / (0 + 1) < n0)
    intro hh
    have h3 := hh.2.2
    rw [Nat.sub_zero, Nat.zero_add, Nat.div_one] at h3
    omega)

/-- A vector padded after its end reads, below the operand's extent, the operand. -/
theorem pad1_lt {n0 N hi : Nat} (x : (⟨1, ![n0]⟩ : Shape).Idx → α) {u : Shape} (v : u.Idx → α)
    (h : (⟨1, ![n0]⟩ : Shape).Pads (![0] : Fin 1 → Nat) ![hi] ![0] ⟨1, ![N]⟩) (hu : 0 < u.numel)
    (p : Fin N) (hp : p.val < n0) :
    pad ⟨1, ![N]⟩ ![0] ![hi] ![0] x v h hu (ix1 p) = x (ix1 ⟨p.val, hp⟩) :=
  pad_apply_of_inside _ _ _ x v h hu _ _ (fun ax => by
    match ax with
    | ⟨0, _⟩ => show p.val = 0 + p.val * (0 + 1); omega)

/-- … and from the operand's extent on, the padding value. -/
theorem pad1_ge {n0 N hi : Nat} (x : (⟨1, ![n0]⟩ : Shape).Idx → α) {u : Shape} (v : u.Idx → α)
    (h : (⟨1, ![n0]⟩ : Shape).Pads (![0] : Fin 1 → Nat) ![hi] ![0] ⟨1, ![N]⟩) (hu : 0 < u.numel)
    (p : Fin N) (hp : n0 ≤ p.val) :
    pad ⟨1, ![N]⟩ ![0] ![hi] ![0] x v h hu (ix1 p) = v (Shape.Idx.first hu) :=
  pad_apply_of_not_inside _ _ _ x v h hu _ (0 : Fin 1) (by
    show ¬(0 ≤ p.val ∧ (p.val - 0) % (0 + 1) = 0 ∧ (p.val - 0) / (0 + 1) < n0)
    intro hh
    have h3 := hh.2.2
    rw [Nat.sub_zero, Nat.zero_add, Nat.div_one] at h3
    omega)

/-- A vector cast to a column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Reading

variable {F : FTy → Type} [FloatOps F] (m : (ℓ : Loc nD τ sig) → Buf (Elt F) ℓ) (outs : Outs (F := F)) (c : Dev nD)

/-! ## The three results, after the last host stretch -/

/-- The launch contents reach the last host stretch in a reference no earlier item writes. -/
theorem V9_launch (r : Ref sig .tc) (h9 : r ∉ ([main_v8] : List (Ref sig .tc))) (h8 : r ∉ ([main_v7_0, main_v7_1] : List (Ref sig .tc)))
    (h7 : r ∉ hostOps0_6_W) (h6 : r ∉ hostOps0_5_W) (h5 : r ∉ hostOps0_4_W) (h4 : r ∉ hostOps0_3_W) (h3 : r ∉ hostOps0_2_W)
    (h2 : r ∉ hostOps0_1_W) : V9 m outs c r = V1 m c r :=
  (V9_of m outs c r h9).trans <| (V8_of m outs c r h8).trans <| (V7_of m c r h7).trans <| (V6_of m c r h6).trans <|
    (V5_of m c r h5).trans <| (V4_of m c r h4).trans <| (V3_of m c r h3).trans (V2_of m c r h2)

theorem V9_arg2 : V9 m outs c main_arg2 = m ((c : Thread nD τ).loc main_arg2) :=
  (V9_launch m outs c main_arg2 (by decide) (by decide) (by decide) (by decide) (by decide) (by decide) (by decide) (by decide)).trans
    (V1_of m c main_arg2 (by decide))

theorem V9_c : V9 m outs c main_c = (fun i => lit0 (S3.rowMajor i) : IVec S3 32) := by
  rw [V9_launch m outs c main_c (by decide) (by decide) (by decide) (by decide) (by decide) (by decide) (by decide) (by decide)]
  show StableHlo.after hostOps0 (V0 m c) (Proc.devRef .tc main_c) = _
  after_results <;> rfl

theorem V9_cst : V9 m outs c main_cst = (fun i => FloatOps.ofBits .f32 (lit1 (S6.rowMajor i)) : FVec F S6 .f32) := by
  rw [V9_launch m outs c main_cst (by decide) (by decide) (by decide) (by decide) (by decide) (by decide) (by decide) (by decide)]
  show StableHlo.after hostOps0 (V0 m c) (Proc.devRef .tc main_cst) = _
  after_results <;> rfl

theorem V9_cst_0 : V9 m outs c main_cst_0 = (fun i => FloatOps.ofBits .f32 (lit2 (S3.rowMajor i)) : FVec F S3 .f32) := by
  rw [V9_launch m outs c main_cst_0 (by decide) (by decide) (by decide) (by decide) (by decide) (by decide) (by decide) (by decide)]
  show StableHlo.after hostOps0 (V0 m c) (Proc.devRef .tc main_cst_0) = _
  after_results <;> rfl

theorem V9_c_1 : V9 m outs c main_c_1 = (fun i => lit3 (S2.rowMajor i) : IVec S2 32) := by
  rw [V9_launch m outs c main_c_1 (by decide) (by decide) (by decide) (by decide) (by decide) (by decide) (by decide) (by decide)]
  show StableHlo.after hostOps0 (V0 m c) (Proc.devRef .tc main_c_1) = _
  after_results <;> rfl

theorem V10_v9 : V10 m outs c main_v9 = extractStridedSlice S150000x64 ![0, 0] (V9 m outs c main_v8) slices_S151552x64_S150000x64_0_0 := by
  show StableHlo.after hostOps2 (V9 m outs c) (Proc.devRef .tc main_v9) = _
  after_results <;> rfl

/-- The second result as the program composes it: the gather of the coordinate columns through the index vector it builds. -/
def k16 (a2 : IVec S150000x4 32) : IVec S150000x3 32 :=
  let c : IVec S3 32 := fun i => lit0 (S3.rowMajor i)
  let c_5 : IVec S_ 32 := constantI S_ 32 0#32
  let v10 : IVec S3 32 := broadcastInDim S3 ![] bcast_S_S3 c_5
  let v11 : IVec S3 1 := cmpi .slt c v10
  let c_6 : IVec S_ 32 := constantI S_ 32 4#32
  let v12 : IVec S3 32 := broadcastInDim S3 ![] bcast_S_S3 c_6
  let v13 : IVec S3 32 := addi c v12
  let v14 : IVec S3 32 := select v11 v13 c
  let v15 : IVec S3x1 32 := broadcastInDim S3x1 ![0] bcast_S3_S3x1_0 v14
  Host.gather gather_S150000x4_S3x1_S150000x3_0_1_n_n_1_1_1500001 a2 v15

theorem V10_v16_k : V10 m outs c main_v16 = k16 (m ((c : Thread nD τ).loc main_arg2)) := by
  show StableHlo.after hostOps2 (V9 m outs c) (Proc.devRef .tc main_v16) = _
  after_results
  rw [V9_c, V9_arg2]
  rfl

/-- It is the reference's second result: the same operations over the same literals (the index table `[0, 2, 3]` is the
    kernel program's first literal table and the reference's third). -/
theorem k16_eq [Cert.ReferenceIdeal.Facts] (a2 : IVec S150000x4 32) : k16 a2 = Cert.ReferenceIdeal.Terms.out72 a2 := rfl

theorem V10_v16 [Cert.ReferenceIdeal.Facts] : V10 m outs c main_v16 = Cert.ReferenceIdeal.Terms.out72 (m ((c : Thread nD τ).loc main_arg2)) :=
  (V10_v16_k m outs c).trans (k16_eq _)

/-- The third result as the program composes it: the gather, at the entries 1 and 0, of the rounded-up quotient of the
    range's extent by the voxel size. -/
def k28 : FVec F S2 .f32 :=
  let cst : FVec F S6 .f32 := fun i => FloatOps.ofBits .f32 (lit1 (S6.rowMajor i))
  let cst_0 : FVec F S3 .f32 := fun i => FloatOps.ofBits .f32 (lit2 (S3.rowMajor i))
  let c_1 : IVec S2 32 := fun i => lit3 (S2.rowMajor i)
  let v17 : FVec F S3 .f32 := extractStridedSlice S3 ![3] cst slices_S6_S3_3
  let v18 : FVec F S3 .f32 := extractStridedSlice S3 ![0] cst slices_S6_S3_0
  let v19 : FVec F S3 .f32 := subf v17 v18
  let v20 : FVec F S3 .f32 := Host.divf v19 cst_0
  let v21 : FVec F S3 .f32 := Host.ceil v20
  let c_7 : IVec S_ 32 := constantI S_ 32 0#32
  let v22 : IVec S2 32 := broadcastInDim S2 ![] bcast_S_S2 c_7
  let v23 : IVec S2 1 := cmpi .slt c_1 v22
  let c_8 : IVec S_ 32 := constantI S_ 32 3#32
  let v24 : IVec S2 32 := broadcastInDim S2 ![] bcast_S_S2 c_8
  let v25 : IVec S2 32 := addi c_1 v24
  let v26 : IVec S2 32 := select v23 v25 c_1
  let v27 : IVec S2x1 32 := broadcastInDim S2x1 ![0] bcast_S2_S2x1_0 v26
  Host.gather gather_S3_S2x1_S2_n_0_n_n_0_1_1 v21 v27

theorem V10_v28_k : V10 m outs c main_v28 = (k28 : FVec F S2 .f32) := by
  show StableHlo.after hostOps2 (V9 m outs c) (Proc.devRef .tc main_v28) = _
  after_results_simp
  rw [V9_cst, V9_cst_0, V9_c_1]
  rfl

/-- It is the reference's third result: the same operations over the same literals (the range and the voxel size are the
    kernel program's second and third literal tables, the reference's second and first). -/
theorem k28_eq [Cert.ReferenceIdeal.Facts] : (k28 : FVec F S2 .f32) = Cert.ReferenceIdeal.Terms.out84 := rfl

theorem V10_v28 [Cert.ReferenceIdeal.Facts] : V10 m outs c main_v28 = (Cert.ReferenceIdeal.Terms.out84 : FVec F Cert.ReferenceIdeal.S2 .f32) :=
  (V10_v28_k m outs c).trans k28_eq

/-- The pooled features as region 1 leaves them. -/
theorem V9_v8 : V9 m outs c main_v8 = outs 9 main_v8 c := Function.update_self _ _ _

/-- The first result at `(p, o)` is the pooled features there. -/
theorem V10_v9_apply (p : Fin 150000) (o : Fin 64) :
    (V10 m outs c main_v9 : FVec F S150000x64 .f32) (ix2 p o)
      = (V9 m outs c main_v8 : FVec F S151552x64 .f32) (ix2 ⟨p.val, Nat.lt_trans p.isLt (by decide)⟩ o) := by
  rw [V10_v9]; exact slice2_axis0_apply 0 _ _ p o ⟨p.val, Nat.lt_trans p.isLt (by decide)⟩ (Nat.zero_add _).symm

/-! ## A reference no item so far writes holds its launch contents -/

theorem V1_launch (r : Ref sig .tc) (h1 : r ∉ hostOps0_W) : V1 m c r = m ((c : Thread nD τ).loc r) :=
  V1_of m c r h1
theorem V3_launch (r : Ref sig .tc) (h3 : r ∉ hostOps0_2_W) (h2 : r ∉ hostOps0_1_W) (h1 : r ∉ hostOps0_W) :
    V3 m c r = m ((c : Thread nD τ).loc r) :=
  (V3_of m c r h3).trans <| (V2_of m c r h2).trans (V1_launch m c r h1)
theorem V5_launch (r : Ref sig .tc) (h5 : r ∉ hostOps0_4_W) (h4 : r ∉ hostOps0_3_W) (h3 : r ∉ hostOps0_2_W) (h2 : r ∉ hostOps0_1_W)
    (h1 : r ∉ hostOps0_W) : V5 m c r = m ((c : Thread nD τ).loc r) :=
  (V5_of m c r h5).trans <| (V4_of m c r h4).trans (V3_launch m c r h3 h2 h1)
theorem V6_launch (r : Ref sig .tc) (h6 : r ∉ hostOps0_5_W) (h5 : r ∉ hostOps0_4_W) (h4 : r ∉ hostOps0_3_W) (h3 : r ∉ hostOps0_2_W)
    (h2 : r ∉ hostOps0_1_W) (h1 : r ∉ hostOps0_W) : V6 m c r = m ((c : Thread nD τ).loc r) :=
  (V6_of m c r h6).trans (V5_launch m c r h5 h4 h3 h2 h1)

/-! ## The padding values -/

theorem V1_cst_2 : V1 m c main_cst_2 = (constant S_ .f32 0x00000000#32 : FVec F S_ .f32) := by
  show StableHlo.after hostOps0 (V0 m c) (Proc.devRef .tc main_cst_2) = _
  after_results <;> rfl

theorem V3_c_3 : V3 m c main_c_3 = (constantI S_ 32 1#32 : IVec S_ 32) := by
  show StableHlo.after hostOps0_2 (V2 m c) (Proc.devRef .tc main_c_3) = _
  after_results <;> rfl

theorem V5_c_4 : V5 m c main_c_4 = (constantI S_ 32 0#32 : IVec S_ 32) := by
  show StableHlo.after hostOps0_4 (V4 m c) (Proc.devRef .tc main_c_4) = _
  after_results <;> rfl

/-! ## What region 0 finds in the buffers the host wrote -/

/-- The features, padded with 0.0 to 151552 pillars. -/
theorem V7_v0 : V7 m c main_v0 = pad S151552x20x5 ![0, 0, 0] ![1552, 0, 0] ![0, 0, 0]
    (m ((c : Thread nD τ).loc main_arg0) : FVec F S150000x20x5 .f32) (constant S_ .f32 0x00000000#32 : FVec F S_ .f32)
    pads_S150000x20x5_S151552x20x5_015520_000_000 h_S_ := by
  refine (V7_of m c main_v0 (by decide)).trans <| (V6_of m c main_v0 (by decide)).trans <| (V5_of m c main_v0 (by decide)).trans <|
    (V4_of m c main_v0 (by decide)).trans <| (V3_of m c main_v0 (by decide)).trans ?_
  show StableHlo.after hostOps0_1 (V1 m c) (Proc.devRef .tc main_v0) = _
  after_results <;> rfl

/-- The point counts, padded with the word 1 to 151552 pillars. -/
theorem V4_v1 : V4 m c main_v1 = pad S151552 ![0] ![1552] ![0]
    (m ((c : Thread nD τ).loc main_arg1) : IVec S150000 32) (constantI S_ 32 1#32 : IVec S_ 32)
    pads_S150000_S151552_015520 h_S_ := by
  show StableHlo.after hostOps0_3 (V3 m c) (Proc.devRef .tc main_v1) = _
  after_results <;> rfl

/-- … and reshaped to a column. -/
theorem V7_v2 : V7 m c main_v2 = shapeCast S151552x1 (pad S151552 ![0] ![1552] ![0]
    (m ((c : Thread nD τ).loc main_arg1) : IVec S150000 32) (constantI S_ 32 1#32 : IVec S_ 32)
    pads_S150000_S151552_015520 h_S_) shapeCasts_S151552_S151552x1 := by
  refine (V7_of m c main_v2 (by decide)).trans <| (V6_of m c main_v2 (by decide)).trans ?_
  show StableHlo.after hostOps0_4 (V4 m c) (Proc.devRef .tc main_v2) = _
  after_results <;> rfl

/-- The coordinates, padded with the word 0 to 151552 pillars. -/
theorem V7_v3 : V7 m c main_v3 = pad S151552x4 ![0, 0] ![1552, 0] ![0, 0]
    (m ((c : Thread nD τ).loc main_arg2) : IVec S150000x4 32) (constantI S_ 32 0#32 : IVec S_ 32)
    pads_S150000x4_S151552x4_015520_000 h_S_ := by
  refine (V7_of m c main_v3 (by decide)).trans ?_
  show StableHlo.after hostOps0_5 (V5 m c) (Proc.devRef .tc main_v3) = _
  after_results <;> rfl

/-- The weight matrix, transposed. -/
theorem V7_v4 : V7 m c main_v4 = transpose S9x64 [1, 0] (m ((c : Thread nD τ).loc main_arg3) : FVec F S64x9 .f32)
    transposes_S64x9_S9x64_1_0 := by
  show StableHlo.after hostOps0_6 (V6 m c) (Proc.devRef .tc main_v4) = _
  after_results <;> rfl

/-- The scale, as a row. -/
theorem V7_v5 : V7 m c main_v5 = shapeCast S1x64 (m ((c : Thread nD τ).loc main_arg4) : FVec F S64 .f32) shapeCasts_S64_S1x64 := by
  show StableHlo.after hostOps0_6 (V6 m c) (Proc.devRef .tc main_v5) = _
  after_results <;> rfl

/-- The shift, as a row. -/
theorem V7_v6 : V7 m c main_v6 = shapeCast S1x64 (m ((c : Thread nD τ).loc main_arg5) : FVec F S64 .f32) shapeCasts_S64_S1x64 := by
  show StableHlo.after hostOps0_6 (V6 m c) (Proc.devRef .tc main_v6) = _
  after_results <;> rfl

/-! ## The same at the entry of region 1: region 0 may change only its two statistics rows -/

theorem V8_v0 : V8 m outs c main_v0 = pad S151552x20x5 ![0, 0, 0] ![1552, 0, 0] ![0, 0, 0]
    (m ((c : Thread nD τ).loc main_arg0) : FVec F S150000x20x5 .f32) (constant S_ .f32 0x00000000#32 : FVec F S_ .f32)
    pads_S150000x20x5_S151552x20x5_015520_000_000 h_S_ :=
  (V8_of m outs c main_v0 (by decide)).trans (V7_v0 m c)
theorem V8_v2 : V8 m outs c main_v2 = shapeCast S151552x1 (pad S151552 ![0] ![1552] ![0]
    (m ((c : Thread nD τ).loc main_arg1) : IVec S150000 32) (constantI S_ 32 1#32 : IVec S_ 32)
    pads_S150000_S151552_015520 h_S_) shapeCasts_S151552_S151552x1 :=
  (V8_of m outs c main_v2 (by decide)).trans (V7_v2 m c)
theorem V8_v3 : V8 m outs c main_v3 = pad S151552x4 ![0, 0] ![1552, 0] ![0, 0]
    (m ((c : Thread nD τ).loc main_arg2) : IVec S150000x4 32) (constantI S_ 32 0#32 : IVec S_ 32)
    pads_S150000x4_S151552x4_015520_000 h_S_ :=
  (V8_of m outs c main_v3 (by decide)).trans (V7_v3 m c)
theorem V8_v4 : V8 m outs c main_v4 = transpose S9x64 [1, 0] (m ((c : Thread nD τ).loc main_arg3) : FVec F S64x9 .f32)
    transposes_S64x9_S9x64_1_0 :=
  (V8_of m outs c main_v4 (by decide)).trans (V7_v4 m c)
theorem V8_v5 : V8 m outs c main_v5 = shapeCast S1x64 (m ((c : Thread nD τ).loc main_arg4) : FVec F S64 .f32) shapeCasts_S64_S1x64 :=
  (V8_of m outs c main_v5 (by decide)).trans (V7_v5 m c)
theorem V8_v6 : V8 m outs c main_v6 = shapeCast S1x64 (m ((c : Thread nD τ).loc main_arg5) : FVec F S64 .f32) shapeCasts_S64_S1x64 :=
  (V8_of m outs c main_v6 (by decide)).trans (V7_v6 m c)

/-! ## The same buffers read at an index -/

/-- The padded features at a pillar below 150000 are the argument's. -/
theorem pad_feat_lt (p : Fin 151552) (n : Fin 20) (k : Fin 5) (h : p.val < 150000) :
    (V7 m c main_v0 : FVec F S151552x20x5 .f32) (ix3 p n k)
      = (m ((c : Thread nD τ).loc main_arg0) : FVec F S150000x20x5 .f32) (ix3 ⟨p.val, h⟩ n k) := by
  rw [V7_v0 m c]; exact pad3_lt _ _ _ _ p n k h
/-- … and from pillar 150000 on the float of the zero word. -/
theorem pad_feat_ge (p : Fin 151552) (n : Fin 20) (k : Fin 5) (h : 150000 ≤ p.val) :
    (V7 m c main_v0 : FVec F S151552x20x5 .f32) (ix3 p n k) = FloatOps.ofBits .f32 0x00000000#32 := by
  rw [V7_v0 m c]; exact pad3_ge _ _ _ _ p n k h
/-- The padded point counts at a pillar below 150000 are the argument's. -/
theorem pad_cnt_lt (p : Fin 151552) (u : Fin 1) (h : p.val < 150000) :
    (V7 m c main_v2 : IVec S151552x1 32) (ix2 p u) = (m ((c : Thread nD τ).loc main_arg1) : IVec S150000 32) (ix1 ⟨p.val, h⟩) := by
  rw [V7_v2 m c, shapeCast_a_a1_apply]; exact pad1_lt _ _ _ _ p h
/-- … and from pillar 150000 on the word 1. -/
theorem pad_cnt_ge (p : Fin 151552) (u : Fin 1) (h : 150000 ≤ p.val) :
    (V7 m c main_v2 : IVec S151552x1 32) (ix2 p u) = 1#32 := by
  rw [V7_v2 m c, shapeCast_a_a1_apply]; exact pad1_ge _ _ _ _ p h
/-- The padded coordinates at a pillar below 150000 are the argument's. -/
theorem pad_coord_lt (p : Fin 151552) (j : Fin 4) (h : p.val < 150000) :
    (V7 m c main_v3 : IVec S151552x4 32) (ix2 p j) = (m ((c : Thread nD τ).loc main_arg2) : IVec S150000x4 32) (ix2 ⟨p.val, h⟩ j) := by
  rw [V7_v3 m c]; exact pad2_lt _ _ _ _ p j h
/-- … and from pillar 150000 on the word 0. -/
theorem pad_coord_ge (p : Fin 151552) (j : Fin 4) (h : 150000 ≤ p.val) :
    (V7 m c main_v3 : IVec S151552x4 32) (ix2 p j) = 0#32 := by
  rw [V7_v3 m c]; exact pad2_ge _ _ _ _ p j h
/-- The transposed weights at `(k, o)` are the weights at `(o, k)`. -/
theorem v4_apply (k : Fin 9) (o : Fin 64) :
    (V7 m c main_v4 : FVec F S9x64 .f32) (ix2 k o) = (m ((c : Thread nD τ).loc main_arg3) : FVec F S64x9 .f32) (ix2 o k) := by
  rw [V7_v4 m c]; exact transpose_ix2_apply _ _ k o
/-- The scale's row at `(0, o)` is the scale at `o`. -/
theorem v5_apply (u : Fin 1) (o : Fin 64) :
    (V7 m c main_v5 : FVec F S1x64 .f32) (ix2 u o) = (m ((c : Thread nD τ).loc main_arg4) : FVec F S64 .f32) (ix1 o) := by
  rw [V7_v5 m c]; exact shapeCast_a_1a_apply _ _ u o
/-- The shift's row at `(0, o)` is the shift at `o`. -/
theorem v6_apply (u : Fin 1) (o : Fin 64) :
    (V7 m c main_v6 : FVec F S1x64 .f32) (ix2 u o) = (m ((c : Thread nD τ).loc main_arg5) : FVec F S64 .f32) (ix1 o) := by
  rw [V7_v6 m c]; exact shapeCast_a_1a_apply _ _ u o

/-! ## … and at the entry of region 1 -/

/-- The padded features at a pillar below 150000 are the argument's. -/
theorem pad_feat_lt' (p : Fin 151552) (n : Fin 20) (k : Fin 5) (h : p.val < 150000) :
    (V8 m outs c main_v0 : FVec F S151552x20x5 .f32) (ix3 p n k)
      = (m ((c : Thread nD τ).loc main_arg0) : FVec F S150000x20x5 .f32) (ix3 ⟨p.val, h⟩ n k) := by
  rw [V8_v0 m outs c]; exact pad3_lt _ _ _ _ p n k h
/-- … and from pillar 150000 on the float of the zero word. -/
theorem pad_feat_ge' (p : Fin 151552) (n : Fin 20) (k : Fin 5) (h : 150000 ≤ p.val) :
    (V8 m outs c main_v0 : FVec F S151552x20x5 .f32) (ix3 p n k) = FloatOps.ofBits .f32 0x00000000#32 := by
  rw [V8_v0 m outs c]; exact pad3_ge _ _ _ _ p n k h
/-- The padded point counts at a pillar below 150000 are the argument's. -/
theorem pad_cnt_lt' (p : Fin 151552) (u : Fin 1) (h : p.val < 150000) :
    (V8 m outs c main_v2 : IVec S151552x1 32) (ix2 p u) = (m ((c : Thread nD τ).loc main_arg1) : IVec S150000 32) (ix1 ⟨p.val, h⟩) := by
  rw [V8_v2 m outs c, shapeCast_a_a1_apply]; exact pad1_lt _ _ _ _ p h
/-- … and from pillar 150000 on the word 1. -/
theorem pad_cnt_ge' (p : Fin 151552) (u : Fin 1) (h : 150000 ≤ p.val) :
    (V8 m outs c main_v2 : IVec S151552x1 32) (ix2 p u) = 1#32 := by
  rw [V8_v2 m outs c, shapeCast_a_a1_apply]; exact pad1_ge _ _ _ _ p h
/-- The padded coordinates at a pillar below 150000 are the argument's. -/
theorem pad_coord_lt' (p : Fin 151552) (j : Fin 4) (h : p.val < 150000) :
    (V8 m outs c main_v3 : IVec S151552x4 32) (ix2 p j) = (m ((c : Thread nD τ).loc main_arg2) : IVec S150000x4 32) (ix2 ⟨p.val, h⟩ j) := by
  rw [V8_v3 m outs c]; exact pad2_lt _ _ _ _ p j h
/-- … and from pillar 150000 on the word 0. -/
theorem pad_coord_ge' (p : Fin 151552) (j : Fin 4) (h : 150000 ≤ p.val) :
    (V8 m outs c main_v3 : IVec S151552x4 32) (ix2 p j) = 0#32 := by
  rw [V8_v3 m outs c]; exact pad2_ge _ _ _ _ p j h
/-- The transposed weights at `(k, o)` are the weights at `(o, k)`. -/
theorem v4_apply' (k : Fin 9) (o : Fin 64) :
    (V8 m outs c main_v4 : FVec F S9x64 .f32) (ix2 k o) = (m ((c : Thread nD τ).loc main_arg3) : FVec F S64x9 .f32) (ix2 o k) := by
  rw [V8_v4 m outs c]; exact transpose_ix2_apply _ _ k o
/-- The scale's row at `(0, o)` is the scale at `o`. -/
theorem v5_apply' (u : Fin 1) (o : Fin 64) :
    (V8 m outs c main_v5 : FVec F S1x64 .f32) (ix2 u o) = (m ((c : Thread nD τ).loc main_arg4) : FVec F S64 .f32) (ix1 o) := by
  rw [V8_v5 m outs c]; exact shapeCast_a_1a_apply _ _ u o
/-- The shift's row at `(0, o)` is the shift at `o`. -/
theorem v6_apply' (u : Fin 1) (o : Fin 64) :
    (V8 m outs c main_v6 : FVec F S1x64 .f32) (ix2 u o) = (m ((c : Thread nD τ).loc main_arg5) : FVec F S64 .f32) (ix1 o) := by
  rw [V8_v6 m outs c]; exact shapeCast_a_1a_apply _ _ u o

/-! ## The padding value of the features at the ideal values -/

section AtIdeal
variable (m : (ℓ : Loc nD τ sig) → Buf (Elt Ideal) ℓ) (outs : Outs (F := Ideal)) (c : Dev nD)

theorem pad_feat_ge_ideal (p : Fin 151552) (n : Fin 20) (k : Fin 5) (h : 150000 ≤ p.val) :
    (V7 m c main_v0 : FVec Ideal S151552x20x5 .f32) (ix3 p n k) = Ideal.ofBits .f32 0x00000000#32 :=
  pad_feat_ge m c p n k h
theorem pad_feat_ge_ideal' (p : Fin 151552) (n : Fin 20) (k : Fin 5) (h : 150000 ≤ p.val) :
    (V8 m outs c main_v0 : FVec Ideal S151552x20x5 .f32) (ix3 p n k) = Ideal.ofBits .f32 0x00000000#32 :=
  pad_feat_ge' m outs c p n k h

end AtIdeal

end Cert.KernelIdeal.HandHost

end
-- ==== Proof.Spec.lean ====
/-
  The mathematics both programs compute, index by index, over the extended reals.

  A pillar `p` (150000 of them) holds 20 points of 5 features; only the first three (x, y, z) are used.
  For each point the nine-vector is: the three coordinates; the offsets from the voxel centre (centre from the integer
  voxel coordinates: x from column 3, y from column 2, z the constant 0.5 * 4 + (-3)), masked by "coordinate is not
  zero"; the offsets from the pillar's mean point (sum of the 20 points over the point COUNT, an integer input), masked
  the same way. A 9 -> 64 linear map follows, then batch normalisation with the statistics of all 150000 * 20 rows
  (mean, and variance as the mean of squared deviations), an affine map, a clamp at zero and the maximum over the 20 points.
-/
import Idealize.ShloMosaic.PureOps.Ideal
import Idealize.ShloMosaic.Lib.ValueIdx

noncomputable section

open scoped BigOperators

namespace Cert.Spec

open Idealize.ShloMosaic Idealize.ShloMosaic.ValueIdx

abbrev SFeat : Shape := ⟨3, ![150000, 20, 5]⟩
abbrev SNum : Shape := ⟨1, ![150000]⟩
abbrev SCoord : Shape := ⟨2, ![150000, 4]⟩
abbrev SW : Shape := ⟨2, ![64, 9]⟩
abbrev SC : Shape := ⟨1, ![64]⟩
abbrev SOut : Shape := ⟨2, ![150000, 64]⟩

/-- An f32 literal read at the extended reals: the exact value of its bit pattern. -/
abbrev lit (b : BitVec 32) : EReal := Ideal.ofBits .f32 b

/-- An integer word read as the real number it denotes (signed). -/
abbrev ofInt (b : BitVec 32) : EReal := ((b.toInt : ℝ) : EReal)

section
variable (feat : FVec Ideal SFeat .f32) (nums : IVec SNum 32) (coords : IVec SCoord 32)
  (W : FVec Ideal SW .f32) (gamma beta : FVec Ideal SC .f32)

/-- Coordinate `k` (x, y, z) of point `n` of pillar `p`. -/
def xyz (p : Fin 150000) (n : Fin 20) (k : Fin 3) : EReal := feat (ix3 p n (Fin.castLE (by decide) k))

/-- The pillar's point count, as a real. -/
def cnt (p : Fin 150000) : EReal := ofInt (nums (ix1 p))

/-- The pillar's mean point: the sum of its 20 points over the count. -/
def mean (p : Fin 150000) (k : Fin 3) : EReal := Ideal.div (∑ n : Fin 20, xyz feat p n k) (cnt nums p)

/-- The voxel centre of pillar `p`: (col 3 + 0.5) * 0.16 + 0, (col 2 + 0.5) * 0.16 + (-40), 0.5 * 4 + (-3). -/
def ctr (p : Fin 150000) (k : Fin 3) : EReal :=
  match k with
  | ⟨0, _⟩ => (ofInt (coords (ix2 p (3 : Fin 4))) + lit 0x3F000000#32) * lit 0x3E23D70A#32 + lit 0x00000000#32
  | ⟨1, _⟩ => (ofInt (coords (ix2 p (2 : Fin 4))) + lit 0x3F000000#32) * lit 0x3E23D70A#32 + lit 0xC2200000#32
  | ⟨_ + 2, _⟩ => lit 0x3F000000#32 * lit 0x40800000#32 + lit 0xC0400000#32

/-- The mask: 1 where the coordinate is not zero, else 0. -/
def mask (p : Fin 150000) (n : Fin 20) (k : Fin 3) : EReal := if xyz feat p n k = 0 then 0 else 1

/-- The nine features of a point: coordinates, masked offsets from the voxel centre, masked offsets from the mean. -/
def x9 (p : Fin 150000) (n : Fin 20) (c : Fin 9) : EReal :=
  if h : c.val < 3 then xyz feat p n ⟨c.val, h⟩
  else if h' : c.val < 6 then
    (xyz feat p n ⟨c.val - 3, by omega⟩ - ctr coords p ⟨c.val - 3, by omega⟩) * mask feat p n ⟨c.val - 3, by omega⟩
  else
    (xyz feat p n ⟨c.val - 6, by omega⟩ - mean feat nums p ⟨c.val - 6, by omega⟩) * mask feat p n ⟨c.val - 6, by omega⟩

/-- The linear layer: output channel `o` of point `n` of pillar `p`. -/
def lin (p : Fin 150000) (n : Fin 20) (o : Fin 64) : EReal := ∑ c : Fin 9, x9 feat nums coords p n c * W (ix2 o c)

/-- The number of rows the statistics range over, 150000 * 20, as the f32 literal 3.0e6. -/
abbrev rows : EReal := lit 0x4A371B00#32

/-- The batch mean of channel `o`. -/
def mu (o : Fin 64) : EReal := Ideal.div (∑ p : Fin 150000, ∑ n : Fin 20, lin feat nums coords W p n o) rows

/-- The batch variance of channel `o`: the mean of the squared deviations. -/
def var (o : Fin 64) : EReal :=
  Ideal.div (∑ p : Fin 150000, ∑ n : Fin 20,
    (lin feat nums coords W p n o - mu feat nums coords W o) * (lin feat nums coords W p n o - mu feat nums coords W o)) rows

/-- The normalised, scaled and shifted value. -/
def bn (p : Fin 150000) (n : Fin 20) (o : Fin 64) : EReal :=
  (lin feat nums coords W p n o - mu feat nums coords W o) * Ideal.rsqrt (var feat nums coords W o + lit 0x3A83126F#32)
    * gamma (ix1 o) + beta (ix1 o)

/-- The result: the maximum over the 20 points of the value clamped at zero. -/
def out : FVec Ideal SOut .f32 := fun j =>
  Finset.univ.sup fun n : Fin 20 => max (bn feat nums coords W gamma beta (j 0) n (j 1)) 0

end

end Cert.Spec

end
-- ==== Proof.PadSpec.lean ====
/-
  What the two kernels compute, index by index over the extended reals, stated over the PADDED arrays they are launched
  on: 151552 = 74 * 2048 pillars (the 150000 true ones, then rows the host fills with zero features, count one and zero
  voxel coordinates), the point counts as a column, the weight transposed to [9, 64], and the per-channel rows [1, 64].

  The statistics kernel's two results: over all 74 tiles of 2048 pillars and their 20 points, the sum of the linear
  layer's output and of its square, each over the row count 3.0e6; the variance as the mean square less the squared
  mean. The second kernel's result: the linear layer's output times a scale plus a shift, clamped at zero, the maximum
  over the 20 points.
-/
import proofs.«124926_j66013647339880_1_alg».proof.Proof.Spec

noncomputable section

open scoped BigOperators

namespace Cert.PadSpec

open Idealize.ShloMosaic Idealize.ShloMosaic.ValueIdx Cert.Spec

abbrev SFeatP : Shape := ⟨3, ![151552, 20, 5]⟩
abbrev SNumP : Shape := ⟨2, ![151552, 1]⟩
abbrev SCoordP : Shape := ⟨2, ![151552, 4]⟩
abbrev SWt : Shape := ⟨2, ![9, 64]⟩
abbrev SRow : Shape := ⟨2, ![1, 64]⟩
abbrev SOutP : Shape := ⟨2, ![151552, 64]⟩

section
variable (featP : FVec Ideal SFeatP .f32) (numP : IVec SNumP 32) (coordP : IVec SCoordP 32) (wt : FVec Ideal SWt .f32)

/-- Coordinate `k` (x, y, z) of point `n` of padded pillar `p`. -/
def xyzP (p : Fin 151552) (n : Fin 20) (k : Fin 3) : EReal := featP (ix3 p n (Fin.castLE (by decide) k))

/-- The padded pillar's point count, as a real. -/
def cntP (p : Fin 151552) : EReal := ofInt (numP (ix2 p (0 : Fin 1)))

/-- The padded pillar's mean point. -/
def meanP (p : Fin 151552) (k : Fin 3) : EReal := Ideal.div (∑ n : Fin 20, xyzP featP p n k) (cntP numP p)

/-- The voxel centre of padded pillar `p`; the z centre is the literal -1.0 the kernel carries. -/
def ctrP (p : Fin 151552) (k : Fin 3) : EReal :=
  match k with
  | ⟨0, _⟩ => (ofInt (coordP (ix2 p (3 : Fin 4))) + lit 0x3F000000#32) * lit 0x3E23D70A#32 + lit 0x00000000#32
  | ⟨1, _⟩ => (ofInt (coordP (ix2 p (2 : Fin 4))) + lit 0x3F000000#32) * lit 0x3E23D70A#32 + lit 0xC2200000#32
  | ⟨_ + 2, _⟩ => lit 0xBF800000#32

/-- The mask: 1 where the coordinate is not zero, else 0. -/
def maskP (p : Fin 151552) (n : Fin 20) (k : Fin 3) : EReal := if xyzP featP p n k = 0 then 0 else 1

/-- The nine features of a point of a padded pillar. -/
def x9P (p : Fin 151552) (n : Fin 20) (c : Fin 9) : EReal :=
  if h : c.val < 3 then xyzP featP p n ⟨c.val, h⟩
  else if h' : c.val < 6 then
    (xyzP featP p n ⟨c.val - 3, by omega⟩ - ctrP coordP p ⟨c.val - 3, by omega⟩) * maskP featP p n ⟨c.val - 3, by omega⟩
  else
    (xyzP featP p n ⟨c.val - 6, by omega⟩ - meanP featP numP p ⟨c.val - 6, by omega⟩) * maskP featP p n ⟨c.val - 6, by omega⟩

/-- The linear layer over the transposed weight. -/
def linP (p : Fin 151552) (n : Fin 20) (o : Fin 64) : EReal := ∑ k : Fin 9, x9P featP numP coordP p n k * wt (ix2 k o)

/-- Row `r` of tile `t`. -/
abbrev row (t : Fin 74) (r : Fin 2048) : Fin 151552 := ⟨2048 * t.val + r.val, by omega⟩

/-- The column sums over every tile, pillar and point. -/
def sumP (o : Fin 64) : EReal := ∑ t : Fin 74, ∑ r : Fin 2048, ∑ n : Fin 20, linP featP numP coordP wt (row t r) n o

/-- The column sums of squares. -/
def sumsqP (o : Fin 64) : EReal :=
  ∑ t : Fin 74, ∑ r : Fin 2048, ∑ n : Fin 20, linP featP numP coordP wt (row t r) n o * linP featP numP coordP wt (row t r) n o

/-- The statistics kernel's mean row. -/
def meanK (o : Fin 64) : EReal := Ideal.div (sumP featP numP coordP wt o) rows

/-- The statistics kernel's variance row. -/
def varK (o : Fin 64) : EReal :=
  Ideal.div (sumsqP featP numP coordP wt o) rows - meanK featP numP coordP wt o * meanK featP numP coordP wt o

variable (meanR varR gamR betR : FVec Ideal SRow .f32)

/-- The scale of channel `o`: rsqrt (var + 1e-3) * gamma. -/
def scaleP (o : Fin 64) : EReal := Ideal.rsqrt (varR (ix2 (0 : Fin 1) o) + lit 0x3A83126F#32) * gamR (ix2 (0 : Fin 1) o)

/-- The shift of channel `o`: beta - mean * scale. -/
def shiftP (o : Fin 64) : EReal := betR (ix2 (0 : Fin 1) o) - meanR (ix2 (0 : Fin 1) o) * scaleP varR gamR o

/-- The second kernel's result over the padded pillars. -/
def outP : FVec Ideal SOutP .f32 := fun j =>
  Finset.univ.sup fun n : Fin 20 =>
    max (linP featP numP coordP wt (j 0) n (j 1) * scaleP varR gamR (j 1) + shiftP meanR varR gamR betR (j 1)) 0

end

end Cert.PadSpec

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.LibHostReal.lean ====
/-
  Being a real number is preserved by every operation the program applies.

  Floats are read as extended reals. An array "is real" when each of its elements is a real number
  (neither infinity). Each operation below produces, at every result index, either one of its operands'
  elements (the layout operations: broadcast, reshape, slice, concatenation, gather, select), or a sum,
  difference, product or maximum of such elements (the pointwise ones), or a finite sum of them (reduction,
  contraction, accumulating scatter), or a quotient by a nonzero real, or the reciprocal square root of a
  positive real. In each case the calculus of real numbers inside the extended reals gives a real number.
-/
import Idealize.ShloMosaic.PureOps.Ideal
import Idealize.ShloMosaic.PureOps.Ideal.Laws
import Idealize.ShloMosaic.PureOps.ShapeOps
import Idealize.ShloMosaic.PureOps.Vector
import Idealize.ShloMosaic.PureOps.Contract
import proofs.«124926_j66013647339880_1_alg».proof.Proof.LibRealVariance

noncomputable section

namespace Cert.Alg

open Idealize.ShloMosaic
open scoped BigOperators

/-! ### Constants -/

/-- A splat of a pattern that denotes a real number is real. -/
theorem isReal_constant {s : Shape} {φ : FTy} {b : BitVec φ.bits} (h : IsReal (Ideal.ofBits φ b)) :
    ∀ i, IsReal (constant (F := Ideal) s φ b i) := fun _ => h

/-- The four literals of the program denote real numbers. -/
theorem isReal_ofBits_zero : IsReal (Ideal.ofBits .f32 0x00000000#32) := by
  rw [ofBits_zero]; exact IsReal.zero

theorem isReal_ofBits_one : IsReal (Ideal.ofBits .f32 0x3F800000#32) := by
  rw [ofBits_one]; exact IsReal.coe _

theorem isReal_ofBits_N : IsReal (Ideal.ofBits .f32 0x48435000#32) := by
  rw [ofBits_N]; exact IsReal.coe _

theorem isReal_ofBits_eps : IsReal (Ideal.ofBits .f32 0x3727C5AC#32) := by
  obtain ⟨e, _, he⟩ := ofBits_eps_pos
  rw [he]; exact IsReal.coe _

/-- The pattern of 200000.0 is not zero, and the pattern of 1.0 is positive. -/
theorem ofBits_N_ne_zero : Ideal.ofBits .f32 0x48435000#32 ≠ 0 := by
  rw [ofBits_N]; exact_mod_cast (by norm_num : (200000 : ℝ) ≠ 0)

theorem ofBits_one_pos : (0 : EReal) < Ideal.ofBits .f32 0x3F800000#32 := by
  rw [ofBits_one]; exact EReal.coe_pos.mpr one_pos

/-! ### Pointwise operations -/

section Pointwise
variable {s : Shape} {φ : FTy}

theorem isReal_addf (x y : FVec Ideal s φ) (hx : ∀ i, IsReal (x i)) (hy : ∀ i, IsReal (y i)) :
    ∀ i, IsReal (addf x y i) := fun i => (hx i).add (hy i)

theorem isReal_subf (x y : FVec Ideal s φ) (hx : ∀ i, IsReal (x i)) (hy : ∀ i, IsReal (y i)) :
    ∀ i, IsReal (subf x y i) := fun i => (hx i).sub (hy i)

theorem isReal_mulf (x y : FVec Ideal s φ) (hx : ∀ i, IsReal (x i)) (hy : ∀ i, IsReal (y i)) :
    ∀ i, IsReal (mulf x y i) := fun i => (hx i).mul (hy i)

theorem isReal_maximumf (x y : FVec Ideal s φ) (hx : ∀ i, IsReal (x i)) (hy : ∀ i, IsReal (y i)) :
    ∀ i, IsReal (maximumf x y i) := fun i => (hx i).max (hy i)

/-- The kernel's quotient by an array with no zero element. -/
theorem isReal_divf (x y : FVec Ideal s φ) (hx : ∀ i, IsReal (x i)) (hy : ∀ i, IsReal (y i))
    (hy0 : ∀ i, y i ≠ (0 : EReal)) : ∀ i, IsReal (divf x y i) :=
  fun i => (hx i).div (hy i) (hy0 i)

/-- The host's quotient by an array with no zero element. -/
theorem isReal_hostDivf (x y : FVec Ideal s φ) (hx : ∀ i, IsReal (x i)) (hy : ∀ i, IsReal (y i))
    (hy0 : ∀ i, y i ≠ (0 : EReal)) : ∀ i, IsReal (Host.divf x y i) :=
  fun i => (hx i).div (hy i) (hy0 i)

/-- The kernel's reciprocal square root of an array of positive reals. -/
theorem isReal_rsqrt (x : FVec Ideal s φ) (hx : ∀ i, IsReal (x i)) (hpos : ∀ i, (0 : EReal) < x i) :
    ∀ i, IsReal (rsqrt x i) := fun i => (hx i).rsqrt_of_pos (hpos i)

/-- The host's reciprocal square root of an array of positive reals. -/
theorem isReal_hostRsqrt (x : FVec Ideal s φ) (hx : ∀ i, IsReal (x i)) (hpos : ∀ i, (0 : EReal) < x i) :
    ∀ i, IsReal (Host.rsqrt x i) := fun i => (hx i).rsqrt_of_pos (hpos i)

/-- A change of format is the identity on extended reals. -/
theorem isReal_truncf (ψ : FTy) (x : FVec Ideal s φ) (h : ψ.bits < φ.bits) (hx : ∀ i, IsReal (x i)) :
    ∀ i, IsReal (truncf ψ x h i) := fun i => hx i

theorem isReal_extf (ψ : FTy) (x : FVec Ideal s φ) (h : φ.bits < ψ.bits) (hx : ∀ i, IsReal (x i)) :
    ∀ i, IsReal (extf ψ x h i) := fun i => hx i

/-- A lane-by-lane choice between two real arrays is real. -/
theorem isReal_select (c : IVec s 1) (a b : s.Idx → EReal) (ha : ∀ i, IsReal (a i)) (hb : ∀ i, IsReal (b i)) :
    ∀ i, IsReal (select c a b i) := by
  intro i
  unfold select Scalar.select
  split
  · exact ha i
  · exact hb i

end Pointwise

/-! ### Layout operations: each result element is an operand element -/

section Layout
variable {s t : Shape}

theorem isReal_broadcast (t : Shape) {x : EReal} (hx : IsReal x) : ∀ j, IsReal (broadcast t x j) :=
  fun _ => hx

theorem isReal_broadcastTo (t : Shape) (x : s.Idx → EReal) (h : s.Broadcasts t) (hx : ∀ i, IsReal (x i)) :
    ∀ j, IsReal (broadcastTo t x h j) := fun _ => hx _

theorem isReal_broadcastInDim (t : Shape) (dims : Fin s.rank → Fin t.rank) (h : s.BroadcastsInDim t dims)
    (x : s.Idx → EReal) (hx : ∀ i, IsReal (x i)) : ∀ j, IsReal (broadcastInDim t dims h x j) :=
  fun _ => hx _

theorem isReal_shapeCast (t : Shape) (x : s.Idx → EReal) (h : s.ShapeCasts t) (hx : ∀ i, IsReal (x i)) :
    ∀ j, IsReal (shapeCast t x h j) := fun _ => hx _

theorem isReal_extractStridedSlice (t : Shape) (off : Fin s.rank → Nat) (x : s.Idx → EReal) (h : s.Slices off t)
    (hx : ∀ i, IsReal (x i)) : ∀ j, IsReal (extractStridedSlice t off x h j) := fun _ => hx _

theorem isReal_transpose (t : Shape) (perm : List (Fin s.rank)) (x : s.Idx → EReal) (h : s.Transposes perm t)
    (hx : ∀ i, IsReal (x i)) : ∀ j, IsReal (transpose t perm x h j) := fun _ => hx _

/-- A row gather reads, at each result index, one operand element. -/
theorem isReal_gather {si : Shape} {w : Nat} (d : GatherDims s si t) (x : s.Idx → EReal) (idx : IVec si w)
    (hx : ∀ i, IsReal (x i)) : ∀ j, IsReal (Host.gather d x idx j) := fun _ => hx _

/-- A concatenation reads, at each result index, one element of one of its pieces. -/
theorem isReal_concatenate (t : Shape) (a : Fin t.rank) (xs : List ((s : Shape) × (s.Idx → EReal)))
    (h : Shape.Concatenates (xs.map (·.1)) t a) (hxs : ∀ p ∈ xs, ∀ i, IsReal (p.2 i)) :
    ∀ j, IsReal (concatenate t a xs h j) := by
  intro j
  unfold concatenate
  exact hxs _ (List.getElem_mem _) _

end Layout

/-! ### Sums: reduction, contraction, accumulating scatter -/

section Sums
variable {s : Shape} {φ : FTy}

/-- The host's sum over some axes: the initial value plus a finite sum of operand elements. -/
theorem isReal_hostReduceAdd {axes : List (Fin s.rank)} {t u : Shape} (x : FVec Ideal s φ)
    (init : u.Idx → Ideal φ) (h : s.ReducesTo axes t) (hu : 0 < u.numel)
    (hx : ∀ i, IsReal (x i)) (hinit : ∀ k, IsReal (init k)) :
    ∀ j, IsReal (Host.reduceAdd x init h hu j) := by
  intro j
  unfold Host.reduceAdd
  rw [Ideal.hostReduceAdd_def]
  unfold Ideal.hostReduceAdd
  exact (hinit _).add (IsReal.finset_sum _ _ fun i _ => hx i)

/-- The kernel's sum over some axes: a finite sum of operand elements. -/
theorem isReal_multiReduction_add {axes : List (Fin s.rank)} {t : Shape} (src : FVec Ideal s φ)
    (acc : BitVec φ.bits) (h : s.Reduces axes t) (hφ : FKind.Formats φ) (hacc : acc = FKind.add.neutral φ hφ)
    (hsrc : ∀ i, IsReal (src i)) : ∀ j, IsReal (multiReduction .add axes t src acc h hφ hacc j) := by
  intro j
  show IsReal (Ideal.reduceAdd h src j)
  unfold Ideal.reduceAdd
  exact IsReal.finset_sum _ _ fun i _ => hsrc i

/-- The accumulating scatter: each operand element plus a finite sum of update elements. -/
theorem isReal_scatterAdd {si u : Shape} {w : Nat} (d : ScatterDims s si u) (x : FVec Ideal s φ)
    (idx : IVec si w) (upd : FVec Ideal u φ) (hx : ∀ i, IsReal (x i)) (hu : ∀ j, IsReal (upd j)) :
    ∀ i, IsReal (Host.scatterAdd d x idx upd i) := by
  intro i
  unfold Host.scatterAdd
  rw [Ideal.hostScatterAdd_def]
  unfold Ideal.hostScatterAdd
  exact (hx i).add (IsReal.finset_sum _ _ fun j _ => hu j)

end Sums

section Contractions
variable {sl sr so : Shape} {φ₁ φ₂ : FTy}

/-- The kernel's matrix product: the accumulator plus a finite sum of products. -/
theorem isReal_matmul (d : DotDims sl sr so) (prec : Option ContractPrecision) (l : FVec Ideal sl φ₁)
    (r : FVec Ideal sr φ₂) (acc : FVec Ideal so .f32) (hl : ∀ i, IsReal (l i)) (hr : ∀ i, IsReal (r i))
    (hacc : ∀ j, IsReal (acc j)) : ∀ j, IsReal (matmul d prec l r acc j) := by
  intro j
  show IsReal (FloatOps.matmul d prec l r acc j)
  rw [Ideal.matmul_apply]
  exact (hacc j).add (IsReal.sum _ fun k => (hl _).mul (hr _))

/-- Into the zero accumulator. -/
theorem isReal_matmul_zero (d : DotDims sl sr so) (prec : Option ContractPrecision) (l : FVec Ideal sl φ₁)
    (r : FVec Ideal sr φ₂) (hl : ∀ i, IsReal (l i)) (hr : ∀ i, IsReal (r i)) :
    ∀ j, IsReal (matmul d prec l r (constant so .f32 0x00000000#32) j) :=
  isReal_matmul d prec l r _ hl hr (isReal_constant isReal_ofBits_zero)

/-- The host's matrix product: a finite sum of products. -/
theorem isReal_dotGeneral (d : DotDims sl sr so) (prec : Option ContractPrecision) (l : FVec Ideal sl φ₁)
    (r : FVec Ideal sr φ₂) (hl : ∀ i, IsReal (l i)) (hr : ∀ i, IsReal (r i)) :
    ∀ j, IsReal (Host.dotGeneral d prec l r j) := by
  intro j
  show IsReal (FloatOps.dotGeneral d prec .single l r j)
  rw [Ideal.dotGeneral_apply]
  exact IsReal.sum _ fun k => (hl _).mul (hr _)

end Contractions

/-! ### The arguments of the reciprocal square roots are positive reals -/

/-- A nonnegative real plus the positive literal 1e-5 is a positive real. -/
theorem add_eps_pos {v : EReal} (hv : ∃ r : ℝ, 0 ≤ r ∧ v = (r : EReal)) :
    ∃ r : ℝ, 0 < r ∧ v + Ideal.ofBits .f32 0x3727C5AC#32 = (r : EReal) := by
  obtain ⟨r, hr, rfl⟩ := hv
  obtain ⟨e, he, hE⟩ := ofBits_eps_pos
  exact ⟨r + e, by linarith, by rw [hE, EReal.coe_add]⟩

/-- … so it is positive, and its reciprocal square root is a real. -/
theorem add_eps_pos' {v : EReal} (hv : ∃ r : ℝ, 0 ≤ r ∧ v = (r : EReal)) :
    (0 : EReal) < v + Ideal.ofBits .f32 0x3727C5AC#32 := by
  obtain ⟨r, hr, h⟩ := add_eps_pos hv
  rw [h]; exact EReal.coe_pos.mpr hr

theorem isReal_add_eps {v : EReal} (hv : ∃ r : ℝ, 0 ≤ r ∧ v = (r : EReal)) :
    IsReal (v + Ideal.ofBits .f32 0x3727C5AC#32) := by
  obtain ⟨r, _, h⟩ := add_eps_pos hv
  exact ⟨r, h⟩

theorem isReal_rsqrt_add_eps {v : EReal} (hv : ∃ r : ℝ, 0 ≤ r ∧ v = (r : EReal)) :
    IsReal (Ideal.rsqrt (v + Ideal.ofBits .f32 0x3727C5AC#32)) :=
  (isReal_add_eps hv).rsqrt_of_pos (add_eps_pos' hv)

/-- The reference's normaliser: the reciprocal square root of the variance E[(a − E a)²] plus 1e-5, over a
    column of N ≠ 0 real entries, is a real. -/
theorem isReal_rsqrt_variance_add_eps {ι : Type} [Fintype ι] (a : ι → EReal) (ha : ∀ i, IsReal (a i)) (N : ℝ)
    (hN : (Fintype.card ι : ℝ) = N) (hN0 : N ≠ 0) :
    IsReal (Ideal.rsqrt (Ideal.div (∑ i, (a i - Ideal.div (∑ i, a i) (N : EReal))
        * (a i - Ideal.div (∑ i, a i) (N : EReal))) (N : EReal) + Ideal.ofBits .f32 0x3727C5AC#32)) :=
  isReal_rsqrt_add_eps (variance_nonneg a ha N hN hN0)

/-- The kernel's normaliser: the same with the variance written E[a²] − E[a]². -/
theorem isReal_rsqrt_variance'_add_eps {ι : Type} [Fintype ι] (a : ι → EReal) (ha : ∀ i, IsReal (a i)) (N : ℝ)
    (hN : (Fintype.card ι : ℝ) = N) (hN0 : N ≠ 0) :
    IsReal (Ideal.rsqrt (Ideal.div (∑ i, a i * a i) (N : EReal)
        - Ideal.div (∑ i, a i) (N : EReal) * Ideal.div (∑ i, a i) (N : EReal)
        + Ideal.ofBits .f32 0x3727C5AC#32)) := by
  rw [variance_eq a ha N hN hN0]
  exact isReal_rsqrt_variance_add_eps a ha N hN hN0

/-- The degree normaliser: the greater of a real and a positive real is a positive real, so its reciprocal
    square root is a real. -/
theorem max_pos_right {x c : EReal} (hc0 : 0 < c) : 0 < max x c := lt_max_of_lt_right hc0

theorem isReal_rsqrt_max {x c : EReal} (hx : IsReal x) (hc : IsReal c) (hc0 : 0 < c) :
    IsReal (Ideal.rsqrt (max x c)) := (hx.max hc).rsqrt_of_pos (max_pos_right hc0)

theorem isReal_rsqrt_max_one {x : EReal} (hx : IsReal x) :
    IsReal (Ideal.rsqrt (max x (Ideal.ofBits .f32 0x3F800000#32))) :=
  isReal_rsqrt_max hx isReal_ofBits_one ofBits_one_pos

end Cert.Alg

end
-- ==== Proof.Alg.lean ====
/-
  The algebra: the same function in another arrangement.

  The batch variance is written once as the mean of the squared deviations and once as
  E[x²] − E[x]²; the normalisation once as (x − μ) · r · γ + β and once as x · (r γ) + (β − μ · (r γ)).
  Over real numbers the two agree; every quantity below is a real number because the inputs are and
  every divisor is a nonzero real. Two regroupings of finite sums (tiles of rows, rows of a tile) close the file.
-/
import proofs.«124926_j66013647339880_1_alg».proof.Proof.Spec
import proofs.«124926_j66013647339880_1_alg».proof.Proof.LibRealVariance
import proofs.«124926_j66013647339880_1_alg».proof.Proof.LibHostReal
import Mathlib.Algebra.BigOperators.Fin
import Mathlib.Algebra.BigOperators.Group.Finset.Basic
import Mathlib.Logic.Equiv.Fin.Basic
import Mathlib.Data.EReal.Basic
import Mathlib.Data.EReal.Operations
import Mathlib.Tactic.Ring
import Mathlib.Tactic.NormNum
import Mathlib.Tactic.Positivity

noncomputable section

namespace Cert.KForm

open Idealize.ShloMosaic Idealize.ShloMosaic.ValueIdx
open Cert.Alg Cert.Spec
open scoped BigOperators

/-! ### The literals -/

/-- The pattern of 3.0e6 denotes the real 3000000. -/
theorem lit_rows : lit 0x4A371B00#32 = ((3000000 : ℝ) : EReal) := by
  simp [Ideal.ofBits, Ideal.ieee, -EReal.coe_mul]; norm_num

/-- The pattern of 0.5 denotes the real 1/2. -/
theorem lit_half : lit 0x3F000000#32 = ((1 / 2 : ℝ) : EReal) := by
  simp [Ideal.ofBits, Ideal.ieee, -EReal.coe_mul]; norm_num

/-- The pattern of 4.0 denotes the real 4. -/
theorem lit_four : lit 0x40800000#32 = ((4 : ℝ) : EReal) := by
  simp [Ideal.ofBits, Ideal.ieee, -EReal.coe_mul]; norm_num

/-- The pattern of -3.0 denotes the real -3. -/
theorem lit_neg_three : lit 0xC0400000#32 = ((-3 : ℝ) : EReal) := by
  simp [Ideal.ofBits, Ideal.ieee, -EReal.coe_mul]; norm_num

/-- The pattern of -1.0 denotes the real -1. -/
theorem lit_neg_one : lit 0xBF800000#32 = ((-1 : ℝ) : EReal) := by
  simp [Ideal.ofBits, Ideal.ieee, -EReal.coe_mul]; norm_num

/-- The pattern of -40.0 denotes the real -40. -/
theorem lit_neg_forty : lit 0xC2200000#32 = ((-40 : ℝ) : EReal) := by
  simp [Ideal.ofBits, Ideal.ieee, -EReal.coe_mul]; norm_num

/-- The pattern of +0.0 denotes 0. -/
theorem lit_zero : lit 0x00000000#32 = 0 := Ideal.ofBits_zero_f32

/-- The pattern 0x3E23D70A (the float nearest 0.16) denotes the real 10737418 · 2⁻²⁶. -/
theorem lit_sixteenth : lit 0x3E23D70A#32 = (((10737418 : ℝ) * (2 : ℝ) ^ (-26 : ℤ) : ℝ) : EReal) := by
  simp [Ideal.ofBits, Ideal.ieee, -EReal.coe_mul]

/-- The pattern 0x3A83126F (the float nearest 1e-3) denotes a positive real, 8589935 · 2⁻³³. -/
theorem lit_eps_pos : ∃ e : ℝ, 0 < e ∧ lit 0x3A83126F#32 = (e : EReal) := by
  refine ⟨(8589935 : ℝ) * (2 : ℝ) ^ (-33 : ℤ), by positivity, ?_⟩
  simp [Ideal.ofBits, Ideal.ieee, -EReal.coe_mul]

/-- 0.5 · 4 + (−3) = −1. -/
theorem lit_cz : Cert.Spec.lit 0x3F000000#32 * Cert.Spec.lit 0x40800000#32 + Cert.Spec.lit 0xC0400000#32
    = Cert.Spec.lit 0xBF800000#32 := by
  rw [lit_half, lit_four, lit_neg_three, lit_neg_one, ← EReal.coe_mul, ← EReal.coe_add]
  norm_num

/-! ### Two regroupings of finite sums -/

/-- The 151552 padded rows as 74 tiles of 2048: (t, r) ↦ 2048 · t + r. -/
def tileEquiv : Fin 74 × Fin 2048 ≃ Fin 151552 := finProdFinEquiv

theorem tileEquiv_apply (t : Fin 74) (r : Fin 2048) :
    tileEquiv (t, r) = ⟨2048 * t.val + r.val, by omega⟩ := by
  apply Fin.ext
  show r.val + 2048 * t.val = 2048 * t.val + r.val
  exact Nat.add_comm _ _

/-- The 74 tiles of 2048 rows cover 151552 = 150000 + 1552 rows; where the last 1552 carry zero, the sum over
    the tiles is the sum over the first 150000 rows. -/
theorem sum_tiles {M : Type*} [AddCommMonoid M] (f : Fin 151552 → M)
    (hpad : ∀ p : Fin 151552, 150000 ≤ p.val → f p = 0) :
    ∑ t : Fin 74, ∑ r : Fin 2048, f ⟨2048 * t.val + r.val, by omega⟩
      = ∑ p : Fin 150000, f (Fin.castLE (by decide) p) := by
  have h1 : ∑ t : Fin 74, ∑ r : Fin 2048, f ⟨2048 * t.val + r.val, by omega⟩ = ∑ k : Fin 151552, f k := by
    rw [← sum_regroup tileEquiv f]
    refine Finset.sum_congr rfl fun t _ => Finset.sum_congr rfl fun r _ => ?_
    rw [tileEquiv_apply]
  have h2 : ∑ k : Fin (150000 + 1552), f k
      = ∑ p : Fin 150000, f (Fin.castAdd 1552 p) + ∑ q : Fin 1552, f (Fin.natAdd 150000 q) :=
    Fin.sum_univ_add (a := 150000) (b := 1552) f
  have h3 : ∑ q : Fin 1552, f (Fin.natAdd 150000 q) = 0 :=
    Finset.sum_eq_zero fun q _ => hpad _ (by simp [Fin.natAdd])
  rw [h1]
  refine h2.trans ?_
  rw [h3, add_zero]
  rfl

/-- The 40960 rows of a tile's matrix as 2048 pillars of 20 points: (r, n) ↦ 20 · r + n. -/
def rowEquiv : Fin 2048 × Fin 20 ≃ Fin 40960 := finProdFinEquiv

theorem rowEquiv_apply (r : Fin 2048) (n : Fin 20) :
    rowEquiv (r, n) = ⟨20 * r.val + n.val, by omega⟩ := by
  apply Fin.ext
  show n.val + 20 * r.val = 20 * r.val + n.val
  exact Nat.add_comm _ _

/-- A sum over the 40960 rows of a tile is the sum over its 2048 pillars of the sums over each pillar's 20 points. -/
theorem sum_rows {M : Type*} [AddCommMonoid M] (g : Fin 40960 → M) :
    ∑ k : Fin 40960, g k = ∑ r : Fin 2048, ∑ n : Fin 20, g ⟨20 * r.val + n.val, by omega⟩ := by
  rw [← sum_regroup rowEquiv g]
  refine Finset.sum_congr rfl fun r _ => Finset.sum_congr rfl fun n _ => ?_
  rw [rowEquiv_apply]

/-! ### Every quantity of the specification is a real number -/

theorem isReal_lit_half : IsReal (lit 0x3F000000#32) := by rw [lit_half]; exact IsReal.coe _
theorem isReal_lit_four : IsReal (lit 0x40800000#32) := by rw [lit_four]; exact IsReal.coe _
theorem isReal_lit_neg_three : IsReal (lit 0xC0400000#32) := by rw [lit_neg_three]; exact IsReal.coe _
theorem isReal_lit_neg_forty : IsReal (lit 0xC2200000#32) := by rw [lit_neg_forty]; exact IsReal.coe _
theorem isReal_lit_zero : IsReal (lit 0x00000000#32) := by rw [lit_zero]; exact IsReal.zero
theorem isReal_lit_sixteenth : IsReal (lit 0x3E23D70A#32) := by rw [lit_sixteenth]; exact IsReal.coe _

/-- The row count 3.0e6 is a nonzero real. -/
theorem rows_ne_zero : (3000000 : ℝ) ≠ 0 := by norm_num

/-- An integer word denotes a real number. -/
theorem isReal_ofInt (b : BitVec 32) : IsReal (ofInt b) := IsReal.coe _

/-- A nonzero integer word denotes a nonzero real: the signed value of a word is 0 only for the zero word. -/
theorem ofInt_ne_zero {b : BitVec 32} (hb : b ≠ 0#32) : ofInt b ≠ 0 := by
  have h : b.toInt ≠ 0 := fun h0 => hb (BitVec.toInt_inj.mp (h0.trans BitVec.toInt_zero.symm))
  show ((b.toInt : ℝ) : EReal) ≠ 0
  exact_mod_cast h

section
variable (feat : FVec Ideal SFeat .f32) (nums : IVec SNum 32) (coords : IVec SCoord 32)
  (W : FVec Ideal SW .f32) (gamma beta : FVec Ideal SC .f32)

theorem isReal_xyz (hfeat : ∀ i, IsReal (feat i)) (p : Fin 150000) (n : Fin 20) (k : Fin 3) :
    IsReal (xyz feat p n k) := hfeat _

theorem cnt_ne_zero (hnums : ∀ i, nums i ≠ 0#32) (p : Fin 150000) : cnt nums p ≠ 0 :=
  ofInt_ne_zero (hnums _)

theorem isReal_mean (hfeat : ∀ i, IsReal (feat i)) (hnums : ∀ i, nums i ≠ 0#32) (p : Fin 150000) (k : Fin 3) :
    IsReal (mean feat nums p k) :=
  IsReal.div (IsReal.sum _ fun n => isReal_xyz feat hfeat p n k) (isReal_ofInt _) (cnt_ne_zero nums hnums p)

theorem isReal_ctr (p : Fin 150000) (k : Fin 3) : IsReal (ctr coords p k) := by
  match k with
  | ⟨0, _⟩ =>
    exact (((isReal_ofInt _).add isReal_lit_half).mul isReal_lit_sixteenth).add isReal_lit_zero
  | ⟨1, _⟩ =>
    exact (((isReal_ofInt _).add isReal_lit_half).mul isReal_lit_sixteenth).add isReal_lit_neg_forty
  | ⟨_ + 2, _⟩ =>
    exact (isReal_lit_half.mul isReal_lit_four).add isReal_lit_neg_three

theorem isReal_mask (p : Fin 150000) (n : Fin 20) (k : Fin 3) : IsReal (mask feat p n k) := by
  unfold mask
  split
  · exact IsReal.zero
  · exact IsReal.one

theorem isReal_x9 (hfeat : ∀ i, IsReal (feat i)) (hnums : ∀ i, nums i ≠ 0#32) (p : Fin 150000) (n : Fin 20)
    (c : Fin 9) : IsReal (x9 feat nums coords p n c) := by
  unfold x9
  split
  · exact isReal_xyz feat hfeat _ _ _
  · split
    · exact ((isReal_xyz feat hfeat _ _ _).sub (isReal_ctr coords _ _)).mul (isReal_mask feat _ _ _)
    · exact ((isReal_xyz feat hfeat _ _ _).sub (isReal_mean feat nums hfeat hnums _ _)).mul (isReal_mask feat _ _ _)

theorem isReal_lin (hfeat : ∀ i, IsReal (feat i)) (hW : ∀ i, IsReal (W i)) (hnums : ∀ i, nums i ≠ 0#32)
    (p : Fin 150000) (n : Fin 20) (o : Fin 64) : IsReal (lin feat nums coords W p n o) :=
  IsReal.sum _ fun c => (isReal_x9 feat nums coords hfeat hnums p n c).mul (hW _)

end

/-! ### The statistics range over 150000 · 20 = 3000000 rows -/

/-- The index set of the statistics: (pillar, point). -/
abbrev Row : Type := Fin 150000 × Fin 20

/-- The row count literal is the real 3000000. -/
theorem rows_eq : rows = ((3000000 : ℝ) : EReal) := lit_rows

theorem card_row : (Fintype.card Row : ℝ) = 3000000 := by
  simp only [Row, Fintype.card_prod, Fintype.card_fin]
  norm_num

/-- A double sum over pillars and points is the sum over the rows. -/
theorem sum_row {M : Type*} [AddCommMonoid M] (F : Fin 150000 → Fin 20 → M) :
    ∑ p : Fin 150000, ∑ n : Fin 20, F p n = ∑ q : Row, F q.1 q.2 :=
  (Fintype.sum_prod_type fun q : Row => F q.1 q.2).symm

/-- For real x, m, r, g, b: (x − m) · r · g + b = x · (r g) + (b − m · (r g)). -/
theorem affine_rearrange {x m r g b : EReal} (hx : IsReal x) (hm : IsReal m) (hr : IsReal r) (hg : IsReal g)
    (hb : IsReal b) : (x - m) * r * g + b = x * (r * g) + (b - m * (r * g)) := by
  obtain ⟨x, rfl⟩ := hx
  obtain ⟨m, rfl⟩ := hm
  obtain ⟨r, rfl⟩ := hr
  obtain ⟨g, rfl⟩ := hg
  obtain ⟨b, rfl⟩ := hb
  simp only [← EReal.coe_mul, ← EReal.coe_sub, ← EReal.coe_add]
  congr 1
  ring

/-! ### The other arrangement -/

section
variable (feat : FVec Ideal SFeat .f32) (nums : IVec SNum 32) (coords : IVec SCoord 32)
  (W : FVec Ideal SW .f32) (gamma beta : FVec Ideal SC .f32)

/-- The batch mean of channel `o`: the sum over all rows over the row count. -/
def kmean (o : Fin 64) : EReal :=
  Ideal.div (∑ p : Fin 150000, ∑ n : Fin 20, Cert.Spec.lin feat nums coords W p n o) Cert.Spec.rows

/-- The batch variance of channel `o` as E[x²] − E[x]². -/
def kvar (o : Fin 64) : EReal :=
  Ideal.div (∑ p : Fin 150000, ∑ n : Fin 20,
    Cert.Spec.lin feat nums coords W p n o * Cert.Spec.lin feat nums coords W p n o) Cert.Spec.rows
    - kmean feat nums coords W o * kmean feat nums coords W o

/-- The scale of channel `o`: the reciprocal standard deviation times γ. -/
def kscale (o : Fin 64) : EReal :=
  Ideal.rsqrt (kvar feat nums coords W o + Cert.Spec.lit 0x3A83126F#32) * gamma (ix1 o)

/-- The shift of channel `o`: β minus the mean times the scale. -/
def kshift (o : Fin 64) : EReal :=
  beta (ix1 o) - kmean feat nums coords W o * kscale feat nums coords W gamma o

/-- The result in the other arrangement: the maximum over the 20 points of x · scale + shift clamped at zero. -/
def kout : FVec Ideal Cert.Spec.SOut .f32 := fun j =>
  Finset.univ.sup fun n : Fin 20 =>
    max (Cert.Spec.lin feat nums coords W (j 0) n (j 1) * kscale feat nums coords W gamma (j 1)
      + kshift feat nums coords W gamma beta (j 1)) 0

/-- The two means are the same expression. -/
theorem kmean_eq_mu (o : Fin 64) : kmean feat nums coords W o = mu feat nums coords W o := rfl

theorem isReal_mu (hfeat : ∀ i, IsReal (feat i)) (hW : ∀ i, IsReal (W i)) (hnums : ∀ i, nums i ≠ 0#32)
    (o : Fin 64) : IsReal (mu feat nums coords W o) := by
  unfold mu
  rw [rows_eq]
  exact IsReal.div (IsReal.sum _ fun p => IsReal.sum _ fun n => isReal_lin feat nums coords W hfeat hW hnums p n o)
    (IsReal.coe _) (by exact_mod_cast rows_ne_zero)

/-- E[x²] − E[x]² is the mean of the squared deviations: the variance law over the 3000000 real rows. -/
theorem kvar_eq_var (hfeat : ∀ i, IsReal (feat i)) (hW : ∀ i, IsReal (W i)) (hnums : ∀ i, nums i ≠ 0#32)
    (o : Fin 64) : kvar feat nums coords W o = var feat nums coords W o := by
  unfold kvar kmean var mu
  rw [rows_eq]
  rw [sum_row fun p n => lin feat nums coords W p n o * lin feat nums coords W p n o,
    sum_row fun p n => lin feat nums coords W p n o]
  rw [sum_row fun p n => (lin feat nums coords W p n o - Ideal.div (∑ q : Row, lin feat nums coords W q.1 q.2 o) ((3000000 : ℝ) : EReal))
      * (lin feat nums coords W p n o - Ideal.div (∑ q : Row, lin feat nums coords W q.1 q.2 o) ((3000000 : ℝ) : EReal))]
  exact variance_eq (fun q : Row => lin feat nums coords W q.1 q.2 o)
    (fun q => isReal_lin feat nums coords W hfeat hW hnums q.1 q.2 o) 3000000 card_row rows_ne_zero

/-- The variance is a nonnegative real. -/
theorem var_nonneg (hfeat : ∀ i, IsReal (feat i)) (hW : ∀ i, IsReal (W i)) (hnums : ∀ i, nums i ≠ 0#32)
    (o : Fin 64) : ∃ v : ℝ, 0 ≤ v ∧ var feat nums coords W o = (v : EReal) := by
  unfold var mu
  rw [rows_eq]
  rw [sum_row fun p n => lin feat nums coords W p n o]
  rw [sum_row fun p n => (lin feat nums coords W p n o - Ideal.div (∑ q : Row, lin feat nums coords W q.1 q.2 o) ((3000000 : ℝ) : EReal))
      * (lin feat nums coords W p n o - Ideal.div (∑ q : Row, lin feat nums coords W q.1 q.2 o) ((3000000 : ℝ) : EReal))]
  exact variance_nonneg (fun q : Row => lin feat nums coords W q.1 q.2 o)
    (fun q => isReal_lin feat nums coords W hfeat hW hnums q.1 q.2 o) 3000000 card_row rows_ne_zero

/-- The normaliser, the reciprocal square root of the variance plus the positive literal, is a real. -/
theorem isReal_rsqrt_var (hfeat : ∀ i, IsReal (feat i)) (hW : ∀ i, IsReal (W i)) (hnums : ∀ i, nums i ≠ 0#32)
    (o : Fin 64) : IsReal (Ideal.rsqrt (var feat nums coords W o + lit 0x3A83126F#32)) := by
  obtain ⟨v, hv, hV⟩ := var_nonneg feat nums coords W hfeat hW hnums o
  obtain ⟨e, he, hE⟩ := lit_eps_pos
  rw [hV, hE, ← EReal.coe_add]
  exact (IsReal.coe _).rsqrt_of_pos (EReal.coe_pos.mpr (by linarith))

/-- The normalised value in the other arrangement: x · scale + shift. -/
theorem bn_eq (hfeat : ∀ i, IsReal (feat i)) (hW : ∀ i, IsReal (W i)) (hgamma : ∀ i, IsReal (gamma i))
    (hbeta : ∀ i, IsReal (beta i)) (hnums : ∀ i, nums i ≠ 0#32) (p : Fin 150000) (n : Fin 20) (o : Fin 64) :
    bn feat nums coords W gamma beta p n o
      = lin feat nums coords W p n o * kscale feat nums coords W gamma o + kshift feat nums coords W gamma beta o := by
  unfold bn kshift kscale
  rw [kvar_eq_var feat nums coords W hfeat hW hnums, kmean_eq_mu]
  exact affine_rearrange (isReal_lin feat nums coords W hfeat hW hnums p n o)
    (isReal_mu feat nums coords W hfeat hW hnums o) (isReal_rsqrt_var feat nums coords W hfeat hW hnums o)
    (hgamma _) (hbeta _)

/-- THE THEOREM: the specification and the other arrangement are the same function. -/
theorem spec_eq_kout (hfeat : ∀ i, Cert.Alg.IsReal (feat i)) (hW : ∀ i, Cert.Alg.IsReal (W i))
    (hgamma : ∀ i, Cert.Alg.IsReal (gamma i)) (hbeta : ∀ i, Cert.Alg.IsReal (beta i))
    (hnums : ∀ i, nums i ≠ 0#32) :
    Cert.Spec.out feat nums coords W gamma beta = kout feat nums coords W gamma beta := by
  funext j
  unfold out kout
  refine Finset.sup_congr rfl fun n _ => ?_
  exact congrArg (fun x => max x 0) (bn_eq feat nums coords W gamma beta hfeat hW hgamma hbeta hnums (j 0) n (j 1))

end

end Cert.KForm

end
-- ==== Proof.PadGlue.lean ====
/-
  The padded arrays carry the true function.

  The kernels run on 151552 = 150000 + 1552 pillars: the true ones, then rows of zero features, count one and zero
  voxel coordinates. On a true pillar every quantity of the padded specification is the quantity of the specification
  (the z centre's literal -1 is 0.5 · 4 + (−3)); on a padded pillar every coordinate is 0, so every mask is 0 and every
  feature is 0, whence the linear layer's output is 0 and the padded rows add nothing to the statistics. So the
  statistics are those of the other arrangement, and the result on a true pillar is the specification's.
-/
import proofs.«124926_j66013647339880_1_alg».proof.Proof.PadSpec
import proofs.«124926_j66013647339880_1_alg».proof.Proof.Alg

noncomputable section

namespace Cert.PadGlue

open Idealize.ShloMosaic Idealize.ShloMosaic.ValueIdx
open Cert.Alg Cert.Spec Cert.PadSpec Cert.KForm
open scoped BigOperators

section
variable (feat : FVec Ideal SFeat .f32) (nums : IVec SNum 32) (coords : IVec SCoord 32)
  (W : FVec Ideal SW .f32) (gamma beta : FVec Ideal SC .f32)
  (featP : FVec Ideal SFeatP .f32) (numP : IVec SNumP 32) (coordP : IVec SCoordP 32) (wt : FVec Ideal SWt .f32)
  (meanR varR gamR betR : FVec Ideal SRow .f32)

/-! ### A true pillar -/

theorem xyzP_lt
    (hfeat_lt : ∀ (p : Fin 151552) (h : p.val < 150000) n (k : Fin 5), featP (ix3 p n k) = feat (ix3 ⟨p.val, h⟩ n k))
    (p : Fin 151552) (h : p.val < 150000) (n : Fin 20) (k : Fin 3) :
    xyzP featP p n k = xyz feat ⟨p.val, h⟩ n k :=
  hfeat_lt p h n _

theorem cntP_lt
    (hnum_lt : ∀ (p : Fin 151552) (h : p.val < 150000), numP (ix2 p 0) = nums (ix1 ⟨p.val, h⟩))
    (p : Fin 151552) (h : p.val < 150000) : cntP numP p = cnt nums ⟨p.val, h⟩ := by
  unfold cntP cnt
  rw [hnum_lt p h]

theorem meanP_lt
    (hfeat_lt : ∀ (p : Fin 151552) (h : p.val < 150000) n (k : Fin 5), featP (ix3 p n k) = feat (ix3 ⟨p.val, h⟩ n k))
    (hnum_lt : ∀ (p : Fin 151552) (h : p.val < 150000), numP (ix2 p 0) = nums (ix1 ⟨p.val, h⟩))
    (p : Fin 151552) (h : p.val < 150000) (k : Fin 3) :
    meanP featP numP p k = mean feat nums ⟨p.val, h⟩ k := by
  unfold meanP mean
  rw [cntP_lt nums numP hnum_lt p h]
  congr 1
  exact Finset.sum_congr rfl fun n _ => xyzP_lt feat featP hfeat_lt p h n k

/-- The voxel centre: the same expression in x and y; in z the literal -1 is 0.5 · 4 + (−3). -/
theorem ctrP_lt
    (hcoord_lt : ∀ (p : Fin 151552) (h : p.val < 150000) (j : Fin 4), coordP (ix2 p j) = coords (ix2 ⟨p.val, h⟩ j))
    (p : Fin 151552) (h : p.val < 150000) (k : Fin 3) :
    ctrP coordP p k = ctr coords ⟨p.val, h⟩ k := by
  match k with
  | ⟨0, _⟩ =>
    show (ofInt (coordP (ix2 p (3 : Fin 4))) + lit 0x3F000000#32) * lit 0x3E23D70A#32 + lit 0x00000000#32
      = (ofInt (coords (ix2 ⟨p.val, h⟩ (3 : Fin 4))) + lit 0x3F000000#32) * lit 0x3E23D70A#32 + lit 0x00000000#32
    rw [hcoord_lt p h]
  | ⟨1, _⟩ =>
    show (ofInt (coordP (ix2 p (2 : Fin 4))) + lit 0x3F000000#32) * lit 0x3E23D70A#32 + lit 0xC2200000#32
      = (ofInt (coords (ix2 ⟨p.val, h⟩ (2 : Fin 4))) + lit 0x3F000000#32) * lit 0x3E23D70A#32 + lit 0xC2200000#32
    rw [hcoord_lt p h]
  | ⟨_ + 2, _⟩ =>
    exact lit_cz.symm

theorem maskP_lt
    (hfeat_lt : ∀ (p : Fin 151552) (h : p.val < 150000) n (k : Fin 5), featP (ix3 p n k) = feat (ix3 ⟨p.val, h⟩ n k))
    (p : Fin 151552) (h : p.val < 150000) (n : Fin 20) (k : Fin 3) :
    maskP featP p n k = mask feat ⟨p.val, h⟩ n k := by
  unfold maskP mask
  rw [xyzP_lt feat featP hfeat_lt p h n k]

theorem x9P_lt
    (hfeat_lt : ∀ (p : Fin 151552) (h : p.val < 150000) n (k : Fin 5), featP (ix3 p n k) = feat (ix3 ⟨p.val, h⟩ n k))
    (hnum_lt : ∀ (p : Fin 151552) (h : p.val < 150000), numP (ix2 p 0) = nums (ix1 ⟨p.val, h⟩))
    (hcoord_lt : ∀ (p : Fin 151552) (h : p.val < 150000) (j : Fin 4), coordP (ix2 p j) = coords (ix2 ⟨p.val, h⟩ j))
    (p : Fin 151552) (h : p.val < 150000) (n : Fin 20) (c : Fin 9) :
    x9P featP numP coordP p n c = x9 feat nums coords ⟨p.val, h⟩ n c := by
  unfold x9P x9
  by_cases h3 : c.val < 3
  · rw [dif_pos h3, dif_pos h3]
    exact xyzP_lt feat featP hfeat_lt p h n _
  · rw [dif_neg h3, dif_neg h3]
    by_cases h6 : c.val < 6
    · rw [dif_pos h6, dif_pos h6, xyzP_lt feat featP hfeat_lt p h, ctrP_lt coords coordP hcoord_lt p h,
        maskP_lt feat featP hfeat_lt p h]
    · rw [dif_neg h6, dif_neg h6, xyzP_lt feat featP hfeat_lt p h, meanP_lt feat nums featP numP hfeat_lt hnum_lt p h,
        maskP_lt feat featP hfeat_lt p h]

/-- (1) On a true pillar the padded linear layer is the linear layer. -/
theorem linP_lt
    (hfeat_lt : ∀ (p : Fin 151552) (h : p.val < 150000) n (k : Fin 5), featP (ix3 p n k) = feat (ix3 ⟨p.val, h⟩ n k))
    (hnum_lt : ∀ (p : Fin 151552) (h : p.val < 150000), numP (ix2 p 0) = nums (ix1 ⟨p.val, h⟩))
    (hcoord_lt : ∀ (p : Fin 151552) (h : p.val < 150000) (j : Fin 4), coordP (ix2 p j) = coords (ix2 ⟨p.val, h⟩ j))
    (hwt : ∀ (k : Fin 9) (o : Fin 64), wt (ix2 k o) = W (ix2 o k))
    (p : Fin 151552) (h : p.val < 150000) (n : Fin 20) (o : Fin 64) :
    linP featP numP coordP wt p n o = lin feat nums coords W ⟨p.val, h⟩ n o := by
  unfold linP lin
  refine Finset.sum_congr rfl fun c _ => ?_
  rw [x9P_lt feat nums coords featP numP coordP hfeat_lt hnum_lt hcoord_lt p h n c, hwt]

/-! ### A padded pillar -/

theorem xyzP_ge (hfeat_ge : ∀ (p : Fin 151552), 150000 ≤ p.val → ∀ n k, featP (ix3 p n k) = 0)
    (p : Fin 151552) (h : 150000 ≤ p.val) (n : Fin 20) (k : Fin 3) : xyzP featP p n k = 0 :=
  hfeat_ge p h n _

theorem maskP_ge (hfeat_ge : ∀ (p : Fin 151552), 150000 ≤ p.val → ∀ n k, featP (ix3 p n k) = 0)
    (p : Fin 151552) (h : 150000 ≤ p.val) (n : Fin 20) (k : Fin 3) : maskP featP p n k = 0 := by
  unfold maskP
  rw [if_pos (xyzP_ge featP hfeat_ge p h n k)]

/-- Every feature of a padded pillar is 0: a zero coordinate, or an offset times the zero mask. -/
theorem x9P_ge (hfeat_ge : ∀ (p : Fin 151552), 150000 ≤ p.val → ∀ n k, featP (ix3 p n k) = 0)
    (p : Fin 151552) (h : 150000 ≤ p.val) (n : Fin 20) (c : Fin 9) : x9P featP numP coordP p n c = 0 := by
  unfold x9P
  by_cases h3 : c.val < 3
  · rw [dif_pos h3]
    exact xyzP_ge featP hfeat_ge p h n _
  · rw [dif_neg h3]
    by_cases h6 : c.val < 6
    · rw [dif_pos h6, maskP_ge featP hfeat_ge p h, mul_zero]
    · rw [dif_neg h6, maskP_ge featP hfeat_ge p h, mul_zero]

/-- (2) On a padded pillar the linear layer's output is 0. -/
theorem linP_ge (hfeat_ge : ∀ (p : Fin 151552), 150000 ≤ p.val → ∀ n k, featP (ix3 p n k) = 0)
    (p : Fin 151552) (h : 150000 ≤ p.val) (n : Fin 20) (o : Fin 64) : linP featP numP coordP wt p n o = 0 := by
  unfold linP
  exact Finset.sum_eq_zero fun c _ => by rw [x9P_ge featP numP coordP hfeat_ge p h n c, zero_mul]

end

/-! ### The statistics -/

/-- The double sum over the tiles of a quantity that vanishes on the padded pillars and is the specification's on the
    true ones is the specification's double sum. -/
theorem sum_tiles_lin {M : Type*} [AddCommMonoid M] (F : Fin 151552 → Fin 20 → M) (G : Fin 150000 → Fin 20 → M)
    (hlt : ∀ (p : Fin 151552) (h : p.val < 150000) n, F p n = G ⟨p.val, h⟩ n)
    (hge : ∀ (p : Fin 151552), 150000 ≤ p.val → ∀ n, F p n = 0) :
    ∑ t : Fin 74, ∑ r : Fin 2048, ∑ n : Fin 20, F (row t r) n = ∑ p : Fin 150000, ∑ n : Fin 20, G p n := by
  have h := sum_tiles (fun p => ∑ n : Fin 20, F p n)
    (fun p hp => Finset.sum_eq_zero fun n _ => hge p hp n)
  refine h.trans (Finset.sum_congr rfl fun p _ => Finset.sum_congr rfl fun n _ => ?_)
  exact hlt (Fin.castLE (by decide) p) p.isLt n

section
variable (feat : FVec Ideal SFeat .f32) (nums : IVec SNum 32) (coords : IVec SCoord 32)
  (W : FVec Ideal SW .f32) (gamma beta : FVec Ideal SC .f32)
  (featP : FVec Ideal SFeatP .f32) (numP : IVec SNumP 32) (coordP : IVec SCoordP 32) (wt : FVec Ideal SWt .f32)
  (meanR varR gamR betR : FVec Ideal SRow .f32)

/-- (3a) The statistics kernel's mean is the batch mean: the padded rows add 0 to the sum. -/
theorem meanK_eq
    (hfeat_lt : ∀ (p : Fin 151552) (h : p.val < 150000) n (k : Fin 5), featP (ix3 p n k) = feat (ix3 ⟨p.val, h⟩ n k))
    (hfeat_ge : ∀ (p : Fin 151552), 150000 ≤ p.val → ∀ n k, featP (ix3 p n k) = 0)
    (hnum_lt : ∀ (p : Fin 151552) (h : p.val < 150000), numP (ix2 p 0) = nums (ix1 ⟨p.val, h⟩))
    (hcoord_lt : ∀ (p : Fin 151552) (h : p.val < 150000) (j : Fin 4), coordP (ix2 p j) = coords (ix2 ⟨p.val, h⟩ j))
    (hwt : ∀ (k : Fin 9) (o : Fin 64), wt (ix2 k o) = W (ix2 o k))
    (o : Fin 64) : meanK featP numP coordP wt o = kmean feat nums coords W o := by
  unfold meanK sumP kmean
  rw [sum_tiles_lin (fun p n => linP featP numP coordP wt p n o) (fun p n => lin feat nums coords W p n o)
    (fun p h n => linP_lt feat nums coords W featP numP coordP wt hfeat_lt hnum_lt hcoord_lt hwt p h n o)
    (fun p h n => linP_ge featP numP coordP wt hfeat_ge p h n o)]

/-- (3b) The statistics kernel's variance is E[x²] − E[x]² over the true rows. -/
theorem varK_eq
    (hfeat_lt : ∀ (p : Fin 151552) (h : p.val < 150000) n (k : Fin 5), featP (ix3 p n k) = feat (ix3 ⟨p.val, h⟩ n k))
    (hfeat_ge : ∀ (p : Fin 151552), 150000 ≤ p.val → ∀ n k, featP (ix3 p n k) = 0)
    (hnum_lt : ∀ (p : Fin 151552) (h : p.val < 150000), numP (ix2 p 0) = nums (ix1 ⟨p.val, h⟩))
    (hcoord_lt : ∀ (p : Fin 151552) (h : p.val < 150000) (j : Fin 4), coordP (ix2 p j) = coords (ix2 ⟨p.val, h⟩ j))
    (hwt : ∀ (k : Fin 9) (o : Fin 64), wt (ix2 k o) = W (ix2 o k))
    (o : Fin 64) : varK featP numP coordP wt o = kvar feat nums coords W o := by
  unfold varK kvar
  rw [meanK_eq feat nums coords W featP numP coordP wt hfeat_lt hfeat_ge hnum_lt hcoord_lt hwt o]
  unfold sumsqP
  rw [sum_tiles_lin (fun p n => linP featP numP coordP wt p n o * linP featP numP coordP wt p n o)
    (fun p n => lin feat nums coords W p n o * lin feat nums coords W p n o)
    (fun p h n => by
      show linP featP numP coordP wt p n o * linP featP numP coordP wt p n o = _
      rw [linP_lt feat nums coords W featP numP coordP wt hfeat_lt hnum_lt hcoord_lt hwt p h n o])
    (fun p h n => by
      show linP featP numP coordP wt p n o * linP featP numP coordP wt p n o = 0
      rw [linP_ge featP numP coordP wt hfeat_ge p h n o, mul_zero])]

/-! ### The result -/

/-- (4) THE GLUE: on a true pillar the second kernel's result over the padded arrays, fed the statistics kernel's rows,
    is the specification's result. -/
theorem outP_eq_spec
    (hfeat_lt : ∀ (p : Fin 151552) (h : p.val < 150000) n (k : Fin 5), featP (ix3 p n k) = feat (ix3 ⟨p.val, h⟩ n k))
    (hfeat_ge : ∀ (p : Fin 151552), 150000 ≤ p.val → ∀ n k, featP (ix3 p n k) = 0)
    (hnum_lt : ∀ (p : Fin 151552) (h : p.val < 150000), numP (ix2 p 0) = nums (ix1 ⟨p.val, h⟩))
    (hcoord_lt : ∀ (p : Fin 151552) (h : p.val < 150000) (j : Fin 4), coordP (ix2 p j) = coords (ix2 ⟨p.val, h⟩ j))
    (hwt : ∀ (k : Fin 9) (o : Fin 64), wt (ix2 k o) = W (ix2 o k))
    (hmean : ∀ o, meanR (ix2 0 o) = meanK featP numP coordP wt o)
    (hvar : ∀ o, varR (ix2 0 o) = varK featP numP coordP wt o)
    (hgam : ∀ o, gamR (ix2 0 o) = gamma (ix1 o))
    (hbet : ∀ o, betR (ix2 0 o) = beta (ix1 o))
    (hfeat : ∀ i, Cert.Alg.IsReal (feat i)) (hW : ∀ i, Cert.Alg.IsReal (W i))
    (hgamma : ∀ i, Cert.Alg.IsReal (gamma i)) (hbeta : ∀ i, Cert.Alg.IsReal (beta i))
    (hnums : ∀ i, nums i ≠ 0#32)
    (p : Fin 150000) (o : Fin 64) :
    Cert.PadSpec.outP featP numP coordP wt meanR varR gamR betR (ix2 (Fin.castLE (by decide) p) o)
      = Cert.Spec.out feat nums coords W gamma beta (ix2 p o) := by
  rw [spec_eq_kout feat nums coords W gamma beta hfeat hW hgamma hbeta hnums]
  have hscale : scaleP varR gamR o = kscale feat nums coords W gamma o := by
    unfold scaleP kscale
    rw [hvar, hgam, varK_eq feat nums coords W featP numP coordP wt hfeat_lt hfeat_ge hnum_lt hcoord_lt hwt o]
  have hshift : shiftP meanR varR gamR betR o = kshift feat nums coords W gamma beta o := by
    unfold shiftP kshift
    rw [hbet, hmean, hscale, meanK_eq feat nums coords W featP numP coordP wt hfeat_lt hfeat_ge hnum_lt hcoord_lt hwt o]
  show (Finset.univ.sup fun n : Fin 20 =>
      max (linP featP numP coordP wt (Fin.castLE (by decide) p) n o * scaleP varR gamR o
        + shiftP meanR varR gamR betR o) 0)
    = Finset.univ.sup fun n : Fin 20 =>
      max (lin feat nums coords W p n o * kscale feat nums coords W gamma o + kshift feat nums coords W gamma beta o) 0
  refine Finset.sup_congr rfl fun n _ => ?_
  rw [hscale, hshift,
    linP_lt feat nums coords W featP numP coordP wt hfeat_lt hnum_lt hcoord_lt hwt (Fin.castLE (by decide) p) p.isLt n o]
  rfl

end

end Cert.PadGlue

end
-- ==== Proof.PreFacts.lean ====
/-
  What the precondition says. The printed predicate is the conjunction of five "all" tests: for each
  of the four float arrays, that the absolute value of every entry is below +∞, and for the array of
  point counts, that every entry differs from the zero word. Here it is decoded: when the predicate's
  one bit is 1, every float entry is a real number (an extended real that is neither infinity) and
  every point count is nonzero.
-/
import proofs.«124926_j66013647339880_1_alg».proof.Pre_finite_inputs
import proofs.«124926_j66013647339880_1_alg».proof.Proof.LibRealVariance
import Idealize.ShloMosaic.Lib.ReduceAll
import Idealize.ShloMosaic.Lib.ValueIdx

noncomputable section

namespace Cert.PreFacts

open Idealize.ShloMosaic Idealize.ShloMosaic.ValueIdx
open Cert.Pre_finite_inputs

/-- The scalar shape has one index. -/
instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- The conjunction of two one-bit arrays, read at an index, is the conjunction of the two bits. -/
theorem andi_at {t : Shape} (x y : IVec t 1) (i : t.Idx) : andi x y i = IntOp.andi (x i) (y i) := rfl

/-- One entry of one "all finite" test: if the bit of |x i| < +∞ is 1, then x i is a real number. -/
theorem isReal_of_bit {t : Shape} (hb : S_.BroadcastsInDim t (![] : Fin 0 → Fin t.rank)) (x : FVec Ideal t .f32) (i : t.Idx)
    (h : cmpf .olt (Host.absf x) (broadcastInDim t ![] hb (constant (F := Ideal) S_ .f32 0x7F800000#32)) i = 1#1) :
    Cert.Alg.IsReal (x i) := by
  have h' : BitVec.ofBool (decide (max (x i) (-(x i)) < Ideal.ofBits .f32 0x7F800000#32)) = 1#1 := h
  rw [ofBool_eq_one, decide_eq_true_eq, ofBits_inf] at h'
  exact Cert.Alg.isReal_of_abs_lt_top h'

/-- THE PRECONDITION DECODED: every float entry is a real number and every point count is nonzero. -/
theorem of_pre [Cert.Pre_finite_inputs.Facts] (a0 : FVec Ideal Cert.Pre_finite_inputs.S150000x20x5 .f32) (a1 : IVec Cert.Pre_finite_inputs.S150000 32) (a2 : IVec Cert.Pre_finite_inputs.S150000x4 32) (a3 : FVec Ideal Cert.Pre_finite_inputs.S64x9 .f32) (a4 a5 : FVec Ideal Cert.Pre_finite_inputs.S64 .f32)
    (h : Cert.Pre_finite_inputs.fn (F := Ideal) a0 a1 a2 a3 a4 a5 = fun _ => 1#1) :
    (∀ i, Cert.Alg.IsReal (a0 i)) ∧ (∀ i, Cert.Alg.IsReal (a3 i)) ∧ (∀ i, Cert.Alg.IsReal (a4 i)) ∧ (∀ i, Cert.Alg.IsReal (a5 i)) ∧ (∀ i, a1 i ≠ 0#32) := by
  have e := congrFun h ix0
  dsimp only [Cert.Pre_finite_inputs.fn, Cert.Pre_finite_inputs.fn_part1] at e
  simp only [andi_at, IntOp.andi_eq_one] at e
  obtain ⟨⟨⟨⟨h0, h3⟩, h4⟩, h5⟩, h1⟩ := e
  refine ⟨fun i => isReal_of_bit _ a0 i (Host.reduce_andi_all _ _ _ _ ix0 h0 i),
    fun i => isReal_of_bit _ a3 i (Host.reduce_andi_all _ _ _ _ ix0 h3 i),
    fun i => isReal_of_bit _ a4 i (Host.reduce_andi_all _ _ _ _ ix0 h4 i),
    fun i => isReal_of_bit _ a5 i (Host.reduce_andi_all _ _ _ _ ix0 h5 i),
    fun i => ?_⟩
  have hi : IntOp.cmpi .ne (a1 i) 0#32 = 1#1 := Host.reduce_andi_all _ _ _ _ ix0 h1 i
  exact IntOp.cmpi_ne.1 hi

end Cert.PreFacts

end
-- ==== Proof.KI.Bridge.lean ====
/-
  The idealized kernel program's three results, as functions of its arguments.

  The first result is the second kernel's output array cut back to the 150000 true pillars. That array is, tile by tile,
  what the kernel computes from the padded inputs and from the statistics rows the first kernel left; the padded inputs
  are the arguments on the true pillars and zero features beyond, so the padded rows add nothing to the statistics and the
  true rows' values are the specification's (the variance law and the affine rearrangement, which need every input a real
  number and every point count nonzero: the precondition). The other two results are host arithmetic on the arguments.
-/
import proofs.«124926_j66013647339880_1_alg».proof.Proof.KI.Frame
import proofs.«124926_j66013647339880_1_alg».proof.Proof.KI.Host
import proofs.«124926_j66013647339880_1_alg».proof.Proof.PadGlue
import proofs.«124926_j66013647339880_1_alg».proof.Proof.PreFacts
import proofs.«124926_j66013647339880_1_alg».proof.Proof.Gen.ReferenceIdeal
import proofs.«124926_j66013647339880_1_alg».proof.Proof.Gen.Pre_finite_inputs
import proofs.«124926_j66013647339880_1_alg».proof.Defs

noncomputable section

namespace Cert.KernelIdeal.HandBridge

open Cert.KernelIdeal Cert.KernelIdeal.Gen Cert.KernelIdeal.Hand Cert.KernelIdeal.HandHost
open Idealize.ShloMosaic Idealize.ShloMosaic.TcCoe Idealize.ShloMosaic.ValueIdx
open Idealize.SL.Sem

/-- The two kernels' proof data, as the run takes them. -/
abbrev d0 : Entry Ideal → (c : Dev nD) → Pipeline.Dat τ (Elt Ideal) Unit ℕ (UR sig nD τ) ℕ cfg0 c := fun V c => dat0 V c
abbrev d1 : Entry Ideal → (c : Dev nD) → Pipeline.Dat τ (Elt Ideal) Unit ℕ (UR sig nD τ) ℕ cfg1 c := fun V c => dat1 V c

variable (m : (ℓ : Loc nD τ sig) → Buf (Elt Ideal) ℓ)

/-- What the statistics kernel leaves: the mean and variance rows over the padded arrays it was launched on. -/
def Stats0 : Prop := ∀ (V : Entry Ideal) (c : Dev nD) (o : Fin 64),
  ((dat0 V c).arrAt 4 cfg0.N : FVec Ideal S1x64 .f32) (ix2 (0 : Fin 1) o)
      = Cert.PadSpec.meanK (V c main_v0) (V c main_v2) (V c main_v3) (V c main_v4) o
  ∧ ((dat0 V c).arrAt 5 cfg0.N : FVec Ideal S1x64 .f32) (ix2 (0 : Fin 1) o)
      = Cert.PadSpec.varK (V c main_v0) (V c main_v2) (V c main_v3) (V c main_v4) o

/-- What the normalising kernel leaves: the pooled array over the padded arrays and the statistics rows. -/
def Pool1 : Prop := ∀ (V : Entry Ideal) (c : Dev nD),
  ((dat1 V c).arrAt 8 cfg1.N : FVec Ideal S151552x64 .f32)
    = Cert.PadSpec.outP (V c main_v0) (V c main_v2) (V c main_v3) (V c main_v4) (V c main_v7_0) (V c main_v7_1) (V c main_v5) (V c main_v6)

variable {m}

/-- THE FIRST RESULT is the specification of the arguments. -/
theorem v9_eq_spec (hS : Stats0) (hP : Pool1) (hpre : Cert.Pre_KernelIdeal m) (c : Dev nD) :
    (V10 m (outs m d0 d1) c main_v9 : FVec Ideal S150000x64 .f32)
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  obtain ⟨hfeat, hW, hgamma, hbeta, hnums⟩ := Cert.PreFacts.of_pre _ _ _ _ _ _ (hpre c)
  funext j
  obtain ⟨p, o, rfl⟩ : ∃ (p : Fin 150000) (o : Fin 64), j = ix2 p o := ⟨j 0, j 1, eq_ix2 j⟩
  rw [V10_v9_apply m (outs m d0 d1) c p o, Hand.V9_v8 m (half1 (F := Ideal)) c, hP (E8 m d0) c]
  refine Cert.PadGlue.outP_eq_spec _ _ _ _ _ _ _ _ _ _ _ _ _ _
    (fun p h n k => pad_feat_lt' m (outs8 m d0) c p n k h)
    (fun p h n k => (pad_feat_ge_ideal' m (outs8 m d0) c p n k h).trans Ideal.ofBits_zero_f32)
    (fun p h => pad_cnt_lt' m (outs8 m d0) c p 0 h)
    (fun p h j => pad_coord_lt' m (outs8 m d0) c p j h)
    (fun k o => v4_apply' m (outs8 m d0) c k o)
    (fun o => ?_) (fun o => ?_)
    (fun o => v5_apply' m (outs8 m d0) c 0 o)
    (fun o => v6_apply' m (outs8 m d0) c 0 o)
    hfeat hW hgamma hbeta hnums p o
  · show (V8 m (outs8 m d0) c main_v7_0 : FVec Ideal S1x64 .f32) (ix2 (0 : Fin 1) o) = _
    rw [Hand.V8_v7_0 m (half0 (F := Ideal)) c, (hS (E7 m) c o).1,
      V8_keep (dat0 := d0) m c main_v0 (by decide), V8_keep (dat0 := d0) m c main_v2 (by decide),
      V8_keep (dat0 := d0) m c main_v3 (by decide), V8_keep (dat0 := d0) m c main_v4 (by decide)]
  · show (V8 m (outs8 m d0) c main_v7_1 : FVec Ideal S1x64 .f32) (ix2 (0 : Fin 1) o) = _
    rw [Hand.V8_v7_1 m (half0 (F := Ideal)) c, (hS (E7 m) c o).2,
      V8_keep (dat0 := d0) m c main_v0 (by decide), V8_keep (dat0 := d0) m c main_v2 (by decide),
      V8_keep (dat0 := d0) m c main_v3 (by decide), V8_keep (dat0 := d0) m c main_v4 (by decide)]

/-- THE KERNEL PROGRAM'S VALUE: every weakly fair execution terminates with the three results at the specification, the
    column gather and the grid constants of the arguments, and the arguments unchanged. -/
theorem kernel_value (hS : Stats0) (hP : Pool1) (ρ : Dev nD → PrngReg) (hpre : Cert.Pre_KernelIdeal m) :
    θ_run (defs (F := Ideal)) (onTc (τ := τ) (main (F := Ideal))) ⟨m, fun _ => 0, ρ⟩ (fun r => ∀ c : Dev nD,
        r.2.mem ((c.tc : Thread nD τ).loc main_v9)
          = Cert.Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_v16) = Cert.ReferenceIdeal.Terms.out72 (m ((c.tc : Thread nD τ).loc main_arg2))
        ∧ r.2.mem ((c.tc : Thread nD τ).loc main_v28) = Cert.ReferenceIdeal.Terms.out84 (F := Ideal)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun r h c =>
    ⟨(h c _ (mem_uc main_v9 (by decide))).trans (v9_eq_spec hS hP hpre c),
     (h c _ (mem_uc main_v16 (by decide))).trans (V10_v16 m _ c),
     (h c _ (mem_uc main_v28 (by decide))).trans (V10_v28 m _ c),
     (h c _ (mem_uc main_arg0 (by decide))).trans (V10_main_arg0 m _ c),
     (h c _ (mem_uc main_arg1 (by decide))).trans (V10_main_arg1 m _ c),
     (h c _ (mem_uc main_arg2 (by decide))).trans (V10_main_arg2 m _ c),
     (h c _ (mem_uc main_arg3 (by decide))).trans (V10_main_arg3 m _ c),
     (h c _ (mem_uc main_arg4 (by decide))).trans (V10_main_arg4 m _ c),
     (h c _ (mem_uc main_arg5 (by decide))).trans (V10_main_arg5 m _ c)⟩) (run_main m ρ)

end Cert.KernelIdeal.HandBridge

end
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.KI.V0.lean ====
/-
  The values of the first kernel call (the statistics pass), over the extended reals.

  What each control case leaves in the two accumulator rows and in the two outputs is a payload of the point's four input
  blocks and of what the point before left (the pieces read back). Folding over the 74 grid points, the row of sums after
  the last point is, channel by channel, the blocks' column sums of the linear layer's output added up from zero in the
  grid's order, and the row of sums of squares likewise; the last point divides by the row count and stores the mean
  and the mean square less the squared mean. Its one write-back covers each result array.

  The reading of one block's linear layer at a row (row 20 r + n of block t is pillar 2048 t + r, point n of the
  specification over the padded arrays) enters as a hypothesis, TileReads; under it the two result arrays are the
  specification's mean and variance rows.
-/
import proofs.«124926_j66013647339880_1_alg».proof.Proof.KI.R0
import proofs.«124926_j66013647339880_1_alg».proof.Proof.PadSpec
import proofs.«124926_j66013647339880_1_alg».proof.Proof.LibIx2
import proofs.«124926_j66013647339880_1_alg».proof.Proof.Alg
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.HandValue0

open Cert.KernelIdeal Cert.KernelIdeal.Gen Cert.KernelIdeal.Hand

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-! ## What each case's pieces are: the payloads at the point's blocks -/

/-- The first point leaves, in the row of sums, the zero row plus the block's column sums. -/
theorem soutA0_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) :
    sout0_A_0 c i arg1 harg1 arg2 harg2 arg3 harg3 arg4 harg4 arg5 harg5 arg6 harg6 arg7 harg7 arg8 harg8 hc0 hc1 x0 x1 x2 x3 = k0_pay12 (k0_pay6 x0) (k0_pay7 x0 x1) (k0_pay8 x2) (k0_pay9 x0 x2) (k0_pay10 x0) x3 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero (S := S1x64) hz2]
  simp only [View.readAt_eq_ld, harg1.read_unread, harg2.read_unread, harg3.read_unread, harg4.read_unread, harg7.read_unread, harg8.read_unread,
    View.readCov_unit_zero (S := S1x64) _ hz2,
    View.ld_unit_zero (S := S2048x20x5) hz3, View.ld_unit_zero (S := S2048x1) hz2, View.ld_unit_zero (S := S2048x4) hz2, View.ld_unit_zero (S := S9x64) hz2, View.ld_unit_zero (S := S1x64) hz2]

/-- The first point leaves, in the row of sums of squares, the zero row plus the block's column sums of squares. -/
theorem soutA1_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S2048x20x5 .f32) (x1 : Vec F S2048x1 .i32) (x2 : Vec F S2048x4 .i32) (x3 : Vec F S9x64 .f32) :
    sout0_A_1 c i arg1 harg1 arg2 harg2 arg3 harg3 arg4 harg4 arg5 harg5 arg6 harg6 arg7 harg7 arg8 harg8 hc0 hc1 x0 x1 x2 x3 = k0_pay13 (k0_pay6 x0) (k0_pay7 x0 x1) (k0_pay8 x2) (k0_pay9 x0 x2) (k0_pay10 x0) x3 (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero (S := S1x64) hz2]
  simp only [View.readAt_eq_ld, harg1.read_unread, harg2.read_unread, harg3.read_unread, harg4.read_unread, harg7.read_unread, harg8.read_unread,
    View.readCov_unit_zero (S := S1x64) _ hz2,
    View.ld_unit_zero (S := S2048x20x5) hz3, View.ld_unit_zero (S := S2048x1) hz2, View.ld_unit_zero (S := S2048x4) hz2, View.ld_unit_zero (S := S9x64) hz2, View.ld_unit_zero (S := S1x64) hz2]

/-- A middle point adds the block's column sums onto the row of sums. -/
theorem soutB0_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    sout0_B_0 c i arg1 harg1 arg2 harg2 arg3 harg3 arg4 harg4 arg5 harg5 arg6 harg6 arg7 harg7 arg8 harg8 hc0 hc1 x0 x1 x2 x3 xs0 xs1 = k0_pay12 (k0_pay6 x0) (k0_pay7 x0 x1) (k0_pay8 x2) (k0_pay9 x0 x2) (k0_pay10 x0) x3 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  try sl_unfold_words
  rw [View.canon_unit_zero (S := S1x64) hz2]
  simp only [View.readAt_eq_ld, harg1.read_unread, harg2.read_unread, harg3.read_unread, harg4.read_unread, harg7.read_unread, harg8.read_unread,
    View.ld_unit_zero (S := S2048x20x5) hz3, View.ld_unit_zero (S := S2048x1) hz2, View.ld_unit_zero (S := S2048x4) hz2, View.ld_unit_zero (S := S9x64) hz2, View.ld_unit_zero (S := S1x64) hz2]

/-- A middle point adds the block's column sums of squares onto the row of sums of squares. -/
theorem soutB1_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    sout0_B_1 c i arg1 harg1 arg2 harg2 arg3 harg3 arg4 harg4 arg5 harg5 arg6 harg6 arg7 harg7 arg8 harg8 hc0 hc1 x0 x1 x2 x3 xs0 xs1 = k0_pay13 (k0_pay6 x0) (k0_pay7 x0 x1) (k0_pay8 x2) (k0_pay9 x0 x2) (k0_pay10 x0) x3 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  try sl_unfold_words
  rw [View.canon_unit_zero (S := S1x64) hz2]
  simp only [View.readAt_eq_ld, harg1.read_unread, harg2.read_unread, harg3.read_unread, harg4.read_unread, harg7.read_unread, harg8.read_unread,
    View.ld_unit_zero (S := S2048x20x5) hz3, View.ld_unit_zero (S := S2048x1) hz2, View.ld_unit_zero (S := S2048x4) hz2, View.ld_unit_zero (S := S9x64) hz2, View.ld_unit_zero (S := S1x64) hz2]

/-- The last point adds the block's column sums onto the row of sums. -/
theorem soutC0_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    sout0_C_0 c i arg1 harg1 arg2 harg2 arg3 harg3 arg4 harg4 arg5 harg5 arg6 harg6 arg7 harg7 arg8 harg8 hc0 hc1 x0 x1 x2 x3 xs0 xs1 = k0_pay12 (k0_pay6 x0) (k0_pay7 x0 x1) (k0_pay8 x2) (k0_pay9 x0 x2) (k0_pay10 x0) x3 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  rw [View.canon_unit_zero (S := S1x64) hz2]
  simp only [View.readAt_eq_ld, harg1.read_unread, harg2.read_unread, harg3.read_unread, harg4.read_unread, harg7.read_unread, harg8.read_unread,
    View.ld_unit_zero (S := S2048x20x5) hz3, View.ld_unit_zero (S := S2048x1) hz2, View.ld_unit_zero (S := S2048x4) hz2, View.ld_unit_zero (S := S9x64) hz2, View.ld_unit_zero (S := S1x64) hz2]

/-- The last point adds the block's column sums of squares onto the row of sums of squares. -/
theorem soutC1_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    sout0_C_1 c i arg1 harg1 arg2 harg2 arg3 harg3 arg4 harg4 arg5 harg5 arg6 harg6 arg7 harg7 arg8 harg8 hc0 hc1 x0 x1 x2 x3 xs0 xs1 = k0_pay13 (k0_pay6 x0) (k0_pay7 x0 x1) (k0_pay8 x2) (k0_pay9 x0 x2) (k0_pay10 x0) x3 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  rw [View.canon_unit_zero (S := S1x64) hz2]
  simp only [View.readAt_eq_ld, harg1.read_unread, harg2.read_unread, harg3.read_unread, harg4.read_unread, harg7.read_unread, harg8.read_unread,
    View.ld_unit_zero (S := S2048x20x5) hz3, View.ld_unit_zero (S := S2048x1) hz2, View.ld_unit_zero (S := S2048x4) hz2, View.ld_unit_zero (S := S9x64) hz2, View.ld_unit_zero (S := S1x64) hz2]

/-- The last point stores, as the mean, the final row of sums over the row count. -/
theorem outC4_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    out0_C_4 c i arg1 harg1 arg2 harg2 arg3 harg3 arg4 harg4 arg5 harg5 arg6 harg6 arg7 harg7 arg8 harg8 hc0 hc1 x0 x1 x2 x3 xs0 xs1 = k0_pay1 (k0_pay12 (k0_pay6 x0) (k0_pay7 x0 x1) (k0_pay8 x2) (k0_pay9 x0 x2) (k0_pay10 x0) x3 xs0) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  rw [View.canon_unit_zero (S := S1x64) hz2]
  simp only [View.readAt_eq_ld, harg1.read_unread, harg2.read_unread, harg3.read_unread, harg4.read_unread, harg7.read_unread, harg8.read_unread,
    View.readCov_unit_zero (S := S1x64) _ hz2,
    View.ld_unit_zero (S := S2048x20x5) hz3, View.ld_unit_zero (S := S2048x1) hz2, View.ld_unit_zero (S := S2048x4) hz2, View.ld_unit_zero (S := S9x64) hz2, View.ld_unit_zero (S := S1x64) hz2]

/-- The last point stores, as the variance, the final row of sums of squares over the row count less the squared mean. -/
theorem outC5_eq (c : Dev nD) (i : grid0.Coords) (arg1 : Memref sig .tc .vmem S2048x20x5 .f32) (harg1 : arg1.IsWhole) (arg2 : Memref sig .tc .vmem S2048x1 .i32) (harg2 : arg2.IsWhole) (arg3 : Memref sig .tc .vmem S2048x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S2048x20x5 .f32) (x1 : Vec F S2048x1 .i32) (x2 : Vec F S2048x4 .i32) (x3 : Vec F S9x64 .f32) (xs0 : Vec F S1x64 .f32) (xs1 : Vec F S1x64 .f32) :
    out0_C_5 c i arg1 harg1 arg2 harg2 arg3 harg3 arg4 harg4 arg5 harg5 arg6 harg6 arg7 harg7 arg8 harg8 hc0 hc1 x0 x1 x2 x3 xs0 xs1 = k0_pay2 (k0_pay12 (k0_pay6 x0) (k0_pay7 x0 x1) (k0_pay8 x2) (k0_pay9 x0 x2) (k0_pay10 x0) x3 xs0) (k0_pay13 (k0_pay6 x0) (k0_pay7 x0 x1) (k0_pay8 x2) (k0_pay9 x0 x2) (k0_pay10 x0) x3 xs1) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0 xs1)]
  unfold kernelRun0_C
  dsimp only
  try sl_unfold_words
  rw [View.canon_unit_zero (S := S1x64) hz2]
  simp only [View.readAt_eq_ld, harg1.read_unread, harg2.read_unread, harg3.read_unread, harg4.read_unread, harg7.read_unread, harg8.read_unread,
    View.readCov_unit_zero (S := S1x64) _ hz2,
    View.ld_unit_zero (S := S2048x20x5) hz3, View.ld_unit_zero (S := S2048x1) hz2, View.ld_unit_zero (S := S2048x4) hz2, View.ld_unit_zero (S := S9x64) hz2, View.ld_unit_zero (S := S1x64) hz2]

end Pieces

/-! ## The accumulation over the grid points, at any value type -/

section Acc
variable {F : FTy → Type} [FloatOps F]
variable (V : (c : Dev nD) → (b : Ref sig .tc) → Buf (Elt F) ((c : Thread nD τ).loc b))

/-- The four input blocks of grid point `t`, at their literal types. -/
abbrev xb0 (c : Dev nD) (t : Fin cfg0.N) : Vec F S2048x20x5 .f32 := iblk0 V c 0 t
abbrev xb1 (c : Dev nD) (t : Fin cfg0.N) : Vec F S2048x1 .i32 := iblk0 V c 1 t
abbrev xb2 (c : Dev nD) (t : Fin cfg0.N) : Vec F S2048x4 .i32 := iblk0 V c 2 t
abbrev xb3 (c : Dev nD) (t : Fin cfg0.N) : Vec F S9x64 .f32 := iblk0 V c 3 t

/-- The linear layer's output on the block of point `t`: 40960 rows (2048 pillars of 20 points) by 64 channels. -/
def ylin (c : Dev nD) (t : Fin cfg0.N) : FVec F S40960x64 .f32 := k0_pay11 (k0_pay6 (xb0 V c t)) (k0_pay7 (xb0 V c t) (xb1 V c t)) (k0_pay8 (xb2 V c t)) (k0_pay9 (xb0 V c t) (xb2 V c t)) (k0_pay10 (xb0 V c t)) (xb3 V c t)

/-- One point's update of the row of sums, and of the row of sums of squares. -/
def stepS (c : Dev nD) (t : Fin cfg0.N) (acc : Vec F S1x64 .f32) : Vec F S1x64 .f32 := k0_pay12 (k0_pay6 (xb0 V c t)) (k0_pay7 (xb0 V c t) (xb1 V c t)) (k0_pay8 (xb2 V c t)) (k0_pay9 (xb0 V c t) (xb2 V c t)) (k0_pay10 (xb0 V c t)) (xb3 V c t) acc
def stepQ (c : Dev nD) (t : Fin cfg0.N) (acc : Vec F S1x64 .f32) : Vec F S1x64 .f32 := k0_pay13 (k0_pay6 (xb0 V c t)) (k0_pay7 (xb0 V c t) (xb1 V c t)) (k0_pay8 (xb2 V c t)) (k0_pay9 (xb0 V c t) (xb2 V c t)) (k0_pay10 (xb0 V c t)) (xb3 V c t) acc

/-- The row of sums after point `n`: the updates of points 0 … n folded from the zero row. -/
def accS (c : Dev nD) : (n : ℕ) → n < cfg0.N → Vec F S1x64 .f32
  | 0, hn => stepS V c ⟨0, hn⟩ (k0_pay3 (F := F))
  | n + 1, hn => stepS V c ⟨n + 1, hn⟩ (accS c n (Nat.lt_of_succ_lt hn))
/-- The row of sums of squares after point `n`. -/
def accQ (c : Dev nD) : (n : ℕ) → n < cfg0.N → Vec F S1x64 .f32
  | 0, hn => stepQ V c ⟨0, hn⟩ (k0_pay4 (F := F))
  | n + 1, hn => stepQ V c ⟨n + 1, hn⟩ (accQ c n (Nat.lt_of_succ_lt hn))

/-- What the two accumulator rows hold after each point is that fold. -/
theorem acc_eq (c : Dev nD) : ∀ (n : ℕ) (hn : n < cfg0.N),
    (outsAt0 V c n hn).2.2.1 = accS V c n hn ∧ (outsAt0 V c n hn).2.2.2 = accQ V c n hn
  | 0, hn => by
    rw [outsAt0]; dsimp only
    rw [soutA0_eq, soutA1_eq, accS, accQ]
    exact ⟨rfl, rfl⟩
  | n + 1, hn => by
    obtain ⟨ihS, ihQ⟩ := acc_eq c n (Nat.lt_of_succ_lt hn)
    rw [outsAt0, accS, accQ]
    by_cases h1 : n + 1 = 73
    · rw [dif_pos h1]; dsimp only
      rw [soutC0_eq, soutC1_eq, ihS, ihQ]
      exact ⟨rfl, rfl⟩
    · rw [dif_neg h1]; dsimp only
      rw [soutB0_eq, soutB1_eq, ihS, ihQ]
      exact ⟨rfl, rfl⟩

theorem h73 : 73 < cfg0.N := by rw [show cfg0.N = 74 from N_0]; decide
/-- The last grid point. -/
abbrev t73 : Fin cfg0.N := ⟨73, h73⟩

/-- What the last point stores as the mean and as the variance, at any spelling of its position. -/
theorem out_last (c : Dev nD) (n : ℕ) (hn : n + 1 < cfg0.N) (h1 : n + 1 = 73) :
    (outsAt0 V c (n + 1) hn).1 = k0_pay1 (accS V c (n + 1) hn)
      ∧ (outsAt0 V c (n + 1) hn).2.1 = k0_pay2 (accS V c (n + 1) hn) (accQ V c (n + 1) hn) := by
  obtain ⟨ihS, ihQ⟩ := acc_eq V c n (Nat.lt_of_succ_lt hn)
  rw [outsAt0, dif_pos h1]; dsimp only
  rw [outC4_eq, outC5_eq, ihS, ihQ, accS, accQ]
  exact ⟨rfl, rfl⟩

theorem out_last_t (c : Dev nD) (t : Fin cfg0.N) (h1 : t.val = 73) :
    (outsAt0 V c t.val t.isLt).1 = k0_pay1 (accS V c t.val t.isLt)
      ∧ (outsAt0 V c t.val t.isLt).2.1 = k0_pay2 (accS V c t.val t.isLt) (accQ V c t.val t.isLt) := by
  obtain ⟨n, hn⟩ := t
  cases n with
  | zero => exact absurd h1 (show ¬(0 : ℕ) = 73 by decide)
  | succ n => exact out_last V c n hn h1

end Acc

/-! ## The two result arrays after the region, at any value type -/

section Final
variable {F : FTy → Type} [FloatOps F]
variable (V : (c : Dev nD) → (b : Ref sig .tc) → Buf (Elt F) ((c : Thread nD τ).loc b))

/-- The mean row, as the contents of its array. -/
abbrev res4 (c : Dev nD) : Buf (Elt F) ((c : Thread nD τ).loc main_v7_0) := k0_pay1 (accS V c (t73 : Fin cfg0.N).val (t73 : Fin cfg0.N).isLt)
/-- The variance row, as the contents of its array. -/
abbrev res5 (c : Dev nD) : Buf (Elt F) ((c : Thread nD τ).loc main_v7_1) := k0_pay2 (accS V c (t73 : Fin cfg0.N).val (t73 : Fin cfg0.N).isLt) (accQ V c (t73 : Fin cfg0.N).val (t73 : Fin cfg0.N).isLt)

/-- The one write-back of the mean's window, at the last point, writes `res4`. -/
theorem flushed4_eq (c : Dev nD) (t : Fin cfg0.N) (hf : (cfg0.win 4).flush t = true) :
    (dat0 V c).flushed 4 t = ((cfg0.win 4).blk t).view.read (Elt F) (res4 V c) := by
  have hN : cfg0.N = 74 := N_0
  have h1 : t.val = 73 := by have := (flush0_4 t).mp hf; have := t.isLt; omega
  obtain rfl : t = t73 := Fin.ext h1
  show (cfg0.win 4).cut (grid0.coords t73) ((dat0 V c).after 4 t73) = _
  rw [after0_4, (out_last_t V c t73 rfl).1]
  have hz' : (fun a => win0_4.index t73 a * main_v7_0.ty.shape.size a) = fun _ => 0 := funext fun a => by fin_cases a <;> decide
  exact (Memref.read_access_unit_zero (Elt F) main_v7_0 hz' (fun a => by rw [congrFun hz' a]; simp) (res4 V c)).symm

theorem flushed5_eq (c : Dev nD) (t : Fin cfg0.N) (hf : (cfg0.win 5).flush t = true) :
    (dat0 V c).flushed 5 t = ((cfg0.win 5).blk t).view.read (Elt F) (res5 V c) := by
  have hN : cfg0.N = 74 := N_0
  have h1 : t.val = 73 := by have := (flush0_5 t).mp hf; have := t.isLt; omega
  obtain rfl : t = t73 := Fin.ext h1
  show (cfg0.win 5).cut (grid0.coords t73) ((dat0 V c).after 5 t73) = _
  rw [after0_5, (out_last_t V c t73 rfl).2]
  have hz' : (fun a => win0_5.index t73 a * main_v7_1.ty.shape.size a) = fun _ => 0 := funext fun a => by fin_cases a <;> decide
  exact (Memref.read_access_unit_zero (Elt F) main_v7_1 hz' (fun a => by rw [congrFun hz' a]; simp) (res5 V c)).symm

/-- So the mean's array ends holding `res4`: the last point's block covers it. -/
theorem final4 (c : Dev nD) : (dat0 V c).arrAt 4 cfg0.N = res4 V c :=
  (dat0 V c).arrAt_eq_of_cover 4 (res4 V c) (flushed4_eq V c) fun i =>
    ⟨t73, (flush0_4 t73).mpr rfl, by
      show i ∈ ((View.whole main_v7_0).slice (win0_4.rect t73)).set
      rw [View.set_slice_whole, Rect.mem_set_unit]
      intro a
      have h0 : (i 0 : Nat) < 1 := (i 0).isLt
      have h1 : (i 1 : Nat) < 64 := (i 1).isLt
      match a with
      | ⟨0, _⟩ => show win0_4.index t73 0 * win0_4.size 0 ≤ (i 0 : Nat) ∧ (i 0 : Nat) < win0_4.index t73 0 * win0_4.size 0 + win0_4.xsize (grid0.coords t73) 0
                  rw [show win0_4.index t73 0 * win0_4.size 0 = 0 from by decide +kernel, show win0_4.xsize (grid0.coords t73) 0 = 1 from by decide +kernel]; omega
      | ⟨1, _⟩ => show win0_4.index t73 1 * win0_4.size 1 ≤ (i 1 : Nat) ∧ (i 1 : Nat) < win0_4.index t73 1 * win0_4.size 1 + win0_4.xsize (grid0.coords t73) 1
                  rw [show win0_4.index t73 1 * win0_4.size 1 = 0 from by decide +kernel, show win0_4.xsize (grid0.coords t73) 1 = 64 from by decide +kernel]; omega⟩

/-- And the variance's array ends holding `res5`. -/
theorem final5 (c : Dev nD) : (dat0 V c).arrAt 5 cfg0.N = res5 V c :=
  (dat0 V c).arrAt_eq_of_cover 5 (res5 V c) (flushed5_eq V c) fun i =>
    ⟨t73, (flush0_5 t73).mpr rfl, by
      show i ∈ ((View.whole main_v7_1).slice (win0_5.rect t73)).set
      rw [View.set_slice_whole, Rect.mem_set_unit]
      intro a
      have h0 : (i 0 : Nat) < 1 := (i 0).isLt
      have h1 : (i 1 : Nat) < 64 := (i 1).isLt
      match a with
      | ⟨0, _⟩ => show win0_5.index t73 0 * win0_5.size 0 ≤ (i 0 : Nat) ∧ (i 0 : Nat) < win0_5.index t73 0 * win0_5.size 0 + win0_5.xsize (grid0.coords t73) 0
                  rw [show win0_5.index t73 0 * win0_5.size 0 = 0 from by decide +kernel, show win0_5.xsize (grid0.coords t73) 0 = 1 from by decide +kernel]; omega
      | ⟨1, _⟩ => show win0_5.index t73 1 * win0_5.size 1 ≤ (i 1 : Nat) ∧ (i 1 : Nat) < win0_5.index t73 1 * win0_5.size 1 + win0_5.xsize (grid0.coords t73) 1
                  rw [show win0_5.index t73 1 * win0_5.size 1 = 0 from by decide +kernel, show win0_5.xsize (grid0.coords t73) 1 = 64 from by decide +kernel]; omega⟩

end Final

/-! ## The payloads read at an index, over the extended reals -/

section IdealIdx

/-- The zero row. -/
theorem pay3_apply (o : Fin 64) : (k0_pay3 (F := Ideal) : FVec Ideal S1x64 .f32) (ix2 (0 : Fin 1) o) = 0 := by
  unfold k0_pay3
  rw [shapeCast_self]
  exact Ideal.ofBits_zero_f32
theorem pay4_apply (o : Fin 64) : (k0_pay4 (F := Ideal) : FVec Ideal S1x64 .f32) (ix2 (0 : Fin 1) o) = 0 := by
  unfold k0_pay4
  rw [shapeCast_self]
  exact Ideal.ofBits_zero_f32

/-- A sum over the rows of a [40960, 64] matrix, read at channel `o`. -/
theorem colsum_apply (Y : FVec Ideal S40960x64 .f32) (o : Fin 64) :
    shapeCast S1x64 (multiReduction .add [0] S64 Y 0x00000000#32 reduces_S40960x64_S64 (.inl rfl) rfl) shapeCasts_S64_S1x64 (ix2 (0 : Fin 1) o)
      = ∑ k : Fin 40960, Y (ix2 k o) := by
  refine (shapeCast_apply _ _ (ix2 (0 : Fin 1) o) (ix1 o) ?_).trans ?_
  · rw [Shape.rowMajor_val_one, Shape.rowMajor_val_two]; show o.val = 0 * 64 + o.val; omega
  · refine (Ideal.multiReduction_add_single Y _ reduces_S40960x64_S64 (.inl rfl) rfl (ix1 o)).trans ?_
    exact Finset.sum_congr rfl fun k _ => congrArg Y (funext fun a => by fin_cases a <;> rfl)

/-- One point's update of the row of sums: the row plus the column sums of the linear layer's output. -/
theorem pay12_apply (v9 v16 : FVec Ideal S2048x20x3 .f32) (v34 : FVec Ideal S2048 .f32) (v39 v41 : FVec Ideal S2048x20 .f32)
    (v60 : FVec Ideal S9x64 .f32) (v66 : FVec Ideal S1x64 .f32) (o : Fin 64) :
    k0_pay12 (F := Ideal) v9 v16 v34 v39 v41 v60 v66 (ix2 (0 : Fin 1) o)
      = v66 (ix2 (0 : Fin 1) o) + ∑ k : Fin 40960, k0_pay11 (F := Ideal) v9 v16 v34 v39 v41 v60 (ix2 k o) := by
  unfold k0_pay12
  try dsimp only
  rw [shapeCast_self]
  exact congrArg (v66 (ix2 (0 : Fin 1) o) + ·) (colsum_apply (k0_pay11 (F := Ideal) v9 v16 v34 v39 v41 v60) o)

/-- One point's update of the row of sums of squares. -/
theorem pay13_apply (v9 v16 : FVec Ideal S2048x20x3 .f32) (v34 : FVec Ideal S2048 .f32) (v39 v41 : FVec Ideal S2048x20 .f32)
    (v60 : FVec Ideal S9x64 .f32) (v73 : FVec Ideal S1x64 .f32) (o : Fin 64) :
    k0_pay13 (F := Ideal) v9 v16 v34 v39 v41 v60 v73 (ix2 (0 : Fin 1) o)
      = v73 (ix2 (0 : Fin 1) o) + ∑ k : Fin 40960, k0_pay11 (F := Ideal) v9 v16 v34 v39 v41 v60 (ix2 k o) * k0_pay11 (F := Ideal) v9 v16 v34 v39 v41 v60 (ix2 k o) := by
  unfold k0_pay13
  try dsimp only
  rw [shapeCast_self]
  exact congrArg (v73 (ix2 (0 : Fin 1) o) + ·) (colsum_apply (mulf (k0_pay11 (F := Ideal) v9 v16 v34 v39 v41 v60) (k0_pay11 (F := Ideal) v9 v16 v34 v39 v41 v60)) o)

/-- The mean: the row of sums over the row count. -/
theorem pay1_apply (v84 : FVec Ideal S1x64 .f32) (o : Fin 64) :
    k0_pay1 (F := Ideal) v84 (ix2 (0 : Fin 1) o) = Ideal.div (v84 (ix2 (0 : Fin 1) o)) Cert.Spec.rows := rfl

/-- The variance: the row of sums of squares over the row count, less the squared mean. -/
theorem pay2_apply (v84 v88 : FVec Ideal S1x64 .f32) (o : Fin 64) :
    k0_pay2 (F := Ideal) v84 v88 (ix2 (0 : Fin 1) o)
      = Ideal.div (v88 (ix2 (0 : Fin 1) o)) Cert.Spec.rows
        - Ideal.div (v84 (ix2 (0 : Fin 1) o)) Cert.Spec.rows * Ideal.div (v84 (ix2 (0 : Fin 1) o)) Cert.Spec.rows := rfl

end IdealIdx

/-! ## The accumulated rows as sums over the tiles, and the two results -/

section Sum
open Cert.PadSpec
variable (V : (c : Dev nD) → (b : Ref sig .tc) → Buf (Elt Ideal) ((c : Thread nD τ).loc b))

/-- The column sum of the linear layer's output on the block of point `t` (zero past the grid), and of its square. -/
def colS (c : Dev nD) (o : Fin 64) (t : ℕ) : EReal :=
  if h : t < cfg0.N then ∑ k : Fin 40960, ylin V c ⟨t, h⟩ (ix2 k o) else 0
def colQ (c : Dev nD) (o : Fin 64) (t : ℕ) : EReal :=
  if h : t < cfg0.N then ∑ k : Fin 40960, ylin V c ⟨t, h⟩ (ix2 k o) * ylin V c ⟨t, h⟩ (ix2 k o) else 0

/-- The row of sums after point `n`, at channel `o`: the blocks' column sums added up from zero, in the grid's order. -/
theorem accS_apply (c : Dev nD) (o : Fin 64) : ∀ (n : ℕ) (hn : n < cfg0.N),
    accS V c n hn (ix2 (0 : Fin 1) o) = ∑ t ∈ Finset.range (n + 1), colS V c o t
  | 0, hn => by
    rw [accS]; unfold stepS
    rw [pay12_apply, pay3_apply, zero_add, Finset.sum_range_one, colS, dif_pos hn]
    rfl
  | n + 1, hn => by
    rw [accS]; unfold stepS
    rw [pay12_apply, accS_apply c o n (Nat.lt_of_succ_lt hn), Finset.sum_range_succ _ (n + 1), colS, dif_pos hn]
    rfl

/-- The row of sums of squares likewise. -/
theorem accQ_apply (c : Dev nD) (o : Fin 64) : ∀ (n : ℕ) (hn : n < cfg0.N),
    accQ V c n hn (ix2 (0 : Fin 1) o) = ∑ t ∈ Finset.range (n + 1), colQ V c o t
  | 0, hn => by
    rw [accQ]; unfold stepQ
    rw [pay13_apply, pay4_apply, zero_add, Finset.sum_range_one, colQ, dif_pos hn]
    rfl
  | n + 1, hn => by
    rw [accQ]; unfold stepQ
    rw [pay13_apply, accQ_apply c o n (Nat.lt_of_succ_lt hn), Finset.sum_range_succ _ (n + 1), colQ, dif_pos hn]
    rfl

/-- The hypothesis the tile reading supplies: the linear layer's output on block `t`, at row 20 r + n, is the
    specification's linear layer at pillar 2048 t + r, point n. -/
def TileReads (c : Dev nD) : Prop :=
  ∀ (t : Fin cfg0.N) (r : Fin 2048) (n : Fin 20) (o : Fin 64),
    ylin V c t (ix2 (⟨20 * r.val + n.val, by omega⟩ : Fin 40960) o)
      = linP (V c main_v0) (V c main_v2) (V c main_v3) (V c main_v4) (row ⟨t.val, lt_of_lt_of_eq t.isLt N_0⟩ r) n o

/-- Under it, the final row of sums is the specification's sum over every tile, pillar and point; -/
theorem accS_last (c : Dev nD) (h : TileReads V c) (o : Fin 64) :
    accS V c (t73 : Fin cfg0.N).val (t73 : Fin cfg0.N).isLt (ix2 (0 : Fin 1) o)
      = sumP (V c main_v0) (V c main_v2) (V c main_v3) (V c main_v4) o := by
  rw [accS_apply V c o _ _]
  show ∑ t ∈ Finset.range 74, colS V c o t = _
  rw [Finset.sum_range]
  unfold sumP
  refine Finset.sum_congr rfl fun t _ => ?_
  have ht : t.val < cfg0.N := lt_of_lt_of_eq t.isLt N_0.symm
  rw [colS, dif_pos ht, Cert.KForm.sum_rows]
  refine Finset.sum_congr rfl fun r _ => Finset.sum_congr rfl fun n _ => ?_
  exact h ⟨t.val, ht⟩ r n o

/-- and the final row of sums of squares its sum of squares. -/
theorem accQ_last (c : Dev nD) (h : TileReads V c) (o : Fin 64) :
    accQ V c (t73 : Fin cfg0.N).val (t73 : Fin cfg0.N).isLt (ix2 (0 : Fin 1) o)
      = sumsqP (V c main_v0) (V c main_v2) (V c main_v3) (V c main_v4) o := by
  rw [accQ_apply V c o _ _]
  show ∑ t ∈ Finset.range 74, colQ V c o t = _
  rw [Finset.sum_range]
  unfold sumsqP
  refine Finset.sum_congr rfl fun t _ => ?_
  have ht : t.val < cfg0.N := lt_of_lt_of_eq t.isLt N_0.symm
  rw [colQ, dif_pos ht, Cert.KForm.sum_rows]
  refine Finset.sum_congr rfl fun r _ => Finset.sum_congr rfl fun n _ => ?_
  rw [h ⟨t.val, ht⟩ r n o]

/-- THE TWO RESULTS: after the region the mean's array holds, at channel `o`, the sum over all tiles, pillars and points of
    the linear layer's output over the row count, and the variance's array the like sum of squares over the row count less the
    squared mean. -/
theorem stats0_of (c : Dev nD) (h : TileReads V c) (o : Fin 64) :
    ((dat0 V c).arrAt 4 cfg0.N : FVec Ideal S1x64 .f32) (ix2 (0 : Fin 1) o)
        = meanK (V c main_v0) (V c main_v2) (V c main_v3) (V c main_v4) o
      ∧ ((dat0 V c).arrAt 5 cfg0.N : FVec Ideal S1x64 .f32) (ix2 (0 : Fin 1) o)
        = varK (V c main_v0) (V c main_v2) (V c main_v3) (V c main_v4) o := by
  rw [final4 V c, final5 V c]
  unfold meanK varK
  unfold meanK
  rw [← accS_last V c h o, ← accQ_last V c h o]
  exact ⟨rfl, rfl⟩

end Sum

end Cert.KernelIdeal.HandValue0

end
-- ==== Proof.KI.V1.lean ====
/-
  Pallas call 1 (the normalise-and-pool pass), the value half at the extended reals: the array its output window's
  write-backs leave is the second kernel's result over the padded arrays, index by index.

  First the stored value at an index of the block. Row r of the block, channel o: the maximum over the 20 points n of
  max (x r n o * scale o + shift o) 0, where x r n o is the sum over the nine features k of the feature times the weight
  at (k, o) (the product's row is 20 r + n), the nine features are the three coordinates, their offsets from the voxel
  centre times the coordinate's mask, and their offsets from the pillar's mean point times the mask, and
  scale o = rsqrt (var o + 1e-3) * gamma o, shift o = beta o - mean o * scale o. Each layout operation of the body is
  read at an index by one small lemma; the pointwise operations are the extended reals' own.

  Then from blocks to the array: at grid point t the three pillar blocks and the output block are tile t (rows
  2048 t ... 2048 t + 2047) of their arrays and the weight and the four channel rows are whole, so what point t writes
  back is block t of the one whole-array function; row p of the result is in the block of point p / 2048, so the blocks
  cover the array.
-/
import proofs.«124926_j66013647339880_1_alg».proof.Proof.KI.R1
import proofs.«124926_j66013647339880_1_alg».proof.Proof.PadSpec
import proofs.«124926_j66013647339880_1_alg».proof.Proof.LibIx2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec Cert.PadSpec
open scoped BigOperators

/-! ## The first half of the body at an index -/

/-- The first three features of a point, read off the block. -/
theorem pay2_apply (x0 : Vec Ideal S2048x20x5 .f32) (r : Fin 2048) (n : Fin 20) (k : Fin 3) :
    k1_pay2 x0 (ix3 r n k) = x0 (ix3 r n (Fin.castLE (by decide) k)) := by
  unfold k1_pay2
  rw [shapeCast_self]
  refine extractStridedSlice_apply _ _ _ _ (ix3 r n (Fin.castLE (by decide) k)) fun a => ?_
  match a with
  | ⟨0, _⟩ => show r.val = 0 + r.val; omega
  | ⟨1, _⟩ => show n.val = 0 + n.val; omega
  | ⟨2, _⟩ => show k.val = 0 + k.val; omega

/-- A column of the voxel coordinates, as the kernel reads it. -/
theorem coordCol_apply (x2 : Vec Ideal S2048x4 .i32) (r : Fin 2048) (c : Fin 4) (off : Fin 2 → ℕ)
    (hoff : off = ![0, c.val]) (h : S2048x4.Slices off S2048x1) :
    shapeCast S2048 (extractStridedSlice S2048x1 off (k1_pay1 x2) h) shapeCasts_S2048x1_S2048 (ix1 r) = x2 (ix2 r c) := by
  subst hoff
  refine (shapeCast_apply _ _ (ix1 r) (ix2 r (0 : Fin 1)) ?_).trans ?_
  · rw [Shape.rowMajor_val_one, Shape.rowMajor_val_two]
    show r.val * 1 + 0 = r.val
    omega
  refine (extractStridedSlice_apply _ _ _ _ (ix2 r c) fun a => ?_).trans ?_
  · match a with
    | ⟨0, _⟩ => show r.val = 0 + r.val; omega
    | ⟨1, _⟩ => show c.val = c.val + 0; rfl
  unfold k1_pay1
  rw [shapeCast_self]

/-- One of the three coordinate planes of the points, as a [2048, 20] matrix. -/
theorem plane_apply (x0 : Vec Ideal S2048x20x5 .f32) (r : Fin 2048) (n : Fin 20) (k : Fin 3) (off : Fin 3 → ℕ)
    (hoff : off = ![0, 0, k.val]) (h : S2048x20x3.Slices off S2048x20x1) :
    shapeCast S2048x20 (extractStridedSlice S2048x20x1 off (k1_pay2 x0) h) shapeCasts_S2048x20x1_S2048x20 (ix2 r n)
      = x0 (ix3 r n (Fin.castLE (by decide) k)) := by
  subst hoff
  refine (shapeCast_apply _ _ (ix2 r n) (ix3 r n (0 : Fin 1)) ?_).trans ?_
  · rw [Shape.rowMajor_val_three, Shape.rowMajor_val_two]
    show (r.val * 20 + n.val) * 1 + 0 = r.val * 20 + n.val
    omega
  refine (extractStridedSlice_apply _ _ _ _ (ix3 r n k) fun a => ?_).trans ?_
  · match a with
    | ⟨0, _⟩ => show r.val = 0 + r.val; omega
    | ⟨1, _⟩ => show n.val = 0 + n.val; omega
    | ⟨2, _⟩ => show k.val = k.val + 0; rfl
  exact pay2_apply x0 r n k

/-- A [2048] vector as a column, broadcast along 20 points. -/
theorem colBcast_apply (v : FVec Ideal S2048 .f32) (r : Fin 2048) (n : Fin 20) :
    broadcastTo S2048x20 (shapeCast S2048x1 v shapeCasts_S2048_S2048x1) broadcasts_S2048x1_S2048x20 (ix2 r n) = v (ix1 r) := by
  rw [Cert.LibIx2.broadcastTo_a1_ab_apply]
  refine shapeCast_apply _ _ (ix2 r (0 : Fin 1)) (ix1 r) ?_
  rw [Shape.rowMajor_val_one, Shape.rowMajor_val_two]
  show r.val = r.val * 1 + 0
  omega

/-- The offset of a point's x from the voxel's x centre (column 3 of the voxel coordinates). -/
theorem pay4_apply (x0 : Vec Ideal S2048x20x5 .f32) (x2 : Vec Ideal S2048x4 .i32) (r : Fin 2048) (n : Fin 20) :
    k1_pay4 x0 x2 (ix2 r n) = x0 (ix3 r n (0 : Fin 5))
      - ((ofInt (x2 (ix2 r (3 : Fin 4))) + lit 0x3F000000#32) * lit 0x3E23D70A#32 + lit 0x00000000#32) := by
  unfold k1_pay4
  rw [subf_apply, plane_apply x0 r n 0 ![0, 0, 0] rfl, colBcast_apply, addf_apply, mulf_apply, addf_apply, sitofp_apply,
    coordCol_apply x2 r 3 ![0, 3] rfl]
  rfl

/-- The offset of a point's y from the voxel's y centre (column 2 of the voxel coordinates). -/
theorem pay5_apply (x0 : Vec Ideal S2048x20x5 .f32) (x2 : Vec Ideal S2048x4 .i32) (r : Fin 2048) (n : Fin 20) :
    k1_pay5 x0 x2 (ix2 r n) = x0 (ix3 r n (1 : Fin 5))
      - ((ofInt (x2 (ix2 r (2 : Fin 4))) + lit 0x3F000000#32) * lit 0x3E23D70A#32 + lit 0xC2200000#32) := by
  unfold k1_pay5
  rw [subf_apply, plane_apply x0 r n 1 ![0, 0, 1] rfl, colBcast_apply, addf_apply, mulf_apply, addf_apply, sitofp_apply,
    coordCol_apply x2 r 2 ![0, 2] rfl]
  rfl

/-- The z coordinate of a point. -/
theorem pay6_apply (x0 : Vec Ideal S2048x20x5 .f32) (r : Fin 2048) (n : Fin 20) :
    k1_pay6 x0 (ix2 r n) = x0 (ix3 r n (2 : Fin 5)) := by
  unfold k1_pay6
  exact plane_apply x0 r n 2 ![0, 0, 2] rfl _

/-- The sum over a pillar's 20 points of one coordinate. -/
theorem pointSum_apply (x0 : Vec Ideal S2048x20x5 .f32) (r : Fin 2048) (k : Fin 3) (hφ : FKind.Formats .f32)
    (hacc : (0x00000000#32 : BitVec 32) = 0x00000000#32) :
    multiReduction .add [1] S2048x3 (k1_pay2 x0) 0x00000000#32 reduces_S2048x20x3_S2048x3 hφ hacc (ix2 r k)
      = ∑ n' : Fin 20, x0 (ix3 r n' (Fin.castLE (by decide) k)) := by
  refine (Ideal.multiReduction_add_single (k1_pay2 x0) 0x00000000#32 reduces_S2048x20x3_S2048x3 hφ hacc (ix2 r k)).trans ?_
  show ∑ n' : Fin 20, k1_pay2 x0 (reduces_S2048x20x3_S2048x3.lift (ix2 r k) n') = _
  refine Finset.sum_congr rfl fun n' _ => ?_
  have e : reduces_S2048x20x3_S2048x3.lift (ix2 r k) n' = ix3 r n' k := by
    funext a
    match a with
    | ⟨0, _⟩ => exact Fin.ext rfl
    | ⟨1, _⟩ => exact Fin.ext rfl
    | ⟨2, _⟩ => exact Fin.ext rfl
  rw [e]
  exact pay2_apply x0 r n' k

/-- The offset of a point's coordinate from the pillar's mean: the sum of the 20 points over the count. -/
theorem pay3_apply (x0 : Vec Ideal S2048x20x5 .f32) (x1 : Vec Ideal S2048x1 .i32) (r : Fin 2048) (n : Fin 20) (k : Fin 3) :
    k1_pay3 x0 x1 (ix3 r n k) = x0 (ix3 r n (Fin.castLE (by decide) k))
      - Ideal.div (∑ n' : Fin 20, x0 (ix3 r n' (Fin.castLE (by decide) k))) (ofInt (x1 (ix2 r (0 : Fin 1)))) := by
  unfold k1_pay3
  rw [subf_apply, pay2_apply]
  congr 1
  refine (broadcastTo_apply _ _ (ix3 r n k) (ix3 r (0 : Fin 1) k) fun a => ?_).trans ?_
  · match a with
    | ⟨0, _⟩ => rfl
    | ⟨1, _⟩ => rfl
    | ⟨2, _⟩ => rfl
  refine (shapeCast_apply _ _ (ix3 r (0 : Fin 1) k) (ix2 r k) ?_).trans ?_
  · rw [Shape.rowMajor_val_three, Shape.rowMajor_val_two]
    show r.val * 3 + k.val = (r.val * 1 + 0) * 3 + k.val
    omega
  rw [divf_apply, Cert.LibIx2.broadcastTo_a1_ab_apply, sitofp_apply, shapeCast_self]
  congr 1
  exact pointSum_apply x0 r k _ _

/-! ## The second half of the body at an index -/

/-- The linear layer's contraction: [40960, 9] by [9, 64], one contracted axis of extent 9. -/
abbrev D9 := dot_S40960x9_S9x64_S40960x64_1_0_0_1_n_n

theorem lhs9_0 (j : S40960x64.Idx) (k : D9.contr.Idx) : (D9.lhsIdx j k 0 : ℕ) = j 0 := by
  simp [DotDims.lhsIdx, D9, dot_S40960x9_S9x64_S40960x64_1_0_0_1_n_n]; rfl
theorem lhs9_1 (j : S40960x64.Idx) (k : D9.contr.Idx) : (D9.lhsIdx j k 1 : ℕ) = k ⟨0, by decide⟩ := by
  simp [DotDims.lhsIdx, D9, dot_S40960x9_S9x64_S40960x64_1_0_0_1_n_n]; rfl
theorem rhs9_0 (j : S40960x64.Idx) (k : D9.contr.Idx) : (D9.rhsIdx j k 0 : ℕ) = k ⟨0, by decide⟩ := by
  simp [DotDims.rhsIdx, D9, dot_S40960x9_S9x64_S40960x64_1_0_0_1_n_n]; rfl
theorem rhs9_1 (j : S40960x64.Idx) (k : D9.contr.Idx) : (D9.rhsIdx j k 1 : ℕ) = j 1 := by
  simp [DotDims.rhsIdx, D9, dot_S40960x9_S9x64_S40960x64_1_0_0_1_n_n]; rfl

/-- The linear layer into the zero accumulator, at row `q` and channel `o`: the sum over the nine features. -/
theorem matmul9_apply (prec : Option ContractPrecision) (l : FVec Ideal S40960x9 .f32) (w : FVec Ideal S9x64 .f32)
    (q : Fin 40960) (o : Fin 64) :
    matmul D9 prec l w (constant S40960x64 .f32 0x00000000#32) (ix2 q o) = ∑ k : Fin 9, l (ix2 q k) * w (ix2 k o) := by
  simp only [matmul]
  rw [Ideal.matmul_constant_zero_apply, ← Equiv.sum_comp (contrEquiv1 D9 9 rfl rfl).symm]
  refine Finset.sum_congr rfl fun k _ => ?_
  have hk := contrEquiv1_symm_val D9 9 rfl rfl k
  have eL : D9.lhsIdx (ix2 q o) ((contrEquiv1 D9 9 rfl rfl).symm k) = ix2 q k := by
    funext a
    match a with
    | ⟨0, _⟩ => exact Fin.ext (lhs9_0 _ _)
    | ⟨1, _⟩ => exact Fin.ext ((lhs9_1 _ _).trans hk)
  have eR : D9.rhsIdx (ix2 q o) ((contrEquiv1 D9 9 rfl rfl).symm k) = ix2 k o := by
    funext a
    match a with
    | ⟨0, _⟩ => exact Fin.ext ((rhs9_0 _ _).trans hk)
    | ⟨1, _⟩ => exact Fin.ext (rhs9_1 _ _)
  rw [eL, eR]

/-- The mask of a coordinate, as the kernel builds it: the comparison's bit widened to a word, read as a float. -/
theorem maskBit_eq (x : EReal) :
    ((((Ideal.cmp .one x (Ideal.ofBits .f32 0x00000000#32)).setWidth 32).toInt : ℝ) : EReal) = if x = 0 then 0 else 1 := by
  rw [Ideal.ofBits_zero_f32]
  unfold Ideal.cmp
  by_cases h : x = 0
  · rw [if_pos h]
    simp [h]
  · rw [if_neg h]
    simp [h]

/-- Three unit planes laid side by side along the last axis: plane `k` at its only coordinate. -/
theorem cat111_apply (a b c : FVec Ideal S2048x20x1 .f32) (r : Fin 2048) (n : Fin 20) (k : Fin 3) :
    concatenate S2048x20x3 2 [⟨S2048x20x1, a⟩, ⟨S2048x20x1, b⟩, ⟨S2048x20x1, c⟩]
        concatenates_S2048x20x1_S2048x20x1_S2048x20x1_S2048x20x3_d2 (ix3 r n k)
      = (match k with | ⟨0, _⟩ => a | ⟨1, _⟩ => b | ⟨_ + 2, _⟩ => c) (ix3 r n (0 : Fin 1)) := by
  have hi : ∀ b : Fin 3, b.cast (rfl : S2048x20x1.rank = S2048x20x3.rank) ≠ (2 : Fin 3) →
      ((ix3 r n (0 : Fin 1) : S2048x20x1.Idx) b).val = ((ix3 r n k : S2048x20x3.Idx) (b.cast rfl)).val := fun b hb => by
    match b with
    | ⟨0, _⟩ => rfl
    | ⟨1, _⟩ => rfl
    | ⟨2, _⟩ => exact absurd rfl hb
  match k with
  | ⟨0, _⟩ =>
    exact concatenate_apply_piece (2 : Fin 3) [⟨S2048x20x1, a⟩, ⟨S2048x20x1, b⟩, ⟨S2048x20x1, c⟩] _ (ix3 r n (0 : Fin 3)) 0 (by decide : (0 : ℕ) < 3) S2048x20x1 a rfl rfl 0 rfl (ix3 r n (0 : Fin 1)) hi rfl
  | ⟨1, _⟩ =>
    exact concatenate_apply_piece (2 : Fin 3) [⟨S2048x20x1, a⟩, ⟨S2048x20x1, b⟩, ⟨S2048x20x1, c⟩] _ (ix3 r n (1 : Fin 3)) 1 (by decide : (1 : ℕ) < 3) S2048x20x1 b rfl rfl 1 rfl (ix3 r n (0 : Fin 1)) hi rfl
  | ⟨2, _⟩ =>
    exact concatenate_apply_piece (2 : Fin 3) [⟨S2048x20x1, a⟩, ⟨S2048x20x1, b⟩, ⟨S2048x20x1, c⟩] _ (ix3 r n (2 : Fin 3)) 2 (by decide : (2 : ℕ) < 3) S2048x20x1 c rfl rfl 2 rfl (ix3 r n (0 : Fin 1)) hi rfl

/-- Three blocks of three features laid side by side along the last axis: feature `q` of nine is feature `q mod 3` of
    block `q / 3`. -/
theorem cat333_apply (a b c : FVec Ideal S2048x20x3 .f32) (r : Fin 2048) (n : Fin 20) (q : Fin 9) :
    concatenate S2048x20x9 2 [⟨S2048x20x3, a⟩, ⟨S2048x20x3, b⟩, ⟨S2048x20x3, c⟩]
        concatenates_S2048x20x3_S2048x20x3_S2048x20x3_S2048x20x9_d2 (ix3 r n q)
      = if h : q.val < 3 then a (ix3 r n ⟨q.val, h⟩)
        else if h' : q.val < 6 then b (ix3 r n ⟨q.val - 3, by omega⟩)
        else c (ix3 r n ⟨q.val - 6, by omega⟩) := by
  have hi : ∀ (k : Fin 3) (b : Fin 3), b.cast (rfl : S2048x20x3.rank = S2048x20x9.rank) ≠ (2 : Fin 3) →
      ((ix3 r n k : S2048x20x3.Idx) b).val = ((ix3 r n q : S2048x20x9.Idx) (b.cast rfl)).val := fun k b hb => by
    match b with
    | ⟨0, _⟩ => rfl
    | ⟨1, _⟩ => rfl
    | ⟨2, _⟩ => exact absurd rfl hb
  have hq := q.isLt
  split
  · next h =>
    exact concatenate_apply_piece (2 : Fin 3) [⟨S2048x20x3, a⟩, ⟨S2048x20x3, b⟩, ⟨S2048x20x3, c⟩] _ (ix3 r n q) 0
      (by decide : (0 : ℕ) < 3) S2048x20x3 a rfl rfl 0 rfl (ix3 r n ⟨q.val, h⟩) (hi _) (by show 0 + q.val = q.val; omega)
  · next h =>
    split
    · next h' =>
      exact concatenate_apply_piece (2 : Fin 3) [⟨S2048x20x3, a⟩, ⟨S2048x20x3, b⟩, ⟨S2048x20x3, c⟩] _ (ix3 r n q) 1
        (by decide : (1 : ℕ) < 3) S2048x20x3 b rfl rfl 3 rfl (ix3 r n ⟨q.val - 3, by omega⟩) (hi _)
        (by show 3 + (q.val - 3) = q.val; omega)
    · next h' =>
      exact concatenate_apply_piece (2 : Fin 3) [⟨S2048x20x3, a⟩, ⟨S2048x20x3, b⟩, ⟨S2048x20x3, c⟩] _ (ix3 r n q) 2
        (by decide : (2 : ℕ) < 3) S2048x20x3 c rfl rfl 6 rfl (ix3 r n ⟨q.val - 6, by omega⟩) (hi _)
        (by show 6 + (q.val - 6) = q.val; omega)

/-- The maximum over a pillar's 20 points, from the f32 minus infinity. -/
theorem maxPts_apply (v : FVec Ideal S2048x20x64 .f32) (r : Fin 2048) (o : Fin 64) (hφ : FKind.Formats .f32)
    (hacc : (0xFF800000#32 : BitVec 32) = 0xFF800000#32) :
    multiReduction .maximumf [1] S2048x64 v 0xFF800000#32 reduces_S2048x20x64_S2048x64 hφ hacc (ix2 r o)
      = Finset.univ.sup fun n : Fin 20 => v (ix3 r n o) := by
  refine (Ideal.multiReduction_maximumf_single v 0xFF800000#32 reduces_S2048x20x64_S2048x64 hφ hacc (ix2 r o)).trans ?_
  have e : (v ∘ reduces_S2048x20x64_S2048x64.lift (ix2 r o)) = fun n : Fin 20 => v (ix3 r n o) := by
    funext n
    show v _ = v _
    congr 1
    funext a
    match a with
    | ⟨0, _⟩ => exact Fin.ext rfl
    | ⟨1, _⟩ => exact Fin.ext rfl
    | ⟨2, _⟩ => exact Fin.ext rfl
  have hb : FloatOps.ofBits (F := Ideal) .f32 0xFF800000#32 = (⊥ : EReal) := by simp [Ideal.ofBits, Ideal.ieee]
  show Finset.fold max (FloatOps.ofBits (F := Ideal) .f32 0xFF800000#32) (v ∘ reduces_S2048x20x64_S2048x64.lift (ix2 r o))
      (Finset.univ : Finset (Fin 20)) = _
  rw [e, hb]
  rfl

/-- A channel row [1, 64] read at every pillar and point. -/
theorem rowBcast_apply (v : FVec Ideal S1x64 .f32) (r : Fin 2048) (n : Fin 20) (o : Fin 64) :
    broadcastTo S2048x20x64 (shapeCast S1x1x64 v shapeCasts_S1x64_S1x1x64) broadcasts_S1x1x64_S2048x20x64 (ix3 r n o)
      = v (ix2 (0 : Fin 1) o) := by
  refine (broadcastTo_apply _ _ (ix3 r n o) (ix3 (0 : Fin 1) (0 : Fin 1) o) fun a => ?_).trans ?_
  · match a with
    | ⟨0, _⟩ => rfl
    | ⟨1, _⟩ => rfl
    | ⟨2, _⟩ => rfl
  refine shapeCast_apply _ _ (ix3 (0 : Fin 1) (0 : Fin 1) o) (ix2 (0 : Fin 1) o) ?_
  rw [Shape.rowMajor_val_three, Shape.rowMajor_val_two]
  show 0 * 64 + o.val = (0 * 1 + 0) * 64 + o.val
  omega

/-- The linear layer's [40960, 64] result as [2048, 20, 64]: row 20 r + n. -/
theorem rows3_apply (v : FVec Ideal S40960x64 .f32) (r : Fin 2048) (n : Fin 20) (o : Fin 64) :
    shapeCast S2048x20x64 v shapeCasts_S40960x64_S2048x20x64 (ix3 r n o) = v (ix2 ⟨20 * r.val + n.val, by omega⟩ o) := by
  refine shapeCast_apply _ _ (ix3 r n o) (ix2 ⟨20 * r.val + n.val, by omega⟩ o) ?_
  rw [Shape.rowMajor_val_three, Shape.rowMajor_val_two]
  show (20 * r.val + n.val) * 64 + o.val = (r.val * 20 + n.val) * 64 + o.val
  omega

/-- The [2048, 20, 9] features as the [40960, 9] matrix the linear layer multiplies: row 20 r + n. -/
theorem rows2_apply (v : FVec Ideal S2048x20x9 .f32) (r : Fin 2048) (n : Fin 20) (k : Fin 9) :
    shapeCast S40960x9 v shapeCasts_S2048x20x9_S40960x9 (ix2 ⟨20 * r.val + n.val, by omega⟩ k) = v (ix3 r n k) := by
  refine shapeCast_apply _ _ (ix2 ⟨20 * r.val + n.val, by omega⟩ k) (ix3 r n k) ?_
  rw [Shape.rowMajor_val_three, Shape.rowMajor_val_two]
  show (r.val * 20 + n.val) * 9 + k.val = (20 * r.val + n.val) * 9 + k.val
  omega

/-- The offset from the voxel centre, coordinate by coordinate, from the three planes the first half of the body hands on
    (the z plane still to be shifted by the centre's constant). -/
def ctrOff (v36 v41 v43 : FVec Ideal S2048x20 .f32) (c12 : EReal) (r : Fin 2048) (n : Fin 20) (j : Fin 3) : EReal :=
  match j with
  | ⟨0, _⟩ => v36 (ix2 r n)
  | ⟨1, _⟩ => v41 (ix2 r n)
  | ⟨_ + 2, _⟩ => v43 (ix2 r n) - c12

/-- The nine features of point `n` of block row `r`, from what the first half of the body hands on. -/
def feat9 (v6 v13 : FVec Ideal S2048x20x3 .f32) (v36 v41 v43 : FVec Ideal S2048x20 .f32) (c12 : EReal)
    (r : Fin 2048) (n : Fin 20) (q : Fin 9) : EReal :=
  if h : q.val < 3 then v6 (ix3 r n ⟨q.val, h⟩)
  else if h' : q.val < 6 then
    ctrOff v36 v41 v43 c12 r n ⟨q.val - 3, by omega⟩ * (if v6 (ix3 r n ⟨q.val - 3, by omega⟩) = 0 then 0 else 1)
  else
    v13 (ix3 r n ⟨q.val - 6, by omega⟩) * (if v6 (ix3 r n ⟨q.val - 6, by omega⟩) = 0 then 0 else 1)

/-- A [2048, 20] plane given a trailing unit axis. -/
theorem plane1_apply (v : FVec Ideal S2048x20 .f32) (r : Fin 2048) (n : Fin 20) :
    shapeCast S2048x20x1 v shapeCasts_S2048x20_S2048x20x1 (ix3 r n (0 : Fin 1)) = v (ix2 r n) := by
  refine shapeCast_apply _ _ (ix3 r n (0 : Fin 1)) (ix2 r n) ?_
  rw [Shape.rowMajor_val_three, Shape.rowMajor_val_two]
  show r.val * 20 + n.val = (r.val * 20 + n.val) * 1 + 0
  omega

/-- The three centre offsets side by side. -/
theorem ctr3_apply (v36 v41 v43 : FVec Ideal S2048x20 .f32) (c12 : Ideal .f32) (r : Fin 2048) (n : Fin 20) (j : Fin 3) :
    concatenate S2048x20x3 2
        [⟨S2048x20x1, shapeCast S2048x20x1 v36 shapeCasts_S2048x20_S2048x20x1⟩,
          ⟨S2048x20x1, shapeCast S2048x20x1 v41 shapeCasts_S2048x20_S2048x20x1⟩,
          ⟨S2048x20x1, shapeCast S2048x20x1 (subf v43 (broadcast S2048x20 c12)) shapeCasts_S2048x20_S2048x20x1⟩]
        concatenates_S2048x20x1_S2048x20x1_S2048x20x1_S2048x20x3_d2 (ix3 r n j)
      = ctrOff v36 v41 v43 c12 r n j := by
  rw [cat111_apply]
  match j with
  | ⟨0, _⟩ => exact plane1_apply v36 r n
  | ⟨1, _⟩ => exact plane1_apply v41 r n
  | ⟨2, _⟩ => exact plane1_apply _ r n

/-- The mask of a coordinate at an index. -/
theorem mask_apply (v6 : FVec Ideal S2048x20x3 .f32) (i : S2048x20x3.Idx) :
    sitofp (F := Ideal) .f32 (extui 32 (cmpf .one v6 (broadcast S2048x20x3 (FloatOps.ofBits (F := Ideal) .f32 0x00000000#32))) natLt_1_32) i
      = (if v6 i = 0 then 0 else 1 : EReal) :=
  maskBit_eq (v6 i)

/-- The second half of the body at row `r` and channel `o`: the maximum over the 20 points of the linear layer's output,
    scaled, shifted and clamped at zero. -/
theorem pay7_apply (v6 v13 : FVec Ideal S2048x20x3 .f32) (v36 v41 v43 : FVec Ideal S2048x20 .f32) (c12 : Ideal .f32)
    (w : Vec Ideal S9x64 .f32) (mu va ga be : Vec Ideal S1x64 .f32) (r : Fin 2048) (o : Fin 64) :
    k1_pay7 v6 v13 v36 v41 v43 c12 w mu va ga be (ix2 r o)
      = Finset.univ.sup fun n : Fin 20 =>
          max ((∑ k : Fin 9, feat9 v6 v13 v36 v41 v43 c12 r n k * w (ix2 k o)) * scaleP va ga o + shiftP mu va ga be o) 0 := by
  unfold k1_pay7
  refine (maxPts_apply _ r o _ _).trans ?_
  refine Finset.sup_congr rfl fun n _ => ?_
  rw [maximumf_apply, addf_apply, mulf_apply, rows3_apply, rowBcast_apply, rowBcast_apply, matmul9_apply]
  simp only [shapeCast_self]
  have hz : (broadcast S2048x20x64 (FloatOps.ofBits (F := Ideal) .f32 0x00000000#32) (ix3 r n o)) = (0 : EReal) :=
    Ideal.ofBits_zero_f32
  rw [hz]
  congr 1
  refine congrArg₂ (· + ·) (congrArg₂ (· * ·) (Finset.sum_congr rfl fun k _ => ?_) rfl) rfl
  rw [rows2_apply, cat333_apply]
  unfold feat9
  congr 1
  split
  · rfl
  · split
    · rw [mulf_apply, ctr3_apply, mask_apply]
    · rw [mulf_apply, mask_apply]

/-! ## A block's row is a pillar of the arrays -/

section Rows
variable (featP : FVec Ideal SFeatP .f32) (numP : IVec SNumP 32) (coordP : IVec SCoordP 32)
  (x0 : Vec Ideal S2048x20x5 .f32) (x1 : Vec Ideal S2048x1 .i32) (x2 : Vec Ideal S2048x4 .i32)
  (r : Fin 2048) (p : Fin 151552)
  (h0 : ∀ (n : Fin 20) (k : Fin 5), x0 (ix3 r n k) = featP (ix3 p n k))
  (h1 : x1 (ix2 r (0 : Fin 1)) = numP (ix2 p (0 : Fin 1)))
  (h2 : ∀ k : Fin 4, x2 (ix2 r k) = coordP (ix2 p k))
include h0 h2 in
/-- Row `r` of the block being pillar `p` of the arrays, the block's centre offsets are the pillar's. -/
theorem ctrOff_eq (n : Fin 20) (j : Fin 3) :
    ctrOff (k1_pay4 x0 x2) (k1_pay5 x0 x2) (k1_pay6 x0) (FloatOps.ofBits (F := Ideal) .f32 0xBF800000#32) r n j
      = xyzP featP p n j - ctrP coordP p j := by
  match j with
  | ⟨0, _⟩ =>
    show k1_pay4 x0 x2 (ix2 r n) = _
    rw [pay4_apply, h0, h2]; rfl
  | ⟨1, _⟩ =>
    show k1_pay5 x0 x2 (ix2 r n) = _
    rw [pay5_apply, h0, h2]; rfl
  | ⟨2, _⟩ =>
    show k1_pay6 x0 (ix2 r n) - _ = _
    rw [pay6_apply, h0]; rfl

include h0 h1 in
/-- … and the block's mean offsets are the pillar's. -/
theorem meanOff_eq (n : Fin 20) (j : Fin 3) :
    k1_pay3 x0 x1 (ix3 r n j) = xyzP featP p n j - meanP featP numP p j := by
  rw [pay3_apply, h0, h1]
  simp only [h0]
  rfl

include h0 h1 h2 in
/-- … so the block's nine features are the pillar's. -/
theorem feat9_eq (n : Fin 20) (q : Fin 9) :
    feat9 (k1_pay2 x0) (k1_pay3 x0 x1) (k1_pay4 x0 x2) (k1_pay5 x0 x2) (k1_pay6 x0) (FloatOps.ofBits (F := Ideal) .f32 0xBF800000#32) r n q
      = x9P featP numP coordP p n q := by
  unfold feat9 x9P
  split
  · rw [pay2_apply, h0]; rfl
  · split
    · rw [pay2_apply, h0, ctrOff_eq featP coordP x0 x2 r p h0 h2]; rfl
    · rw [pay2_apply, h0, meanOff_eq featP numP x0 x1 r p h0 h1]; rfl
end Rows

/-! ## The stored value at an index -/

theorem hz2 : (![0, 0] : Fin 2 → Nat) = fun _ => 0 := funext fun a => by fin_cases a <;> rfl
theorem hz3 : (![0, 0, 0] : Fin 3 → Nat) = fun _ => 0 := funext fun a => by fin_cases a <;> rfl

/-- The body's stored value at row `r`, channel `o` of the block is the second kernel's result at pillar `p`, channel `o`,
    when row `r` of the three pillar blocks holds pillar `p` of the arrays and the small blocks are the whole arrays. -/
theorem pay1_8_apply (featP : FVec Ideal SFeatP .f32) (numP : IVec SNumP 32) (coordP : IVec SCoordP 32)
    (x0 : Vec Ideal S2048x20x5 .f32) (x1 : Vec Ideal S2048x1 .i32) (x2 : Vec Ideal S2048x4 .i32)
    (wt : Vec Ideal S9x64 .f32) (meanR varR gamR betR : Vec Ideal S1x64 .f32) (r : Fin 2048) (p : Fin 151552)
    (h0 : ∀ (n : Fin 20) (k : Fin 5), x0 (ix3 r n k) = featP (ix3 p n k))
    (h1 : x1 (ix2 r (0 : Fin 1)) = numP (ix2 p (0 : Fin 1)))
    (h2 : ∀ k : Fin 4, x2 (ix2 r k) = coordP (ix2 p k)) (o : Fin 64) :
    pay1_8 x0 x1 x2 wt meanR varR gamR betR (ix2 r o) = outP featP numP coordP wt meanR varR gamR betR (ix2 p o) := by
  unfold pay1_8
  simp only [View.ld_unit_zero (S := S2048x20x5) hz3, View.ld_unit_zero (S := S2048x1) hz2, View.ld_unit_zero (S := S2048x4) hz2,
    View.ld_unit_zero (S := S9x64) hz2, View.ld_unit_zero (S := S1x64) hz2]
  rw [pay7_apply]
  unfold outP linP
  refine Finset.sup_congr rfl fun n _ => ?_
  simp only [feat9_eq featP numP coordP x0 x1 x2 r p h0 h1 h2]

/-- The same over any indices of the block and of the array whose coordinates correspond: the block is tile `T`. -/
theorem pay1_8_eq (featP : FVec Ideal SFeatP .f32) (numP : IVec SNumP 32) (coordP : IVec SCoordP 32)
    (wt : Vec Ideal S9x64 .f32) (meanR varR gamR betR : Vec Ideal S1x64 .f32)
    (x0 : Vec Ideal S2048x20x5 .f32) (x1 : Vec Ideal S2048x1 .i32) (x2 : Vec Ideal S2048x4 .i32)
    (x3 : Vec Ideal S9x64 .f32) (x4 x5 x6 x7 : Vec Ideal S1x64 .f32) (T : ℕ)
    (H0 : ∀ (r : Fin 2048) (n : Fin 20) (k : Fin 5) (p : Fin 151552), p.val = T * 2048 + r.val → x0 (ix3 r n k) = featP (ix3 p n k))
    (H1 : ∀ (r : Fin 2048) (p : Fin 151552), p.val = T * 2048 + r.val → x1 (ix2 r (0 : Fin 1)) = numP (ix2 p (0 : Fin 1)))
    (H2 : ∀ (r : Fin 2048) (k : Fin 4) (p : Fin 151552), p.val = T * 2048 + r.val → x2 (ix2 r k) = coordP (ix2 p k))
    (H3 : x3 = wt) (H4 : x4 = meanR) (H5 : x5 = varR) (H6 : x6 = gamR) (H7 : x7 = betR)
    (j : S2048x64.Idx) (i : SOutP.Idx) (hi0 : (i 0).val = T * 2048 + (j 0).val) (hi1 : (i 1).val = (j 1).val) :
    pay1_8 x0 x1 x2 x3 x4 x5 x6 x7 j = outP featP numP coordP wt meanR varR gamR betR i := by
  subst H3 H4 H5 H6 H7
  obtain ⟨r, o, rfl⟩ : ∃ (r : Fin 2048) (o : Fin 64), j = ix2 r o := ⟨j 0, j 1, eq_ix2 j⟩
  obtain ⟨p, o', rfl⟩ : ∃ (p : Fin 151552) (o' : Fin 64), i = ix2 p o' := ⟨i 0, i 1, eq_ix2 i⟩
  obtain rfl : o' = o := Fin.ext hi1
  have hp : p.val = T * 2048 + r.val := hi0
  exact pay1_8_apply featP numP coordP x0 x1 x2 x3 x4 x5 x6 x7 r p (fun n k => H0 r n k p hp) (H1 r p hp)
    (fun k => H2 r k p hp) o'

/-! ## From blocks to the array -/

/-- The printed index maps over the grid: the pillar windows and the output window are at tile `t`; the weight and the
    four channel rows are whole at every point. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Every tile of the result is some point's. -/
theorem idx_onto : ∀ q : Fin 74, ∃ t : Fin cfg1.N, win1_8.index t = ![q.val, 0] :=
  (by decide +kernel : ∀ q : Fin 74, ∃ t : Fin grid1.N, win1_8.index t = ![q.val, 0])

section Arrays
variable (V : (c : Dev nD) → (b : Ref sig .tc) → Buf (Elt Ideal) ((c : Thread nD τ).loc b))

/-- A small window fetched whole: its block at any point is its array. -/
theorem iblk_whole3 (c : Dev nD) (t : Fin cfg1.N) : (iblk1 V c 3 t : Vec Ideal S9x64 .f32) = V c main_v4 := by
  obtain ⟨-, -, -, -, -, -, -, e0, e1, -⟩ := idx_facts t
  funext y
  show V c main_v4 (((cfg1.win 3).blk t).view.emb y) = V c main_v4 y
  refine congrArg _ (funext fun a => Fin.ext ?_)
  match a with
  | ⟨0, _⟩ => show win1_3.index t (0 : Fin 2) * 9 + 1 * (y 0).val = (y 0).val; omega
  | ⟨1, _⟩ => show win1_3.index t (1 : Fin 2) * 64 + 1 * (y 1).val = (y 1).val; omega

theorem iblk_whole4 (c : Dev nD) (t : Fin cfg1.N) : (iblk1 V c 4 t : Vec Ideal S1x64 .f32) = V c main_v7_0 := by
  obtain ⟨-, -, -, -, -, -, -, -, -, e0, e1, -⟩ := idx_facts t
  funext y
  show V c main_v7_0 (((cfg1.win 4).blk t).view.emb y) = V c main_v7_0 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

theorem iblk_whole5 (c : Dev nD) (t : Fin cfg1.N) : (iblk1 V c 5 t : Vec Ideal S1x64 .f32) = V c main_v7_1 := by
  obtain ⟨-, -, -, -, -, -, -, -, -, -, -, e0, e1, -⟩ := idx_facts t
  funext y
  show V c main_v7_1 (((cfg1.win 5).blk t).view.emb y) = V c main_v7_1 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

theorem iblk_whole6 (c : Dev nD) (t : Fin cfg1.N) : (iblk1 V c 6 t : Vec Ideal S1x64 .f32) = V c main_v5 := by
  obtain ⟨-, -, -, -, -, -, -, -, -, -, -, -, -, e0, e1, -⟩ := idx_facts t
  funext y
  show V c main_v5 (((cfg1.win 6).blk t).view.emb y) = V c main_v5 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem iblk_whole7 (c : Dev nD) (t : Fin cfg1.N) : (iblk1 V c 7 t : Vec Ideal S1x64 .f32) = V c main_v6 := by
  obtain ⟨-, -, -, -, -, -, -, -, -, -, -, -, -, -, -, e0, e1, -⟩ := idx_facts t
  funext y
  show V c main_v6 (((cfg1.win 7).blk t).view.emb y) = V c main_v6 y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- What point `t` writes back is block `t` of the second kernel's result over the arrays as the region finds them. -/
theorem flushed8_eq (c : Dev nD) (t : Fin cfg1.N) :
    (dat1 V c).flushed 8 t = ((cfg1.win 8).blk t).view.read (Elt Ideal)
      (outP (V c main_v0) (V c main_v2) (V c main_v3) (V c main_v4) (V c main_v7_0) (V c main_v7_1) (V c main_v5) (V c main_v6)) := by
  show (cfg1.win 8).cut (grid1.coords t) ((dat1 V c).after 8 t) = _
  rw [after1_8]
  unfold out1_8
  rw [View.canon_unit_zero hz2]
  obtain ⟨a0, a1, a2, b0, b1, c0, c1, -, -, -, -, -, -, -, -, -, -, o0, o1⟩ := idx_facts t
  funext j
  show pay1_8 (iblk1 V c 0 t) (iblk1 V c 1 t) (iblk1 V c 2 t) (iblk1 V c 3 t) (iblk1 V c 4 t) (iblk1 V c 5 t) (iblk1 V c 6 t)
      (iblk1 V c 7 t) j
    = outP (V c main_v0) (V c main_v2) (V c main_v3) (V c main_v4) (V c main_v7_0) (V c main_v7_1) (V c main_v5) (V c main_v6)
      (((cfg1.win 8).blk t).view.emb j)
  refine pay1_8_eq (V c main_v0) (V c main_v2) (V c main_v3) (V c main_v4) (V c main_v7_0) (V c main_v7_1) (V c main_v5)
    (V c main_v6) (iblk1 V c 0 t) (iblk1 V c 1 t) (iblk1 V c 2 t) (iblk1 V c 3 t) (iblk1 V c 4 t) (iblk1 V c 5 t)
    (iblk1 V c 6 t) (iblk1 V c 7 t) t.val ?_ ?_ ?_ (iblk_whole3 V c t) (iblk_whole4 V c t) (iblk_whole5 V c t)
    (iblk_whole6 V c t) (iblk_whole7 V c t) j _ ?_ ?_
  · intro r n k p hp
    show V c main_v0 (((cfg1.win 0).blk t).view.emb (ix3 r n k)) = V c main_v0 (ix3 p n k)
    refine congrArg _ (funext fun a => Fin.ext ?_)
    match a with
    | ⟨0, _⟩ => show win1_0.index t (0 : Fin 3) * 2048 + 1 * r.val = p.val; omega
    | ⟨1, _⟩ => show win1_0.index t (1 : Fin 3) * 20 + 1 * n.val = n.val; omega
    | ⟨2, _⟩ => show win1_0.index t (2 : Fin 3) * 5 + 1 * k.val = k.val; omega
  · intro r p hp
    show V c main_v2 (((cfg1.win 1).blk t).view.emb (ix2 r (0 : Fin 1))) = V c main_v2 (ix2 p (0 : Fin 1))
    refine congrArg _ (funext fun a => Fin.ext ?_)
    match a with
    | ⟨0, _⟩ => show win1_1.index t (0 : Fin 2) * 2048 + 1 * r.val = p.val; omega
    | ⟨1, _⟩ => show win1_1.index t (1 : Fin 2) * 1 + 1 * 0 = 0; omega
  · intro r k p hp
    show V c main_v3 (((cfg1.win 2).blk t).view.emb (ix2 r k)) = V c main_v3 (ix2 p k)
    refine congrArg _ (funext fun a => Fin.ext ?_)
    match a with
    | ⟨0, _⟩ => show win1_2.index t (0 : Fin 2) * 2048 + 1 * r.val = p.val; omega
    | ⟨1, _⟩ => show win1_2.index t (1 : Fin 2) * 4 + 1 * k.val = k.val; omega
  · show win1_8.index t (0 : Fin 2) * 2048 + 1 * (j 0).val = t.val * 2048 + (j 0).val; omega
  · show win1_8.index t (1 : Fin 2) * 64 + 1 * (j 1).val = (j 1).val; omega

/-- An index of the result is in point `t`'s block iff each coordinate is in the block's range on its axis. -/
theorem mem_blk8 (t : Fin cfg1.N) (i : S151552x64.Idx) :
    i ∈ ((cfg1.win 8).blk t).view.set ↔ ∀ a : Fin 2, win1_8.index t a * S2048x64.size a ≤ (i a).val
      ∧ (i a).val < win1_8.index t a * S2048x64.size a + S2048x64.size a := by
  show i ∈ ((View.whole main_v8).slice (win1_8.rect t)).set ↔ _
  rw [View.set_slice_whole, Rect.mem_set_unit]
  exact Iff.rfl

/-- Every index of the result is in some point's block: row `p` is in tile `p / 2048`. -/
theorem cover8 (i : S151552x64.Idx) :
    ∃ t : Fin cfg1.N, (cfg1.win 8).flush t = true ∧ i ∈ ((cfg1.win 8).blk t).view.set := by
  have hi0 : (i 0).val < 151552 := (i 0).isLt
  have hi1 : (i 1).val < 64 := (i 1).isLt
  obtain ⟨t, ht⟩ := idx_onto ⟨(i 0).val / 2048, by omega⟩
  have q0 : win1_8.index t (0 : Fin 2) = (i 0).val / 2048 := congrFun ht 0
  have q1 : win1_8.index t (1 : Fin 2) = 0 := congrFun ht 1
  refine ⟨t, flush1_8 t, ?_⟩
  rw [mem_blk8]
  intro a
  match a with
  | ⟨0, _⟩ =>
    show win1_8.index t (0 : Fin 2) * 2048 ≤ (i 0).val ∧ (i 0).val < win1_8.index t (0 : Fin 2) * 2048 + 2048
    omega
  | ⟨1, _⟩ =>
    show win1_8.index t (1 : Fin 2) * 64 ≤ (i 1).val ∧ (i 1).val < win1_8.index t (1 : Fin 2) * 64 + 64
    omega

/-- The result array after the region: the second kernel's result over the padded arrays as the region finds them. -/
theorem arr8 (c : Dev nD) :
    ((dat1 V c).arrAt 8 cfg1.N : FVec Ideal S151552x64 .f32)
      = outP (V c main_v0) (V c main_v2) (V c main_v3) (V c main_v4) (V c main_v7_0) (V c main_v7_1) (V c main_v5) (V c main_v6) :=
  (dat1 V c).arrAt_eq_of_cover 8 _ (fun t _ => flushed8_eq V c t) cover8

end Arrays

end Cert.KernelIdeal.HandValue1

end
-- ==== Proof.Ref.RunOps.lean ====
/-
  The reference program's @main as a list of its 125 host operations, in four consecutive stretches, and its run
  read back: every weakly fair execution terminates with each buffer of the TensorCore at the fold of the
  operations' results over the launch contents. The three functions @main calls (the variance, the selection
  inside it, the maximum with zero) are written out at their call sites, each operation at the buffers of that
  call, which is what unfolding the call gives.
-/
import proofs.«124926_j66013647339880_1_alg».proof.ReferenceIdeal
import Idealize.ShloMosaic.Lib.StableHlo.Run
import Idealize.ShloMosaic.Lib.Pipeline.Frame
import Idealize.ShloMosaic.Lib.Pipeline.Regions

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 1 … 44 of @main: the four literal tables, the slice of the three coordinates, the point counts as floats, the per-pillar mean of the points and each point's offset from it, the pillar's centre from its grid coordinates, the offsets of the first two coordinates from that centre and of the third from the fixed height. -/
abbrev opsA : List (HloOp τ sig (Elt F)) :=
  [ nullary main_cst (fun i => FloatOps.ofBits .f32 (lit0 (S3.rowMajor i))),
    nullary main_cst_0 (fun i => FloatOps.ofBits .f32 (lit1 (S6.rowMajor i))),
    nullary main_c (fun i => lit2 (S3.rowMajor i)),
    nullary main_c_1 (fun i => lit3 (S2.rowMajor i)),
    unary main_arg0 main_v0 ((extractStridedSlice S150000x20x3 ![0, 0, 0] · slices_S150000x20x5_S150000x20x3_0_0_0) : (⟨S150000x20x5, .f32⟩ : BufTy).Contents (Elt F) → (⟨S150000x20x3, .f32⟩ : BufTy).Contents (Elt F)),
    unary main_arg1 main_v1 (sitofp .f32 : (⟨S150000, .i32⟩ : BufTy).Contents (Elt F) → (⟨S150000, .f32⟩ : BufTy).Contents (Elt F)),
    nullary main_cst_2 (constant S_ .f32 0x00000000#32),
    binary main_v0 main_cst_2 main_v2 ((fun x v => Host.reduceAdd x v reducesTo_S150000x20x3_S150000x3_d1 h_S_) : (⟨S150000x20x3, .f32⟩ : BufTy).Contents (Elt F) → (⟨S_, .f32⟩ : BufTy).Contents (Elt F) → (⟨S150000x3, .f32⟩ : BufTy).Contents (Elt F)),
    unary main_v1 main_v3 (broadcastInDim S150000x1 ![0] bcast_S150000_S150000x1_0 : (⟨S150000, .f32⟩ : BufTy).Contents (Elt F) → (⟨S150000x1, .f32⟩ : BufTy).Contents (Elt F)),
    unary main_v3 main_v4 (broadcastInDim S150000x3 ![0, 1] bcast_S150000x1_S150000x3_0_1 : (⟨S150000x1, .f32⟩ : BufTy).Contents (Elt F) → (⟨S150000x3, .f32⟩ : BufTy).Contents (Elt F)),
    binary main_v2 main_v4 main_v5 (Host.divf : (⟨S150000x3, .f32⟩ : BufTy).Contents (Elt F) → (⟨S150000x3, .f32⟩ : BufTy).Contents (Elt F) → (⟨S150000x3, .f32⟩ : BufTy).Contents (Elt F)),
    unary main_v5 main_v6 (broadcastInDim S150000x1x3 ![0, 2] bcast_S150000x3_S150000x1x3_0_2 : (⟨S150000x3, .f32⟩ : BufTy).Contents (Elt F) → (⟨S150000x1x3, .f32⟩ : BufTy).Contents (Elt F)),
    unary main_v6 main_v7 (broadcastInDim S150000x20x3 ![0, 1, 2] bcast_S150000x1x3_S150000x20x3_0_1_2 : (⟨S150000x1x3, .f32⟩ : BufTy).Contents (Elt F) → (⟨S150000x20x3, .f32⟩ : BufTy).Contents (Elt F)),
    binary main_v0 main_v7 main_v8 (subf : (⟨S150000x20x3, .f32⟩ : BufTy).Contents (Elt F) → (⟨S150000x20x3, .f32⟩ : BufTy).Contents (Elt F) → (⟨S150000x20x3, .f32⟩ : BufTy).Contents (Elt F)),
    unary main_arg2 main_v9 ((extractStridedSlice S150000x2 ![0, 2] · slices_S150000x4_S150000x2_0_2) : (⟨S150000x4, .i32⟩ : BufTy).Contents (Elt F) → (⟨S150000x2, .i32⟩ : BufTy).Contents (Elt F)),
    unary main_v9 main_v10 (sitofp .f32 : (⟨S150000x2, .i32⟩ : BufTy).Contents (Elt F) → (⟨S150000x2, .f32⟩ : BufTy).Contents (Elt F)),
    unary main_v10 main_v11 (Host.reverse [1] : (⟨S150000x2, .f32⟩ : BufTy).Contents (Elt F) → (⟨S150000x2, .f32⟩ : BufTy).Contents (Elt F)),
    unary main_v0 main_v12 ((extractStridedSlice S150000x20x2 ![0, 0, 0] · slices_S150000x20x3_S150000x20x2_0_0_0) : (⟨S150000x20x3, .f32⟩ : BufTy).Contents (Elt F) → (⟨S150000x20x2, .f32⟩ : BufTy).Contents (Elt F)),
    nullary main_cst_3 (constant S_ .f32 0x3F000000#32),
    unary main_cst_3 main_v13 (broadcastInDim S150000x2 ![] bcast_S_S150000x2 : (⟨S_, .f32⟩ : BufTy).Contents (Elt F) → (⟨S150000x2, .f32⟩ : BufTy).Contents (Elt F)),
    binary main_v11 main_v13 main_v14 (addf : (⟨S150000x2, .f32⟩ : BufTy).Contents (Elt F) → (⟨S150000x2, .f32⟩ : BufTy).Contents (Elt F) → (⟨S150000x2, .f32⟩ : BufTy).Contents (Elt F)),
    unary main_cst main_v15 ((extractStridedSlice S2 ![0] · slices_S3_S2_0) : (⟨S3, .f32⟩ : BufTy).Contents (Elt F) → (⟨S2, .f32⟩ : BufTy).Contents (Elt F)),
    unary main_v15 main_v16 (broadcastInDim S1x2 ![1] bcast_S2_S1x2_1 : (⟨S2, .f32⟩ : BufTy).Contents (Elt F) → (⟨S1x2, .f32⟩ : BufTy).Contents (Elt F)),
    unary main_v16 main_v17 (broadcastInDim S150000x2 ![0, 1] bcast_S1x2_S150000x2_0_1 : (⟨S1x2, .f32⟩ : BufTy).Contents (Elt F) → (⟨S150000x2, .f32⟩ : BufTy).Contents (Elt F)),
    binary main_v14 main_v17 main_v18 (mulf : (⟨S150000x2, .f32⟩ : BufTy).Contents (Elt F) → (⟨S150000x2, .f32⟩ : BufTy).Contents (Elt F) → (⟨S150000x2, .f32⟩ : BufTy).Contents (Elt F)),
    unary main_cst_0 main_v19 ((extractStridedSlice S2 ![0] · slices_S6_S2_0) : (⟨S6, .f32⟩ : BufTy).Contents (Elt F) → (⟨S2, .f32⟩ : BufTy).Contents (Elt F)),
    unary main_v19 main_v20 (broadcastInDim S1x2 ![1] bcast_S2_S1x2_1 : (⟨S2, .f32⟩ : BufTy).Contents (Elt F) → (⟨S1x2, .f32⟩ : BufTy).Contents (Elt F)),
    unary main_v20 main_v21 (broadcastInDim S150000x2 ![0, 1] bcast_S1x2_S150000x2_0_1 : (⟨S1x2, .f32⟩ : BufTy).Contents (Elt F) → (⟨S150000x2, .f32⟩ : BufTy).Contents (Elt F)),
    binary main_v18 main_v21 main_v22 (addf : (⟨S150000x2, .f32⟩ : BufTy).Contents (Elt F) → (⟨S150000x2, .f32⟩ : BufTy).Contents (Elt F) → (⟨S150000x2, .f32⟩ : BufTy).Contents (Elt F)),
    unary main_v22 main_v23 (broadcastInDim S150000x1x2 ![0, 2] bcast_S150000x2_S150000x1x2_0_2 : (⟨S150000x2, .f32⟩ : BufTy).Contents (Elt F) → (⟨S150000x1x2, .f32⟩ : BufTy).Contents (Elt F)),
    unary main_v23 main_v24 (broadcastInDim S150000x20x2 ![0, 1, 2] bcast_S150000x1x2_S150000x20x2_0_1_2 : (⟨S150000x1x2, .f32⟩ : BufTy).Contents (Elt F) → (⟨S150000x20x2, .f32⟩ : BufTy).Contents (Elt F)),
    binary main_v12 main_v24 main_v25 (subf : (⟨S150000x20x2, .f32⟩ : BufTy).Contents (Elt F) → (⟨S150000x20x2, .f32⟩ : BufTy).Contents (Elt F) → (⟨S150000x20x2, .f32⟩ : BufTy).Contents (Elt F)),
    unary main_v0 main_v26 ((extractStridedSlice S150000x20x1 ![0, 0, 2] · slices_S150000x20x3_S150000x20x1_0_0_2) : (⟨S150000x20x3, .f32⟩ : BufTy).Contents (Elt F) → (⟨S150000x20x1, .f32⟩ : BufTy).Contents (Elt F)),
    reshape main_v26 main_v27 rfl shapeCasts_S150000x20x1_S150000x20,
    unary main_cst main_v28 ((extractStridedSlice S1 ![2] · slices_S3_S1_2) : (⟨S3, .f32⟩ : BufTy).Contents (Elt F) → (⟨S1, .f32⟩ : BufTy).Contents (Elt F)),
    reshape main_v28 main_v29 rfl shapeCasts_S1_S_,
    nullary main_cst_4 (constant S_ .f32 0x3F000000#32),
    binary main_cst_4 main_v29 main_v30 (mulf : (⟨S_, .f32⟩ : BufTy).Contents (Elt F) → (⟨S_, .f32⟩ : BufTy).Contents (Elt F) → (⟨S_, .f32⟩ : BufTy).Contents (Elt F)),
    unary main_cst_0 main_v31 ((extractStridedSlice S1 ![2] · slices_S6_S1_2) : (⟨S6, .f32⟩ : BufTy).Contents (Elt F) → (⟨S1, .f32⟩ : BufTy).Contents (Elt F)),
    reshape main_v31 main_v32 rfl shapeCasts_S1_S_,
    binary main_v30 main_v32 main_v33 (addf : (⟨S_, .f32⟩ : BufTy).Contents (Elt F) → (⟨S_, .f32⟩ : BufTy).Contents (Elt F) → (⟨S_, .f32⟩ : BufTy).Contents (Elt F)),
    unary main_v33 main_v34 (broadcastInDim S150000x20 ![] bcast_S_S150000x20 : (⟨S_, .f32⟩ : BufTy).Contents (Elt F) → (⟨S150000x20, .f32⟩ : BufTy).Contents (Elt F)),
    binary main_v27 main_v34 main_v35 (subf : (⟨S150000x20, .f32⟩ : BufTy).Contents (Elt F) → (⟨S150000x20, .f32⟩ : BufTy).Contents (Elt F) → (⟨S150000x20, .f32⟩ : BufTy).Contents (Elt F)),
    unary main_v35 main_v36 (broadcastInDim S150000x20x1 ![0, 1] bcast_S150000x20_S150000x20x1_0_1 : (⟨S150000x20, .f32⟩ : BufTy).Contents (Elt F) → (⟨S150000x20x1, .f32⟩ : BufTy).Contents (Elt F)) ]

/-- Operations 45 … 51: the three centre offsets joined along the last axis, the mask of the nonzero coordinates as a float, and the two offset blocks multiplied by it. -/
abbrev opsB : List (HloOp τ sig (Elt F)) :=
  [ binary main_v25 main_v36 main_v37 ((fun a b => concatenate S150000x20x3 2 [⟨S150000x20x2, a⟩, ⟨S150000x20x1, b⟩] concatenates_S150000x20x2_S150000x20x1_S150000x20x3_d2) : (⟨S150000x20x2, .f32⟩ : BufTy).Contents (Elt F) → (⟨S150000x20x1, .f32⟩ : BufTy).Contents (Elt F) → (⟨S150000x20x3, .f32⟩ : BufTy).Contents (Elt F)),
    nullary main_cst_5 (constant S_ .f32 0x00000000#32),
    unary main_cst_5 main_v38 (broadcastInDim S150000x20x3 ![] bcast_S_S150000x20x3 : (⟨S_, .f32⟩ : BufTy).Contents (Elt F) → (⟨S150000x20x3, .f32⟩ : BufTy).Contents (Elt F)),
    binary main_v0 main_v38 main_v39 (cmpf .une : (⟨S150000x20x3, .f32⟩ : BufTy).Contents (Elt F) → (⟨S150000x20x3, .f32⟩ : BufTy).Contents (Elt F) → (⟨S150000x20x3, .i1⟩ : BufTy).Contents (Elt F)),
    unary main_v39 main_v40 (uitofp .f32 : (⟨S150000x20x3, .i1⟩ : BufTy).Contents (Elt F) → (⟨S150000x20x3, .f32⟩ : BufTy).Contents (Elt F)),
    binary main_v37 main_v40 main_v41 (mulf : (⟨S150000x20x3, .f32⟩ : BufTy).Contents (Elt F) → (⟨S150000x20x3, .f32⟩ : BufTy).Contents (Elt F) → (⟨S150000x20x3, .f32⟩ : BufTy).Contents (Elt F)),
    binary main_v8 main_v40 main_v42 (mulf : (⟨S150000x20x3, .f32⟩ : BufTy).Contents (Elt F) → (⟨S150000x20x3, .f32⟩ : BufTy).Contents (Elt F) → (⟨S150000x20x3, .f32⟩ : BufTy).Contents (Elt F)) ]

/-- Operations 52 … 81: the nine features joined along the last axis, their product with the weights, the per-channel mean over all pillars and points, and the per-channel variance (the body of the variance function and, inside it, of the selection function, each operation at the buffers of that call). -/
abbrev opsC : List (HloOp τ sig (Elt F)) :=
  [ nary ![main_v0, main_v41, main_v42] main_v43 (fun u => concatenate S150000x20x9 2 [⟨S150000x20x3, u 0⟩, ⟨S150000x20x3, u 1⟩, ⟨S150000x20x3, u 2⟩] concatenates_S150000x20x3_S150000x20x3_S150000x20x3_S150000x20x9_d2),
    binary main_v43 main_arg3 main_v44 ((fun l r => Host.dotGeneral dot_S150000x20x9_S64x9_S150000x20x64_2_1_01_0_n_n none l r) : (⟨S150000x20x9, .f32⟩ : BufTy).Contents (Elt F) → (⟨S64x9, .f32⟩ : BufTy).Contents (Elt F) → (⟨S150000x20x64, .f32⟩ : BufTy).Contents (Elt F)),
    nullary main_cst_6 (constant S_ .f32 0x00000000#32),
    binary main_v44 main_cst_6 main_v45 ((fun x v => Host.reduceAdd x v reducesTo_S150000x20x64_S64_d0_1 h_S_) : (⟨S150000x20x64, .f32⟩ : BufTy).Contents (Elt F) → (⟨S_, .f32⟩ : BufTy).Contents (Elt F) → (⟨S64, .f32⟩ : BufTy).Contents (Elt F)),
    nullary main_cst_7 (constant S_ .f32 0x4A371B00#32),
    unary main_cst_7 main_v46 (broadcastInDim S64 ![] bcast_S_S64 : (⟨S_, .f32⟩ : BufTy).Contents (Elt F) → (⟨S64, .f32⟩ : BufTy).Contents (Elt F)),
    binary main_v45 main_v46 main_v47 (Host.divf : (⟨S64, .f32⟩ : BufTy).Contents (Elt F) → (⟨S64, .f32⟩ : BufTy).Contents (Elt F) → (⟨S64, .f32⟩ : BufTy).Contents (Elt F)),
    nullary main_c_8 (constantI S_ 32 0#32),
    TRef.nullary main_call0.cst (constant S_ .f32 0x00000000#32),
    TRef.binary (.of main_v44 : TRef sig ⟨S150000x20x64, .f32⟩) main_call0.cst main_call0.v0 (fun x v => Host.reduceAdd x v reducesTo_S150000x20x64_S64_d0_1 h_S_),
    TRef.unary main_call0.v0 main_call0.v1 (broadcastInDim S1x1x64 ![2] bcast_S64_S1x1x64_2),
    TRef.nullary main_call0.cst_0 (constant S_ .f32 0x4A371B00#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S150000x20x64 ![0, 1, 2] bcast_S1x1x64_S150000x20x64_0_1_2),
    TRef.binary (.of main_v44 : TRef sig ⟨S150000x20x64, .f32⟩) main_call0.v4 main_call0.v5 subf,
    TRef.binary main_call0.v5 main_call0.v5 main_call0.v6 mulf,
    TRef.unary (.of main_c_8 : TRef sig ⟨S_, .i32⟩) main_call0.v7 (sitofp .f32),
    TRef.nullary main_call0.cst_1 (constant S_ .f32 0x4A371B00#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S150000x20x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- Operations 82 … 125: the normalisation by mean and variance, scale and shift, the maximum with zero (the body of that function at its call's buffers), the maximum over the points of a pillar; the three gathered coordinate columns; the grid's extent along each axis, rounded up, and two of its entries. -/
abbrev opsD : List (HloOp τ sig (Elt F)) :=
  [ unary main_v47 main_v49 (broadcastInDim S1x1x64 ![2] bcast_S64_S1x1x64_2 : (⟨S64, .f32⟩ : BufTy).Contents (Elt F) → (⟨S1x1x64, .f32⟩ : BufTy).Contents (Elt F)),
    unary main_v49 main_v50 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v44 main_v50 main_v51 (subf : (⟨S150000x20x64, .f32⟩ : BufTy).Contents (Elt F) → (⟨S150000x20x64, .f32⟩ : BufTy).Contents (Elt F) → (⟨S150000x20x64, .f32⟩ : BufTy).Contents (Elt F)),
    nullary main_cst_9 (constant S_ .f32 0x3A83126F#32),
    unary main_cst_9 main_v52 (broadcastInDim S64 ![] bcast_S_S64 : (⟨S_, .f32⟩ : BufTy).Contents (Elt F) → (⟨S64, .f32⟩ : BufTy).Contents (Elt F)),
    binary main_v48 main_v52 main_v53 (addf : (⟨S64, .f32⟩ : BufTy).Contents (Elt F) → (⟨S64, .f32⟩ : BufTy).Contents (Elt F) → (⟨S64, .f32⟩ : BufTy).Contents (Elt F)),
    unary main_v53 main_v54 (Host.rsqrt : (⟨S64, .f32⟩ : BufTy).Contents (Elt F) → (⟨S64, .f32⟩ : BufTy).Contents (Elt F)),
    unary main_v54 main_v55 (broadcastInDim S1x1x64 ![2] bcast_S64_S1x1x64_2 : (⟨S64, .f32⟩ : BufTy).Contents (Elt F) → (⟨S1x1x64, .f32⟩ : BufTy).Contents (Elt F)),
    unary main_v55 main_v56 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v51 main_v56 main_v57 (mulf : (⟨S150000x20x64, .f32⟩ : BufTy).Contents (Elt F) → (⟨S150000x20x64, .f32⟩ : BufTy).Contents (Elt F) → (⟨S150000x20x64, .f32⟩ : BufTy).Contents (Elt F)),
    unary main_arg4 main_v58 (broadcastInDim S1x1x64 ![2] bcast_S64_S1x1x64_2 : (⟨S64, .f32⟩ : BufTy).Contents (Elt F) → (⟨S1x1x64, .f32⟩ : BufTy).Contents (Elt F)),
    unary main_v58 main_v59 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v57 main_v59 main_v60 (mulf : (⟨S150000x20x64, .f32⟩ : BufTy).Contents (Elt F) → (⟨S150000x20x64, .f32⟩ : BufTy).Contents (Elt F) → (⟨S150000x20x64, .f32⟩ : BufTy).Contents (Elt F)),
    unary main_arg5 main_v61 (broadcastInDim S1x1x64 ![2] bcast_S64_S1x1x64_2 : (⟨S64, .f32⟩ : BufTy).Contents (Elt F) → (⟨S1x1x64, .f32⟩ : BufTy).Contents (Elt F)),
    unary main_v61 main_v62 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v60 main_v62 main_v63 (addf : (⟨S150000x20x64, .f32⟩ : BufTy).Contents (Elt F) → (⟨S150000x20x64, .f32⟩ : BufTy).Contents (Elt F) → (⟨S150000x20x64, .f32⟩ : BufTy).Contents (Elt F)),
    TRef.nullary main_call1.cst (constant S_ .f32 0x00000000#32),
    TRef.unary main_call1.cst main_call1.v0 (broadcastInDim S150000x20x64 ![] bcast_S_S150000x20x64),
    TRef.binary (.of main_v63 : TRef sig ⟨S150000x20x64, .f32⟩) main_call1.v0 main_call1.v1 maximumf,
    nullary main_cst_10 (constant S_ .f32 0xFF800000#32),
    binary main_v64 main_cst_10 main_v65 ((fun x v => Host.reduce FloatOps.maximumf x v reducesTo_S150000x20x64_S150000x64_d1 h_S_) : (⟨S150000x20x64, .f32⟩ : BufTy).Contents (Elt F) → (⟨S_, .f32⟩ : BufTy).Contents (Elt F) → (⟨S150000x64, .f32⟩ : BufTy).Contents (Elt F)),
    nullary main_c_11 (constantI S_ 32 0#32),
    unary main_c_11 main_v66 (broadcastInDim S3 ![] bcast_S_S3 : (⟨S_, .i32⟩ : BufTy).Contents (Elt F) → (⟨S3, .i32⟩ : BufTy).Contents (Elt F)),
    binary main_c main_v66 main_v67 (cmpi .slt : (⟨S3, .i32⟩ : BufTy).Contents (Elt F) → (⟨S3, .i32⟩ : BufTy).Contents (Elt F) → (⟨S3, .i1⟩ : BufTy).Contents (Elt F)),
    nullary main_c_12 (constantI S_ 32 4#32),
    unary main_c_12 main_v68 (broadcastInDim S3 ![] bcast_S_S3 : (⟨S_, .i32⟩ : BufTy).Contents (Elt F) → (⟨S3, .i32⟩ : BufTy).Contents (Elt F)),
    binary main_c main_v68 main_v69 (addi : (⟨S3, .i32⟩ : BufTy).Contents (Elt F) → (⟨S3, .i32⟩ : BufTy).Contents (Elt F) → (⟨S3, .i32⟩ : BufTy).Contents (Elt F)),
    ternary main_v67 main_v69 main_c main_v70 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v70 main_v71 (broadcastInDim S3x1 ![0] bcast_S3_S3x1_0 : (⟨S3, .i32⟩ : BufTy).Contents (Elt F) → (⟨S3x1, .i32⟩ : BufTy).Contents (Elt F)),
    binary main_arg2 main_v71 main_v72 ((fun x i => Host.gather gather_S150000x4_S3x1_S150000x3_0_1_n_n_1_1_1500001 x i) : (⟨S150000x4, .i32⟩ : BufTy).Contents (Elt F) → (⟨S3x1, .i32⟩ : BufTy).Contents (Elt F) → (⟨S150000x3, .i32⟩ : BufTy).Contents (Elt F)),
    unary main_cst_0 main_v73 ((extractStridedSlice S3 ![3] · slices_S6_S3_3) : (⟨S6, .f32⟩ : BufTy).Contents (Elt F) → (⟨S3, .f32⟩ : BufTy).Contents (Elt F)),
    unary main_cst_0 main_v74 ((extractStridedSlice S3 ![0] · slices_S6_S3_0) : (⟨S6, .f32⟩ : BufTy).Contents (Elt F) → (⟨S3, .f32⟩ : BufTy).Contents (Elt F)),
    binary main_v73 main_v74 main_v75 (subf : (⟨S3, .f32⟩ : BufTy).Contents (Elt F) → (⟨S3, .f32⟩ : BufTy).Contents (Elt F) → (⟨S3, .f32⟩ : BufTy).Contents (Elt F)),
    binary main_v75 main_cst main_v76 (Host.divf : (⟨S3, .f32⟩ : BufTy).Contents (Elt F) → (⟨S3, .f32⟩ : BufTy).Contents (Elt F) → (⟨S3, .f32⟩ : BufTy).Contents (Elt F)),
    unary main_v76 main_v77 (Host.ceil : (⟨S3, .f32⟩ : BufTy).Contents (Elt F) → (⟨S3, .f32⟩ : BufTy).Contents (Elt F)),
    nullary main_c_13 (constantI S_ 32 0#32),
    unary main_c_13 main_v78 (broadcastInDim S2 ![] bcast_S_S2 : (⟨S_, .i32⟩ : BufTy).Contents (Elt F) → (⟨S2, .i32⟩ : BufTy).Contents (Elt F)),
    binary main_c_1 main_v78 main_v79 (cmpi .slt : (⟨S2, .i32⟩ : BufTy).Contents (Elt F) → (⟨S2, .i32⟩ : BufTy).Contents (Elt F) → (⟨S2, .i1⟩ : BufTy).Contents (Elt F)),
    nullary main_c_14 (constantI S_ 32 3#32),
    unary main_c_14 main_v80 (broadcastInDim S2 ![] bcast_S_S2 : (⟨S_, .i32⟩ : BufTy).Contents (Elt F) → (⟨S2, .i32⟩ : BufTy).Contents (Elt F)),
    binary main_c_1 main_v80 main_v81 (addi : (⟨S2, .i32⟩ : BufTy).Contents (Elt F) → (⟨S2, .i32⟩ : BufTy).Contents (Elt F) → (⟨S2, .i32⟩ : BufTy).Contents (Elt F)),
    ternary main_v79 main_v81 main_c_1 main_v82 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v82 main_v83 (broadcastInDim S2x1 ![0] bcast_S2_S2x1_0 : (⟨S2, .i32⟩ : BufTy).Contents (Elt F) → (⟨S2x1, .i32⟩ : BufTy).Contents (Elt F)),
    binary main_v77 main_v83 main_v84 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)) ]

/-- All 125 operations, in order. -/
abbrev ops : List (HloOp τ sig (Elt F)) := opsA ++ (opsB ++ (opsC ++ opsD))

/-- @main is that straight line: its two halves and the three function bodies unfold to one chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub .., nullary_bufs_sub .., unary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., unary_bufs_sub .., reshape_bufs_sub .., binary_bufs_sub .., unary_bufs_sub .., binary_bufs_sub .., unary_bufs_sub ..⟩

theorem opsB_sub : (opsB : List (HloOp τ sig (Elt F))).Forall fun op => op.bufs ⊆ tcRefs τ sig :=
  ⟨binary_bufs_sub .., nullary_bufs_sub .., unary_bufs_sub .., binary_bufs_sub .., unary_bufs_sub .., binary_bufs_sub .., binary_bufs_sub ..⟩

theorem opsC_sub : (opsC : List (HloOp τ sig (Elt F))).Forall fun op => op.bufs ⊆ tcRefs τ sig :=
  ⟨nary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

/-- Every operation determines all it writes. -/
theorem ops_fresh : ∀ op ∈ (ops : List (HloOp τ sig (Elt F))), op.fresh = ∅ := fun op h => by
  simp only [ops, List.mem_append] at h
  rcases h with h | h | h | h
  exacts [List.forall_iff_forall_mem.mp opsA_fresh op h, List.forall_iff_forall_mem.mp opsB_fresh op h,
    List.forall_iff_forall_mem.mp opsC_fresh op h, List.forall_iff_forall_mem.mp opsD_fresh op h]

/-- On every device, for any float values, from any memory with zero counters: every weakly fair execution of
    @main terminates, and every final state has each TensorCore buffer at the fold of the 125 operations' results
    over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.Ref.Run.lean ====
/-
  The reference program's run read back at its three results: each stretch of operations read from any contents
  (what it leaves in the buffers later stretches read, as a term of what it reads), the stretches composed, and the
  composed terms recognised as the three result terms.
-/
import proofs.«124926_j66013647339880_1_alg».proof.Proof.Ref.RunOps
import proofs.«124926_j66013647339880_1_alg».proof.Proof.Ref.Terms

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! ## What each stretch writes, and that it leaves everything else alone -/

/-- The buffers the operations of `opsA` write. -/
abbrev opsA_W : List (Ref sig .tc) := [main_cst, main_cst_0, main_c, main_c_1, main_v0, main_v1, main_cst_2, main_v2, main_v3, main_v4, main_v5, main_v6, main_v7, main_v8, main_v9, main_v10, main_v11, main_v12, main_cst_3, main_v13, main_v14, main_v15, main_v16, main_v17, main_v18, main_v19, main_v20, main_v21, main_v22, main_v23, main_v24, main_v25, main_v26, main_v27, main_v28, main_v29, main_cst_4, main_v30, main_v31, main_v32, main_v33, main_v34, main_v35, main_v36]
theorem opsA_writes : (opsA : List (HloOp τ sig (Elt F))).Forall fun op =>
    op.writes ⊆ (opsA_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsA` does not write keeps its contents through it. -/
theorem opsA_keep (W : Valuation τ sig (Elt F)) (r : Ref sig .tc) (h : r ∉ opsA_W) :
    after opsA W (Proc.devRef .tc r) = W (Proc.devRef .tc r) :=
  after_of_writes_sub opsA _ opsA_writes h

/-- The buffers the operations of `opsB` write. -/
abbrev opsB_W : List (Ref sig .tc) := [main_v37, main_cst_5, main_v38, main_v39, main_v40, main_v41, main_v42]
theorem opsB_writes : (opsB : List (HloOp τ sig (Elt F))).Forall fun op =>
    op.writes ⊆ (opsB_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsB` does not write keeps its contents through it. -/
theorem opsB_keep (W : Valuation τ sig (Elt F)) (r : Ref sig .tc) (h : r ∉ opsB_W) :
    after opsB W (Proc.devRef .tc r) = W (Proc.devRef .tc r) :=
  after_of_writes_sub opsB _ opsB_writes h

/-- The buffers the operations of `opsC` write. -/
abbrev opsC_W : List (Ref sig .tc) := [main_v43, main_v44, main_cst_6, main_v45, main_cst_7, main_v46, main_v47, main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v48]
theorem opsC_writes : (opsC : List (HloOp τ sig (Elt F))).Forall fun op =>
    op.writes ⊆ (opsC_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsC` does not write keeps its contents through it. -/
theorem opsC_keep (W : Valuation τ sig (Elt F)) (r : Ref sig .tc) (h : r ∉ opsC_W) :
    after opsC W (Proc.devRef .tc r) = W (Proc.devRef .tc r) :=
  after_of_writes_sub opsC _ opsC_writes h

/-- The buffers the operations of `opsD` write. -/
abbrev opsD_W : List (Ref sig .tc) := [main_v49, main_v50, main_v51, main_cst_9, main_v52, main_v53, main_v54, main_v55, main_v56, main_v57, main_v58, main_v59, main_v60, main_v61, main_v62, main_v63, main_call1_cst, main_call1_v0, main_v64, main_cst_10, main_v65, main_c_11, main_v66, main_v67, main_c_12, main_v68, main_v69, main_v70, main_v71, main_v72, main_v73, main_v74, main_v75, main_v76, main_v77, main_c_13, main_v78, main_v79, main_c_14, main_v80, main_v81, main_v82, main_v83, main_v84]
theorem opsD_writes : (opsD : List (HloOp τ sig (Elt F))).Forall fun op =>
    op.writes ⊆ (opsD_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsD` does not write keeps its contents through it. -/
theorem opsD_keep (W : Valuation τ sig (Elt F)) (r : Ref sig .tc) (h : r ∉ opsD_W) :
    after opsD W (Proc.devRef .tc r) = W (Proc.devRef .tc r) :=
  after_of_writes_sub opsD _ opsD_writes h

/-! ## The first stretch, read from any contents -/

set_option maxRecDepth 8192 in
set_option maxHeartbeats 4000000 in
/-- The three coordinates of every point. -/
theorem opsA_v0 (W : Valuation τ sig (Elt F)) : after opsA W (main_v0 : DevRef τ sig) = Terms.t0 (W main_arg0) := by
  simp only [opsA]
  after_results_simp <;> rfl

set_option maxRecDepth 8192 in
set_option maxHeartbeats 4000000 in
/-- The offsets from the pillar's mean point. -/
theorem opsA_v8 (W : Valuation τ sig (Elt F)) :
    after opsA W (main_v8 : DevRef τ sig) = Terms.t8 (Terms.t0 (W main_arg0)) (Terms.t5 (Terms.t0 (W main_arg0)) (W main_arg1)) := by
  simp only [opsA]
  after_results_simp <;> rfl

set_option maxRecDepth 8192 in
set_option maxHeartbeats 4000000 in
/-- The offsets of the first two coordinates from the pillar's centre. -/
theorem opsA_v25 (W : Valuation τ sig (Elt F)) :
    after opsA W (main_v25 : DevRef τ sig)
      = subf (extractStridedSlice S150000x20x2 ![0, 0, 0] (Terms.t0 (W main_arg0)) slices_S150000x20x3_S150000x20x2_0_0_0)
          (broadcastInDim S150000x20x2 ![0, 1, 2] bcast_S150000x1x2_S150000x20x2_0_1_2 (broadcastInDim S150000x1x2 ![0, 2] bcast_S150000x2_S150000x1x2_0_2 (Terms.t22 (W main_arg2)))) := by
  simp only [opsA]
  after_results_simp <;> rfl

set_option maxRecDepth 8192 in
set_option maxHeartbeats 4000000 in
/-- The offset of the third coordinate from the fixed height, as a last axis of length one. -/
theorem opsA_v36 (W : Valuation τ sig (Elt F)) :
    after opsA W (main_v36 : DevRef τ sig)
      = broadcastInDim S150000x20x1 ![0, 1] bcast_S150000x20_S150000x20x1_0_1
          (subf (shapeCast S150000x20 (extractStridedSlice S150000x20x1 ![0, 0, 2] (Terms.t0 (W main_arg0)) slices_S150000x20x3_S150000x20x1_0_0_2) shapeCasts_S150000x20x1_S150000x20)
            (broadcastInDim S150000x20 ![] bcast_S_S150000x20 Terms.t33)) := by
  simp only [opsA]
  after_results_simp <;> rfl

set_option maxRecDepth 8192 in
set_option maxHeartbeats 4000000 in
/-- The four literal tables. -/
theorem opsA_cst (W : Valuation τ sig (Elt F)) :
    after opsA W (main_cst : DevRef τ sig) = fun i => FloatOps.ofBits .f32 (lit0 (S3.rowMajor i)) := by
  simp only [opsA]
  after_results_simp <;> rfl
set_option maxRecDepth 8192 in
set_option maxHeartbeats 4000000 in
theorem opsA_cst_0 (W : Valuation τ sig (Elt F)) :
    after opsA W (main_cst_0 : DevRef τ sig) = fun i => FloatOps.ofBits .f32 (lit1 (S6.rowMajor i)) := by
  simp only [opsA]
  after_results_simp <;> rfl
set_option maxRecDepth 8192 in
set_option maxHeartbeats 4000000 in
theorem opsA_c (W : Valuation τ sig (Elt F)) : after opsA W (main_c : DevRef τ sig) = fun i => lit2 (S3.rowMajor i) := by
  simp only [opsA]
  after_results_simp <;> rfl
set_option maxRecDepth 8192 in
set_option maxHeartbeats 4000000 in
theorem opsA_c_1 (W : Valuation τ sig (Elt F)) : after opsA W (main_c_1 : DevRef τ sig) = fun i => lit3 (S2.rowMajor i) := by
  simp only [opsA]
  after_results_simp <;> rfl

/-! ## The second stretch -/

set_option maxRecDepth 8192 in
set_option maxHeartbeats 4000000 in
/-- The centre offsets, joined and masked. -/
theorem opsB_v41 (W : Valuation τ sig (Elt F)) :
    after opsB W (main_v41 : DevRef τ sig)
      = mulf (concatenate S150000x20x3 2 [⟨S150000x20x2, W main_v25⟩, ⟨S150000x20x1, W main_v36⟩] concatenates_S150000x20x2_S150000x20x1_S150000x20x3_d2)
          (Terms.t40 (W main_v0)) := by
  simp only [opsB]
  after_results_simp <;> rfl

set_option maxRecDepth 8192 in
set_option maxHeartbeats 4000000 in
/-- The mean offsets, masked. -/
theorem opsB_v42 (W : Valuation τ sig (Elt F)) :
    after opsB W (main_v42 : DevRef τ sig) = mulf (W main_v8) (Terms.t40 (W main_v0)) := by
  simp only [opsB]
  after_results_simp <;> rfl

/-! ## The third stretch -/

set_option maxRecDepth 8192 in
set_option maxHeartbeats 4000000 in
/-- The linear layer's output. -/
theorem opsC_v44 (W : Valuation τ sig (Elt F)) :
    after opsC W (main_v44 : DevRef τ sig) = Terms.t44 (concatenate S150000x20x9 2 [⟨S150000x20x3, W main_v0⟩, ⟨S150000x20x3, W main_v41⟩, ⟨S150000x20x3, W main_v42⟩] concatenates_S150000x20x3_S150000x20x3_S150000x20x3_S150000x20x9_d2) (W main_arg3) := by
  simp only [opsC]
  after_results_simp <;> rfl

set_option maxRecDepth 8192 in
set_option maxHeartbeats 4000000 in
/-- The per-channel mean. -/
theorem opsC_v47 (W : Valuation τ sig (Elt F)) :
    after opsC W (main_v47 : DevRef τ sig) = Terms.t47 (Terms.t44 (concatenate S150000x20x9 2 [⟨S150000x20x3, W main_v0⟩, ⟨S150000x20x3, W main_v41⟩, ⟨S150000x20x3, W main_v42⟩] concatenates_S150000x20x3_S150000x20x3_S150000x20x3_S150000x20x9_d2) (W main_arg3)) := by
  simp only [opsC]
  after_results_simp <;> rfl

set_option maxRecDepth 8192 in
set_option maxHeartbeats 4000000 in
/-- The per-channel variance. -/
theorem opsC_v48 (W : Valuation τ sig (Elt F)) :
    after opsC W (main_v48 : DevRef τ sig) = Terms.t48 (Terms.t44 (concatenate S150000x20x9 2 [⟨S150000x20x3, W main_v0⟩, ⟨S150000x20x3, W main_v41⟩, ⟨S150000x20x3, W main_v42⟩] concatenates_S150000x20x3_S150000x20x3_S150000x20x3_S150000x20x9_d2) (W main_arg3)) := by
  simp only [opsC]
  after_results_simp <;> rfl

/-! ## The last stretch -/

set_option maxRecDepth 8192 in
set_option maxHeartbeats 4000000 in
/-- The first result: the normalised, scaled and shifted value, clamped at zero, its maximum over the points. -/
theorem opsD_v65 (W : Valuation τ sig (Elt F)) :
    after opsD W (main_v65 : DevRef τ sig)
      = Terms.t65 (Terms.t63 (W main_v44) (W main_v47) (W main_v48) (W main_arg4) (W main_arg5)) := by
  simp only [opsD]
  after_results_simp <;> rfl

set_option maxRecDepth 8192 in
set_option maxHeartbeats 4000000 in
/-- The second result: the coordinate columns gathered through the index table. -/
theorem opsD_v72 (W : Valuation τ sig (Elt F)) :
    after opsD W (main_v72 : DevRef τ sig)
      = Host.gather gather_S150000x4_S3x1_S150000x3_0_1_n_n_1_1_1500001 (W main_arg2)
          (broadcastInDim S3x1 ![0] bcast_S3_S3x1_0 (select (cmpi .slt (W main_c) (broadcastInDim S3 ![] bcast_S_S3 (constantI S_ 32 0#32))) (addi (W main_c) (broadcastInDim S3 ![] bcast_S_S3 (constantI S_ 32 4#32))) (W main_c))) := by
  simp only [opsD]
  after_results_simp <;> rfl

set_option maxRecDepth 8192 in
set_option maxHeartbeats 4000000 in
/-- The third result: two entries of the grid's rounded-up extent. -/
theorem opsD_v84 (W : Valuation τ sig (Elt F)) :
    after opsD W (main_v84 : DevRef τ sig)
      = Host.gather gather_S3_S2x1_S2_n_0_n_n_0_1_1
          (Host.ceil (Host.divf (subf (extractStridedSlice S3 ![3] (W main_cst_0) slices_S6_S3_3) (extractStridedSlice S3 ![0] (W main_cst_0) slices_S6_S3_0)) (W main_cst)))
          (broadcastInDim S2x1 ![0] bcast_S2_S2x1_0 (select (cmpi .slt (W main_c_1) (broadcastInDim S2 ![] bcast_S_S2 (constantI S_ 32 0#32))) (addi (W main_c_1) (broadcastInDim S2 ![] bcast_S_S2 (constantI S_ 32 3#32))) (W main_c_1))) := by
  simp only [opsD]
  after_results_simp <;> rfl

/-! ## The stretches composed -/

/-- The fold over all 125 operations is the four stretches' folds in turn. -/
theorem after_ops (V : Valuation τ sig (Elt F)) : after ops V = after opsD (after opsC (after opsB (after opsA V))) := by
  simp only [ops, after_append]

/-- A buffer none of the operations writes keeps its contents. -/
theorem ops_keep (V : Valuation τ sig (Elt F)) (r : Ref sig .tc) (hA : r ∉ opsA_W) (hB : r ∉ opsB_W) (hC : r ∉ opsC_W) (hD : r ∉ opsD_W) :
    after ops V (Proc.devRef .tc r) = V (Proc.devRef .tc r) := by
  rw [after_ops, opsD_keep _ r hD, opsC_keep _ r hC, opsB_keep _ r hB, opsA_keep _ r hA]

set_option maxRecDepth 8192 in
set_option maxHeartbeats 4000000 in
/-- The first result, from any contents: the pooled features as the term of the six arguments. -/
theorem ops_v65 (V : Valuation τ sig (Elt F)) :
    after ops V (main_v65 : DevRef τ sig)
      = Terms.out65 (V main_arg0) (V main_arg1) (V main_arg2) (V main_arg3) (V main_arg4) (V main_arg5) := by
  rw [after_ops, opsD_v65, opsC_v44, opsC_v47, opsC_v48, opsC_keep _ main_arg4 (by decide), opsC_keep _ main_arg5 (by decide),
    opsB_keep _ main_v0 (by decide), opsB_v41, opsB_v42, opsB_keep _ main_arg3 (by decide), opsB_keep _ main_arg4 (by decide),
    opsB_keep _ main_arg5 (by decide),
    opsA_v0, opsA_v8, opsA_v25, opsA_v36, opsA_keep _ main_arg3 (by decide), opsA_keep _ main_arg4 (by decide),
    opsA_keep _ main_arg5 (by decide)]
  rfl

set_option maxRecDepth 8192 in
set_option maxHeartbeats 4000000 in
/-- The second result, from any contents. -/
theorem ops_v72 (V : Valuation τ sig (Elt F)) : after ops V (main_v72 : DevRef τ sig) = Terms.out72 (V main_arg2) := by
  rw [after_ops, opsD_v72, opsC_keep _ main_arg2 (by decide), opsC_keep _ main_c (by decide),
    opsB_keep _ main_arg2 (by decide), opsB_keep _ main_c (by decide), opsA_keep _ main_arg2 (by decide), opsA_c]
  rfl

set_option maxRecDepth 8192 in
set_option maxHeartbeats 4000000 in
/-- The third result, from any contents: a constant. -/
theorem ops_v84 (V : Valuation τ sig (Elt F)) : after ops V (main_v84 : DevRef τ sig) = Terms.out84 (F := F) := by
  rw [after_ops, opsD_v84, opsC_keep _ main_cst_0 (by decide), opsC_keep _ main_cst (by decide), opsC_keep _ main_c_1 (by decide),
    opsB_keep _ main_cst_0 (by decide), opsB_keep _ main_cst (by decide), opsB_keep _ main_c_1 (by decide),
    opsA_cst_0, opsA_cst, opsA_c_1]
  rfl

/-! ## The run -/

/-- On every device, for any float values, from any memory with zero counters: every weakly fair execution of
    @main terminates with each of the three results at its term of the arguments' launch contents, and the six
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v65)
          = Terms.out65 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v72) = Terms.out72 (m ((c.tc : Thread nD τ).loc main_arg2))
      ∧ r.2.mem ((c.tc : Thread nD τ).loc main_v84) = Terms.out84 (F := F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v65).trans (ops_v65 (launchContents m c)),
       (h c main_v72).trans (ops_v72 (launchContents m c)),
       (h c main_v84).trans (ops_v84 (launchContents m c)),
       (h c main_arg0).trans (ops_keep (launchContents m c) main_arg0 (by decide) (by decide) (by decide) (by decide)),
       (h c main_arg1).trans (ops_keep (launchContents m c) main_arg1 (by decide) (by decide) (by decide) (by decide)),
       (h c main_arg2).trans (ops_keep (launchContents m c) main_arg2 (by decide) (by decide) (by decide) (by decide)),
       (h c main_arg3).trans (ops_keep (launchContents m c) main_arg3 (by decide) (by decide) (by decide) (by decide)),
       (h c main_arg4).trans (ops_keep (launchContents m c) main_arg4 (by decide) (by decide) (by decide) (by decide)),
       (h c main_arg5).trans (ops_keep (launchContents m c) main_arg5 (by decide) (by decide) (by decide) (by decide))⟩)
    (run_after m ρ)

end Cert.ReferenceIdeal.Hand

end
-- ==== Proof.Ref.Value.lean ====
/-
  The reference's first result is the specification.

  Every operation of the reference is read at an index: a slice, a broadcast, a reshape, a reversal and a concatenation
  read one operand element; the pointwise operations act on the elements; a sum over one axis is the sum over that
  axis's coordinates, a sum over two axes the iterated sum; a contraction over one axis is the sum of the products;
  the maximum over one axis from minus infinity is the supremum. One lemma per stage of the computation, each over
  arbitrary arrays of the stage's literal shapes; the theorem at the end chains them.
-/
import proofs.«124926_j66013647339880_1_alg».proof.Proof.Ref.Terms
import proofs.«124926_j66013647339880_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce
import Mathlib.Data.Finset.Fold
import Mathlib.Data.Finset.Lattice.Fold

noncomputable section

open scoped BigOperators

namespace Cert.ReferenceIdeal.RefValue

open Idealize.ShloMosaic Idealize.ShloMosaic.ValueIdx
open Cert.ReferenceIdeal

variable [Facts]
open Facts₀ Facts

/-! ## The coordinates, the mean point and the offsets from it -/

/-- The slice of the first three features reads the feature array at the same coordinates. -/
theorem t0_apply (a0 : FVec Ideal S150000x20x5 .f32) (p : Fin 150000) (n : Fin 20) (k : Fin 3) :
    Terms.t0 a0 (ix3 p n k) = Spec.xyz a0 p n k := by
  unfold Terms.t0 Spec.xyz
  exact extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The sum over the 20 points of a pillar, at coordinate k. -/
theorem sum_points (v0 : FVec Ideal S150000x20x3 .f32) (p : Fin 150000) (k : Fin 3) :
    Host.reduceAdd v0 (constant (F := Ideal) S_ .f32 0x00000000#32) reducesTo_S150000x20x3_S150000x3_d1 h_S_ (ix2 p k)
      = ∑ n : Fin 20, v0 (ix3 p n k) := by
  rw [hostReduceAdd_apply, Ideal.hostReduceAdd_single _ (by decide : S150000x20x3.Reduces [1] S150000x3)]
  rw [constant_apply, Ideal.ofBits_zero_f32, zero_add]
  refine Finset.sum_congr rfl fun n _ => congrArg v0 ?_
  funext c
  match c with
  | ⟨0, _⟩ => rfl
  | ⟨1, _⟩ => rfl
  | ⟨2, _⟩ => rfl

/-- The pillar's mean point. -/
theorem t5_apply (v0 : FVec Ideal S150000x20x3 .f32) (a1 : IVec S150000 32) (p : Fin 150000) (k : Fin 3) :
    Terms.t5 v0 a1 (ix2 p k) = Ideal.div (∑ n : Fin 20, v0 (ix3 p n k)) (Spec.ofInt (a1 (ix1 p))) := by
  unfold Terms.t5
  dsimp only
  rw [hostDivf_apply, sum_points]
  congr 1
  refine (broadcastInDim_apply _ _ _ _ (ix2 p (0 : Fin 1)) fun a => ?_).trans ?_
  · match a with
    | ⟨0, _⟩ => show p.val = if (150000 : ℕ) = 1 then 0 else p.val; rw [if_neg (by decide)]
    | ⟨1, _⟩ => show (0 : ℕ) = if (1 : ℕ) = 1 then 0 else k.val; rw [if_pos rfl]
  refine (broadcastInDim_apply _ _ _ _ (ix1 p) fun a => ?_).trans ?_
  · match a with
    | ⟨0, _⟩ => show p.val = if (150000 : ℕ) = 1 then 0 else p.val; rw [if_neg (by decide)]
  rfl

/-- The offsets from the mean point. -/
theorem t8_apply (v0 : FVec Ideal S150000x20x3 .f32) (v5 : FVec Ideal S150000x3 .f32) (p : Fin 150000) (n : Fin 20)
    (k : Fin 3) : Terms.t8 v0 v5 (ix3 p n k) = v0 (ix3 p n k) - v5 (ix2 p k) := by
  unfold Terms.t8
  dsimp only
  rw [subf_apply]
  congr 1
  refine (broadcastInDim_apply _ _ _ _ (ix3 p (0 : Fin 1) k) fun a => ?_).trans ?_
  · match a with
    | ⟨0, _⟩ => show p.val = if (150000 : ℕ) = 1 then 0 else p.val; rw [if_neg (by decide)]
    | ⟨1, _⟩ => show (0 : ℕ) = if (1 : ℕ) = 1 then 0 else n.val; rw [if_pos rfl]
    | ⟨2, _⟩ => show k.val = if (3 : ℕ) = 1 then 0 else k.val; rw [if_neg (by decide)]
  refine broadcastInDim_apply _ _ _ _ (ix2 p k) fun a => ?_
  match a with
  | ⟨0, _⟩ => show p.val = if (150000 : ℕ) = 1 then 0 else p.val; rw [if_neg (by decide)]
  | ⟨1, _⟩ => show k.val = if (3 : ℕ) = 1 then 0 else k.val; rw [if_neg (by decide)]

/-! ## The voxel centre and the offsets from it -/

/-- The table of voxel sizes read at an entry. -/
theorem cst_apply (k : Fin 3) :
    (fun i => FloatOps.ofBits (F := Ideal) .f32 (lit0 (S3.rowMajor i)) : FVec Ideal S3 .f32) (ix1 k)
      = Ideal.ofBits .f32 (lit0 k) := by
  have e : S3.rowMajor (ix1 k) = k := Fin.ext (Shape.rowMajor_val_one _)
  show Ideal.ofBits .f32 (lit0 (S3.rowMajor (ix1 k))) = _
  rw [e]

/-- The table of range bounds read at an entry. -/
theorem cst_0_apply (k : Fin 6) :
    (fun i => FloatOps.ofBits (F := Ideal) .f32 (lit1 (S6.rowMajor i)) : FVec Ideal S6 .f32) (ix1 k)
      = Ideal.ofBits .f32 (lit1 k) := by
  have e : S6.rowMajor (ix1 k) = k := Fin.ext (Shape.rowMajor_val_one _)
  show Ideal.ofBits .f32 (lit1 (S6.rowMajor (ix1 k))) = _
  rw [e]

/-- A one-element array reshaped to a scalar reads its element. -/
theorem shapeCast_S1_S_apply {α : Type} (x : S1.Idx → α) : shapeCast S_ x shapeCasts_S1_S_ ix0 = x (ix1 (0 : Fin 1)) :=
  shapeCast_apply x _ _ _ (by
    rw [Shape.rowMajor_val_one]
    have := (S_.rowMajor ix0).isLt
    have h1 : S_.numel = 1 := by decide
    show (0 : ℕ) = _
    omega)

/-- The voxel centre's z: a half times the voxel height, plus the range's origin. -/
theorem t33_apply : Terms.t33 (F := Ideal) ix0
    = Spec.lit 0x3F000000#32 * Spec.lit 0x40800000#32 + Spec.lit 0xC0400000#32 := by
  show addf (mulf _ _) _ ix0 = _
  rw [addf_apply, mulf_apply, constant_apply, shapeCast_S1_S_apply, shapeCast_S1_S_apply]
  congr 1
  · congr 1
    refine (extractStridedSlice_apply _ _ _ _ (ix1 (2 : Fin 3)) fun a => ?_).trans (cst_apply 2)
    match a with
    | ⟨0, _⟩ => rfl
  · refine (extractStridedSlice_apply _ _ _ _ (ix1 (2 : Fin 6)) fun a => ?_).trans (cst_0_apply 2)
    match a with
    | ⟨0, _⟩ => rfl

/-- A reversal of the two columns reads the other column. -/
theorem reverse_cols {α : Type} (x : S150000x2.Idx → α) (p : Fin 150000) (c : Fin 2) :
    Host.reverse [1] x (ix2 p c) = x (ix2 p c.rev) := by
  unfold Host.reverse
  refine congrArg x (funext fun a => ?_)
  match a with
  | ⟨0, _⟩ => rfl
  | ⟨1, _⟩ => rfl

/-- A two-entry table broadcast over the pillars reads the table's entry. -/
theorem bcast_S2_rows {α : Type} (x : S2.Idx → α) (p : Fin 150000) (c : Fin 2) :
    broadcastInDim S150000x2 ![0, 1] bcast_S1x2_S150000x2_0_1 (broadcastInDim S1x2 ![1] bcast_S2_S1x2_1 x) (ix2 p c)
      = x (ix1 c) := by
  refine (broadcastInDim_apply _ _ _ _ (ix2 (0 : Fin 1) c) fun a => ?_).trans ?_
  · match a with
    | ⟨0, _⟩ => show (0 : ℕ) = if (1 : ℕ) = 1 then 0 else p.val; rw [if_pos rfl]
    | ⟨1, _⟩ => show c.val = if (2 : ℕ) = 1 then 0 else c.val; rw [if_neg (by decide)]
  refine broadcastInDim_apply _ _ _ _ (ix1 c) fun a => ?_
  match a with
  | ⟨0, _⟩ => show c.val = if (2 : ℕ) = 1 then 0 else c.val; rw [if_neg (by decide)]

/-- The voxel centre's x (c = 0) and y (c = 1): the integer column 3 - c, plus a half, times the voxel size, plus the
    range's origin. -/
theorem t22_apply (a2 : IVec S150000x4 32) (p : Fin 150000) (c : Fin 2) :
    Terms.t22 (F := Ideal) a2 (ix2 p c)
      = (Spec.ofInt (a2 (ix2 p (⟨2 + c.rev.val, by have := c.rev.isLt; omega⟩ : Fin 4))) + Spec.lit 0x3F000000#32)
          * Ideal.ofBits .f32 (lit0 (Fin.castLE (by decide) c)) + Ideal.ofBits .f32 (lit1 (Fin.castLE (by decide) c)) := by
  show addf (mulf (addf _ _) _) _ (ix2 p c) = _
  rw [addf_apply, mulf_apply, addf_apply, bcast_S2_rows, bcast_S2_rows, reverse_cols, broadcastInDim_scalar_apply,
    constant_apply, sitofp_apply]
  congr 1
  · congr 1
    · congr 2
      refine extractStridedSlice_apply _ _ _ _ _ fun a => ?_
      match a with
      | ⟨0, _⟩ => exact (Nat.zero_add _).symm
      | ⟨1, _⟩ => rfl
    · refine (extractStridedSlice_apply _ _ _ _ (ix1 (Fin.castLE (by decide) c)) fun a => ?_).trans (cst_apply _)
      match a with
      | ⟨0, _⟩ => exact (Nat.zero_add _).symm
  · refine (extractStridedSlice_apply _ _ _ _ (ix1 (Fin.castLE (by decide) c)) fun a => ?_).trans (cst_0_apply _)
    match a with
    | ⟨0, _⟩ => exact (Nat.zero_add _).symm

/-- The offsets from the voxel centre: x and y against the per-pillar centre, z against the constant. -/
theorem t37_apply (v0 : FVec Ideal S150000x20x3 .f32) (v22 : FVec Ideal S150000x2 .f32) (v33 : FVec Ideal S_ .f32)
    (p : Fin 150000) (n : Fin 20) (k : Fin 3) :
    Terms.t37 v0 v22 v33 (ix3 p n k)
      = v0 (ix3 p n k) - (if h : k.val < 2 then v22 (ix2 p ⟨k.val, h⟩) else v33 ix0) := by
  unfold Terms.t37
  dsimp only
  by_cases h : k.val < 2
  · rw [dif_pos h]
    refine (concatenate_pair_apply_left _ _ _ _ _ (by rfl) (ix3 p n (⟨k.val, h⟩ : Fin 2)) fun b => ?_).trans ?_
    · match b with
      | ⟨0, _⟩ => rfl
      | ⟨1, _⟩ => rfl
      | ⟨2, _⟩ => rfl
    rw [subf_apply]
    congr 1
    · refine extractStridedSlice_apply _ _ _ _ _ fun a => ?_
      match a with
      | ⟨0, _⟩ => exact (Nat.zero_add _).symm
      | ⟨1, _⟩ => exact (Nat.zero_add _).symm
      | ⟨2, _⟩ => exact (Nat.zero_add _).symm
    · refine (broadcastInDim_apply _ _ _ _ (ix3 p (0 : Fin 1) (⟨k.val, h⟩ : Fin 2)) fun a => ?_).trans ?_
      · match a with
        | ⟨0, _⟩ => show p.val = if (150000 : ℕ) = 1 then 0 else p.val; rw [if_neg (by decide)]
        | ⟨1, _⟩ => show (0 : ℕ) = if (1 : ℕ) = 1 then 0 else n.val; rw [if_pos rfl]
        | ⟨2, _⟩ => show k.val = if (2 : ℕ) = 1 then 0 else k.val; rw [if_neg (by decide)]
      refine broadcastInDim_apply _ _ _ _ (ix2 p (⟨k.val, h⟩ : Fin 2)) fun a => ?_
      match a with
      | ⟨0, _⟩ => show p.val = if (150000 : ℕ) = 1 then 0 else p.val; rw [if_neg (by decide)]
      | ⟨1, _⟩ => show k.val = if (2 : ℕ) = 1 then 0 else k.val; rw [if_neg (by decide)]
  · rw [dif_neg h]
    have hk : k.val = 2 := by have := k.isLt; omega
    refine (concatenate_pair_apply_right _ _ _ _ _ (by rfl) (by rfl) (ix3 p n (0 : Fin 1)) (fun b hb => ?_) ?_).trans ?_
    · match b with
      | ⟨0, _⟩ => rfl
      | ⟨1, _⟩ => rfl
      | ⟨2, _⟩ => exact absurd rfl hb
    · show (0 : ℕ) + 2 = k.val
      omega
    refine (broadcastInDim_apply _ _ _ _ (ix2 p n) fun a => ?_).trans ?_
    · match a with
      | ⟨0, _⟩ => show p.val = if (150000 : ℕ) = 1 then 0 else p.val; rw [if_neg (by decide)]
      | ⟨1, _⟩ => show n.val = if (20 : ℕ) = 1 then 0 else n.val; rw [if_neg (by decide)]
    rw [subf_apply, broadcastInDim_scalar_apply]
    congr 1
    refine (shapeCast_apply _ _ _ (ix3 p n (0 : Fin 1)) ?_).trans ?_
    · rw [Shape.rowMajor_val_three, Shape.rowMajor_val_two]
      show (p.val * 20 + n.val) * 1 + 0 = p.val * 20 + n.val
      omega
    refine extractStridedSlice_apply _ _ _ _ _ fun a => ?_
    match a with
    | ⟨0, _⟩ => exact (Nat.zero_add _).symm
    | ⟨1, _⟩ => exact (Nat.zero_add _).symm
    | ⟨2, _⟩ => show k.val = 2 + 0; omega

/-- The voxel centre the program computes is the specification's. -/
theorem ctr_eq (a2 : IVec S150000x4 32) (p : Fin 150000) (k : Fin 3) :
    (if h : k.val < 2 then Terms.t22 (F := Ideal) a2 (ix2 p ⟨k.val, h⟩) else Terms.t33 (F := Ideal) ix0)
      = Spec.ctr a2 p k := by
  match k with
  | ⟨0, _⟩ => rw [dif_pos Nat.zero_lt_two, t22_apply]; rfl
  | ⟨1, _⟩ => rw [dif_pos Nat.one_lt_two, t22_apply]; rfl
  | ⟨2, _⟩ => rw [dif_neg (Nat.lt_irrefl 2), t33_apply]; rfl

/-! ## The mask and the nine features -/

/-- The mask: one where the coordinate is not zero, else zero. -/
theorem t40_apply (v0 : FVec Ideal S150000x20x3 .f32) (i : S150000x20x3.Idx) :
    Terms.t40 v0 i = if v0 i = 0 then 0 else 1 := by
  unfold Terms.t40
  dsimp only
  show (((Ideal.cmp .une (v0 i) (broadcastInDim S150000x20x3 ![] bcast_S_S150000x20x3
    (constant (F := Ideal) S_ .f32 0x00000000#32) i)).toNat : ℝ) : EReal) = _
  rw [broadcastInDim_scalar_apply, constant_apply, Ideal.ofBits_zero_f32]
  unfold Ideal.cmp
  by_cases h : v0 i = 0
  · simp [h]
  · simp [h]

/-- The nine features of a point: the coordinates, the masked offsets from the voxel centre, the masked offsets from
    the mean point. -/
theorem t43_apply (v0 v37 v40 v8 : FVec Ideal S150000x20x3 .f32) (p : Fin 150000) (n : Fin 20) (c : Fin 9) :
    Terms.t43 v0 v37 v40 v8 (ix3 p n c)
      = if h : c.val < 3 then v0 (ix3 p n ⟨c.val, h⟩)
        else if h' : c.val < 6 then v37 (ix3 p n ⟨c.val - 3, by omega⟩) * v40 (ix3 p n ⟨c.val - 3, by omega⟩)
        else v8 (ix3 p n ⟨c.val - 6, by omega⟩) * v40 (ix3 p n ⟨c.val - 6, by omega⟩) := by
  show concatenate S150000x20x9 2 [⟨S150000x20x3, v0⟩, ⟨S150000x20x3, mulf v37 v40⟩, ⟨S150000x20x3, mulf v8 v40⟩]
    concatenates_S150000x20x3_S150000x20x3_S150000x20x3_S150000x20x9_d2 (ix3 p n c) = _
  by_cases h : c.val < 3
  · rw [dif_pos h]
    refine concatenate_apply_piece _ _ _ _ 0 (by show (0 : ℕ) < 3; omega) S150000x20x3 v0 (by rfl) (by rfl) 0 (by rfl)
      (ix3 p n (⟨c.val, h⟩ : Fin 3)) (fun b hb => ?_) ?_
    · match b with
      | ⟨0, _⟩ => rfl
      | ⟨1, _⟩ => rfl
      | ⟨2, _⟩ => exact absurd rfl hb
    · show 0 + c.val = c.val
      omega
  · rw [dif_neg h]
    by_cases h' : c.val < 6
    · rw [dif_pos h']
      refine (concatenate_apply_piece _ _ _ _ 1 (by show (1 : ℕ) < 3; omega) S150000x20x3 _ (by rfl) (by rfl) 3 (by rfl)
        (ix3 p n (⟨c.val - 3, by omega⟩ : Fin 3)) (fun b hb => ?_) ?_).trans (mulf_apply _ _ _)
      · match b with
        | ⟨0, _⟩ => rfl
        | ⟨1, _⟩ => rfl
        | ⟨2, _⟩ => exact absurd rfl hb
      · show 3 + (c.val - 3) = c.val
        omega
    · rw [dif_neg h']
      refine (concatenate_apply_piece _ _ _ _ 2 (by show (2 : ℕ) < 3; omega) S150000x20x3 _ (by rfl) (by rfl) 6 (by rfl)
        (ix3 p n (⟨c.val - 6, by omega⟩ : Fin 3)) (fun b hb => ?_) ?_).trans (mulf_apply _ _ _)
      · match b with
        | ⟨0, _⟩ => rfl
        | ⟨1, _⟩ => rfl
        | ⟨2, _⟩ => exact absurd rfl hb
      · show 6 + (c.val - 6) = c.val
        omega

/-- The nine features the program computes are the specification's. -/
theorem x9_eq (a0 : FVec Ideal S150000x20x5 .f32) (a1 : IVec S150000 32) (a2 : IVec S150000x4 32)
    (p : Fin 150000) (n : Fin 20) (c : Fin 9) :
    Terms.t43 (Terms.t0 a0) (Terms.t37 (Terms.t0 a0) (Terms.t22 a2) Terms.t33) (Terms.t40 (Terms.t0 a0))
        (Terms.t8 (Terms.t0 a0) (Terms.t5 (Terms.t0 a0) a1)) (ix3 p n c) = Spec.x9 a0 a1 a2 p n c := by
  rw [t43_apply]
  unfold Spec.x9
  by_cases h : c.val < 3
  · rw [dif_pos h, dif_pos h, t0_apply]
  · rw [dif_neg h, dif_neg h]
    by_cases h' : c.val < 6
    · rw [dif_pos h', dif_pos h', t37_apply, t40_apply, t0_apply, ctr_eq]
      rfl
    · rw [dif_neg h', dif_neg h', t8_apply, t40_apply, t0_apply, t5_apply]
      unfold Spec.mean Spec.mask Spec.cnt
      simp only [t0_apply]

/-! ## The linear layer -/

/-- The contraction over the nine features: channel o of point n of pillar p. -/
theorem t44_apply (v43 : FVec Ideal S150000x20x9 .f32) (a3 : FVec Ideal S64x9 .f32) (p : Fin 150000) (n : Fin 20)
    (o : Fin 64) : Terms.t44 v43 a3 (ix3 p n o) = ∑ c : Fin 9, v43 (ix3 p n c) * a3 (ix2 o c) := by
  unfold Terms.t44
  simp only [Host.dotGeneral]
  rw [Ideal.dotGeneral_apply,
    ← Equiv.sum_comp (contrEquiv1 dot_S150000x20x9_S64x9_S150000x20x64_2_1_01_0_n_n 9 rfl rfl).symm]
  refine Finset.sum_congr rfl fun c _ => ?_
  have hq := contrEquiv1_symm_val dot_S150000x20x9_S64x9_S150000x20x64_2_1_01_0_n_n 9 rfl rfl c
  congr 1
  · refine congrArg v43 (funext fun a => Fin.ext ?_)
    match a with
    | ⟨0, _⟩ => rfl
    | ⟨1, _⟩ => rfl
    | ⟨2, _⟩ => exact (DotDims.lhsIdx_val_of_single _ rfl _ _).trans hq
  · refine congrArg a3 (funext fun a => Fin.ext ?_)
    match a with
    | ⟨0, _⟩ => rfl
    | ⟨1, _⟩ => exact (DotDims.rhsIdx_val_of_single _ rfl _ _).trans hq

/-! ## The batch statistics -/

/-- The sum over the pillars and the points, at channel o: the iterated sum. -/
theorem sum_rows (x : FVec Ideal S150000x20x64 .f32) (o : Fin 64) :
    Host.reduceAdd x (constant (F := Ideal) S_ .f32 0x00000000#32) reducesTo_S150000x20x64_S64_d0_1 h_S_ (ix1 o)
      = ∑ p : Fin 150000, ∑ n : Fin 20, x (ix3 p n o) := by
  rw [hostReduceAdd_apply, constant_apply, Ideal.ofBits_zero_f32]
  unfold Ideal.hostReduceAdd
  rw [zero_add, ← Fintype.sum_prod_type' (fun (p : Fin 150000) (n : Fin 20) => x (ix3 p n o))]
  have key : ∀ i : S150000x20x64.Idx, reducesTo_S150000x20x64_S64_d0_1.drop i = ix1 o → ix3 (i 0) (i 1) o = i := by
    intro i hi
    have h2 : (i 2).val = o.val := congrArg Fin.val (congrFun hi (0 : Fin 1))
    have : o = i 2 := Fin.ext h2.symm
    rw [this]
    exact (eq_ix3 i).symm
  refine Finset.sum_nbij' (fun i => ((i 0, i 1) : Fin 150000 × Fin 20)) (fun pn => ix3 pn.1 pn.2 o) ?_ ?_ ?_ ?_ ?_
  · intro i _; simp
  · intro pn _
    refine Finset.mem_filter.2 ⟨Finset.mem_univ _, funext fun b => ?_⟩
    match b with
    | ⟨0, _⟩ => rfl
  · intro i hi; exact key i (Finset.mem_filter.1 hi).2
  · intro pn _; rfl
  · intro i hi; exact congrArg x (key i (Finset.mem_filter.1 hi).2).symm

/-- The row count 150000 * 20 as an extended real. -/
theorem rows_eq : Ideal.ofBits .f32 0x4A371B00#32 = ((3000000 : ℝ) : EReal) := by
  simp [Ideal.ofBits, Ideal.ieee, -EReal.coe_mul]; norm_num

/-- A per-channel row broadcast over the pillars and points reads the channel's entry. -/
theorem bcast_11c_rows {α : Type} (y : S1x1x64.Idx → α) (p : Fin 150000) (n : Fin 20) (o : Fin 64) :
    broadcastInDim S150000x20x64 ![0, 1, 2] bcast_S1x1x64_S150000x20x64_0_1_2 y (ix3 p n o)
      = y (ix3 (0 : Fin 1) (0 : Fin 1) o) := by
  refine broadcastInDim_apply _ _ _ _ _ fun a => ?_
  match a with
  | ⟨0, _⟩ => show (0 : ℕ) = if (1 : ℕ) = 1 then 0 else p.val; rw [if_pos rfl]
  | ⟨1, _⟩ => show (0 : ℕ) = if (1 : ℕ) = 1 then 0 else n.val; rw [if_pos rfl]
  | ⟨2, _⟩ => show o.val = if (64 : ℕ) = 1 then 0 else o.val; rw [if_neg (by decide)]

theorem bcast_c_11c {α : Type} (x : S64.Idx → α) (u v : Fin 1) (o : Fin 64) :
    broadcastInDim S1x1x64 ![2] bcast_S64_S1x1x64_2 x (ix3 u v o) = x (ix1 o) := by
  refine broadcastInDim_apply _ _ _ _ _ fun a => ?_
  match a with
  | ⟨0, _⟩ => show o.val = if (64 : ℕ) = 1 then 0 else o.val; rw [if_neg (by decide)]

theorem bcast_c_rows {α : Type} (x : S64.Idx → α) (p : Fin 150000) (n : Fin 20) (o : Fin 64) :
    broadcastInDim S150000x20x64 ![0, 1, 2] bcast_S1x1x64_S150000x20x64_0_1_2
      (broadcastInDim S1x1x64 ![2] bcast_S64_S1x1x64_2 x) (ix3 p n o) = x (ix1 o) := by
  rw [bcast_11c_rows, bcast_c_11c]

/-- The batch mean of channel o. -/
theorem t47_apply (v44 : FVec Ideal S150000x20x64 .f32) (o : Fin 64) :
    Terms.t47 v44 (ix1 o) = Ideal.div (∑ p : Fin 150000, ∑ n : Fin 20, v44 (ix3 p n o)) Spec.rows := by
  unfold Terms.t47
  dsimp only
  rw [hostDivf_apply, sum_rows, broadcastInDim_scalar_apply, constant_apply]

/-- The batch variance of channel o: the divisor is the row count, which is positive, so the select takes the
    quotient. -/
theorem t48_apply (v44 : FVec Ideal S150000x20x64 .f32) (o : Fin 64) :
    Terms.t48 v44 (ix1 o)
      = Ideal.div (∑ p : Fin 150000, ∑ n : Fin 20,
          (v44 (ix3 p n o) - Ideal.div (∑ p : Fin 150000, ∑ n : Fin 20, v44 (ix3 p n o)) Spec.rows)
            * (v44 (ix3 p n o) - Ideal.div (∑ p : Fin 150000, ∑ n : Fin 20, v44 (ix3 p n o)) Spec.rows)) Spec.rows := by
  unfold Terms.t48
  dsimp only
  have h8 : subf (constant (F := Ideal) S_ .f32 0x4A371B00#32) (sitofp .f32 (constantI S_ 32 0#32)) ix0
      = Ideal.ofBits .f32 0x4A371B00#32 := by
    rw [subf_apply, constant_apply]
    show Ideal.ofBits .f32 0x4A371B00#32 - (((0#32 : BitVec 32).toInt : ℝ) : EReal) = _
    simp
  have hpos : cmpf .ogt (subf (constant (F := Ideal) S_ .f32 0x4A371B00#32) (sitofp .f32 (constantI S_ 32 0#32)))
      (constant (F := Ideal) S_ .f32 0x00000000#32) ix0 = 1#1 := by
    rw [cmpf_apply, h8, constant_apply, Ideal.ofBits_zero_f32, rows_eq]
    show Ideal.cmp .ogt _ _ = _
    unfold Ideal.cmp
    have : (0 : EReal) < ((3000000 : ℝ) : EReal) := by exact_mod_cast (by norm_num : (0 : ℝ) < 3000000)
    simp [this]
  rw [select_apply, broadcastInDim_scalar_apply, hpos, select_one, hostDivf_apply, sum_rows,
    broadcastInDim_scalar_apply, h8]
  refine congrArg (fun s => Ideal.div s Spec.rows) ?_
  refine Finset.sum_congr rfl fun p _ => Finset.sum_congr rfl fun n _ => ?_
  rw [mulf_apply, subf_apply, bcast_11c_rows, hostDivf_apply, bcast_c_11c, sum_rows, broadcastInDim_scalar_apply,
    constant_apply]

/-! ## The normalisation, the clamp and the maximum over the points -/

/-- The normalised value, scaled and shifted. -/
theorem t63_apply (v44 : FVec Ideal S150000x20x64 .f32) (v47 v48 a4 a5 : FVec Ideal S64 .f32) (p : Fin 150000)
    (n : Fin 20) (o : Fin 64) :
    Terms.t63 v44 v47 v48 a4 a5 (ix3 p n o)
      = (v44 (ix3 p n o) - v47 (ix1 o)) * Ideal.rsqrt (v48 (ix1 o) + Spec.lit 0x3A83126F#32) * a4 (ix1 o)
          + a5 (ix1 o) := by
  unfold Terms.t63
  dsimp only
  rw [addf_apply, mulf_apply, mulf_apply, subf_apply, bcast_c_rows, bcast_c_rows, bcast_c_rows, bcast_c_rows]
  show _ * Ideal.rsqrt (addf v48 _ (ix1 o)) * _ + _ = _
  rw [addf_apply, broadcastInDim_scalar_apply, constant_apply]

/-- The fold of the maximum from minus infinity over a finite set is the supremum. -/
theorem fold_max_bot_eq_sup {ι : Type} (s : Finset ι) (g : ι → EReal) : s.fold max ⊥ g = s.sup g := by
  apply le_antisymm
  · exact (Finset.fold_max_le _).mpr ⟨bot_le, fun x hx => Finset.le_sup hx⟩
  · exact Finset.sup_le fun x hx => (Finset.le_fold_max _).mpr (Or.inr ⟨x, hx, le_rfl⟩)

/-- The pattern of minus infinity. -/
theorem ofBits_neg_inf : Ideal.ofBits .f32 0xFF800000#32 = ⊥ := by
  simp [Ideal.ofBits, Ideal.ieee]

/-- The clamp at zero and the maximum over the 20 points. -/
theorem t65_apply (v63 : FVec Ideal S150000x20x64 .f32) (p : Fin 150000) (o : Fin 64) :
    Terms.t65 v63 (ix2 p o) = Finset.univ.sup fun n : Fin 20 => max (v63 (ix3 p n o)) 0 := by
  unfold Terms.t65
  dsimp only
  rw [Host.reduce_eq_fold_single _ _ _ _ (by decide : S150000x20x64.Reduces [1] S150000x64), constant_apply,
    ofBits_neg_inf, ← fold_max_bot_eq_sup]
  show Finset.fold max ⊥ _ (Finset.univ : Finset (Fin 20)) = _
  refine Finset.fold_congr fun n _ => ?_
  show max (v63 _) (broadcastInDim S150000x20x64 ![] bcast_S_S150000x20x64 (constant (F := Ideal) S_ .f32 0x00000000#32) _) = _
  rw [broadcastInDim_scalar_apply, constant_apply, Ideal.ofBits_zero_f32]
  refine congrArg (fun i => max (v63 i) 0) ?_
  funext c
  match c with
  | ⟨0, _⟩ => rfl
  | ⟨1, _⟩ => rfl
  | ⟨2, _⟩ => rfl

/-! ## The first result is the specification -/

/-- The linear layer the program computes is the specification's. -/
theorem lin_eq (a0 : FVec Ideal S150000x20x5 .f32) (a1 : IVec S150000 32) (a2 : IVec S150000x4 32)
    (a3 : FVec Ideal S64x9 .f32) (p : Fin 150000) (n : Fin 20) (o : Fin 64) :
    Terms.t44 (Terms.t43 (Terms.t0 a0) (Terms.t37 (Terms.t0 a0) (Terms.t22 a2) Terms.t33) (Terms.t40 (Terms.t0 a0))
        (Terms.t8 (Terms.t0 a0) (Terms.t5 (Terms.t0 a0) a1))) a3 (ix3 p n o) = Spec.lin a0 a1 a2 a3 p n o := by
  rw [t44_apply]
  unfold Spec.lin
  simp only [x9_eq]

/-- From the linear layer on: the normalised, scaled and shifted value, given what the linear layer's array reads. -/
theorem bn_of_lin (v44 : FVec Ideal S150000x20x64 .f32) (a4 a5 : FVec Ideal S64 .f32)
    (L : Fin 150000 → Fin 20 → Fin 64 → EReal) (hL : ∀ p n o, v44 (ix3 p n o) = L p n o) (p : Fin 150000) (n : Fin 20)
    (o : Fin 64) :
    Terms.t63 v44 (Terms.t47 v44) (Terms.t48 v44) a4 a5 (ix3 p n o)
      = (L p n o - Ideal.div (∑ p : Fin 150000, ∑ n : Fin 20, L p n o) Spec.rows)
          * Ideal.rsqrt (Ideal.div (∑ p : Fin 150000, ∑ n : Fin 20,
              (L p n o - Ideal.div (∑ p : Fin 150000, ∑ n : Fin 20, L p n o) Spec.rows)
                * (L p n o - Ideal.div (∑ p : Fin 150000, ∑ n : Fin 20, L p n o) Spec.rows)) Spec.rows
              + Spec.lit 0x3A83126F#32)
          * a4 (ix1 o) + a5 (ix1 o) := by
  rw [t63_apply, t47_apply, t48_apply]
  simp only [hL]

/-- The reference's first result is the specification. -/
theorem out65_eq_spec (a0 : FVec Ideal S150000x20x5 .f32) (a1 : IVec S150000 32) (a2 : IVec S150000x4 32)
    (a3 : FVec Ideal S64x9 .f32) (a4 a5 : FVec Ideal S64 .f32) :
    Terms.out65 (F := Ideal) a0 a1 a2 a3 a4 a5 = Cert.Spec.out a0 a1 a2 a3 a4 a5 := by
  funext j
  obtain ⟨p, o, rfl⟩ : ∃ (p : Fin 150000) (o : Fin 64), j = ix2 p o := ⟨j 0, j 1, eq_ix2 j⟩
  unfold Terms.out65
  rw [t65_apply]
  unfold Spec.out
  refine congrArg (Finset.univ.sup) (funext fun n => ?_)
  refine congrArg (fun x => max x 0) ?_
  refine (bn_of_lin _ a4 a5 (Spec.lin a0 a1 a2 a3) (fun p n o => lin_eq a0 a1 a2 a3 p n o) p n o).trans ?_
  rfl

end Cert.ReferenceIdeal.RefValue

end
-- ==== Proof.KI.V0Tile.lean ====
/-
  Pallas call 0 (the statistics pass): the linear layer's output its body computes, read at an index, at the extended
  reals. At grid point t the feature, count and voxel-coordinate blocks are tile t (rows 2048 t ... 2048 t + 2047) of
  the padded arrays and the weight block is the weight, so the [40960, 64] matrix the body sums over holds, at row
  20 r + n and channel o, the padded arrays' linear-layer output at pillar 2048 t + r, point n, channel o: the nine
  features of the point (coordinates, masked offsets from the voxel centre, masked offsets from the pillar's mean) times
  the weight's column o.
-/
import proofs.«124926_j66013647339880_1_alg».proof.Proof.KI.R0
import proofs.«124926_j66013647339880_1_alg».proof.Proof.KI.V1
import proofs.«124926_j66013647339880_1_alg».proof.Proof.PadSpec

noncomputable section

namespace Cert.KernelIdeal.HandValue0Tile

open Cert.KernelIdeal Cert.KernelIdeal.Gen Cert.KernelIdeal.Hand Cert.KernelIdeal.HandValue1
open Idealize.ShloMosaic Idealize.ShloMosaic.TcCoe Idealize.ShloMosaic.ValueIdx Idealize.SL.Sem
open Idealize.ShloMosaic.Pipeline (Dat)
open Cert.Spec Cert.PadSpec
open scoped BigOperators

/-! ## The first half of the statistics body at an index

The statistics pass builds the same nine features as the pooling pass, from the same operations in a slightly different
cut: the y centre is handed on as a [2048] vector and subtracted in the second half, and the z plane is sliced there. -/

/-- The three coordinates of the points: the same slice as the pooling pass takes. -/
theorem pay6_eq (x0 : Vec Ideal S2048x20x5 .f32) : k0_pay6 x0 = k1_pay2 x0 := rfl

/-- The voxel coordinates, cast to themselves. -/
theorem pay5_eq (x2 : Vec Ideal S2048x4 .i32) : k0_pay5 x2 = k1_pay1 x2 := rfl

/-- The offsets from the pillar's mean point. -/
theorem pay7_eq (x0 : Vec Ideal S2048x20x5 .f32) (x1 : Vec Ideal S2048x1 .i32) : k0_pay7 x0 x1 = k1_pay3 x0 x1 := rfl

/-- The x offsets from the voxel centre. -/
theorem pay9_eq (x0 : Vec Ideal S2048x20x5 .f32) (x2 : Vec Ideal S2048x4 .i32) : k0_pay9 x0 x2 = k1_pay4 x0 x2 := rfl

/-- The y coordinate of a point. -/
theorem pay10_apply (x0 : Vec Ideal S2048x20x5 .f32) (r : Fin 2048) (n : Fin 20) :
    k0_pay10 x0 (ix2 r n) = x0 (ix3 r n (1 : Fin 5)) := by
  unfold k0_pay10
  rw [pay6_eq]
  exact plane_apply x0 r n 1 ![0, 0, 1] rfl _

/-- The voxel's y centre, from column 2 of the voxel coordinates. -/
theorem pay8_apply (x2 : Vec Ideal S2048x4 .i32) (r : Fin 2048) :
    k0_pay8 x2 (ix1 r) = (ofInt (x2 (ix2 r (2 : Fin 4))) + lit 0x3F000000#32) * lit 0x3E23D70A#32 + lit 0xC2200000#32 := by
  unfold k0_pay8
  rw [addf_apply, mulf_apply, addf_apply, sitofp_apply, pay5_eq, coordCol_apply x2 r 2 ![0, 2] rfl]
  rfl

/-! ## The linear layer's output at a row -/

section Rows
variable (featP : FVec Ideal SFeatP .f32) (numP : IVec SNumP 32) (coordP : IVec SCoordP 32)
  (x0 : Vec Ideal S2048x20x5 .f32) (x1 : Vec Ideal S2048x1 .i32) (x2 : Vec Ideal S2048x4 .i32)
  (r : Fin 2048) (p : Fin 151552)
  (h0 : ∀ (n : Fin 20) (k : Fin 5), x0 (ix3 r n k) = featP (ix3 p n k))
  (h1 : x1 (ix2 r (0 : Fin 1)) = numP (ix2 p (0 : Fin 1)))
  (h2 : ∀ k : Fin 4, x2 (ix2 r k) = coordP (ix2 p k))

include h0 h2 in
/-- Row `r` of the block being pillar `p` of the arrays, the three centre offsets the second half lays side by side
    are the pillar's. -/
theorem ctr3_eq (n : Fin 20) (j : Fin 3) :
    concatenate S2048x20x3 2
        [⟨S2048x20x1, shapeCast S2048x20x1 (k0_pay9 x0 x2) shapeCasts_S2048x20_S2048x20x1⟩,
          ⟨S2048x20x1, shapeCast S2048x20x1
            (subf (k0_pay10 x0) (broadcastTo S2048x20 (shapeCast S2048x1 (k0_pay8 x2) shapeCasts_S2048_S2048x1) broadcasts_S2048x1_S2048x20))
            shapeCasts_S2048x20_S2048x20x1⟩,
          ⟨S2048x20x1, shapeCast S2048x20x1
            (subf (shapeCast S2048x20 (extractStridedSlice S2048x20x1 ![0, 0, 2] (k0_pay6 x0) slices_S2048x20x3_o0_0_2_S2048x20x1)
                shapeCasts_S2048x20x1_S2048x20)
              (broadcast S2048x20 (FloatOps.ofBits (F := Ideal) .f32 0xBF800000#32)))
            shapeCasts_S2048x20_S2048x20x1⟩]
        concatenates_S2048x20x1_S2048x20x1_S2048x20x1_S2048x20x3_d2 (ix3 r n j)
      = xyzP featP p n j - ctrP coordP p j := by
  rw [cat111_apply]
  match j with
  | ⟨0, _⟩ =>
    refine (plane1_apply _ r n).trans ?_
    rw [pay9_eq, pay4_apply, h0, h2]; rfl
  | ⟨1, _⟩ =>
    refine (plane1_apply _ r n).trans ?_
    rw [subf_apply, pay10_apply, colBcast_apply, pay8_apply, h0, h2]; rfl
  | ⟨2, _⟩ =>
    refine (plane1_apply _ r n).trans ?_
    rw [subf_apply, pay6_eq, plane_apply x0 r n 2 ![0, 0, 2] rfl, h0]; rfl

include h0 h1 h2 in
/-- … so the linear layer's output at row 20 r + n, channel `o`, is the pillar's at point `n`. -/
theorem pay11_apply (wt : Vec Ideal S9x64 .f32) (n : Fin 20) (o : Fin 64) :
    k0_pay11 (k0_pay6 x0) (k0_pay7 x0 x1) (k0_pay8 x2) (k0_pay9 x0 x2) (k0_pay10 x0) wt (ix2 ⟨20 * r.val + n.val, by omega⟩ o)
      = linP featP numP coordP wt p n o := by
  unfold k0_pay11
  rw [shapeCast_shapeCast, matmul9_apply]
  unfold linP
  refine Finset.sum_congr rfl fun k _ => ?_
  rw [shapeCast_self, rows2_apply, cat333_apply]
  unfold x9P
  congr 1
  split
  · rw [pay6_eq, pay2_apply, h0]; rfl
  · split
    · rw [mulf_apply, mask_apply, ctr3_eq featP coordP x0 x2 r p h0 h2, pay6_eq, pay2_apply, h0]; rfl
    · rw [mulf_apply, mask_apply, pay7_eq, meanOff_eq featP numP x0 x1 r p h0 h1, pay6_eq, pay2_apply, h0]; rfl
end Rows

/-! ## The statistics pass's blocks, read off the arrays -/

/-- The printed index maps over the grid: the three pillar windows are at tile `t`, the weight is whole at every point. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- A grid point as one of the 74 tiles. -/
abbrev tile0 (t : Fin cfg0.N) : Fin 74 := ⟨t.val, lt_of_lt_of_eq t.isLt N_0⟩

section Arrays
variable (V : (c : Dev nD) → (b : Ref sig .tc) → Buf (Elt Ideal) ((c : Thread nD τ).loc b))

/-- Row `r` of the feature block at point `t` is pillar 2048 t + r. -/
theorem iblk0_0_apply (c : Dev nD) (t : Fin cfg0.N) (r : Fin 2048) (n : Fin 20) (k : Fin 5) :
    (iblk0 V c 0 t : Vec Ideal S2048x20x5 .f32) (ix3 r n k) = V c main_v0 (ix3 (row (tile0 t) r) n k) := by
  obtain ⟨a0, a1, a2, -⟩ := idx_facts0 t
  show V c main_v0 (((cfg0.win 0).blk t).view.emb (ix3 r n k)) = V c main_v0 (ix3 (row (tile0 t) r) n k)
  refine congrArg _ (funext fun a => Fin.ext ?_)
  match a with
  | ⟨0, _⟩ => show win0_0.index t (0 : Fin 3) * 2048 + 1 * r.val = 2048 * t.val + r.val; omega
  | ⟨1, _⟩ => show win0_0.index t (1 : Fin 3) * 20 + 1 * n.val = n.val; omega
  | ⟨2, _⟩ => show win0_0.index t (2 : Fin 3) * 5 + 1 * k.val = k.val; omega

/-- Row `r` of the count block at point `t` is pillar 2048 t + r. -/
theorem iblk0_1_apply (c : Dev nD) (t : Fin cfg0.N) (r : Fin 2048) (u : Fin 1) :
    (iblk0 V c 1 t : Vec Ideal S2048x1 .i32) (ix2 r u) = V c main_v2 (ix2 (row (tile0 t) r) u) := by
  obtain ⟨-, -, -, b0, b1, -⟩ := idx_facts0 t
  show V c main_v2 (((cfg0.win 1).blk t).view.emb (ix2 r u)) = V c main_v2 (ix2 (row (tile0 t) r) u)
  refine congrArg _ (funext fun a => Fin.ext ?_)
  match a with
  | ⟨0, _⟩ => show win0_1.index t (0 : Fin 2) * 2048 + 1 * r.val = 2048 * t.val + r.val; omega
  | ⟨1, _⟩ => show win0_1.index t (1 : Fin 2) * 1 + 1 * u.val = u.val; omega

/-- Row `r` of the voxel-coordinate block at point `t` is pillar 2048 t + r. -/
theorem iblk0_2_apply (c : Dev nD) (t : Fin cfg0.N) (r : Fin 2048) (j : Fin 4) :
    (iblk0 V c 2 t : Vec Ideal S2048x4 .i32) (ix2 r j) = V c main_v3 (ix2 (row (tile0 t) r) j) := by
  obtain ⟨-, -, -, -, -, c0, c1, -⟩ := idx_facts0 t
  show V c main_v3 (((cfg0.win 2).blk t).view.emb (ix2 r j)) = V c main_v3 (ix2 (row (tile0 t) r) j)
  refine congrArg _ (funext fun a => Fin.ext ?_)
  match a with
  | ⟨0, _⟩ => show win0_2.index t (0 : Fin 2) * 2048 + 1 * r.val = 2048 * t.val + r.val; omega
  | ⟨1, _⟩ => show win0_2.index t (1 : Fin 2) * 4 + 1 * j.val = j.val; omega

/-- The weight block at any point is the weight. -/
theorem iblk0_3_eq (c : Dev nD) (t : Fin cfg0.N) : (iblk0 V c 3 t : Vec Ideal S9x64 .f32) = V c main_v4 := by
  obtain ⟨-, -, -, -, -, -, -, e0, e1⟩ := idx_facts0 t
  funext y
  show V c main_v4 (((cfg0.win 3).blk t).view.emb y) = V c main_v4 y
  refine congrArg _ (funext fun a => Fin.ext ?_)
  match a with
  | ⟨0, _⟩ => show win0_3.index t (0 : Fin 2) * 9 + 1 * (y 0).val = (y 0).val; omega
  | ⟨1, _⟩ => show win0_3.index t (1 : Fin 2) * 64 + 1 * (y 1).val = (y 1).val; omega

/-- The linear layer's output the statistics body computes at point `t`, row 20 r + n, channel `o`: the padded
    arrays' at pillar 2048 t + r, point `n`. -/
theorem ylin_apply (c : Dev nD) (t : Fin cfg0.N) (r : Fin 2048) (n : Fin 20) (o : Fin 64) :
    k0_pay11 (k0_pay6 (iblk0 V c 0 t)) (k0_pay7 (iblk0 V c 0 t) (iblk0 V c 1 t)) (k0_pay8 (iblk0 V c 2 t))
        (k0_pay9 (iblk0 V c 0 t) (iblk0 V c 2 t)) (k0_pay10 (iblk0 V c 0 t)) (iblk0 V c 3 t)
        (ix2 ⟨20 * r.val + n.val, by omega⟩ o)
      = linP (V c main_v0) (V c main_v2) (V c main_v3) (V c main_v4) (row (tile0 t) r) n o := by
  refine (pay11_apply (V c main_v0) (V c main_v2) (V c main_v3) (iblk0 V c 0 t) (iblk0 V c 1 t) (iblk0 V c 2 t) r
    (row (tile0 t) r) (fun n k => iblk0_0_apply V c t r n k) (iblk0_1_apply V c t r 0) (fun k => iblk0_2_apply V c t r k)
    (iblk0 V c 3 t) n o).trans ?_
  rw [iblk0_3_eq]

end Arrays

end Cert.KernelIdeal.HandValue0Tile

end
-- ==== Proof.lean ====
/-
  The certificate of the pillar feature network: a Pallas program of two kernels against its jnp reference.

  Both programs voxelize (per point: the three coordinates, their offsets from the voxel centre and from the pillar's mean
  point, the offsets masked where the coordinate is zero), apply a 9 -> 64 linear layer, normalise with the statistics of all
  150000 * 20 rows, scale and shift, clamp at zero and take the maximum over a pillar's 20 points. The kernel program pads the
  pillars to 74 tiles of 2048, accumulates the column sums and sums of squares tile by tile in a first kernel (variance as mean
  square less squared mean) and normalises as x * scale + shift in a second; the reference computes the variance as the mean
  squared deviation and normalises as (x - mean) * rsqrt (var + eps) * gamma + beta. Over the extended reals the two agree when
  every float input is a real number and every point count is nonzero (the precondition): then every intermediate is real,
  the padded rows contribute exactly zero, the variance law E[x^2] - E[x]^2 = E[(x - E x)^2] holds, the variance is
  nonnegative so the reciprocal square root is real, and the affine map distributes. The other two results (a column gather
  of the voxel coordinates and the grid extent constants) are the same host arithmetic in both programs.

  Frames: the kernel program's run is its ten items as segments — eight host stretches and two kernel regions — with every
  unscoped buffer held at a known valuation between items; each region's body obligation is met case by case (the statistics
  kernel's invariant carries its two accumulator rows across grid points). The reference's run is its 125 host operations
  folded over the launch memory.
-/
import proofs.«124926_j66013647339880_1_alg».proof.Defs
import proofs.«124926_j66013647339880_1_alg».proof.Proof.Gen.Kernel
import proofs.«124926_j66013647339880_1_alg».proof.Proof.Gen.KernelIdeal
import proofs.«124926_j66013647339880_1_alg».proof.Proof.Gen.ReferenceIdeal
import proofs.«124926_j66013647339880_1_alg».proof.Proof.Gen.Pre_finite_inputs
import proofs.«124926_j66013647339880_1_alg».proof.Proof.K.Frame
import proofs.«124926_j66013647339880_1_alg».proof.Proof.KI.Bridge
import proofs.«124926_j66013647339880_1_alg».proof.Proof.KI.V0
import proofs.«124926_j66013647339880_1_alg».proof.Proof.KI.V1
import proofs.«124926_j66013647339880_1_alg».proof.Proof.Ref.Run
import proofs.«124926_j66013647339880_1_alg».proof.Proof.Ref.Value
import proofs.«124926_j66013647339880_1_alg».proof.Proof.KI.V0Tile

noncomputable section

namespace Cert.Proof

open Idealize.ShloMosaic Idealize.SL.Sem

/-- The word-level kernel program terminates, faults nowhere and leaves its arguments unchanged. -/
theorem frame_k : Cert.frame_Kernel := fun m ρ _ => Cert.Kernel.Hand.frame_main m ρ

/-- The idealized kernel program likewise. -/
theorem frame_ki : Cert.frame_KernelIdeal := fun m ρ _ => Cert.KernelIdeal.Hand.frame_main m ρ

/-- The reference likewise: its run, the results dropped. -/
theorem frame_ri : Cert.frame_ReferenceIdeal := fun m ρ _ =>
  (θ_run Cert.ReferenceIdeal.defs _ _).mono (fun _ h c => (h c).2.2.2) (Cert.ReferenceIdeal.Hand.run (F := Ideal) m ρ)

/-- The ideal pass rewrote nothing: the idealized program is the program's own text read at the extended reals. -/
theorem preserves : Cert.preserves_Kernel_KernelIdeal := trivial

/-- From memories agreeing on the arguments both programs end with the specification of those arguments, the same column
    gather and the same grid constants. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
    fun c => Cert.ReferenceIdeal.Terms.out72 (m ((c.tc : Thread Cert.KernelIdeal.nD Cert.KernelIdeal.τ).loc Cert.KernelIdeal.main_arg2)),
    fun c => Cert.ReferenceIdeal.Terms.out84 (F := Ideal),
    Cert.KernelIdeal.HandBridge.kernel_value (fun V c o => Cert.KernelIdeal.HandValue0.stats0_of V c (fun t r n o => Cert.KernelIdeal.HandValue0Tile.ylin_apply V c t r n o) o) (fun V c => Cert.KernelIdeal.HandValue1.arr8 V c) ρ hpre, ?_⟩
  refine (θ_run Cert.ReferenceIdeal.defs _ _).mono (fun _ h c => ?_) (Cert.ReferenceIdeal.Hand.run (F := Ideal) m' ρ')
  obtain ⟨h65, h72, h84, hargs⟩ := h c
  obtain ⟨e0, e1, e2, e3, e4, e5⟩ := hagree c
  refine ⟨?_, ?_, h84, hargs⟩
  · rw [h65, e0, e1, e2, e3, e4, e5]; exact Cert.ReferenceIdeal.RefValue.out65_eq_spec _ _ _ _ _ _
  · rw [h72, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
